-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v117)) (v1 : (c : Dev Cert.KernelIdeal.nD) → Buf (Elt Ideal) ((c.tc : Thread Cert.KernelIdeal.nD Cert.KernelIdeal.τ).loc Cert.KernelIdeal.main_v190)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v117) = v0 c
          ∧ r.2.mem ((c.tc : Thread Cert.KernelIdeal.nD Cert.KernelIdeal.τ).loc Cert.KernelIdeal.main_v190) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v141) = v0 c
          ∧ r.2.mem ((c.tc : Thread Cert.ReferenceIdeal.nD Cert.ReferenceIdeal.τ).loc Cert.ReferenceIdeal.main_v228) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x96 : Shape := ⟨2, ![50000, 96]⟩
abbrev S2x800000 : Shape := ⟨2, ![2, 800000]⟩
abbrev S50000x163 : Shape := ⟨2, ![50000, 163]⟩
abbrev S96x125 : Shape := ⟨2, ![96, 125]⟩
abbrev S125 : Shape := ⟨1, ![125]⟩
abbrev S125x144 : Shape := ⟨2, ![125, 144]⟩
abbrev S144 : Shape := ⟨1, ![144]⟩
abbrev S144x163 : Shape := ⟨2, ![144, 163]⟩
abbrev S163 : Shape := ⟨1, ![163]⟩
abbrev S163x192 : Shape := ⟨2, ![163, 192]⟩
abbrev S192 : Shape := ⟨1, ![192]⟩
abbrev S96x96 : Shape := ⟨2, ![96, 96]⟩
abbrev S96 : Shape := ⟨1, ![96]⟩
abbrev S_ : Shape := ⟨0, ![]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S50000x163 : S_.BroadcastsInDim S50000x163 (![] : Fin 0 → Fin S50000x163.rank)
  reducesTo_S50000x163_S_d0_1 : S50000x163.ReducesTo [0, 1] S_
  bcast_S_S96x125 : S_.BroadcastsInDim S96x125 (![] : Fin 0 → Fin S96x125.rank)
  reducesTo_S96x125_S_d0_1 : S96x125.ReducesTo [0, 1] S_
  bcast_S_S125 : S_.BroadcastsInDim S125 (![] : Fin 0 → Fin S125.rank)
  reducesTo_S125_S_d0 : S125.ReducesTo [0] S_
  bcast_S_S125x144 : S_.BroadcastsInDim S125x144 (![] : Fin 0 → Fin S125x144.rank)
  reducesTo_S125x144_S_d0_1 : S125x144.ReducesTo [0, 1] S_
  bcast_S_S144 : S_.BroadcastsInDim S144 (![] : Fin 0 → Fin S144.rank)
  reducesTo_S144_S_d0 : S144.ReducesTo [0] S_
  bcast_S_S144x163 : S_.BroadcastsInDim S144x163 (![] : Fin 0 → Fin S144x163.rank)
  reducesTo_S144x163_S_d0_1 : S144x163.ReducesTo [0, 1] S_
  bcast_S_S163 : S_.BroadcastsInDim S163 (![] : Fin 0 → Fin S163.rank)
  reducesTo_S163_S_d0 : S163.ReducesTo [0] S_
  bcast_S_S163x192 : S_.BroadcastsInDim S163x192 (![] : Fin 0 → Fin S163x192.rank)
  reducesTo_S163x192_S_d0_1 : S163x192.ReducesTo [0, 1] S_
  bcast_S_S192 : S_.BroadcastsInDim S192 (![] : Fin 0 → Fin S192.rank)
  reducesTo_S192_S_d0 : S192.ReducesTo [0] S_
  bcast_S_S96x96 : S_.BroadcastsInDim S96x96 (![] : Fin 0 → Fin S96x96.rank)
  reducesTo_S96x96_S_d0_1 : S96x96.ReducesTo [0, 1] S_
  bcast_S_S96 : S_.BroadcastsInDim S96 (![] : Fin 0 → Fin S96.rank)
  reducesTo_S96_S_d0 : S96.ReducesTo [0] S_

variable [Facts]

def fn_part6 {F : FTy → Type} [FloatOps F] (main_v98 : IVec S_ 1) (main_v101 : IVec S96 1) (main_c_39 : IVec S_ 1) : IVec S_ 1 :=
  let main_v102 : IVec S_ 1 := (fun x v => Host.reduce IntOp.andi x v reducesTo_S96_S_d0 h_S_) main_v101 main_c_39
  let main_v103 : IVec S_ 1 := andi main_v98 main_v102
  main_v103

def fn_part5 {F : FTy → Type} [FloatOps F] (main_arg19 : FVec F S96 .f32) (main_arg20 : FVec F S96x96 .f32) (main_arg21 : FVec F S96 .f32) (main_v83 : IVec S_ 1) (main_v84 : FVec F S96x96 .f32) (main_cst_32 : FVec F S_ .f32) : IVec S_ 1 :=
  let main_v85 : FVec F S96x96 .f32 := broadcastInDim S96x96 ![] bcast_S_S96x96 main_cst_32
  let main_v86 : IVec S96x96 1 := cmpf .olt main_v84 main_v85
  let main_c_33 : IVec S_ 1 := constantI S_ 1 1#1
  let main_v87 : IVec S_ 1 := (fun x v => Host.reduce IntOp.andi x v reducesTo_S96x96_S_d0_1 h_S_) main_v86 main_c_33
  let main_v88 : IVec S_ 1 := andi main_v83 main_v87
  let main_v89 : FVec F S96 .f32 := Host.absf main_arg19
  let main_cst_34 : FVec F S_ .f32 := constant S_ .f32 0x7F800000#32
  let main_v90 : FVec F S96 .f32 := broadcastInDim S96 ![] bcast_S_S96 main_cst_34
  let main_v91 : IVec S96 1 := cmpf .olt main_v89 main_v90
  let main_c_35 : IVec S_ 1 := constantI S_ 1 1#1
  let main_v92 : IVec S_ 1 := (fun x v => Host.reduce IntOp.andi x v reducesTo_S96_S_d0 h_S_) main_v91 main_c_35
  let main_v93 : IVec S_ 1 := andi main_v88 main_v92
  let main_v94 : FVec F S96x96 .f32 := Host.absf main_arg20
  let main_cst_36 : FVec F S_ .f32 := constant S_ .f32 0x7F800000#32
  let main_v95 : FVec F S96x96 .f32 := broadcastInDim S96x96 ![] bcast_S_S96x96 main_cst_36
  let main_v96 : IVec S96x96 1 := cmpf .olt main_v94 main_v95
  let main_c_37 : IVec S_ 1 := constantI S_ 1 1#1
  let main_v97 : IVec S_ 1 := (fun x v => Host.reduce IntOp.andi x v reducesTo_S96x96_S_d0_1 h_S_) main_v96 main_c_37
  let main_v98 : IVec S_ 1 := andi main_v93 main_v97
  let main_v99 : FVec F S96 .f32 := Host.absf main_arg21
  let main_cst_38 : FVec F S_ .f32 := constant S_ .f32 0x7F800000#32
  let main_v100 : FVec F S96 .f32 := broadcastInDim S96 ![] bcast_S_S96 main_cst_38
  let main_v101 : IVec S96 1 := cmpf .olt main_v99 main_v100
  let main_c_39 : IVec S_ 1 := constantI S_ 1 1#1
  fn_part6 (F := F) main_v98 main_v101 main_c_39

def fn_part4 {F : FTy → Type} [FloatOps F] (main_arg15 : FVec F S96 .f32) (main_arg16 : FVec F S96x96 .f32) (main_arg17 : FVec F S96 .f32) (main_arg18 : FVec F S96x96 .f32) (main_arg19 : FVec F S96 .f32) (main_arg20 : FVec F S96x96 .f32) (main_arg21 : FVec F S96 .f32) (main_v63 : IVec S_ 1) (main_v67 : IVec S_ 1) : IVec S_ 1 :=
  let main_v68 : IVec S_ 1 := andi main_v63 main_v67
  let main_v69 : FVec F S96 .f32 := Host.absf main_arg15
  let main_cst_26 : FVec F S_ .f32 := constant S_ .f32 0x7F800000#32
  let main_v70 : FVec F S96 .f32 := broadcastInDim S96 ![] bcast_S_S96 main_cst_26
  let main_v71 : IVec S96 1 := cmpf .olt main_v69 main_v70
  let main_c_27 : IVec S_ 1 := constantI S_ 1 1#1
  let main_v72 : IVec S_ 1 := (fun x v => Host.reduce IntOp.andi x v reducesTo_S96_S_d0 h_S_) main_v71 main_c_27
  let main_v73 : IVec S_ 1 := andi main_v68 main_v72
  let main_v74 : FVec F S96x96 .f32 := Host.absf main_arg16
  let main_cst_28 : FVec F S_ .f32 := constant S_ .f32 0x7F800000#32
  let main_v75 : FVec F S96x96 .f32 := broadcastInDim S96x96 ![] bcast_S_S96x96 main_cst_28
  let main_v76 : IVec S96x96 1 := cmpf .olt main_v74 main_v75
  let main_c_29 : IVec S_ 1 := constantI S_ 1 1#1
  let main_v77 : IVec S_ 1 := (fun x v => Host.reduce IntOp.andi x v reducesTo_S96x96_S_d0_1 h_S_) main_v76 main_c_29
  let main_v78 : IVec S_ 1 := andi main_v73 main_v77
  let main_v79 : FVec F S96 .f32 := Host.absf main_arg17
  let main_cst_30 : FVec F S_ .f32 := constant S_ .f32 0x7F800000#32
  let main_v80 : FVec F S96 .f32 := broadcastInDim S96 ![] bcast_S_S96 main_cst_30
  let main_v81 : IVec S96 1 := cmpf .olt main_v79 main_v80
  let main_c_31 : IVec S_ 1 := constantI S_ 1 1#1
  let main_v82 : IVec S_ 1 := (fun x v => Host.reduce IntOp.andi x v reducesTo_S96_S_d0 h_S_) main_v81 main_c_31
  let main_v83 : IVec S_ 1 := andi main_v78 main_v82
  let main_v84 : FVec F S96x96 .f32 := Host.absf main_arg18
  let main_cst_32 : FVec F S_ .f32 := constant S_ .f32 0x7F800000#32
  fn_part5 (F := F) main_arg19 main_arg20 main_arg21 main_v83 main_v84 main_cst_32

def fn_part3 {F : FTy → Type} [FloatOps F] (main_arg12 : FVec F S163x192 .f32) (main_arg13 : FVec F S192 .f32) (main_arg14 : FVec F S96x96 .f32) (main_arg15 : FVec F S96 .f32) (main_arg16 : FVec F S96x96 .f32) (main_arg17 : FVec F S96 .f32) (main_arg18 : FVec F S96x96 .f32) (main_arg19 : FVec F S96 .f32) (main_arg20 : FVec F S96x96 .f32) (main_arg21 : FVec F S96 .f32) (main_v48 : IVec S_ 1) (main_v49 : FVec F S163 .f32) (main_v50 : FVec F S163 .f32) : IVec S_ 1 :=
  let main_v51 : IVec S163 1 := cmpf .olt main_v49 main_v50
  let main_c_19 : IVec S_ 1 := constantI S_ 1 1#1
  let main_v52 : IVec S_ 1 := (fun x v => Host.reduce IntOp.andi x v reducesTo_S163_S_d0 h_S_) main_v51 main_c_19
  let main_v53 : IVec S_ 1 := andi main_v48 main_v52
  let main_v54 : FVec F S163x192 .f32 := Host.absf main_arg12
  let main_cst_20 : FVec F S_ .f32 := constant S_ .f32 0x7F800000#32
  let main_v55 : FVec F S163x192 .f32 := broadcastInDim S163x192 ![] bcast_S_S163x192 main_cst_20
  let main_v56 : IVec S163x192 1 := cmpf .olt main_v54 main_v55
  let main_c_21 : IVec S_ 1 := constantI S_ 1 1#1
  let main_v57 : IVec S_ 1 := (fun x v => Host.reduce IntOp.andi x v reducesTo_S163x192_S_d0_1 h_S_) main_v56 main_c_21
  let main_v58 : IVec S_ 1 := andi main_v53 main_v57
  let main_v59 : FVec F S192 .f32 := Host.absf main_arg13
  let main_cst_22 : FVec F S_ .f32 := constant S_ .f32 0x7F800000#32
  let main_v60 : FVec F S192 .f32 := broadcastInDim S192 ![] bcast_S_S192 main_cst_22
  let main_v61 : IVec S192 1 := cmpf .olt main_v59 main_v60
  let main_c_23 : IVec S_ 1 := constantI S_ 1 1#1
  let main_v62 : IVec S_ 1 := (fun x v => Host.reduce IntOp.andi x v reducesTo_S192_S_d0 h_S_) main_v61 main_c_23
  let main_v63 : IVec S_ 1 := andi main_v58 main_v62
  let main_v64 : FVec F S96x96 .f32 := Host.absf main_arg14
  let main_cst_24 : FVec F S_ .f32 := constant S_ .f32 0x7F800000#32
  let main_v65 : FVec F S96x96 .f32 := broadcastInDim S96x96 ![] bcast_S_S96x96 main_cst_24
  let main_v66 : IVec S96x96 1 := cmpf .olt main_v64 main_v65
  let main_c_25 : IVec S_ 1 := constantI S_ 1 1#1
  let main_v67 : IVec S_ 1 := (fun x v => Host.reduce IntOp.andi x v reducesTo_S96x96_S_d0_1 h_S_) main_v66 main_c_25
  fn_part4 (F := F) main_arg15 main_arg16 main_arg17 main_arg18 main_arg19 main_arg20 main_arg21 main_v63 main_v67

def fn_part2 {F : FTy → Type} [FloatOps F] (main_arg8 : FVec F S144x163 .f32) (main_arg9 : FVec F S163 .f32) (main_arg10 : FVec F S144x163 .f32) (main_arg11 : FVec F S163 .f32) (main_arg12 : FVec F S163x192 .f32) (main_arg13 : FVec F S192 .f32) (main_arg14 : FVec F S96x96 .f32) (main_arg15 : FVec F S96 .f32) (main_arg16 : FVec F S96x96 .f32) (main_arg17 : FVec F S96 .f32) (main_arg18 : FVec F S96x96 .f32) (main_arg19 : FVec F S96 .f32) (main_arg20 : FVec F S96x96 .f32) (main_arg21 : FVec F S96 .f32) (main_v33 : IVec S_ 1) : IVec S_ 1 :=
  let main_v34 : FVec F S144x163 .f32 := Host.absf main_arg8
  let main_cst_12 : FVec F S_ .f32 := constant S_ .f32 0x7F800000#32
  let main_v35 : FVec F S144x163 .f32 := broadcastInDim S144x163 ![] bcast_S_S144x163 main_cst_12
  let main_v36 : IVec S144x163 1 := cmpf .olt main_v34 main_v35
  let main_c_13 : IVec S_ 1 := constantI S_ 1 1#1
  let main_v37 : IVec S_ 1 := (fun x v => Host.reduce IntOp.andi x v reducesTo_S144x163_S_d0_1 h_S_) main_v36 main_c_13
  let main_v38 : IVec S_ 1 := andi main_v33 main_v37
  let main_v39 : FVec F S163 .f32 := Host.absf main_arg9
  let main_cst_14 : FVec F S_ .f32 := constant S_ .f32 0x7F800000#32
  let main_v40 : FVec F S163 .f32 := broadcastInDim S163 ![] bcast_S_S163 main_cst_14
  let main_v41 : IVec S163 1 := cmpf .olt main_v39 main_v40
  let main_c_15 : IVec S_ 1 := constantI S_ 1 1#1
  let main_v42 : IVec S_ 1 := (fun x v => Host.reduce IntOp.andi x v reducesTo_S163_S_d0 h_S_) main_v41 main_c_15
  let main_v43 : IVec S_ 1 := andi main_v38 main_v42
  let main_v44 : FVec F S144x163 .f32 := Host.absf main_arg10
  let main_cst_16 : FVec F S_ .f32 := constant S_ .f32 0x7F800000#32
  let main_v45 : FVec F S144x163 .f32 := broadcastInDim S144x163 ![] bcast_S_S144x163 main_cst_16
  let main_v46 : IVec S144x163 1 := cmpf .olt main_v44 main_v45
  let main_c_17 : IVec S_ 1 := constantI S_ 1 1#1
  let main_v47 : IVec S_ 1 := (fun x v => Host.reduce IntOp.andi x v reducesTo_S144x163_S_d0_1 h_S_) main_v46 main_c_17
  let main_v48 : IVec S_ 1 := andi main_v43 main_v47
  let main_v49 : FVec F S163 .f32 := Host.absf main_arg11
  let main_cst_18 : FVec F S_ .f32 := constant S_ .f32 0x7F800000#32
  let main_v50 : FVec F S163 .f32 := broadcastInDim S163 ![] bcast_S_S163 main_cst_18
  fn_part3 (F := F) main_arg12 main_arg13 main_arg14 main_arg15 main_arg16 main_arg17 main_arg18 main_arg19 main_arg20 main_arg21 main_v48 main_v49 main_v50

def fn_part1 {F : FTy → Type} [FloatOps F] (main_arg5 : FVec F S125 .f32) (main_arg6 : FVec F S125x144 .f32) (main_arg7 : FVec F S144 .f32) (main_arg8 : FVec F S144x163 .f32) (main_arg9 : FVec F S163 .f32) (main_arg10 : FVec F S144x163 .f32) (main_arg11 : FVec F S163 .f32) (main_arg12 : FVec F S163x192 .f32) (main_arg13 : FVec F S192 .f32) (main_arg14 : FVec F S96x96 .f32) (main_arg15 : FVec F S96 .f32) (main_arg16 : FVec F S96x96 .f32) (main_arg17 : FVec F S96 .f32) (main_arg18 : FVec F S96x96 .f32) (main_arg19 : FVec F S96 .f32) (main_arg20 : FVec F S96x96 .f32) (main_arg21 : FVec F S96 .f32) (main_v13 : IVec S_ 1) (main_v16 : IVec S96x125 1) : IVec S_ 1 :=
  let main_c_5 : IVec S_ 1 := constantI S_ 1 1#1
  let main_v17 : IVec S_ 1 := (fun x v => Host.reduce IntOp.andi x v reducesTo_S96x125_S_d0_1 h_S_) main_v16 main_c_5
  let main_v18 : IVec S_ 1 := andi main_v13 main_v17
  let main_v19 : FVec F S125 .f32 := Host.absf main_arg5
  let main_cst_6 : FVec F S_ .f32 := constant S_ .f32 0x7F800000#32
  let main_v20 : FVec F S125 .f32 := broadcastInDim S125 ![] bcast_S_S125 main_cst_6
  let main_v21 : IVec S125 1 := cmpf .olt main_v19 main_v20
  let main_c_7 : IVec S_ 1 := constantI S_ 1 1#1
  let main_v22 : IVec S_ 1 := (fun x v => Host.reduce IntOp.andi x v reducesTo_S125_S_d0 h_S_) main_v21 main_c_7
  let main_v23 : IVec S_ 1 := andi main_v18 main_v22
  let main_v24 : FVec F S125x144 .f32 := Host.absf main_arg6
  let main_cst_8 : FVec F S_ .f32 := constant S_ .f32 0x7F800000#32
  let main_v25 : FVec F S125x144 .f32 := broadcastInDim S125x144 ![] bcast_S_S125x144 main_cst_8
  let main_v26 : IVec S125x144 1 := cmpf .olt main_v24 main_v25
  let main_c_9 : IVec S_ 1 := constantI S_ 1 1#1
  let main_v27 : IVec S_ 1 := (fun x v => Host.reduce IntOp.andi x v reducesTo_S125x144_S_d0_1 h_S_) main_v26 main_c_9
  let main_v28 : IVec S_ 1 := andi main_v23 main_v27
  let main_v29 : FVec F S144 .f32 := Host.absf main_arg7
  let main_cst_10 : FVec F S_ .f32 := constant S_ .f32 0x7F800000#32
  let main_v30 : FVec F S144 .f32 := broadcastInDim S144 ![] bcast_S_S144 main_cst_10
  let main_v31 : IVec S144 1 := cmpf .olt main_v29 main_v30
  let main_c_11 : IVec S_ 1 := constantI S_ 1 1#1
  let main_v32 : IVec S_ 1 := (fun x v => Host.reduce IntOp.andi x v reducesTo_S144_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_v33

def fn {F : FTy → Type} [FloatOps F] (main_arg0 : FVec F S50000x96 .f32) (main_arg1 : IVec S2x800000 32) (main_arg2 : FVec F S50000x163 .f32) (main_arg3 : FVec F S50000x96 .f32) (main_arg4 : FVec F S96x125 .f32) (main_arg5 : FVec F S125 .f32) (main_arg6 : FVec F S125x144 .f32) (main_arg7 : FVec F S144 .f32) (main_arg8 : FVec F S144x163 .f32) (main_arg9 : FVec F S163 .f32) (main_arg10 : FVec F S144x163 .f32) (main_arg11 : FVec F S163 .f32) (main_arg12 : FVec F S163x192 .f32) (main_arg13 : FVec F S192 .f32) (main_arg14 : FVec F S96x96 .f32) (main_arg15 : FVec F S96 .f32) (main_arg16 : FVec F S96x96 .f32) (main_arg17 : FVec F S96 .f32) (main_arg18 : FVec F S96x96 .f32) (main_arg19 : FVec F S96 .f32) (main_arg20 : FVec F S96x96 .f32) (main_arg21 : FVec F S96 .f32) : IVec S_ 1 :=
  let main_v0 : FVec F S50000x96 .f32 := Host.absf main_arg0
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S50000x163 .f32 := Host.absf main_arg2
  let main_cst_0 : FVec F S_ .f32 := constant S_ .f32 0x7F800000#32
  let main_v5 : FVec F S50000x163 .f32 := broadcastInDim S50000x163 ![] bcast_S_S50000x163 main_cst_0
  let main_v6 : IVec S50000x163 1 := cmpf .olt main_v4 main_v5
  let main_c_1 : IVec S_ 1 := constantI S_ 1 1#1
  let main_v7 : IVec S_ 1 := (fun x v => Host.reduce IntOp.andi x v reducesTo_S50000x163_S_d0_1 h_S_) main_v6 main_c_1
  let main_v8 : IVec S_ 1 := andi main_v3 main_v7
  let main_v9 : FVec F S50000x96 .f32 := Host.absf main_arg3
  let main_cst_2 : FVec F S_ .f32 := constant S_ .f32 0x7F800000#32
  let main_v10 : FVec F S50000x96 .f32 := broadcastInDim S50000x96 ![] bcast_S_S50000x96 main_cst_2
  let main_v11 : IVec S50000x96 1 := cmpf .olt main_v9 main_v10
  let main_c_3 : IVec S_ 1 := constantI S_ 1 1#1
  let main_v12 : IVec S_ 1 := (fun x v => Host.reduce IntOp.andi x v reducesTo_S50000x96_S_d0_1 h_S_) main_v11 main_c_3
  let main_v13 : IVec S_ 1 := andi main_v8 main_v12
  let main_v14 : FVec F S96x125 .f32 := Host.absf main_arg4
  let main_cst_4 : FVec F S_ .f32 := constant S_ .f32 0x7F800000#32
  let main_v15 : FVec F S96x125 .f32 := broadcastInDim S96x125 ![] bcast_S_S96x125 main_cst_4
  let main_v16 : IVec S96x125 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S50000x96 : Shape := ⟨2, ![50000, 96]⟩
abbrev S2x800000 : Shape := ⟨2, ![2, 800000]⟩
abbrev S50000x163 : Shape := ⟨2, ![50000, 163]⟩
abbrev S96x125 : Shape := ⟨2, ![96, 125]⟩
abbrev S125 : Shape := ⟨1, ![125]⟩
abbrev S125x144 : Shape := ⟨2, ![125, 144]⟩
abbrev S144 : Shape := ⟨1, ![144]⟩
abbrev S144x163 : Shape := ⟨2, ![144, 163]⟩
abbrev S163 : Shape := ⟨1, ![163]⟩
abbrev S163x192 : Shape := ⟨2, ![163, 192]⟩
abbrev S192 : Shape := ⟨1, ![192]⟩
abbrev S96x96 : Shape := ⟨2, ![96, 96]⟩
abbrev S96 : Shape := ⟨1, ![96]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S1x125 : Shape := ⟨2, ![1, 125]⟩
abbrev S50000x1 : Shape := ⟨2, ![50000, 1]⟩
abbrev S50000x125 : Shape := ⟨2, ![50000, 125]⟩
abbrev S2000x96 : Shape := ⟨2, ![2000, 96]⟩
abbrev S2000x1 : Shape := ⟨2, ![2000, 1]⟩
abbrev S2000x125 : Shape := ⟨2, ![2000, 125]⟩
abbrev S800000x125 : Shape := ⟨2, ![800000, 125]⟩
abbrev S1x144 : Shape := ⟨2, ![1, 144]⟩
abbrev S50000x144 : Shape := ⟨2, ![50000, 144]⟩
abbrev S2000x144 : Shape := ⟨2, ![2000, 144]⟩
abbrev S800000x144 : Shape := ⟨2, ![800000, 144]⟩
abbrev S1x163 : Shape := ⟨2, ![1, 163]⟩
abbrev S2000x163 : Shape := ⟨2, ![2000, 163]⟩
abbrev S800000x163 : Shape := ⟨2, ![800000, 163]⟩
abbrev S1x192 : Shape := ⟨2, ![1, 192]⟩
abbrev S50000x192 : Shape := ⟨2, ![50000, 192]⟩
abbrev S2000x192 : Shape := ⟨2, ![2000, 192]⟩
abbrev S800000x192 : Shape := ⟨2, ![800000, 192]⟩
abbrev S1x96 : Shape := ⟨2, ![1, 96]⟩
abbrev S800000x96 : Shape := ⟨2, ![800000, 96]⟩

abbrev nBuf : Space → Nat
  | .hbm => 259
  | .vmem => 144
  | .smem => 0
  | _ => 0

abbrev hbmTy0_0 (i : Nat) : BufTy := match i % 128 with
  | 0 => ⟨S50000x96, .f32⟩
  | 1 => ⟨S2x800000, .i32⟩
  | 2 => ⟨S50000x163, .f32⟩
  | 3 => ⟨S50000x96, .f32⟩
  | 4 => ⟨S96x125, .f32⟩
  | 5 => ⟨S125, .f32⟩
  | 6 => ⟨S125x144, .f32⟩
  | 7 => ⟨S144, .f32⟩
  | 8 => ⟨S144x163, .f32⟩
  | 9 => ⟨S163, .f32⟩
  | 10 => ⟨S144x163, .f32⟩
  | 11 => ⟨S163, .f32⟩
  | 12 => ⟨S163x192, .f32⟩
  | 13 => ⟨S192, .f32⟩
  | 14 => ⟨S96x96, .f32⟩
  | 15 => ⟨S96, .f32⟩
  | 16 => ⟨S96x96, .f32⟩
  | 17 => ⟨S96, .f32⟩
  | 18 => ⟨S96x96, .f32⟩
  | 19 => ⟨S96, .f32⟩
  | 20 => ⟨S96x96, .f32⟩
  | 21 => ⟨S96, .f32⟩
  | 22 => ⟨S1x800000, .i32⟩
  | 23 => ⟨S800000, .i32⟩
  | 24 => ⟨S1x800000, .i32⟩
  | 25 => ⟨S800000, .i32⟩
  | 26 => ⟨S_, .f32⟩
  | 27 => ⟨S800000, .f32⟩
  | 28 => ⟨S_, .f32⟩
  | 29 => ⟨S50000, .f32⟩
  | 30 => ⟨S800000x1, .i32⟩
  | 31 => ⟨S50000, .f32⟩
  | 32 => ⟨S_, .f32⟩
  | 33 => ⟨S50000, .f32⟩
  | 34 => ⟨S50000, .f32⟩
  | 35 => ⟨S_, .f32⟩
  | 36 => ⟨S50000, .f32⟩
  | 37 => ⟨S50000, .f32⟩
  | 38 => ⟨S_, .i32⟩
  | 39 => ⟨S800000, .i32⟩
  | 40 => ⟨S800000, .i1⟩
  | 41 => ⟨S_, .i32⟩
  | 42 => ⟨S800000, .i32⟩
  | 43 => ⟨S800000, .i32⟩
  | 44 => ⟨S800000, .i32⟩
  | 45 => ⟨S800000x1, .i32⟩
  | 46 => ⟨S800000, .f32⟩
  | 47 => ⟨S_, .i32⟩
  | 48 => ⟨S800000, .i32⟩
  | 49 => ⟨S800000, .i1⟩
  | 50 => ⟨S_, .i32⟩
  | 51 => ⟨S800000, .i32⟩
  | 52 => ⟨S800000, .i32⟩
  | 53 => ⟨S800000, .i32⟩
  | 54 => ⟨S800000x1, .i32⟩
  | 55 => ⟨S800000, .f32⟩
  | 56 => ⟨S800000, .f32⟩
  | 57 => ⟨S50000, .f32⟩
  | 58 => ⟨S1x125, .f32⟩
  | 59 => ⟨S50000x1, .f32⟩
  | 60 => ⟨S50000x125, .f32⟩
  | 61 => ⟨S50000x125, .f32⟩
  | 62 => ⟨S_, .i32⟩
  | 63 => ⟨S800000, .i32⟩
  | 64 => ⟨S800000, .i1⟩
  | 65 => ⟨S_, .i32⟩
  | 66 => ⟨S800000, .i32⟩
  | 67 => ⟨S800000, .i32⟩
  | 68 => ⟨S800000, .i32⟩
  | 69 => ⟨S800000x1, .i32⟩
  | 70 => ⟨S800000x125, .f32⟩
  | 71 => ⟨S800000x1, .f32⟩
  | 72 => ⟨S800000x125, .f32⟩
  | 73 => ⟨S800000x125, .f32⟩
  | 74 => ⟨S_, .f32⟩
  | 75 => ⟨S50000x125, .f32⟩
  | 76 => ⟨S800000x1, .i32⟩
  | 77 => ⟨S50000x125, .f32⟩
  | 78 => ⟨S50000x125, .f32⟩
  | 79 => ⟨S1x144, .f32⟩
  | 80 => ⟨S50000x1, .f32⟩
  | 81 => ⟨S50000x144, .f32⟩
  | 82 => ⟨S50000x144, .f32⟩
  | 83 => ⟨S_, .i32⟩
  | 84 => ⟨S800000, .i32⟩
  | 85 => ⟨S800000, .i1⟩
  | 86 => ⟨S_, .i32⟩
  | 87 => ⟨S800000, .i32⟩
  | 88 => ⟨S800000, .i32⟩
  | 89 => ⟨S800000, .i32⟩
  | 90 => ⟨S800000x1, .i32⟩
  | 91 => ⟨S800000x144, .f32⟩
  | 92 => ⟨S800000x1, .f32⟩
  | 93 => ⟨S800000x144, .f32⟩
  | 94 => ⟨S800000x144, .f32⟩
  | 95 => ⟨S_, .f32⟩
  | 96 => ⟨S50000x144, .f32⟩
  | 97 => ⟨S800000x1, .i32⟩
  | 98 => ⟨S50000x144, .f32⟩
  | 99 => ⟨S50000x144, .f32⟩
  | 100 => ⟨S1x163, .f32⟩
  | 101 => ⟨S50000x1, .f32⟩
  | 102 => ⟨S50000x163, .f32⟩
  | 103 => ⟨S50000x163, .f32⟩
  | 104 => ⟨S_, .i32⟩
  | 105 => ⟨S800000, .i32⟩
  | 106 => ⟨S800000, .i1⟩
  | 107 => ⟨S_, .i32⟩
  | 108 => ⟨S800000, .i32⟩
  | 109 => ⟨S800000, .i32⟩
  | 110 => ⟨S800000, .i32⟩
  | 111 => ⟨S800000x1, .i32⟩
  | 112 => ⟨S800000x163, .f32⟩
  | 113 => ⟨S800000x1, .f32⟩
  | 114 => ⟨S800000x163, .f32⟩
  | 115 => ⟨S800000x163, .f32⟩
  | 116 => ⟨S_, .f32⟩
  | 117 => ⟨S50000x163, .f32⟩
  | 118 => ⟨S800000x1, .i32⟩
  | 119 => ⟨S50000x163, .f32⟩
  | 120 => ⟨S50000x163, .f32⟩
  | 121 => ⟨S1x163, .f32⟩
  | 122 => ⟨S50000x1, .f32⟩
  | 123 => ⟨S50000x163, .f32⟩
  | 124 => ⟨S50000x163, .f32⟩
  | 125 => ⟨S_, .i32⟩
  | 126 => ⟨S800000, .i32⟩
  | 127 => ⟨S800000, .i1⟩
  | _ => ⟨S50000x96, .f32⟩

abbrev hbmTy0_1 (i : Nat) : BufTy := match i % 128 with
  | 0 => ⟨S_, .i32⟩
  | 1 => ⟨S800000, .i32⟩
  | 2 => ⟨S800000, .i32⟩
  | 3 => ⟨S800000, .i32⟩
  | 4 => ⟨S800000x1, .i32⟩
  | 5 => ⟨S800000x163, .f32⟩
  | 6 => ⟨S800000x1, .f32⟩
  | 7 => ⟨S800000x163, .f32⟩
  | 8 => ⟨S800000x163, .f32⟩
  | 9 => ⟨S_, .f32⟩
  | 10 => ⟨S50000x163, .f32⟩
  | 11 => ⟨S800000x1, .i32⟩
  | 12 => ⟨S50000x163, .f32⟩
  | 13 => ⟨S50000x163, .f32⟩
  | 14 => ⟨S50000x163, .f32⟩
  | 15 => ⟨S50000x163, .f32⟩
  | 16 => ⟨S_, .f32⟩
  | 17 => ⟨S50000x163, .f32⟩
  | 18 => ⟨S50000x163, .f32⟩
  | 19 => ⟨S50000x163, .f32⟩
  | 20 => ⟨S1x192, .f32⟩
  | 21 => ⟨S50000x1, .f32⟩
  | 22 => ⟨S50000x192, .f32⟩
  | 23 => ⟨S50000x192, .f32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S800000x192, .f32⟩
  | 33 => ⟨S800000x1, .f32⟩
  | 34 => ⟨S800000x192, .f32⟩
  | 35 => ⟨S800000x192, .f32⟩
  | 36 => ⟨S_, .f32⟩
  | 37 => ⟨S50000x192, .f32⟩
  | 38 => ⟨S800000x1, .i32⟩
  | 39 => ⟨S50000x192, .f32⟩
  | 40 => ⟨S50000x192, .f32⟩
  | 41 => ⟨S1x96, .f32⟩
  | 42 => ⟨S50000x1, .f32⟩
  | 43 => ⟨S50000x96, .f32⟩
  | 44 => ⟨S50000x96, .f32⟩
  | 45 => ⟨S_, .i32⟩
  | 46 => ⟨S800000, .i32⟩
  | 47 => ⟨S800000, .i1⟩
  | 48 => ⟨S_, .i32⟩
  | 49 => ⟨S800000, .i32⟩
  | 50 => ⟨S800000, .i32⟩
  | 51 => ⟨S800000, .i32⟩
  | 52 => ⟨S800000x1, .i32⟩
  | 53 => ⟨S800000x96, .f32⟩
  | 54 => ⟨S800000x1, .f32⟩
  | 55 => ⟨S800000x96, .f32⟩
  | 56 => ⟨S800000x96, .f32⟩
  | 57 => ⟨S_, .f32⟩
  | 58 => ⟨S50000x96, .f32⟩
  | 59 => ⟨S800000x1, .i32⟩
  | 60 => ⟨S50000x96, .f32⟩
  | 61 => ⟨S50000x96, .f32⟩
  | 62 => ⟨S1x96, .f32⟩
  | 63 => ⟨S50000x1, .f32⟩
  | 64 => ⟨S50000x96, .f32⟩
  | 65 => ⟨S50000x96, .f32⟩
  | 66 => ⟨S_, .i32⟩
  | 67 => ⟨S800000, .i32⟩
  | 68 => ⟨S800000, .i1⟩
  | 69 => ⟨S_, .i32⟩
  | 70 => ⟨S800000, .i32⟩
  | 71 => ⟨S800000, .i32⟩
  | 72 => ⟨S800000, .i32⟩
  | 73 => ⟨S800000x1, .i32⟩
  | 74 => ⟨S800000x96, .f32⟩
  | 75 => ⟨S800000x1, .f32⟩
  | 76 => ⟨S800000x96, .f32⟩
  | 77 => ⟨S800000x96, .f32⟩
  | 78 => ⟨S_, .f32⟩
  | 79 => ⟨S50000x96, .f32⟩
  | 80 => ⟨S800000x1, .i32⟩
  | 81 => ⟨S50000x96, .f32⟩
  | 82 => ⟨S50000x96, .f32⟩
  | 83 => ⟨S1x96, .f32⟩
  | 84 => ⟨S50000x1, .f32⟩
  | 85 => ⟨S50000x96, .f32⟩
  | 86 => ⟨S50000x96, .f32⟩
  | 87 => ⟨S_, .i32⟩
  | 88 => ⟨S800000, .i32⟩
  | 89 => ⟨S800000, .i1⟩
  | 90 => ⟨S_, .i32⟩
  | 91 => ⟨S800000, .i32⟩
  | 92 => ⟨S800000, .i32⟩
  | 93 => ⟨S800000, .i32⟩
  | 94 => ⟨S800000x1, .i32⟩
  | 95 => ⟨S800000x96, .f32⟩
  | 96 => ⟨S800000x1, .f32⟩
  | 97 => ⟨S800000x96, .f32⟩
  | 98 => ⟨S800000x96, .f32⟩
  | 99 => ⟨S_, .f32⟩
  | 100 => ⟨S50000x96, .f32⟩
  | 101 => ⟨S800000x1, .i32⟩
  | 102 => ⟨S50000x96, .f32⟩
  | 103 => ⟨S50000x96, .f32⟩
  | 104 => ⟨S50000x96, .f32⟩
  | 105 => ⟨S50000x96, .f32⟩
  | 106 => ⟨S_, .f32⟩
  | 107 => ⟨S50000x96, .f32⟩
  | 108 => ⟨S50000x96, .f32⟩
  | 109 => ⟨S50000x96, .f32⟩
  | 110 => ⟨S1x96, .f32⟩
  | 111 => ⟨S50000x1, .f32⟩
  | 112 => ⟨S50000x96, .f32⟩
  | 113 => ⟨S50000x96, .f32⟩
  | 114 => ⟨S_, .i32⟩
  | 115 => ⟨S800000, .i32⟩
  | 116 => ⟨S800000, .i1⟩
  | 117 => ⟨S_, .i32⟩
  | 118 => ⟨S800000, .i32⟩
  | 119 => ⟨S800000, .i32⟩
  | 120 => ⟨S800000, .i32⟩
  | 121 => ⟨S800000x1, .i32⟩
  | 122 => ⟨S800000x96, .f32⟩
  | 123 => ⟨S800000x1, .f32⟩
  | 124 => ⟨S800000x96, .f32⟩
  | 125 => ⟨S800000x96, .f32⟩
  | 126 => ⟨S_, .f32⟩
  | 127 => ⟨S50000x96, .f32⟩
  | _ => ⟨S50000x96, .f32⟩

abbrev hbmTy0_2 (i : Nat) : BufTy := match i % 128 with
  | 0 => ⟨S800000x1, .i32⟩
  | 1 => ⟨S50000x96, .f32⟩
  | 2 => ⟨S50000x96, .f32⟩
  | _ => ⟨S50000x96, .f32⟩

abbrev hbmTy (i : Nat) : BufTy := match i / 128 with
  | 0 => hbmTy0_0 i
  | 1 => hbmTy0_1 i
  | 2 => hbmTy0_2 i
  | _ => ⟨S50000x96, .f32⟩

abbrev vmemTy0_0 (i : Nat) : BufTy := match i % 128 with
  | 0 => ⟨S2000x96, .f32⟩
  | 1 => ⟨S2000x96, .f32⟩
  | 2 => ⟨S96x125, .f32⟩
  | 3 => ⟨S1x125, .f32⟩
  | 4 => ⟨S2000x1, .f32⟩
  | 5 => ⟨S2000x1, .f32⟩
  | 6 => ⟨S2000x125, .f32⟩
  | 7 => ⟨S2000x125, .f32⟩
  | 8 => ⟨S2000x125, .f32⟩
  | 9 => ⟨S2000x125, .f32⟩
  | 10 => ⟨S2000x125, .f32⟩
  | 11 => ⟨S2000x125, .f32⟩
  | 12 => ⟨S2000x125, .f32⟩
  | 13 => ⟨S2000x125, .f32⟩
  | 14 => ⟨S2000x125, .f32⟩
  | 15 => ⟨S2000x125, .f32⟩
  | 16 => ⟨S2000x125, .f32⟩
  | 17 => ⟨S2000x125, .f32⟩
  | 18 => ⟨S125x144, .f32⟩
  | 19 => ⟨S1x144, .f32⟩
  | 20 => ⟨S2000x1, .f32⟩
  | 21 => ⟨S2000x1, .f32⟩
  | 22 => ⟨S2000x144, .f32⟩
  | 23 => ⟨S2000x144, .f32⟩
  | 24 => ⟨S2000x144, .f32⟩
  | 25 => ⟨S2000x144, .f32⟩
  | 26 => ⟨S2000x144, .f32⟩
  | 27 => ⟨S2000x144, .f32⟩
  | 28 => ⟨S2000x144, .f32⟩
  | 29 => ⟨S2000x144, .f32⟩
  | 30 => ⟨S2000x144, .f32⟩
  | 31 => ⟨S2000x144, .f32⟩
  | 32 => ⟨S2000x144, .f32⟩
  | 33 => ⟨S2000x144, .f32⟩
  | 34 => ⟨S144x163, .f32⟩
  | 35 => ⟨S1x163, .f32⟩
  | 36 => ⟨S2000x1, .f32⟩
  | 37 => ⟨S2000x1, .f32⟩
  | 38 => ⟨S2000x163, .f32⟩
  | 39 => ⟨S2000x163, .f32⟩
  | 40 => ⟨S2000x163, .f32⟩
  | 41 => ⟨S2000x163, .f32⟩
  | 42 => ⟨S2000x163, .f32⟩
  | 43 => ⟨S2000x163, .f32⟩
  | 44 => ⟨S2000x163, .f32⟩
  | 45 => ⟨S2000x163, .f32⟩
  | 46 => ⟨S2000x163, .f32⟩
  | 47 => ⟨S2000x163, .f32⟩
  | 48 => ⟨S2000x144, .f32⟩
  | 49 => ⟨S2000x144, .f32⟩
  | 50 => ⟨S144x163, .f32⟩
  | 51 => ⟨S1x163, .f32⟩
  | 52 => ⟨S2000x1, .f32⟩
  | 53 => ⟨S2000x1, .f32⟩
  | 54 => ⟨S2000x163, .f32⟩
  | 55 => ⟨S2000x163, .f32⟩
  | 56 => ⟨S2000x163, .f32⟩
  | 57 => ⟨S2000x163, .f32⟩
  | 58 => ⟨S2000x163, .f32⟩
  | 59 => ⟨S2000x163, .f32⟩
  | 60 => ⟨S2000x163, .f32⟩
  | 61 => ⟨S2000x163, .f32⟩
  | 62 => ⟨S2000x163, .f32⟩
  | 63 => ⟨S2000x163, .f32⟩
  | 64 => ⟨S2000x163, .f32⟩
  | 65 => ⟨S2000x163, .f32⟩
  | 66 => ⟨S163x192, .f32⟩
  | 67 => ⟨S1x192, .f32⟩
  | 68 => ⟨S2000x1, .f32⟩
  | 69 => ⟨S2000x1, .f32⟩
  | 70 => ⟨S2000x192, .f32⟩
  | 71 => ⟨S2000x192, .f32⟩
  | 72 => ⟨S2000x192, .f32⟩
  | 73 => ⟨S2000x192, .f32⟩
  | 74 => ⟨S2000x192, .f32⟩
  | 75 => ⟨S2000x192, .f32⟩
  | 76 => ⟨S2000x192, .f32⟩
  | 77 => ⟨S2000x192, .f32⟩
  | 78 => ⟨S2000x192, .f32⟩
  | 79 => ⟨S2000x192, .f32⟩
  | 80 => ⟨S2000x96, .f32⟩
  | 81 => ⟨S2000x96, .f32⟩
  | 82 => ⟨S96x96, .f32⟩
  | 83 => ⟨S1x96, .f32⟩
  | 84 => ⟨S2000x1, .f32⟩
  | 85 => ⟨S2000x1, .f32⟩
  | 86 => ⟨S2000x96, .f32⟩
  | 87 => ⟨S2000x96, .f32⟩
  | 88 => ⟨S2000x96, .f32⟩
  | 89 => ⟨S2000x96, .f32⟩
  | 90 => ⟨S2000x96, .f32⟩
  | 91 => ⟨S2000x96, .f32⟩
  | 92 => ⟨S2000x96, .f32⟩
  | 93 => ⟨S2000x96, .f32⟩
  | 94 => ⟨S2000x96, .f32⟩
  | 95 => ⟨S2000x96, .f32⟩
  | 96 => ⟨S2000x96, .f32⟩
  | 97 => ⟨S2000x96, .f32⟩
  | 98 => ⟨S96x96, .f32⟩
  | 99 => ⟨S1x96, .f32⟩
  | 100 => ⟨S2000x1, .f32⟩
  | 101 => ⟨S2000x1, .f32⟩
  | 102 => ⟨S2000x96, .f32⟩
  | 103 => ⟨S2000x96, .f32⟩
  | 104 => ⟨S2000x96, .f32⟩
  | 105 => ⟨S2000x96, .f32⟩
  | 106 => ⟨S2000x96, .f32⟩
  | 107 => ⟨S2000x96, .f32⟩
  | 108 => ⟨S2000x96, .f32⟩
  | 109 => ⟨S2000x96, .f32⟩
  | 110 => ⟨S2000x96, .f32⟩
  | 111 => ⟨S2000x96, .f32⟩
  | 112 => ⟨S2000x96, .f32⟩
  | 113 => ⟨S2000x96, .f32⟩
  | 114 => ⟨S96x96, .f32⟩
  | 115 => ⟨S1x96, .f32⟩
  | 116 => ⟨S2000x1, .f32⟩
  | 117 => ⟨S2000x1, .f32⟩
  | 118 => ⟨S2000x96, .f32⟩
  | 119 => ⟨S2000x96, .f32⟩
  | 120 => ⟨S2000x96, .f32⟩
  | 121 => ⟨S2000x96, .f32⟩
  | 122 => ⟨S2000x96, .f32⟩
  | 123 => ⟨S2000x96, .f32⟩
  | 124 => ⟨S2000x96, .f32⟩
  | 125 => ⟨S2000x96, .f32⟩
  | 126 => ⟨S2000x96, .f32⟩
  | 127 => ⟨S2000x96, .f32⟩
  | _ => ⟨S50000x96, .f32⟩

abbrev vmemTy0_1 (i : Nat) : BufTy := match i % 128 with
  | 0 => ⟨S2000x96, .f32⟩
  | 1 => ⟨S2000x96, .f32⟩
  | 2 => ⟨S96x96, .f32⟩
  | 3 => ⟨S1x96, .f32⟩
  | 4 => ⟨S2000x1, .f32⟩
  | 5 => ⟨S2000x1, .f32⟩
  | 6 => ⟨S2000x96, .f32⟩
  | 7 => ⟨S2000x96, .f32⟩
  | 8 => ⟨S2000x96, .f32⟩
  | 9 => ⟨S2000x96, .f32⟩
  | 10 => ⟨S2000x96, .f32⟩
  | 11 => ⟨S2000x96, .f32⟩
  | 12 => ⟨S2000x96, .f32⟩
  | 13 => ⟨S2000x96, .f32⟩
  | 14 => ⟨S2000x96, .f32⟩
  | 15 => ⟨S2000x96, .f32⟩
  | _ => ⟨S50000x96, .f32⟩

abbrev vmemTy (i : Nat) : BufTy := match i / 128 with
  | 0 => vmemTy0_0 i
  | 1 => vmemTy0_1 i
  | _ => ⟨S50000x96, .f32⟩

abbrev bufTy : (tb : Table) → Fin (tcTables nBuf tb) → BufTy
  | .hbm, ⟨i, _⟩ => hbmTy i
  | .local _ .vmem, ⟨i, _⟩ => vmemTy i
  | _, _ => ⟨S50000x96, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 144 → Bool
  | ⟨i, _⟩ => dmaSemScopedAt i

abbrev sig : RefSig :=
  ofTc nBuf bufTy 0 144 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_cst : Ref sig .tc := ⟨.hbm, 26, rfl⟩
abbrev main_v4 : Ref sig .tc := ⟨.hbm, 27, rfl⟩
abbrev main_cst_0 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_cst_1 : Ref sig .tc := ⟨.hbm, 32, rfl⟩
abbrev main_v8 : Ref sig .tc := ⟨.hbm, 33, rfl⟩
abbrev main_v9 : Ref sig .tc := ⟨.hbm, 34, rfl⟩
abbrev main_cst_2 : Ref sig .tc := ⟨.hbm, 35, rfl⟩
abbrev main_v10 : Ref sig .tc := ⟨.hbm, 36, rfl⟩
abbrev main_v11 : Ref sig .tc := ⟨.hbm, 37, rfl⟩
abbrev main_c : Ref sig .tc := ⟨.hbm, 38, rfl⟩
abbrev main_v12 : Ref sig .tc := ⟨.hbm, 39, rfl⟩
abbrev main_v13 : Ref sig .tc := ⟨.hbm, 40, rfl⟩
abbrev main_c_3 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_c_4 : Ref sig .tc := ⟨.hbm, 47, rfl⟩
abbrev main_v19 : Ref sig .tc := ⟨.hbm, 48, rfl⟩
abbrev main_v20 : Ref sig .tc := ⟨.hbm, 49, rfl⟩
abbrev main_c_5 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30_0 : Ref sig .tc := ⟨.hbm, 60, rfl⟩
abbrev main_v30_1 : Ref sig .tc := ⟨.hbm, 61, rfl⟩
abbrev main_c_6 : Ref sig .tc := ⟨.hbm, 62, rfl⟩
abbrev main_v31 : Ref sig .tc := ⟨.hbm, 63, rfl⟩
abbrev main_v32 : Ref sig .tc := ⟨.hbm, 64, rfl⟩
abbrev main_c_7 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_cst_8 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47_0 : Ref sig .tc := ⟨.hbm, 81, rfl⟩
abbrev main_v47_1 : Ref sig .tc := ⟨.hbm, 82, rfl⟩
abbrev main_c_9 : Ref sig .tc := ⟨.hbm, 83, rfl⟩
abbrev main_v48 : Ref sig .tc := ⟨.hbm, 84, rfl⟩
abbrev main_v49 : Ref sig .tc := ⟨.hbm, 85, rfl⟩
abbrev main_c_10 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_cst_11 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64_0 : Ref sig .tc := ⟨.hbm, 102, rfl⟩
abbrev main_v64_1 : Ref sig .tc := ⟨.hbm, 103, rfl⟩
abbrev main_c_12 : Ref sig .tc := ⟨.hbm, 104, rfl⟩
abbrev main_v65 : Ref sig .tc := ⟨.hbm, 105, rfl⟩
abbrev main_v66 : Ref sig .tc := ⟨.hbm, 106, rfl⟩
abbrev main_c_13 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_cst_14 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81_0 : Ref sig .tc := ⟨.hbm, 123, rfl⟩
abbrev main_v81_1 : Ref sig .tc := ⟨.hbm, 124, rfl⟩
abbrev main_c_15 : Ref sig .tc := ⟨.hbm, 125, rfl⟩
abbrev main_v82 : Ref sig .tc := ⟨.hbm, 126, rfl⟩
abbrev main_v83 : Ref sig .tc := ⟨.hbm, 127, rfl⟩
abbrev main_c_16 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_cst_17 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_cst_18 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103_0 : Ref sig .tc := ⟨.hbm, 150, rfl⟩
abbrev main_v103_1 : Ref sig .tc := ⟨.hbm, 151, rfl⟩
abbrev main_c_19 : Ref sig .tc := ⟨.hbm, 152, rfl⟩
abbrev main_v104 : Ref sig .tc := ⟨.hbm, 153, rfl⟩
abbrev main_v105 : Ref sig .tc := ⟨.hbm, 154, rfl⟩
abbrev main_c_20 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_cst_21 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120_0 : Ref sig .tc := ⟨.hbm, 171, rfl⟩
abbrev main_v120_1 : Ref sig .tc := ⟨.hbm, 172, rfl⟩
abbrev main_c_22 : Ref sig .tc := ⟨.hbm, 173, rfl⟩
abbrev main_v121 : Ref sig .tc := ⟨.hbm, 174, rfl⟩
abbrev main_v122 : Ref sig .tc := ⟨.hbm, 175, rfl⟩
abbrev main_c_23 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_cst_24 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_v137_0 : Ref sig .tc := ⟨.hbm, 192, rfl⟩
abbrev main_v137_1 : Ref sig .tc := ⟨.hbm, 193, rfl⟩
abbrev main_c_25 : Ref sig .tc := ⟨.hbm, 194, rfl⟩
abbrev main_v138 : Ref sig .tc := ⟨.hbm, 195, rfl⟩
abbrev main_v139 : Ref sig .tc := ⟨.hbm, 196, rfl⟩
abbrev main_c_26 : Ref sig .tc := ⟨.hbm, 197, rfl⟩
abbrev main_v140 : Ref sig .tc := ⟨.hbm, 198, rfl⟩
abbrev main_v141 : Ref sig .tc := ⟨.hbm, 199, rfl⟩
abbrev main_v142 : Ref sig .tc := ⟨.hbm, 200, rfl⟩
abbrev main_v143 : Ref sig .tc := ⟨.hbm, 201, rfl⟩
abbrev main_v144 : Ref sig .tc := ⟨.hbm, 202, rfl⟩
abbrev main_v145 : Ref sig .tc := ⟨.hbm, 203, rfl⟩
abbrev main_v146 : Ref sig .tc := ⟨.hbm, 204, rfl⟩
abbrev main_v147 : Ref sig .tc := ⟨.hbm, 205, rfl⟩
abbrev main_cst_27 : Ref sig .tc := ⟨.hbm, 206, rfl⟩
abbrev main_v148 : Ref sig .tc := ⟨.hbm, 207, rfl⟩
abbrev main_v149 : Ref sig .tc := ⟨.hbm, 208, rfl⟩
abbrev main_v150 : Ref sig .tc := ⟨.hbm, 209, rfl⟩
abbrev main_v151 : Ref sig .tc := ⟨.hbm, 210, rfl⟩
abbrev main_v152 : Ref sig .tc := ⟨.hbm, 211, rfl⟩
abbrev main_v153 : Ref sig .tc := ⟨.hbm, 212, rfl⟩
abbrev main_v154_0 : Ref sig .tc := ⟨.hbm, 213, rfl⟩
abbrev main_v154_1 : Ref sig .tc := ⟨.hbm, 214, rfl⟩
abbrev main_c_28 : Ref sig .tc := ⟨.hbm, 215, rfl⟩
abbrev main_v155 : Ref sig .tc := ⟨.hbm, 216, rfl⟩
abbrev main_v156 : Ref sig .tc := ⟨.hbm, 217, rfl⟩
abbrev main_c_29 : Ref sig .tc := ⟨.hbm, 218, rfl⟩
abbrev main_v157 : Ref sig .tc := ⟨.hbm, 219, rfl⟩
abbrev main_v158 : Ref sig .tc := ⟨.hbm, 220, rfl⟩
abbrev main_v159 : Ref sig .tc := ⟨.hbm, 221, rfl⟩
abbrev main_v160 : Ref sig .tc := ⟨.hbm, 222, rfl⟩
abbrev main_v161 : Ref sig .tc := ⟨.hbm, 223, rfl⟩
abbrev main_v162 : Ref sig .tc := ⟨.hbm, 224, rfl⟩
abbrev main_v163 : Ref sig .tc := ⟨.hbm, 225, rfl⟩
abbrev main_v164 : Ref sig .tc := ⟨.hbm, 226, rfl⟩
abbrev main_cst_30 : Ref sig .tc := ⟨.hbm, 227, rfl⟩
abbrev main_v165 : Ref sig .tc := ⟨.hbm, 228, rfl⟩
abbrev main_v166 : Ref sig .tc := ⟨.hbm, 229, rfl⟩
abbrev main_v167 : Ref sig .tc := ⟨.hbm, 230, rfl⟩
abbrev main_v168 : Ref sig .tc := ⟨.hbm, 231, rfl⟩
abbrev main_v169 : Ref sig .tc := ⟨.hbm, 232, rfl⟩
abbrev main_v170 : Ref sig .tc := ⟨.hbm, 233, rfl⟩
abbrev main_cst_31 : Ref sig .tc := ⟨.hbm, 234, rfl⟩
abbrev main_v171 : Ref sig .tc := ⟨.hbm, 235, rfl⟩
abbrev main_v172 : Ref sig .tc := ⟨.hbm, 236, rfl⟩
abbrev main_v173 : Ref sig .tc := ⟨.hbm, 237, rfl⟩
abbrev main_v174 : Ref sig .tc := ⟨.hbm, 238, rfl⟩
abbrev main_v175 : Ref sig .tc := ⟨.hbm, 239, rfl⟩
abbrev main_v176_0 : Ref sig .tc := ⟨.hbm, 240, rfl⟩
abbrev main_v176_1 : Ref sig .tc := ⟨.hbm, 241, rfl⟩
abbrev main_c_32 : Ref sig .tc := ⟨.hbm, 242, rfl⟩
abbrev main_v177 : Ref sig .tc := ⟨.hbm, 243, rfl⟩
abbrev main_v178 : Ref sig .tc := ⟨.hbm, 244, rfl⟩
abbrev main_c_33 : Ref sig .tc := ⟨.hbm, 245, rfl⟩
abbrev main_v179 : Ref sig .tc := ⟨.hbm, 246, rfl⟩
abbrev main_v180 : Ref sig .tc := ⟨.hbm, 247, rfl⟩
abbrev main_v181 : Ref sig .tc := ⟨.hbm, 248, rfl⟩
abbrev main_v182 : Ref sig .tc := ⟨.hbm, 249, rfl⟩
abbrev main_v183 : Ref sig .tc := ⟨.hbm, 250, rfl⟩
abbrev main_v184 : Ref sig .tc := ⟨.hbm, 251, rfl⟩
abbrev main_v185 : Ref sig .tc := ⟨.hbm, 252, rfl⟩
abbrev main_v186 : Ref sig .tc := ⟨.hbm, 253, rfl⟩
abbrev main_cst_34 : Ref sig .tc := ⟨.hbm, 254, rfl⟩
abbrev main_v187 : Ref sig .tc := ⟨.hbm, 255, rfl⟩
abbrev main_v188 : Ref sig .tc := ⟨.hbm, 256, rfl⟩
abbrev main_v189 : Ref sig .tc := ⟨.hbm, 257, rfl⟩
abbrev main_v190 : Ref sig .tc := ⟨.hbm, 258, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg4_1 : Ref sig .tc := ⟨.vmem, 23, rfl⟩
abbrev cc2_stg5_0 : Ref sig .tc := ⟨.vmem, 24, rfl⟩
abbrev cc2_stg5_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg2_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg3_0 : Ref sig .tc := ⟨.vmem, 36, rfl⟩
abbrev cc4_stg3_1 : Ref sig .tc := ⟨.vmem, 37, rfl⟩
abbrev cc4_stg4_0 : Ref sig .tc := ⟨.vmem, 38, rfl⟩
abbrev cc4_stg4_1 : Ref sig .tc := ⟨.vmem, 39, rfl⟩
abbrev cc4_stg5_0 : Ref sig .tc := ⟨.vmem, 40, rfl⟩
abbrev cc4_stg5_1 : Ref sig .tc := ⟨.vmem, 41, rfl⟩
abbrev cc5_stg0_0 : Ref sig .tc := ⟨.vmem, 42, rfl⟩
abbrev cc5_stg0_1 : Ref sig .tc := ⟨.vmem, 43, rfl⟩
abbrev cc5_stg1_0 : Ref sig .tc := ⟨.vmem, 44, rfl⟩
abbrev cc5_stg1_1 : Ref sig .tc := ⟨.vmem, 45, rfl⟩
abbrev cc5_stg2_0 : Ref sig .tc := ⟨.vmem, 46, rfl⟩
abbrev cc5_stg2_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg2_0 : Ref sig .tc := ⟨.vmem, 51, rfl⟩
abbrev cc6_stg3_0 : Ref sig .tc := ⟨.vmem, 52, rfl⟩
abbrev cc6_stg3_1 : Ref sig .tc := ⟨.vmem, 53, rfl⟩
abbrev cc6_stg4_0 : Ref sig .tc := ⟨.vmem, 54, rfl⟩
abbrev cc6_stg4_1 : Ref sig .tc := ⟨.vmem, 55, rfl⟩
abbrev cc6_stg5_0 : Ref sig .tc := ⟨.vmem, 56, rfl⟩
abbrev cc6_stg5_1 : Ref sig .tc := ⟨.vmem, 57, rfl⟩
abbrev cc7_stg0_0 : Ref sig .tc := ⟨.vmem, 58, rfl⟩
abbrev cc7_stg0_1 : Ref sig .tc := ⟨.vmem, 59, rfl⟩
abbrev cc7_stg1_0 : Ref sig .tc := ⟨.vmem, 60, rfl⟩
abbrev cc7_stg1_1 : Ref sig .tc := ⟨.vmem, 61, rfl⟩
abbrev cc7_stg2_0 : Ref sig .tc := ⟨.vmem, 62, rfl⟩
abbrev cc7_stg2_1 : Ref sig .tc := ⟨.vmem, 63, rfl⟩
abbrev cc8_stg0_0 : Ref sig .tc := ⟨.vmem, 64, rfl⟩
abbrev cc8_stg0_1 : Ref sig .tc := ⟨.vmem, 65, rfl⟩
abbrev cc8_stg1_0 : Ref sig .tc := ⟨.vmem, 66, rfl⟩
abbrev cc8_stg2_0 : Ref sig .tc := ⟨.vmem, 67, rfl⟩
abbrev cc8_stg3_0 : Ref sig .tc := ⟨.vmem, 68, rfl⟩
abbrev cc8_stg3_1 : Ref sig .tc := ⟨.vmem, 69, rfl⟩
abbrev cc8_stg4_0 : Ref sig .tc := ⟨.vmem, 70, rfl⟩
abbrev cc8_stg4_1 : Ref sig .tc := ⟨.vmem, 71, rfl⟩
abbrev cc8_stg5_0 : Ref sig .tc := ⟨.vmem, 72, rfl⟩
abbrev cc8_stg5_1 : Ref sig .tc := ⟨.vmem, 73, rfl⟩
abbrev cc9_stg0_0 : Ref sig .tc := ⟨.vmem, 74, rfl⟩
abbrev cc9_stg0_1 : Ref sig .tc := ⟨.vmem, 75, rfl⟩
abbrev cc9_stg1_0 : Ref sig .tc := ⟨.vmem, 76, rfl⟩
abbrev cc9_stg1_1 : Ref sig .tc := ⟨.vmem, 77, rfl⟩
abbrev cc9_stg2_0 : Ref sig .tc := ⟨.vmem, 78, rfl⟩
abbrev cc9_stg2_1 : Ref sig .tc := ⟨.vmem, 79, rfl⟩
abbrev cc10_stg0_0 : Ref sig .tc := ⟨.vmem, 80, rfl⟩
abbrev cc10_stg0_1 : Ref sig .tc := ⟨.vmem, 81, rfl⟩
abbrev cc10_stg1_0 : Ref sig .tc := ⟨.vmem, 82, rfl⟩
abbrev cc10_stg2_0 : Ref sig .tc := ⟨.vmem, 83, rfl⟩
abbrev cc10_stg3_0 : Ref sig .tc := ⟨.vmem, 84, rfl⟩
abbrev cc10_stg3_1 : Ref sig .tc := ⟨.vmem, 85, rfl⟩
abbrev cc10_stg4_0 : Ref sig .tc := ⟨.vmem, 86, rfl⟩
abbrev cc10_stg4_1 : Ref sig .tc := ⟨.vmem, 87, rfl⟩
abbrev cc10_stg5_0 : Ref sig .tc := ⟨.vmem, 88, rfl⟩
abbrev cc10_stg5_1 : Ref sig .tc := ⟨.vmem, 89, rfl⟩
abbrev cc11_stg0_0 : Ref sig .tc := ⟨.vmem, 90, rfl⟩
abbrev cc11_stg0_1 : Ref sig .tc := ⟨.vmem, 91, rfl⟩
abbrev cc11_stg1_0 : Ref sig .tc := ⟨.vmem, 92, rfl⟩
abbrev cc11_stg1_1 : Ref sig .tc := ⟨.vmem, 93, rfl⟩
abbrev cc11_stg2_0 : Ref sig .tc := ⟨.vmem, 94, rfl⟩
abbrev cc11_stg2_1 : Ref sig .tc := ⟨.vmem, 95, rfl⟩
abbrev cc12_stg0_0 : Ref sig .tc := ⟨.vmem, 96, rfl⟩
abbrev cc12_stg0_1 : Ref sig .tc := ⟨.vmem, 97, rfl⟩
abbrev cc12_stg1_0 : Ref sig .tc := ⟨.vmem, 98, rfl⟩
abbrev cc12_stg2_0 : Ref sig .tc := ⟨.vmem, 99, rfl⟩
abbrev cc12_stg3_0 : Ref sig .tc := ⟨.vmem, 100, rfl⟩
abbrev cc12_stg3_1 : Ref sig .tc := ⟨.vmem, 101, rfl⟩
abbrev cc12_stg4_0 : Ref sig .tc := ⟨.vmem, 102, rfl⟩
abbrev cc12_stg4_1 : Ref sig .tc := ⟨.vmem, 103, rfl⟩
abbrev cc12_stg5_0 : Ref sig .tc := ⟨.vmem, 104, rfl⟩
abbrev cc12_stg5_1 : Ref sig .tc := ⟨.vmem, 105, rfl⟩
abbrev cc13_stg0_0 : Ref sig .tc := ⟨.vmem, 106, rfl⟩
abbrev cc13_stg0_1 : Ref sig .tc := ⟨.vmem, 107, rfl⟩
abbrev cc13_stg1_0 : Ref sig .tc := ⟨.vmem, 108, rfl⟩
abbrev cc13_stg1_1 : Ref sig .tc := ⟨.vmem, 109, rfl⟩
abbrev cc13_stg2_0 : Ref sig .tc := ⟨.vmem, 110, rfl⟩
abbrev cc13_stg2_1 : Ref sig .tc := ⟨.vmem, 111, rfl⟩
abbrev cc14_stg0_0 : Ref sig .tc := ⟨.vmem, 112, rfl⟩
abbrev cc14_stg0_1 : Ref sig .tc := ⟨.vmem, 113, rfl⟩
abbrev cc14_stg1_0 : Ref sig .tc := ⟨.vmem, 114, rfl⟩
abbrev cc14_stg2_0 : Ref sig .tc := ⟨.vmem, 115, rfl⟩
abbrev cc14_stg3_0 : Ref sig .tc := ⟨.vmem, 116, rfl⟩
abbrev cc14_stg3_1 : Ref sig .tc := ⟨.vmem, 117, rfl⟩
abbrev cc14_stg4_0 : Ref sig .tc := ⟨.vmem, 118, rfl⟩
abbrev cc14_stg4_1 : Ref sig .tc := ⟨.vmem, 119, rfl⟩
abbrev cc14_stg5_0 : Ref sig .tc := ⟨.vmem, 120, rfl⟩
abbrev cc14_stg5_1 : Ref sig .tc := ⟨.vmem, 121, rfl⟩
abbrev cc15_stg0_0 : Ref sig .tc := ⟨.vmem, 122, rfl⟩
abbrev cc15_stg0_1 : Ref sig .tc := ⟨.vmem, 123, rfl⟩
abbrev cc15_stg1_0 : Ref sig .tc := ⟨.vmem, 124, rfl⟩
abbrev cc15_stg1_1 : Ref sig .tc := ⟨.vmem, 125, rfl⟩
abbrev cc15_stg2_0 : Ref sig .tc := ⟨.vmem, 126, rfl⟩
abbrev cc15_stg2_1 : Ref sig .tc := ⟨.vmem, 127, rfl⟩
abbrev cc16_stg0_0 : Ref sig .tc := ⟨.vmem, 128, rfl⟩
abbrev cc16_stg0_1 : Ref sig .tc := ⟨.vmem, 129, rfl⟩
abbrev cc16_stg1_0 : Ref sig .tc := ⟨.vmem, 130, rfl⟩
abbrev cc16_stg2_0 : Ref sig .tc := ⟨.vmem, 131, rfl⟩
abbrev cc16_stg3_0 : Ref sig .tc := ⟨.vmem, 132, rfl⟩
abbrev cc16_stg3_1 : Ref sig .tc := ⟨.vmem, 133, rfl⟩
abbrev cc16_stg4_0 : Ref sig .tc := ⟨.vmem, 134, rfl⟩
abbrev cc16_stg4_1 : Ref sig .tc := ⟨.vmem, 135, rfl⟩
abbrev cc16_stg5_0 : Ref sig .tc := ⟨.vmem, 136, rfl⟩
abbrev cc16_stg5_1 : Ref sig .tc := ⟨.vmem, 137, rfl⟩
abbrev cc17_stg0_0 : Ref sig .tc := ⟨.vmem, 138, rfl⟩
abbrev cc17_stg0_1 : Ref sig .tc := ⟨.vmem, 139, rfl⟩
abbrev cc17_stg1_0 : Ref sig .tc := ⟨.vmem, 140, rfl⟩
abbrev cc17_stg1_1 : Ref sig .tc := ⟨.vmem, 141, rfl⟩
abbrev cc17_stg2_0 : Ref sig .tc := ⟨.vmem, 142, rfl⟩
abbrev cc17_stg2_1 : Ref sig .tc := ⟨.vmem, 143, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem3_1 : DmaSem sig := 21
abbrev cc2_sem4_0 : DmaSem sig := 22
abbrev cc2_sem4_1 : DmaSem sig := 23
abbrev cc2_sem5_0 : DmaSem sig := 24
abbrev cc2_sem5_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem2_1 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem3_0 : DmaSem sig := 36
abbrev cc4_sem3_1 : DmaSem sig := 37
abbrev cc4_sem4_0 : DmaSem sig := 38
abbrev cc4_sem4_1 : DmaSem sig := 39
abbrev cc4_sem5_0 : DmaSem sig := 40
abbrev cc4_sem5_1 : DmaSem sig := 41
abbrev cc5_sem0_0 : DmaSem sig := 42
abbrev cc5_sem0_1 : DmaSem sig := 43
abbrev cc5_sem1_0 : DmaSem sig := 44
abbrev cc5_sem1_1 : DmaSem sig := 45
abbrev cc5_sem2_0 : DmaSem sig := 46
abbrev cc5_sem2_1 : DmaSem sig := 47
abbrev cc6_sem0_0 : DmaSem sig := 48
abbrev cc6_sem0_1 : DmaSem sig := 49
abbrev cc6_sem1_0 : DmaSem sig := 50
abbrev cc6_sem2_0 : DmaSem sig := 51
abbrev cc6_sem3_0 : DmaSem sig := 52
abbrev cc6_sem3_1 : DmaSem sig := 53
abbrev cc6_sem4_0 : DmaSem sig := 54
abbrev cc6_sem4_1 : DmaSem sig := 55
abbrev cc6_sem5_0 : DmaSem sig := 56
abbrev cc6_sem5_1 : DmaSem sig := 57
abbrev cc7_sem0_0 : DmaSem sig := 58
abbrev cc7_sem0_1 : DmaSem sig := 59
abbrev cc7_sem1_0 : DmaSem sig := 60
abbrev cc7_sem1_1 : DmaSem sig := 61
abbrev cc7_sem2_0 : DmaSem sig := 62
abbrev cc7_sem2_1 : DmaSem sig := 63
abbrev cc8_sem0_0 : DmaSem sig := 64
abbrev cc8_sem0_1 : DmaSem sig := 65
abbrev cc8_sem1_0 : DmaSem sig := 66
abbrev cc8_sem2_0 : DmaSem sig := 67
abbrev cc8_sem3_0 : DmaSem sig := 68
abbrev cc8_sem3_1 : DmaSem sig := 69
abbrev cc8_sem4_0 : DmaSem sig := 70
abbrev cc8_sem4_1 : DmaSem sig := 71
abbrev cc8_sem5_0 : DmaSem sig := 72
abbrev cc8_sem5_1 : DmaSem sig := 73
abbrev cc9_sem0_0 : DmaSem sig := 74
abbrev cc9_sem0_1 : DmaSem sig := 75
abbrev cc9_sem1_0 : DmaSem sig := 76
abbrev cc9_sem1_1 : DmaSem sig := 77
abbrev cc9_sem2_0 : DmaSem sig := 78
abbrev cc9_sem2_1 : DmaSem sig := 79
abbrev cc10_sem0_0 : DmaSem sig := 80
abbrev cc10_sem0_1 : DmaSem sig := 81
abbrev cc10_sem1_0 : DmaSem sig := 82
abbrev cc10_sem2_0 : DmaSem sig := 83
abbrev cc10_sem3_0 : DmaSem sig := 84
abbrev cc10_sem3_1 : DmaSem sig := 85
abbrev cc10_sem4_0 : DmaSem sig := 86
abbrev cc10_sem4_1 : DmaSem sig := 87
abbrev cc10_sem5_0 : DmaSem sig := 88
abbrev cc10_sem5_1 : DmaSem sig := 89
abbrev cc11_sem0_0 : DmaSem sig := 90
abbrev cc11_sem0_1 : DmaSem sig := 91
abbrev cc11_sem1_0 : DmaSem sig := 92
abbrev cc11_sem1_1 : DmaSem sig := 93
abbrev cc11_sem2_0 : DmaSem sig := 94
abbrev cc11_sem2_1 : DmaSem sig := 95
abbrev cc12_sem0_0 : DmaSem sig := 96
abbrev cc12_sem0_1 : DmaSem sig := 97
abbrev cc12_sem1_0 : DmaSem sig := 98
abbrev cc12_sem2_0 : DmaSem sig := 99
abbrev cc12_sem3_0 : DmaSem sig := 100
abbrev cc12_sem3_1 : DmaSem sig := 101
abbrev cc12_sem4_0 : DmaSem sig := 102
abbrev cc12_sem4_1 : DmaSem sig := 103
abbrev cc12_sem5_0 : DmaSem sig := 104
abbrev cc12_sem5_1 : DmaSem sig := 105
abbrev cc13_sem0_0 : DmaSem sig := 106
abbrev cc13_sem0_1 : DmaSem sig := 107
abbrev cc13_sem1_0 : DmaSem sig := 108
abbrev cc13_sem1_1 : DmaSem sig := 109
abbrev cc13_sem2_0 : DmaSem sig := 110
abbrev cc13_sem2_1 : DmaSem sig := 111
abbrev cc14_sem0_0 : DmaSem sig := 112
abbrev cc14_sem0_1 : DmaSem sig := 113
abbrev cc14_sem1_0 : DmaSem sig := 114
abbrev cc14_sem2_0 : DmaSem sig := 115
abbrev cc14_sem3_0 : DmaSem sig := 116
abbrev cc14_sem3_1 : DmaSem sig := 117
abbrev cc14_sem4_0 : DmaSem sig := 118
abbrev cc14_sem4_1 : DmaSem sig := 119
abbrev cc14_sem5_0 : DmaSem sig := 120
abbrev cc14_sem5_1 : DmaSem sig := 121
abbrev cc15_sem0_0 : DmaSem sig := 122
abbrev cc15_sem0_1 : DmaSem sig := 123
abbrev cc15_sem1_0 : DmaSem sig := 124
abbrev cc15_sem1_1 : DmaSem sig := 125
abbrev cc15_sem2_0 : DmaSem sig := 126
abbrev cc15_sem2_1 : DmaSem sig := 127
abbrev cc16_sem0_0 : DmaSem sig := 128
abbrev cc16_sem0_1 : DmaSem sig := 129
abbrev cc16_sem1_0 : DmaSem sig := 130
abbrev cc16_sem2_0 : DmaSem sig := 131
abbrev cc16_sem3_0 : DmaSem sig := 132
abbrev cc16_sem3_1 : DmaSem sig := 133
abbrev cc16_sem4_0 : DmaSem sig := 134
abbrev cc16_sem4_1 : DmaSem sig := 135
abbrev cc16_sem5_0 : DmaSem sig := 136
abbrev cc16_sem5_1 : DmaSem sig := 137
abbrev cc17_sem0_0 : DmaSem sig := 138
abbrev cc17_sem0_1 : DmaSem sig := 139
abbrev cc17_sem1_0 : DmaSem sig := 140
abbrev cc17_sem1_1 : DmaSem sig := 141
abbrev cc17_sem2_0 : DmaSem sig := 142
abbrev cc17_sem2_1 : DmaSem sig := 143

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S96x125 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x125 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x125 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x125 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x125 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x125 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x125 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x125 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S125x144 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x144 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S2000x144 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S2000x144 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x144 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x144 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x144 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x144 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S144x163 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x163 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x1 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S2000x163 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S2000x163 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x163 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x163 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x163 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x144 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S144x163 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x163 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S2000x1 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S2000x163 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 2 → Memref sig .tc .vmem S2000x163 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x163 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S2000x163 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S2000x163 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![25], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x163 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S163x192 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x192 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S2000x1 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev stage8_4 : Fin 2 → Memref sig .tc .vmem S2000x192 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev stage8_5 : Fin 2 → Memref sig .tc .vmem S2000x192 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![25], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S2000x192 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S2000x192 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S2000x192 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev grid10 : Pipeline.Grid := ⟨1, ![25], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_4 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_5 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S2000x96 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S96x96 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x96 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 2 → Memref sig .tc .vmem S2000x1 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

abbrev stage10_4 : Fin 2 → Memref sig .tc .vmem S2000x96 .f32 := fun | 0 => Memref.whole cc10_stg4_0 | 1 => Memref.whole cc10_stg4_1 | ⟨_ + 2, h⟩ => absurd h (Nat.not_lt.2 (Nat.le_add_left _ _))
abbrev sem10_4 : Fin 2 → DmaSem sig := fun | 0 => cc10_sem4_0 | 1 => cc10_sem4_1 | ⟨_ + 2, h⟩ => absurd h (Nat.not_lt.2 (Nat.le_add_left _ _))
abbrev reads10_4 : Fin grid10.rank → Bool := ![true]

abbrev stage10_5 : Fin 2 → Memref sig .tc .vmem S2000x96 .f32 := fun | 0 => Memref.whole cc10_stg5_0 | 1 => Memref.whole cc10_stg5_1 | ⟨_ + 2, h⟩ => absurd h (Nat.not_lt.2 (Nat.le_add_left _ _))
abbrev sem10_5 : Fin 2 → DmaSem sig := fun | 0 => cc10_sem5_0 | 1 => cc10_sem5_1 | ⟨_ + 2, h⟩ => absurd h (Nat.not_lt.2 (Nat.le_add_left _ _))
abbrev reads10_5 : Fin grid10.rank → Bool := ![true]

abbrev grid11 : Pipeline.Grid := ⟨1, ![25], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S2000x96 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S2000x96 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 2 → Memref sig .tc .vmem S2000x96 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev grid12 : Pipeline.Grid := ⟨1, ![25], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_4 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_5 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S2000x96 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S96x96 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 1 → Memref sig .tc .vmem S1x96 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 2 → Memref sig .tc .vmem S2000x1 .f32 := fun | 0 => Memref.whole cc12_stg3_0 | 1 => Memref.whole cc12_stg3_1 | ⟨_ + 2, h⟩ => absurd h (Nat.not_lt.2 (Nat.le_add_left _ _))
abbrev sem12_3 : Fin 2 → DmaSem sig := fun | 0 => cc12_sem3_0 | 1 => cc12_sem3_1 | ⟨_ + 2, h⟩ => absurd h (Nat.not_lt.2 (Nat.le_add_left _ _))
abbrev reads12_3 : Fin grid12.rank → Bool := ![true]

abbrev stage12_4 : Fin 2 → Memref sig .tc .vmem S2000x96 .f32 := fun | 0 => Memref.whole cc12_stg4_0 | 1 => Memref.whole cc12_stg4_1 | ⟨_ + 2, h⟩ => absurd h (Nat.not_lt.2 (Nat.le_add_left _ _))
abbrev sem12_4 : Fin 2 → DmaSem sig := fun | 0 => cc12_sem4_0 | 1 => cc12_sem4_1 | ⟨_ + 2, h⟩ => absurd h (Nat.not_lt.2 (Nat.le_add_left _ _))
abbrev reads12_4 : Fin grid12.rank → Bool := ![true]

abbrev stage12_5 : Fin 2 → Memref sig .tc .vmem S2000x96 .f32 := fun | 0 => Memref.whole cc12_stg5_0 | 1 => Memref.whole cc12_stg5_1 | ⟨_ + 2, h⟩ => absurd h (Nat.not_lt.2 (Nat.le_add_left _ _))
abbrev sem12_5 : Fin 2 → DmaSem sig := fun | 0 => cc12_sem5_0 | 1 => cc12_sem5_1 | ⟨_ + 2, h⟩ => absurd h (Nat.not_lt.2 (Nat.le_add_left _ _))
abbrev reads12_5 : Fin grid12.rank → Bool := ![true]

abbrev grid13 : Pipeline.Grid := ⟨1, ![25], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_2 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S2000x96 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 2 → Memref sig .tc .vmem S2000x96 .f32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true]

abbrev stage13_2 : Fin 2 → Memref sig .tc .vmem S2000x96 .f32 := fun | 0 => Memref.whole cc13_stg2_0 | 1 => Memref.whole cc13_stg2_1 | ⟨_ + 2, h⟩ => absurd h (Nat.not_lt.2 (Nat.le_add_left _ _))
abbrev sem13_2 : Fin 2 → DmaSem sig := fun | 0 => cc13_sem2_0 | 1 => cc13_sem2_1 | ⟨_ + 2, h⟩ => absurd h (Nat.not_lt.2 (Nat.le_add_left _ _))
abbrev reads13_2 : Fin grid13.rank → Bool := ![true]

abbrev grid14 : Pipeline.Grid := ⟨1, ![25], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_2 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_3 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_4 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_5 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S2000x96 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 1 → Memref sig .tc .vmem S96x96 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false]

abbrev stage14_2 : Fin 1 → Memref sig .tc .vmem S1x96 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev stage14_3 : Fin 2 → Memref sig .tc .vmem S2000x1 .f32 := fun | 0 => Memref.whole cc14_stg3_0 | 1 => Memref.whole cc14_stg3_1 | ⟨_ + 2, h⟩ => absurd h (Nat.not_lt.2 (Nat.le_add_left _ _))
abbrev sem14_3 : Fin 2 → DmaSem sig := fun | 0 => cc14_sem3_0 | 1 => cc14_sem3_1 | ⟨_ + 2, h⟩ => absurd h (Nat.not_lt.2 (Nat.le_add_left _ _))
abbrev reads14_3 : Fin grid14.rank → Bool := ![true]

abbrev stage14_4 : Fin 2 → Memref sig .tc .vmem S2000x96 .f32 := fun | 0 => Memref.whole cc14_stg4_0 | 1 => Memref.whole cc14_stg4_1 | ⟨_ + 2, h⟩ => absurd h (Nat.not_lt.2 (Nat.le_add_left _ _))
abbrev sem14_4 : Fin 2 → DmaSem sig := fun | 0 => cc14_sem4_0 | 1 => cc14_sem4_1 | ⟨_ + 2, h⟩ => absurd h (Nat.not_lt.2 (Nat.le_add_left _ _))
abbrev reads14_4 : Fin grid14.rank → Bool := ![true]

abbrev stage14_5 : Fin 2 → Memref sig .tc .vmem S2000x96 .f32 := fun | 0 => Memref.whole cc14_stg5_0 | 1 => Memref.whole cc14_stg5_1 | ⟨_ + 2, h⟩ => absurd h (Nat.not_lt.2 (Nat.le_add_left _ _))
abbrev sem14_5 : Fin 2 → DmaSem sig := fun | 0 => cc14_sem5_0 | 1 => cc14_sem5_1 | ⟨_ + 2, h⟩ => absurd h (Nat.not_lt.2 (Nat.le_add_left _ _))
abbrev reads14_5 : Fin grid14.rank → Bool := ![true]

abbrev grid15 : Pipeline.Grid := ⟨1, ![25], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_2 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage15_0 : Fin 2 → Memref sig .tc .vmem S2000x96 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 2 → Memref sig .tc .vmem S2000x96 .f32 := fun | 0 => Memref.whole cc15_stg1_0 | 1 => Memref.whole cc15_stg1_1 | ⟨_ + 2, h⟩ => absurd h (Nat.not_lt.2 (Nat.le_add_left _ _))
abbrev sem15_1 : Fin 2 → DmaSem sig := fun | 0 => cc15_sem1_0 | 1 => cc15_sem1_1 | ⟨_ + 2, h⟩ => absurd h (Nat.not_lt.2 (Nat.le_add_left _ _))
abbrev reads15_1 : Fin grid15.rank → Bool := ![true]

abbrev stage15_2 : Fin 2 → Memref sig .tc .vmem S2000x96 .f32 := fun | 0 => Memref.whole cc15_stg2_0 | 1 => Memref.whole cc15_stg2_1 | ⟨_ + 2, h⟩ => absurd h (Nat.not_lt.2 (Nat.le_add_left _ _))
abbrev sem15_2 : Fin 2 → DmaSem sig := fun | 0 => cc15_sem2_0 | 1 => cc15_sem2_1 | ⟨_ + 2, h⟩ => absurd h (Nat.not_lt.2 (Nat.le_add_left _ _))
abbrev reads15_2 : Fin grid15.rank → Bool := ![true]

abbrev grid16 : Pipeline.Grid := ⟨1, ![25], ![false]⟩

def cc16_transform_0 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_1 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_2 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_3 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_4 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_5 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage16_0 : Fin 2 → Memref sig .tc .vmem S2000x96 .f32 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true]

abbrev stage16_1 : Fin 1 → Memref sig .tc .vmem S96x96 .f32 := fun | 0 => Memref.whole cc16_stg1_0 | ⟨_ + 1, h⟩ => absurd h (Nat.not_lt.2 (Nat.le_add_left _ _))
abbrev sem16_1 : Fin 1 → DmaSem sig := fun | 0 => cc16_sem1_0 | ⟨_ + 1, h⟩ => absurd h (Nat.not_lt.2 (Nat.le_add_left _ _))
abbrev reads16_1 : Fin grid16.rank → Bool := ![false]

abbrev stage16_2 : Fin 1 → Memref sig .tc .vmem S1x96 .f32 := fun | 0 => Memref.whole cc16_stg2_0 | ⟨_ + 1, h⟩ => absurd h (Nat.not_lt.2 (Nat.le_add_left _ _))
abbrev sem16_2 : Fin 1 → DmaSem sig := fun | 0 => cc16_sem2_0 | ⟨_ + 1, h⟩ => absurd h (Nat.not_lt.2 (Nat.le_add_left _ _))
abbrev reads16_2 : Fin grid16.rank → Bool := ![false]

abbrev stage16_3 : Fin 2 → Memref sig .tc .vmem S2000x1 .f32 := fun | 0 => Memref.whole cc16_stg3_0 | 1 => Memref.whole cc16_stg3_1 | ⟨_ + 2, h⟩ => absurd h (Nat.not_lt.2 (Nat.le_add_left _ _))
abbrev sem16_3 : Fin 2 → DmaSem sig := fun | 0 => cc16_sem3_0 | 1 => cc16_sem3_1 | ⟨_ + 2, h⟩ => absurd h (Nat.not_lt.2 (Nat.le_add_left _ _))
abbrev reads16_3 : Fin grid16.rank → Bool := ![true]

abbrev stage16_4 : Fin 2 → Memref sig .tc .vmem S2000x96 .f32 := fun | 0 => Memref.whole cc16_stg4_0 | 1 => Memref.whole cc16_stg4_1 | ⟨_ + 2, h⟩ => absurd h (Nat.not_lt.2 (Nat.le_add_left _ _))
abbrev sem16_4 : Fin 2 → DmaSem sig := fun | 0 => cc16_sem4_0 | 1 => cc16_sem4_1 | ⟨_ + 2, h⟩ => absurd h (Nat.not_lt.2 (Nat.le_add_left _ _))
abbrev reads16_4 : Fin grid16.rank → Bool := ![true]

abbrev stage16_5 : Fin 2 → Memref sig .tc .vmem S2000x96 .f32 := fun | 0 => Memref.whole cc16_stg5_0 | 1 => Memref.whole cc16_stg5_1 | ⟨_ + 2, h⟩ => absurd h (Nat.not_lt.2 (Nat.le_add_left _ _))
abbrev sem16_5 : Fin 2 → DmaSem sig := fun | 0 => cc16_sem5_0 | 1 => cc16_sem5_1 | ⟨_ + 2, h⟩ => absurd h (Nat.not_lt.2 (Nat.le_add_left _ _))
abbrev reads16_5 : Fin grid16.rank → Bool := ![true]

abbrev grid17 : Pipeline.Grid := ⟨1, ![25], ![false]⟩

def cc17_transform_0 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_1 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_2 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage17_0 : Fin 2 → Memref sig .tc .vmem S2000x96 .f32 := fun | 0 => Memref.whole cc17_stg0_0 | 1 => Memref.whole cc17_stg0_1 | ⟨_ + 2, h⟩ => absurd h (Nat.not_lt.2 (Nat.le_add_left _ _))
abbrev sem17_0 : Fin 2 → DmaSem sig := fun | 0 => cc17_sem0_0 | 1 => cc17_sem0_1 | ⟨_ + 2, h⟩ => absurd h (Nat.not_lt.2 (Nat.le_add_left _ _))
abbrev reads17_0 : Fin grid17.rank → Bool := ![true]

abbrev stage17_1 : Fin 2 → Memref sig .tc .vmem S2000x96 .f32 := fun | 0 => Memref.whole cc17_stg1_0 | 1 => Memref.whole cc17_stg1_1 | ⟨_ + 2, h⟩ => absurd h (Nat.not_lt.2 (Nat.le_add_left _ _))
abbrev sem17_1 : Fin 2 → DmaSem sig := fun | 0 => cc17_sem1_0 | 1 => cc17_sem1_1 | ⟨_ + 2, h⟩ => absurd h (Nat.not_lt.2 (Nat.le_add_left _ _))
abbrev reads17_1 : Fin grid17.rank → Bool := ![true]

abbrev stage17_2 : Fin 2 → Memref sig .tc .vmem S2000x96 .f32 := fun | 0 => Memref.whole cc17_stg2_0 | 1 => Memref.whole cc17_stg2_1 | ⟨_ + 2, h⟩ => absurd h (Nat.not_lt.2 (Nat.le_add_left _ _))
abbrev sem17_2 : Fin 2 → DmaSem sig := fun | 0 => cc17_sem2_0 | 1 => cc17_sem2_1 | ⟨_ + 2, h⟩ => absurd h (Nat.not_lt.2 (Nat.le_add_left _ _))
abbrev reads17_2 : Fin grid17.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S125_S1x125 : S125.ShapeCasts S1x125
  shapeCasts_S50000_S50000x1 : S50000.ShapeCasts S50000x1
  inb_S2000x96_S2000x96_0_0 : ∀ a, (![0, 0] : Fin 2 → Nat) a + S2000x96.size a ≤ S2000x96.size a
  h_S2000x96 : 0 < S2000x96.numel
  inb_S96x125_S96x125_0_0 : ∀ a, (![0, 0] : Fin 2 → Nat) a + S96x125.size a ≤ S96x125.size a
  h_S96x125 : 0 < S96x125.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x125 : S2000x1.Broadcasts S2000x125
  inb_S1x125_S1x125_0_0 : ∀ a, (![0, 0] : Fin 2 → Nat) a + S1x125.size a ≤ S1x125.size a
  h_S1x125 : 0 < S1x125.numel
  shapeCasts_S1x125_S1x125 : S1x125.ShapeCasts S1x125
  broadcasts_S1x125_S2000x125 : S1x125.Broadcasts S2000x125
  inb_S2000x125_S2000x125_0_0 : ∀ a, (![0, 0] : Fin 2 → Nat) a + S2000x125.size a ≤ S2000x125.size a
  h_S2000x125 : 0 < S2000x125.numel
  bcast_S800000x1_S800000x125_0_1 : S800000x1.BroadcastsInDim S800000x125 (![0, 1] : Fin 2 → Fin S800000x125.rank)
  bcast_S_S50000x125 : S_.BroadcastsInDim S50000x125 (![] : Fin 0 → Fin S50000x125.rank)
  shapeCasts_S2000x125_S2000x125 : S2000x125.ShapeCasts S2000x125
  shapeCasts_S144_S1x144 : S144.ShapeCasts S1x144
  inb_S125x144_S125x144_0_0 : ∀ a, (![0, 0] : Fin 2 → Nat) a + S125x144.size a ≤ S125x144.size a
  h_S125x144 : 0 < S125x144.numel
  broadcasts_S2000x1_S2000x144 : S2000x1.Broadcasts S2000x144
  inb_S1x144_S1x144_0_0 : ∀ a, (![0, 0] : Fin 2 → Nat) a + S1x144.size a ≤ S1x144.size a
  h_S1x144 : 0 < S1x144.numel
  shapeCasts_S1x144_S1x144 : S1x144.ShapeCasts S1x144
  broadcasts_S1x144_S2000x144 : S1x144.Broadcasts S2000x144
  inb_S2000x144_S2000x144_0_0 : ∀ a, (![0, 0] : Fin 2 → Nat) a + S2000x144.size a ≤ S2000x144.size a
  h_S2000x144 : 0 < S2000x144.numel
  bcast_S800000x1_S800000x144_0_1 : S800000x1.BroadcastsInDim S800000x144 (![0, 1] : Fin 2 → Fin S800000x144.rank)
  bcast_S_S50000x144 : S_.BroadcastsInDim S50000x144 (![] : Fin 0 → Fin S50000x144.rank)
  shapeCasts_S2000x144_S2000x144 : S2000x144.ShapeCasts S2000x144
  shapeCasts_S163_S1x163 : S163.ShapeCasts S1x163
  inb_S144x163_S144x163_0_0 : ∀ a, (![0, 0] : Fin 2 → Nat) a + S144x163.size a ≤ S144x163.size a
  h_S144x163 : 0 < S144x163.numel
  broadcasts_S2000x1_S2000x163 : S2000x1.Broadcasts S2000x163
  inb_S1x163_S1x163_0_0 : ∀ a, (![0, 0] : Fin 2 → Nat) a + S1x163.size a ≤ S1x163.size a
  h_S1x163 : 0 < S1x163.numel
  shapeCasts_S1x163_S1x163 : S1x163.ShapeCasts S1x163
  broadcasts_S1x163_S2000x163 : S1x163.Broadcasts S2000x163
  inb_S2000x163_S2000x163_0_0 : ∀ a, (![0, 0] : Fin 2 → Nat) a + S2000x163.size a ≤ S2000x163.size a
  h_S2000x163 : 0 < S2000x163.numel
  bcast_S800000x1_S800000x163_0_1 : S800000x1.BroadcastsInDim S800000x163 (![0, 1] : Fin 2 → Fin S800000x163.rank)
  bcast_S_S50000x163 : S_.BroadcastsInDim S50000x163 (![] : Fin 0 → Fin S50000x163.rank)
  shapeCasts_S2000x163_S2000x163 : S2000x163.ShapeCasts S2000x163
  shapeCasts_S192_S1x192 : S192.ShapeCasts S1x192
  inb_S163x192_S163x192_0_0 : ∀ a, (![0, 0] : Fin 2 → Nat) a + S163x192.size a ≤ S163x192.size a
  h_S163x192 : 0 < S163x192.numel
  broadcasts_S2000x1_S2000x192 : S2000x1.Broadcasts S2000x192
  inb_S1x192_S1x192_0_0 : ∀ a, (![0, 0] : Fin 2 → Nat) a + S1x192.size a ≤ S1x192.size a
  h_S1x192 : 0 < S1x192.numel
  shapeCasts_S1x192_S1x192 : S1x192.ShapeCasts S1x192
  broadcasts_S1x192_S2000x192 : S1x192.Broadcasts S2000x192
  inb_S2000x192_S2000x192_0_0 : ∀ a, (![0, 0] : Fin 2 → Nat) a + S2000x192.size a ≤ S2000x192.size a
  h_S2000x192 : 0 < S2000x192.numel
  bcast_S800000x1_S800000x192_0_1 : S800000x1.BroadcastsInDim S800000x192 (![0, 1] : Fin 2 → Fin S800000x192.rank)
  bcast_S_S50000x192 : S_.BroadcastsInDim S50000x192 (![] : Fin 0 → Fin S50000x192.rank)
  shapeCasts_S2000x192_S2000x192 : S2000x192.ShapeCasts S2000x192
  shapeCasts_S96_S1x96 : S96.ShapeCasts S1x96
  inb_S96x96_S96x96_0_0 : ∀ a, (![0, 0] : Fin 2 → Nat) a + S96x96.size a ≤ S96x96.size a
  h_S96x96 : 0 < S96x96.numel
  broadcasts_S2000x1_S2000x96 : S2000x1.Broadcasts S2000x96
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S2000x96 : S1x96.Broadcasts S2000x96
  bcast_S800000x1_S800000x96_0_1 : S800000x1.BroadcastsInDim S800000x96 (![0, 1] : Fin 2 → Fin S800000x96.rank)
  bcast_S_S50000x96 : S_.BroadcastsInDim S50000x96 (![] : Fin 0 → Fin S50000x96.rank)
  shapeCasts_S2000x96_S2000x96 : S2000x96.ShapeCasts S2000x96
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S2000x96_S96x125_S2000x125_1_0_0_1_n_n_wf : DotDims.WF S2000x96 S96x125 S2000x125 [1] [0] [0] [1] [] []
  gather_S50000x125_S800000x1_S800000x125_1_0_n_n_0_1_1125_wf : GatherDims.WF S50000x125 S800000x1 S800000x125 [1] [0] [] [0] [] 1 ![1, 125]
  scatter_S50000x125_S800000x1_S800000x125_1_0_0_1_wf : ScatterDims.WF S50000x125 S800000x1 S800000x125 [1] [0] [0] 1
  dot_S2000x125_S125x144_S2000x144_1_0_0_1_n_n_wf : DotDims.WF S2000x125 S125x144 S2000x144 [1] [0] [0] [1] [] []
  gather_S50000x144_S800000x1_S800000x144_1_0_n_n_0_1_1144_wf : GatherDims.WF S50000x144 S800000x1 S800000x144 [1] [0] [] [0] [] 1 ![1, 144]
  scatter_S50000x144_S800000x1_S800000x144_1_0_0_1_wf : ScatterDims.WF S50000x144 S800000x1 S800000x144 [1] [0] [0] 1
  dot_S2000x144_S144x163_S2000x163_1_0_0_1_n_n_wf : DotDims.WF S2000x144 S144x163 S2000x163 [1] [0] [0] [1] [] []
  gather_S50000x163_S800000x1_S800000x163_1_0_n_n_0_1_1163_wf : GatherDims.WF S50000x163 S800000x1 S800000x163 [1] [0] [] [0] [] 1 ![1, 163]
  scatter_S50000x163_S800000x1_S800000x163_1_0_0_1_wf : ScatterDims.WF S50000x163 S800000x1 S800000x163 [1] [0] [0] 1
  dot_S2000x163_S163x192_S2000x192_1_0_0_1_n_n_wf : DotDims.WF S2000x163 S163x192 S2000x192 [1] [0] [0] [1] [] []
  gather_S50000x192_S800000x1_S800000x192_1_0_n_n_0_1_1192_wf : GatherDims.WF S50000x192 S800000x1 S800000x192 [1] [0] [] [0] [] 1 ![1, 192]
  scatter_S50000x192_S800000x1_S800000x192_1_0_0_1_wf : ScatterDims.WF S50000x192 S800000x1 S800000x192 [1] [0] [0] 1
  dot_S2000x96_S96x96_S2000x96_1_0_0_1_n_n_wf : DotDims.WF S2000x96 S96x96 S2000x96 [1] [0] [0] [1] [] []
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x96.size a ≤ S50000x96.size a
  hwx0_0 : ∀ i : grid0.Coords, EltTy.bits .f32 = 32 ∨ (Rect.block (s := S50000x96) S2000x96.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S96x125.size a ≤ S96x125.size a
  hwx0_1 : ∀ i : grid0.Coords, EltTy.bits .f32 = 32 ∨ (Rect.block (s := S96x125) S96x125.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x125.size a ≤ S1x125.size a
  hwx0_2 : ∀ i : grid0.Coords, EltTy.bits .f32 = 32 ∨ (Rect.block (s := S1x125) S1x125.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x1.size a ≤ S50000x1.size a
  hwx0_3 : ∀ i : grid0.Coords, EltTy.bits .f32 = 32 ∨ (Rect.block (s := S50000x1) S2000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x125.size a ≤ S50000x125.size a
  hwx0_4 : ∀ i : grid0.Coords, EltTy.bits .f32 = 32 ∨ (Rect.block (s := S50000x125) S2000x125.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x125.size a ≤ S50000x125.size a
  hwx0_5 : ∀ i : grid0.Coords, EltTy.bits .f32 = 32 ∨ (Rect.block (s := S50000x125) S2000x125.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x125.size a ≤ S50000x125.size a
  hwx1_0 : ∀ i : grid1.Coords, EltTy.bits .f32 = 32 ∨ (Rect.block (s := S50000x125) S2000x125.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x125.size a ≤ S50000x125.size a
  hwx1_1 : ∀ i : grid1.Coords, EltTy.bits .f32 = 32 ∨ (Rect.block (s := S50000x125) S2000x125.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x125.size a ≤ S50000x125.size a
  hwx1_2 : ∀ i : grid1.Coords, EltTy.bits .f32 = 32 ∨ (Rect.block (s := S50000x125) S2000x125.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x125.size a ≤ S50000x125.size a
  hwx2_0 : ∀ i : grid2.Coords, EltTy.bits .f32 = 32 ∨ (Rect.block (s := S50000x125) S2000x125.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S125x144.size a ≤ S125x144.size a
  hwx2_1 : ∀ i : grid2.Coords, EltTy.bits .f32 = 32 ∨ (Rect.block (s := S125x144) S125x144.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x144.size a ≤ S1x144.size a
  hwx2_2 : ∀ i : grid2.Coords, EltTy.bits .f32 = 32 ∨ (Rect.block (s := S1x144) S1x144.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x1.size a ≤ S50000x1.size a
  hwx2_3 : ∀ i : grid2.Coords, EltTy.bits .f32 = 32 ∨ (Rect.block (s := S50000x1) S2000x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x144.size a ≤ S50000x144.size a
  hwx2_4 : ∀ i : grid2.Coords, EltTy.bits .f32 = 32 ∨ (Rect.block (s := S50000x144) S2000x144.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x144.size a ≤ S50000x144.size a
  hwx2_5 : ∀ i : grid2.Coords, EltTy.bits .f32 = 32 ∨ (Rect.block (s := S50000x144) S2000x144.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x144.size a ≤ S50000x144.size a
  hwx3_0 : ∀ i : grid3.Coords, EltTy.bits .f32 = 32 ∨ (Rect.block (s := S50000x144) S2000x144.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x144.size a ≤ S50000x144.size a
  hwx3_1 : ∀ i : grid3.Coords, EltTy.bits .f32 = 32 ∨ (Rect.block (s := S50000x144) S2000x144.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x144.size a ≤ S50000x144.size a
  hwx3_2 : ∀ i : grid3.Coords, EltTy.bits .f32 = 32 ∨ (Rect.block (s := S50000x144) S2000x144.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x144.size a ≤ S50000x144.size a
  hwx4_0 : ∀ i : grid4.Coords, EltTy.bits .f32 = 32 ∨ (Rect.block (s := S50000x144) S2000x144.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S144x163.size a ≤ S144x163.size a
  hwx4_1 : ∀ i : grid4.Coords, EltTy.bits .f32 = 32 ∨ (Rect.block (s := S144x163) S144x163.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x163.size a ≤ S1x163.size a
  hwx4_2 : ∀ i : grid4.Coords, EltTy.bits .f32 = 32 ∨ (Rect.block (s := S1x163) S1x163.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x1.size a ≤ S50000x1.size a
  hwx4_3 : ∀ i : grid4.Coords, EltTy.bits .f32 = 32 ∨ (Rect.block (s := S50000x1) S2000x1.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S2000x163.size a ≤ S50000x163.size a
  hwx4_4 : ∀ i : grid4.Coords, EltTy.bits .f32 = 32 ∨ (Rect.block (s := S50000x163) S2000x163.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2000x163.size a ≤ S50000x163.size a
  hwx4_5 : ∀ i : grid4.Coords, EltTy.bits .f32 = 32 ∨ (Rect.block (s := S50000x163) S2000x163.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x163.size a ≤ S50000x163.size a
  hwx5_0 : ∀ i : grid5.Coords, EltTy.bits .f32 = 32 ∨ (Rect.block (s := S50000x163) S2000x163.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x163.size a ≤ S50000x163.size a
  hwx5_1 : ∀ i : grid5.Coords, EltTy.bits .f32 = 32 ∨ (Rect.block (s := S50000x163) S2000x163.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x163.size a ≤ S50000x163.size a
  hwx5_2 : ∀ i : grid5.Coords, EltTy.bits .f32 = 32 ∨ (Rect.block (s := S50000x163) S2000x163.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x144.size a ≤ S50000x144.size a
  hwx6_0 : ∀ i : grid6.Coords, EltTy.bits .f32 = 32 ∨ (Rect.block (s := S50000x144) S2000x144.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S144x163.size a ≤ S144x163.size a
  hwx6_1 : ∀ i : grid6.Coords, EltTy.bits .f32 = 32 ∨ (Rect.block (s := S144x163) S144x163.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x163.size a ≤ S1x163.size a
  hwx6_2 : ∀ i : grid6.Coords, EltTy.bits .f32 = 32 ∨ (Rect.block (s := S1x163) S1x163.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2000x1.size a ≤ S50000x1.size a
  hwx6_3 : ∀ i : grid6.Coords, EltTy.bits .f32 = 32 ∨ (Rect.block (s := S50000x1) S2000x1.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S2000x163.size a ≤ S50000x163.size a
  hwx6_4 : ∀ i : grid6.Coords, EltTy.bits .f32 = 32 ∨ (Rect.block (s := S50000x163) S2000x163.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S2000x163.size a ≤ S50000x163.size a
  hwx6_5 : ∀ i : grid6.Coords, EltTy.bits .f32 = 32 ∨ (Rect.block (s := S50000x163) S2000x163.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x163.size a ≤ S50000x163.size a
  hwx7_0 : ∀ i : grid7.Coords, EltTy.bits .f32 = 32 ∨ (Rect.block (s := S50000x163) S2000x163.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2000x163.size a ≤ S50000x163.size a
  hwx7_1 : ∀ i : grid7.Coords, EltTy.bits .f32 = 32 ∨ (Rect.block (s := S50000x163) S2000x163.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2000x163.size a ≤ S50000x163.size a
  hwx7_2 : ∀ i : grid7.Coords, EltTy.bits .f32 = 32 ∨ (Rect.block (s := S50000x163) S2000x163.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x163.size a ≤ S50000x163.size a
  hwx8_0 : ∀ i : grid8.Coords, EltTy.bits .f32 = 32 ∨ (Rect.block (s := S50000x163) S2000x163.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S163x192.size a ≤ S163x192.size a
  hwx8_1 : ∀ i : grid8.Coords, EltTy.bits .f32 = 32 ∨ (Rect.block (s := S163x192) S163x192.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x192.size a ≤ S1x192.size a
  hwx8_2 : ∀ i : grid8.Coords, EltTy.bits .f32 = 32 ∨ (Rect.block (s := S1x192) S1x192.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S2000x1.size a ≤ S50000x1.size a
  hwx8_3 : ∀ i : grid8.Coords, EltTy.bits .f32 = 32 ∨ (Rect.block (s := S50000x1) S2000x1.size (cc8_transform_3 i) (hinb8_3 i)).WholeWords (EltTy.packing .f32)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S2000x192.size a ≤ S50000x192.size a
  hwx8_4 : ∀ i : grid8.Coords, EltTy.bits .f32 = 32 ∨ (Rect.block (s := S50000x192) S2000x192.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S2000x192.size a ≤ S50000x192.size a
  hwx8_5 : ∀ i : grid8.Coords, EltTy.bits .f32 = 32 ∨ (Rect.block (s := S50000x192) S2000x192.size (cc8_transform_5 i) (hinb8_5 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2000x192.size a ≤ S50000x192.size a
  hwx9_0 : ∀ i : grid9.Coords, EltTy.bits .f32 = 32 ∨ (Rect.block (s := S50000x192) S2000x192.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S2000x192.size a ≤ S50000x192.size a
  hwx9_1 : ∀ i : grid9.Coords, EltTy.bits .f32 = 32 ∨ (Rect.block (s := S50000x192) S2000x192.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S2000x192.size a ≤ S50000x192.size a
  hwx9_2 : ∀ i : grid9.Coords, EltTy.bits .f32 = 32 ∨ (Rect.block (s := S50000x192) S2000x192.size (cc9_transform_2 i) (hinb9_2 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S2000x96.size a ≤ S50000x96.size a
  hwx10_0 : ∀ i : grid10.Coords, EltTy.bits .f32 = 32 ∨ (Rect.block (s := S50000x96) S2000x96.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S96x96.size a ≤ S96x96.size a
  hwx10_1 : ∀ i : grid10.Coords, EltTy.bits .f32 = 32 ∨ (Rect.block (s := S96x96) S96x96.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x96.size a ≤ S1x96.size a
  hwx10_2 : ∀ i : grid10.Coords, EltTy.bits .f32 = 32 ∨ (Rect.block (s := S1x96) S1x96.size (cc10_transform_2 i) (hinb10_2 i)).WholeWords (EltTy.packing .f32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S2000x1.size a ≤ S50000x1.size a
  hwx10_3 : ∀ i : grid10.Coords, EltTy.bits .f32 = 32 ∨ (Rect.block (s := S50000x1) S2000x1.size (cc10_transform_3 i) (hinb10_3 i)).WholeWords (EltTy.packing .f32)
  hstage10_4 : ∀ j, (stage10_4 j).IsWhole
  nbuf10_4 : grid10.bufCount reads10_4 false = 2
  hreads10_4 : ∀ i i' : grid10.Coords, (∀ a, reads10_4 a = true → i a = i' a) → cc10_transform_4 i = cc10_transform_4 i'
  hinb10_4 : ∀ (i : grid10.Coords) a, (cc10_transform_4 i a + 1) * S2000x96.size a ≤ S50000x96.size a
  hwx10_4 : ∀ i : grid10.Coords, EltTy.bits .f32 = 32 ∨ (Rect.block (s := S50000x96) S2000x96.size (cc10_transform_4 i) (hinb10_4 i)).WholeWords (EltTy.packing .f32)
  hstage10_5 : ∀ j, (stage10_5 j).IsWhole
  nbuf10_5 : grid10.bufCount reads10_5 false = 2
  hreads10_5 : ∀ i i' : grid10.Coords, (∀ a, reads10_5 a = true → i a = i' a) → cc10_transform_5 i = cc10_transform_5 i'
  hinb10_5 : ∀ (i : grid10.Coords) a, (cc10_transform_5 i a + 1) * S2000x96.size a ≤ S50000x96.size a
  hwx10_5 : ∀ i : grid10.Coords, EltTy.bits .f32 = 32 ∨ (Rect.block (s := S50000x96) S2000x96.size (cc10_transform_5 i) (hinb10_5 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S2000x96.size a ≤ S50000x96.size a
  hwx11_0 : ∀ i : grid11.Coords, EltTy.bits .f32 = 32 ∨ (Rect.block (s := S50000x96) S2000x96.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S2000x96.size a ≤ S50000x96.size a
  hwx11_1 : ∀ i : grid11.Coords, EltTy.bits .f32 = 32 ∨ (Rect.block (s := S50000x96) S2000x96.size (cc11_transform_1 i) (hinb11_1 i)).WholeWords (EltTy.packing .f32)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S2000x96.size a ≤ S50000x96.size a
  hwx11_2 : ∀ i : grid11.Coords, EltTy.bits .f32 = 32 ∨ (Rect.block (s := S50000x96) S2000x96.size (cc11_transform_2 i) (hinb11_2 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S2000x96.size a ≤ S50000x96.size a
  hwx12_0 : ∀ i : grid12.Coords, EltTy.bits .f32 = 32 ∨ (Rect.block (s := S50000x96) S2000x96.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S96x96.size a ≤ S96x96.size a
  hwx12_1 : ∀ i : grid12.Coords, EltTy.bits .f32 = 32 ∨ (Rect.block (s := S96x96) S96x96.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1x96.size a ≤ S1x96.size a
  hwx12_2 : ∀ i : grid12.Coords, EltTy.bits .f32 = 32 ∨ (Rect.block (s := S1x96) S1x96.size (cc12_transform_2 i) (hinb12_2 i)).WholeWords (EltTy.packing .f32)
  hstage12_3 : ∀ j, (stage12_3 j).IsWhole
  nbuf12_3 : grid12.bufCount reads12_3 false = 2
  hreads12_3 : ∀ i i' : grid12.Coords, (∀ a, reads12_3 a = true → i a = i' a) → cc12_transform_3 i = cc12_transform_3 i'
  hinb12_3 : ∀ (i : grid12.Coords) a, (cc12_transform_3 i a + 1) * S2000x1.size a ≤ S50000x1.size a
  hwx12_3 : ∀ i : grid12.Coords, EltTy.bits .f32 = 32 ∨ (Rect.block (s := S50000x1) S2000x1.size (cc12_transform_3 i) (hinb12_3 i)).WholeWords (EltTy.packing .f32)
  hstage12_4 : ∀ j, (stage12_4 j).IsWhole
  nbuf12_4 : grid12.bufCount reads12_4 false = 2
  hreads12_4 : ∀ i i' : grid12.Coords, (∀ a, reads12_4 a = true → i a = i' a) → cc12_transform_4 i = cc12_transform_4 i'
  hinb12_4 : ∀ (i : grid12.Coords) a, (cc12_transform_4 i a + 1) * S2000x96.size a ≤ S50000x96.size a
  hwx12_4 : ∀ i : grid12.Coords, EltTy.bits .f32 = 32 ∨ (Rect.block (s := S50000x96) S2000x96.size (cc12_transform_4 i) (hinb12_4 i)).WholeWords (EltTy.packing .f32)
  hstage12_5 : ∀ j, (stage12_5 j).IsWhole
  nbuf12_5 : grid12.bufCount reads12_5 false = 2
  hreads12_5 : ∀ i i' : grid12.Coords, (∀ a, reads12_5 a = true → i a = i' a) → cc12_transform_5 i = cc12_transform_5 i'
  hinb12_5 : ∀ (i : grid12.Coords) a, (cc12_transform_5 i a + 1) * S2000x96.size a ≤ S50000x96.size a
  hwx12_5 : ∀ i : grid12.Coords, EltTy.bits .f32 = 32 ∨ (Rect.block (s := S50000x96) S2000x96.size (cc12_transform_5 i) (hinb12_5 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S2000x96.size a ≤ S50000x96.size a
  hwx13_0 : ∀ i : grid13.Coords, EltTy.bits .f32 = 32 ∨ (Rect.block (s := S50000x96) S2000x96.size (cc13_transform_0 i) (hinb13_0 i)).WholeWords (EltTy.packing .f32)
  hstage13_1 : ∀ j, (stage13_1 j).IsWhole
  nbuf13_1 : grid13.bufCount reads13_1 false = 2
  hreads13_1 : ∀ i i' : grid13.Coords, (∀ a, reads13_1 a = true → i a = i' a) → cc13_transform_1 i = cc13_transform_1 i'
  hinb13_1 : ∀ (i : grid13.Coords) a, (cc13_transform_1 i a + 1) * S2000x96.size a ≤ S50000x96.size a
  hwx13_1 : ∀ i : grid13.Coords, EltTy.bits .f32 = 32 ∨ (Rect.block (s := S50000x96) S2000x96.size (cc13_transform_1 i) (hinb13_1 i)).WholeWords (EltTy.packing .f32)
  hstage13_2 : ∀ j, (stage13_2 j).IsWhole
  nbuf13_2 : grid13.bufCount reads13_2 false = 2
  hreads13_2 : ∀ i i' : grid13.Coords, (∀ a, reads13_2 a = true → i a = i' a) → cc13_transform_2 i = cc13_transform_2 i'
  hinb13_2 : ∀ (i : grid13.Coords) a, (cc13_transform_2 i a + 1) * S2000x96.size a ≤ S50000x96.size a
  hwx13_2 : ∀ i : grid13.Coords, EltTy.bits .f32 = 32 ∨ (Rect.block (s := S50000x96) S2000x96.size (cc13_transform_2 i) (hinb13_2 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S2000x96.size a ≤ S50000x96.size a
  hwx14_0 : ∀ i : grid14.Coords, EltTy.bits .f32 = 32 ∨ (Rect.block (s := S50000x96) S2000x96.size (cc14_transform_0 i) (hinb14_0 i)).WholeWords (EltTy.packing .f32)
  hstage14_1 : ∀ j, (stage14_1 j).IsWhole
  nbuf14_1 : grid14.bufCount reads14_1 true = 1
  hreads14_1 : ∀ i i' : grid14.Coords, (∀ a, reads14_1 a = true → i a = i' a) → cc14_transform_1 i = cc14_transform_1 i'
  hinb14_1 : ∀ (i : grid14.Coords) a, (cc14_transform_1 i a + 1) * S96x96.size a ≤ S96x96.size a
  hwx14_1 : ∀ i : grid14.Coords, EltTy.bits .f32 = 32 ∨ (Rect.block (s := S96x96) S96x96.size (cc14_transform_1 i) (hinb14_1 i)).WholeWords (EltTy.packing .f32)
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S1x96.size a ≤ S1x96.size a
  hwx14_2 : ∀ i : grid14.Coords, EltTy.bits .f32 = 32 ∨ (Rect.block (s := S1x96) S1x96.size (cc14_transform_2 i) (hinb14_2 i)).WholeWords (EltTy.packing .f32)
  hstage14_3 : ∀ j, (stage14_3 j).IsWhole
  nbuf14_3 : grid14.bufCount reads14_3 false = 2
  hreads14_3 : ∀ i i' : grid14.Coords, (∀ a, reads14_3 a = true → i a = i' a) → cc14_transform_3 i = cc14_transform_3 i'
  hinb14_3 : ∀ (i : grid14.Coords) a, (cc14_transform_3 i a + 1) * S2000x1.size a ≤ S50000x1.size a
  hwx14_3 : ∀ i : grid14.Coords, EltTy.bits .f32 = 32 ∨ (Rect.block (s := S50000x1) S2000x1.size (cc14_transform_3 i) (hinb14_3 i)).WholeWords (EltTy.packing .f32)
  hstage14_4 : ∀ j, (stage14_4 j).IsWhole
  nbuf14_4 : grid14.bufCount reads14_4 false = 2
  hreads14_4 : ∀ i i' : grid14.Coords, (∀ a, reads14_4 a = true → i a = i' a) → cc14_transform_4 i = cc14_transform_4 i'
  hinb14_4 : ∀ (i : grid14.Coords) a, (cc14_transform_4 i a + 1) * S2000x96.size a ≤ S50000x96.size a
  hwx14_4 : ∀ i : grid14.Coords, EltTy.bits .f32 = 32 ∨ (Rect.block (s := S50000x96) S2000x96.size (cc14_transform_4 i) (hinb14_4 i)).WholeWords (EltTy.packing .f32)
  hstage14_5 : ∀ j, (stage14_5 j).IsWhole
  nbuf14_5 : grid14.bufCount reads14_5 false = 2
  hreads14_5 : ∀ i i' : grid14.Coords, (∀ a, reads14_5 a = true → i a = i' a) → cc14_transform_5 i = cc14_transform_5 i'
  hinb14_5 : ∀ (i : grid14.Coords) a, (cc14_transform_5 i a + 1) * S2000x96.size a ≤ S50000x96.size a
  hwx14_5 : ∀ i : grid14.Coords, EltTy.bits .f32 = 32 ∨ (Rect.block (s := S50000x96) S2000x96.size (cc14_transform_5 i) (hinb14_5 i)).WholeWords (EltTy.packing .f32)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S2000x96.size a ≤ S50000x96.size a
  hwx15_0 : ∀ i : grid15.Coords, EltTy.bits .f32 = 32 ∨ (Rect.block (s := S50000x96) S2000x96.size (cc15_transform_0 i) (hinb15_0 i)).WholeWords (EltTy.packing .f32)
  hstage15_1 : ∀ j, (stage15_1 j).IsWhole
  nbuf15_1 : grid15.bufCount reads15_1 false = 2
  hreads15_1 : ∀ i i' : grid15.Coords, (∀ a, reads15_1 a = true → i a = i' a) → cc15_transform_1 i = cc15_transform_1 i'
  hinb15_1 : ∀ (i : grid15.Coords) a, (cc15_transform_1 i a + 1) * S2000x96.size a ≤ S50000x96.size a
  hwx15_1 : ∀ i : grid15.Coords, EltTy.bits .f32 = 32 ∨ (Rect.block (s := S50000x96) S2000x96.size (cc15_transform_1 i) (hinb15_1 i)).WholeWords (EltTy.packing .f32)
  hstage15_2 : ∀ j, (stage15_2 j).IsWhole
  nbuf15_2 : grid15.bufCount reads15_2 false = 2
  hreads15_2 : ∀ i i' : grid15.Coords, (∀ a, reads15_2 a = true → i a = i' a) → cc15_transform_2 i = cc15_transform_2 i'
  hinb15_2 : ∀ (i : grid15.Coords) a, (cc15_transform_2 i a + 1) * S2000x96.size a ≤ S50000x96.size a
  hwx15_2 : ∀ i : grid15.Coords, EltTy.bits .f32 = 32 ∨ (Rect.block (s := S50000x96) S2000x96.size (cc15_transform_2 i) (hinb15_2 i)).WholeWords (EltTy.packing .f32)
  hrank16 : 0 < grid16.rank
  hstage16_0 : ∀ j, (stage16_0 j).IsWhole
  nbuf16_0 : grid16.bufCount reads16_0 false = 2
  hreads16_0 : ∀ i i' : grid16.Coords, (∀ a, reads16_0 a = true → i a = i' a) → cc16_transform_0 i = cc16_transform_0 i'
  hinb16_0 : ∀ (i : grid16.Coords) a, (cc16_transform_0 i a + 1) * S2000x96.size a ≤ S50000x96.size a
  hwx16_0 : ∀ i : grid16.Coords, EltTy.bits .f32 = 32 ∨ (Rect.block (s := S50000x96) S2000x96.size (cc16_transform_0 i) (hinb16_0 i)).WholeWords (EltTy.packing .f32)
  hstage16_1 : ∀ j, (stage16_1 j).IsWhole
  nbuf16_1 : grid16.bufCount reads16_1 true = 1
  hreads16_1 : ∀ i i' : grid16.Coords, (∀ a, reads16_1 a = true → i a = i' a) → cc16_transform_1 i = cc16_transform_1 i'
  hinb16_1 : ∀ (i : grid16.Coords) a, (cc16_transform_1 i a + 1) * S96x96.size a ≤ S96x96.size a
  hwx16_1 : ∀ i : grid16.Coords, EltTy.bits .f32 = 32 ∨ (Rect.block (s := S96x96) S96x96.size (cc16_transform_1 i) (hinb16_1 i)).WholeWords (EltTy.packing .f32)
  hstage16_2 : ∀ j, (stage16_2 j).IsWhole
  nbuf16_2 : grid16.bufCount reads16_2 true = 1
  hreads16_2 : ∀ i i' : grid16.Coords, (∀ a, reads16_2 a = true → i a = i' a) → cc16_transform_2 i = cc16_transform_2 i'
  hinb16_2 : ∀ (i : grid16.Coords) a, (cc16_transform_2 i a + 1) * S1x96.size a ≤ S1x96.size a
  hwx16_2 : ∀ i : grid16.Coords, EltTy.bits .f32 = 32 ∨ (Rect.block (s := S1x96) S1x96.size (cc16_transform_2 i) (hinb16_2 i)).WholeWords (EltTy.packing .f32)
  hstage16_3 : ∀ j, (stage16_3 j).IsWhole
  nbuf16_3 : grid16.bufCount reads16_3 false = 2
  hreads16_3 : ∀ i i' : grid16.Coords, (∀ a, reads16_3 a = true → i a = i' a) → cc16_transform_3 i = cc16_transform_3 i'
  hinb16_3 : ∀ (i : grid16.Coords) a, (cc16_transform_3 i a + 1) * S2000x1.size a ≤ S50000x1.size a
  hwx16_3 : ∀ i : grid16.Coords, EltTy.bits .f32 = 32 ∨ (Rect.block (s := S50000x1) S2000x1.size (cc16_transform_3 i) (hinb16_3 i)).WholeWords (EltTy.packing .f32)
  hstage16_4 : ∀ j, (stage16_4 j).IsWhole
  nbuf16_4 : grid16.bufCount reads16_4 false = 2
  hreads16_4 : ∀ i i' : grid16.Coords, (∀ a, reads16_4 a = true → i a = i' a) → cc16_transform_4 i = cc16_transform_4 i'
  hinb16_4 : ∀ (i : grid16.Coords) a, (cc16_transform_4 i a + 1) * S2000x96.size a ≤ S50000x96.size a
  hwx16_4 : ∀ i : grid16.Coords, EltTy.bits .f32 = 32 ∨ (Rect.block (s := S50000x96) S2000x96.size (cc16_transform_4 i) (hinb16_4 i)).WholeWords (EltTy.packing .f32)
  hstage16_5 : ∀ j, (stage16_5 j).IsWhole
  nbuf16_5 : grid16.bufCount reads16_5 false = 2
  hreads16_5 : ∀ i i' : grid16.Coords, (∀ a, reads16_5 a = true → i a = i' a) → cc16_transform_5 i = cc16_transform_5 i'
  hinb16_5 : ∀ (i : grid16.Coords) a, (cc16_transform_5 i a + 1) * S2000x96.size a ≤ S50000x96.size a
  hwx16_5 : ∀ i : grid16.Coords, EltTy.bits .f32 = 32 ∨ (Rect.block (s := S50000x96) S2000x96.size (cc16_transform_5 i) (hinb16_5 i)).WholeWords (EltTy.packing .f32)
  hrank17 : 0 < grid17.rank
  hstage17_0 : ∀ j, (stage17_0 j).IsWhole
  nbuf17_0 : grid17.bufCount reads17_0 false = 2
  hreads17_0 : ∀ i i' : grid17.Coords, (∀ a, reads17_0 a = true → i a = i' a) → cc17_transform_0 i = cc17_transform_0 i'
  hinb17_0 : ∀ (i : grid17.Coords) a, (cc17_transform_0 i a + 1) * S2000x96.size a ≤ S50000x96.size a
  hwx17_0 : ∀ i : grid17.Coords, EltTy.bits .f32 = 32 ∨ (Rect.block (s := S50000x96) S2000x96.size (cc17_transform_0 i) (hinb17_0 i)).WholeWords (EltTy.packing .f32)
  hstage17_1 : ∀ j, (stage17_1 j).IsWhole
  nbuf17_1 : grid17.bufCount reads17_1 false = 2
  hreads17_1 : ∀ i i' : grid17.Coords, (∀ a, reads17_1 a = true → i a = i' a) → cc17_transform_1 i = cc17_transform_1 i'
  hinb17_1 : ∀ (i : grid17.Coords) a, (cc17_transform_1 i a + 1) * S2000x96.size a ≤ S50000x96.size a
  hwx17_1 : ∀ i : grid17.Coords, EltTy.bits .f32 = 32 ∨ (Rect.block (s := S50000x96) S2000x96.size (cc17_transform_1 i) (hinb17_1 i)).WholeWords (EltTy.packing .f32)
  hstage17_2 : ∀ j, (stage17_2 j).IsWhole
  nbuf17_2 : grid17.bufCount reads17_2 false = 2
  hreads17_2 : ∀ i i' : grid17.Coords, (∀ a, reads17_2 a = true → i a = i' a) → cc17_transform_2 i = cc17_transform_2 i'
  hinb17_2 : ∀ (i : grid17.Coords) a, (cc17_transform_2 i a + 1) * S2000x96.size a ≤ S50000x96.size a
  hwx17_2 : ∀ i : grid17.Coords, EltTy.bits .f32 = 32 ∨ (Rect.block (s := S50000x96) S2000x96.size (cc17_transform_2 i) (hinb17_2 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S2000x96_S96x125_S2000x125_1_0_0_1_n_n : DotDims S2000x96 S96x125 S2000x125 where
  lhsContracting := [1]
  rhsContracting := [0]
  lhsNonContracting := [0]
  rhsNonContracting := [1]
  lhsBatch := []
  rhsBatch := []
  wf := dot_S2000x96_S96x125_S2000x125_1_0_0_1_n_n_wf
def gather_S50000x125_S800000x1_S800000x125_1_0_n_n_0_1_1125 : GatherDims S50000x125 S800000x1 S800000x125 where
  offsetDims := [1]
  collapsedSliceDims := [0]
  operandBatchingDims := []
  startIndicesBatchingDims := []
  startIndexMap := [0]
  indexVectorDim := 1
  sliceSizes := ![1, 125]
  wf := gather_S50000x125_S800000x1_S800000x125_1_0_n_n_0_1_1125_wf
def scatter_S50000x125_S800000x1_S800000x125_1_0_0_1 : ScatterDims S50000x125 S800000x1 S800000x125 where
  updateWindowDims := [1]
  insertedWindowDims := [0]
  scatterDimsToOperandDims := [0]
  indexVectorDim := 1
  wf := scatter_S50000x125_S800000x1_S800000x125_1_0_0_1_wf
def dot_S2000x125_S125x144_S2000x144_1_0_0_1_n_n : DotDims S2000x125 S125x144 S2000x144 where
  lhsContracting := [1]
  rhsContracting := [0]
  lhsNonContracting := [0]
  rhsNonContracting := [1]
  lhsBatch := []
  rhsBatch := []
  wf := dot_S2000x125_S125x144_S2000x144_1_0_0_1_n_n_wf
def gather_S50000x144_S800000x1_S800000x144_1_0_n_n_0_1_1144 : GatherDims S50000x144 S800000x1 S800000x144 where
  offsetDims := [1]
  collapsedSliceDims := [0]
  operandBatchingDims := []
  startIndicesBatchingDims := []
  startIndexMap := [0]
  indexVectorDim := 1
  sliceSizes := ![1, 144]
  wf := gather_S50000x144_S800000x1_S800000x144_1_0_n_n_0_1_1144_wf
def scatter_S50000x144_S800000x1_S800000x144_1_0_0_1 : ScatterDims S50000x144 S800000x1 S800000x144 where
  updateWindowDims := [1]
  insertedWindowDims := [0]
  scatterDimsToOperandDims := [0]
  indexVectorDim := 1
  wf := scatter_S50000x144_S800000x1_S800000x144_1_0_0_1_wf
def dot_S2000x144_S144x163_S2000x163_1_0_0_1_n_n : DotDims S2000x144 S144x163 S2000x163 where
  lhsContracting := [1]
  rhsContracting := [0]
  lhsNonContracting := [0]
  rhsNonContracting := [1]
  lhsBatch := []
  rhsBatch := []
  wf := dot_S2000x144_S144x163_S2000x163_1_0_0_1_n_n_wf
def gather_S50000x163_S800000x1_S800000x163_1_0_n_n_0_1_1163 : GatherDims S50000x163 S800000x1 S800000x163 where
  offsetDims := [1]
  collapsedSliceDims := [0]
  operandBatchingDims := []
  startIndicesBatchingDims := []
  startIndexMap := [0]
  indexVectorDim := 1
  sliceSizes := ![1, 163]
  wf := gather_S50000x163_S800000x1_S800000x163_1_0_n_n_0_1_1163_wf
def scatter_S50000x163_S800000x1_S800000x163_1_0_0_1 : ScatterDims S50000x163 S800000x1 S800000x163 where
  updateWindowDims := [1]
  insertedWindowDims := [0]
  scatterDimsToOperandDims := [0]
  indexVectorDim := 1
  wf := scatter_S50000x163_S800000x1_S800000x163_1_0_0_1_wf
def dot_S2000x163_S163x192_S2000x192_1_0_0_1_n_n : DotDims S2000x163 S163x192 S2000x192 where
  lhsContracting := [1]
  rhsContracting := [0]
  lhsNonContracting := [0]
  rhsNonContracting := [1]
  lhsBatch := []
  rhsBatch := []
  wf := dot_S2000x163_S163x192_S2000x192_1_0_0_1_n_n_wf
def gather_S50000x192_S800000x1_S800000x192_1_0_n_n_0_1_1192 : GatherDims S50000x192 S800000x1 S800000x192 where
  offsetDims := [1]
  collapsedSliceDims := [0]
  operandBatchingDims := []
  startIndicesBatchingDims := []
  startIndexMap := [0]
  indexVectorDim := 1
  sliceSizes := ![1, 192]
  wf := gather_S50000x192_S800000x1_S800000x192_1_0_n_n_0_1_1192_wf
def scatter_S50000x192_S800000x1_S800000x192_1_0_0_1 : ScatterDims S50000x192 S800000x1 S800000x192 where
  updateWindowDims := [1]
  insertedWindowDims := [0]
  scatterDimsToOperandDims := [0]
  indexVectorDim := 1
  wf := scatter_S50000x192_S800000x1_S800000x192_1_0_0_1_wf
def dot_S2000x96_S96x96_S2000x96_1_0_0_1_n_n : DotDims S2000x96 S96x96 S2000x96 where
  lhsContracting := [1]
  rhsContracting := [0]
  lhsNonContracting := [0]
  rhsNonContracting := [1]
  lhsBatch := []
  rhsBatch := []
  wf := dot_S2000x96_S96x96_S2000x96_1_0_0_1_n_n_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf

abbrev win0_0 : Pipeline.Window sig grid0 :=
  Pipeline.Window.ofSpec (Memref.whole main_arg0) S2000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S96x125.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S1x125.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v29) S2000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v30_0) S2000x125.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v30_1) S2000x125.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v43) S2000x125.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30_0) S2000x125.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v44) S2000x125.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v44) S2000x125.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S125x144.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S1x144.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v46) S2000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v47_0) S2000x144.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v47_1) S2000x144.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v60) S2000x144.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v47_0) S2000x144.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v61) S2000x144.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v61) S2000x144.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg8) S144x163.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v62) S1x163.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v63) S2000x1.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v64_0) S2000x163.size cc4_transform_4 reads4_4 true false 2 stage4_4 sem4_4
    hrank4 hreads4_4 hinb4_4 nbuf4_4 (Memref.isWhole_whole _) hwx4_4 hstage4_4

abbrev win4_5 : Pipeline.Window sig grid4 :=
  Pipeline.Window.ofSpec (Memref.whole main_v64_1) S2000x163.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v77) S2000x163.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v64_0) S2000x163.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v78) S2000x163.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v61) S2000x144.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg10) S144x163.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v79) S1x163.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v80) S2000x1.size cc6_transform_3 reads6_3 false false 2 stage6_3 sem6_3
    hrank6 hreads6_3 hinb6_3 nbuf6_3 (Memref.isWhole_whole _) hwx6_3 hstage6_3

abbrev win6_4 : Pipeline.Window sig grid6 :=
  Pipeline.Window.ofSpec (Memref.whole main_v81_0) S2000x163.size cc6_transform_4 reads6_4 true false 2 stage6_4 sem6_4
    hrank6 hreads6_4 hinb6_4 nbuf6_4 (Memref.isWhole_whole _) hwx6_4 hstage6_4

abbrev win6_5 : Pipeline.Window sig grid6 :=
  Pipeline.Window.ofSpec (Memref.whole main_v81_1) S2000x163.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v94) S2000x163.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v81_0) S2000x163.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v95) S2000x163.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v100) S2000x163.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg12) S163x192.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v101) S1x192.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v102) S2000x1.size cc8_transform_3 reads8_3 false false 2 stage8_3 sem8_3
    hrank8 hreads8_3 hinb8_3 nbuf8_3 (Memref.isWhole_whole _) hwx8_3 hstage8_3

abbrev win8_4 : Pipeline.Window sig grid8 :=
  Pipeline.Window.ofSpec (Memref.whole main_v103_0) S2000x192.size cc8_transform_4 reads8_4 true false 2 stage8_4 sem8_4
    hrank8 hreads8_4 hinb8_4 nbuf8_4 (Memref.isWhole_whole _) hwx8_4 hstage8_4

abbrev win8_5 : Pipeline.Window sig grid8 :=
  Pipeline.Window.ofSpec (Memref.whole main_v103_1) S2000x192.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v116) S2000x192.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v103_0) S2000x192.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v117) S2000x192.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev win10_0 : Pipeline.Window sig grid10 :=
  Pipeline.Window.ofSpec (Memref.whole main_arg0) S2000x96.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_arg14) S96x96.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v118) S1x96.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v119) S2000x1.size cc10_transform_3 reads10_3 false false 2 stage10_3 sem10_3
    hrank10 hreads10_3 hinb10_3 nbuf10_3 (Memref.isWhole_whole _) hwx10_3 hstage10_3

abbrev win10_4 : Pipeline.Window sig grid10 :=
  Pipeline.Window.ofSpec (Memref.whole main_v120_0) S2000x96.size cc10_transform_4 reads10_4 true false 2 stage10_4 sem10_4
    hrank10 hreads10_4 hinb10_4 nbuf10_4 (Memref.isWhole_whole _) hwx10_4 hstage10_4

abbrev win10_5 : Pipeline.Window sig grid10 :=
  Pipeline.Window.ofSpec (Memref.whole main_v120_1) S2000x96.size cc10_transform_5 reads10_5 true false 2 stage10_5 sem10_5
    hrank10 hreads10_5 hinb10_5 nbuf10_5 (Memref.isWhole_whole _) hwx10_5 hstage10_5

abbrev win10 : Fin 6 → Pipeline.Window sig grid10 := fun | 0 => win10_0 | 1 => win10_1 | 2 => win10_2 | 3 => win10_3 | 4 => win10_4 | 5 => win10_5 | ⟨_ + 6, h⟩ => absurd h (Nat.not_lt.2 (Nat.le_add_left _ _))
abbrev spec10 : Fin 6 → Pipeline.WinSpec sig grid10.rank := fun w => (win10 w).toWinSpec

abbrev win11_0 : Pipeline.Window sig grid11 :=
  Pipeline.Window.ofSpec (Memref.whole main_v133) S2000x96.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v120_0) S2000x96.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v134) S2000x96.size cc11_transform_2 reads11_2 true false 2 stage11_2 sem11_2
    hrank11 hreads11_2 hinb11_2 nbuf11_2 (Memref.isWhole_whole _) hwx11_2 hstage11_2

abbrev win11 : Fin 3 → Pipeline.Window sig grid11 := fun | 0 => win11_0 | 1 => win11_1 | 2 => win11_2 | ⟨_ + 3, h⟩ => absurd h (Nat.not_lt.2 (Nat.le_add_left _ _))
abbrev spec11 : Fin 3 → Pipeline.WinSpec sig grid11.rank := fun w => (win11 w).toWinSpec

abbrev win12_0 : Pipeline.Window sig grid12 :=
  Pipeline.Window.ofSpec (Memref.whole main_v134) S2000x96.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_arg16) S96x96.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v135) S1x96.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v136) S2000x1.size cc12_transform_3 reads12_3 false false 2 stage12_3 sem12_3
    hrank12 hreads12_3 hinb12_3 nbuf12_3 (Memref.isWhole_whole _) hwx12_3 hstage12_3

abbrev win12_4 : Pipeline.Window sig grid12 :=
  Pipeline.Window.ofSpec (Memref.whole main_v137_0) S2000x96.size cc12_transform_4 reads12_4 true false 2 stage12_4 sem12_4
    hrank12 hreads12_4 hinb12_4 nbuf12_4 (Memref.isWhole_whole _) hwx12_4 hstage12_4

abbrev win12_5 : Pipeline.Window sig grid12 :=
  Pipeline.Window.ofSpec (Memref.whole main_v137_1) S2000x96.size cc12_transform_5 reads12_5 true false 2 stage12_5 sem12_5
    hrank12 hreads12_5 hinb12_5 nbuf12_5 (Memref.isWhole_whole _) hwx12_5 hstage12_5

abbrev win12 : Fin 6 → Pipeline.Window sig grid12 := fun | 0 => win12_0 | 1 => win12_1 | 2 => win12_2 | 3 => win12_3 | 4 => win12_4 | 5 => win12_5 | ⟨_ + 6, h⟩ => absurd h (Nat.not_lt.2 (Nat.le_add_left _ _))
abbrev spec12 : Fin 6 → Pipeline.WinSpec sig grid12.rank := fun w => (win12 w).toWinSpec

abbrev win13_0 : Pipeline.Window sig grid13 :=
  Pipeline.Window.ofSpec (Memref.whole main_v150) S2000x96.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v137_0) S2000x96.size cc13_transform_1 reads13_1 false false 2 stage13_1 sem13_1
    hrank13 hreads13_1 hinb13_1 nbuf13_1 (Memref.isWhole_whole _) hwx13_1 hstage13_1

abbrev win13_2 : Pipeline.Window sig grid13 :=
  Pipeline.Window.ofSpec (Memref.whole main_v151) S2000x96.size cc13_transform_2 reads13_2 true false 2 stage13_2 sem13_2
    hrank13 hreads13_2 hinb13_2 nbuf13_2 (Memref.isWhole_whole _) hwx13_2 hstage13_2

abbrev win13 : Fin 3 → Pipeline.Window sig grid13 := fun | 0 => win13_0 | 1 => win13_1 | 2 => win13_2 | ⟨_ + 3, h⟩ => absurd h (Nat.not_lt.2 (Nat.le_add_left _ _))
abbrev spec13 : Fin 3 → Pipeline.WinSpec sig grid13.rank := fun w => (win13 w).toWinSpec

abbrev win14_0 : Pipeline.Window sig grid14 :=
  Pipeline.Window.ofSpec (Memref.whole main_v134) S2000x96.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_arg18) S96x96.size cc14_transform_1 reads14_1 false true 1 stage14_1 sem14_1
    hrank14 hreads14_1 hinb14_1 nbuf14_1 (Memref.isWhole_whole _) hwx14_1 hstage14_1

abbrev win14_2 : Pipeline.Window sig grid14 :=
  Pipeline.Window.ofSpec (Memref.whole main_v152) S1x96.size cc14_transform_2 reads14_2 false true 1 stage14_2 sem14_2
    hrank14 hreads14_2 hinb14_2 nbuf14_2 (Memref.isWhole_whole _) hwx14_2 hstage14_2

abbrev win14_3 : Pipeline.Window sig grid14 :=
  Pipeline.Window.ofSpec (Memref.whole main_v153) S2000x1.size cc14_transform_3 reads14_3 false false 2 stage14_3 sem14_3
    hrank14 hreads14_3 hinb14_3 nbuf14_3 (Memref.isWhole_whole _) hwx14_3 hstage14_3

abbrev win14_4 : Pipeline.Window sig grid14 :=
  Pipeline.Window.ofSpec (Memref.whole main_v154_0) S2000x96.size cc14_transform_4 reads14_4 true false 2 stage14_4 sem14_4
    hrank14 hreads14_4 hinb14_4 nbuf14_4 (Memref.isWhole_whole _) hwx14_4 hstage14_4

abbrev win14_5 : Pipeline.Window sig grid14 :=
  Pipeline.Window.ofSpec (Memref.whole main_v154_1) S2000x96.size cc14_transform_5 reads14_5 true false 2 stage14_5 sem14_5
    hrank14 hreads14_5 hinb14_5 nbuf14_5 (Memref.isWhole_whole _) hwx14_5 hstage14_5

abbrev win14 : Fin 6 → Pipeline.Window sig grid14 := fun | 0 => win14_0 | 1 => win14_1 | 2 => win14_2 | 3 => win14_3 | 4 => win14_4 | 5 => win14_5 | ⟨_ + 6, h⟩ => absurd h (Nat.not_lt.2 (Nat.le_add_left _ _))
abbrev spec14 : Fin 6 → Pipeline.WinSpec sig grid14.rank := fun w => (win14 w).toWinSpec

abbrev win15_0 : Pipeline.Window sig grid15 :=
  Pipeline.Window.ofSpec (Memref.whole main_v167) S2000x96.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_v154_0) S2000x96.size cc15_transform_1 reads15_1 false false 2 stage15_1 sem15_1
    hrank15 hreads15_1 hinb15_1 nbuf15_1 (Memref.isWhole_whole _) hwx15_1 hstage15_1

abbrev win15_2 : Pipeline.Window sig grid15 :=
  Pipeline.Window.ofSpec (Memref.whole main_v168) S2000x96.size cc15_transform_2 reads15_2 true false 2 stage15_2 sem15_2
    hrank15 hreads15_2 hinb15_2 nbuf15_2 (Memref.isWhole_whole _) hwx15_2 hstage15_2

abbrev win15 : Fin 3 → Pipeline.Window sig grid15 := fun | 0 => win15_0 | 1 => win15_1 | 2 => win15_2 | ⟨_ + 3, h⟩ => absurd h (Nat.not_lt.2 (Nat.le_add_left _ _))
abbrev spec15 : Fin 3 → Pipeline.WinSpec sig grid15.rank := fun w => (win15 w).toWinSpec

abbrev win16_0 : Pipeline.Window sig grid16 :=
  Pipeline.Window.ofSpec (Memref.whole main_v173) S2000x96.size cc16_transform_0 reads16_0 false false 2 stage16_0 sem16_0
    hrank16 hreads16_0 hinb16_0 nbuf16_0 (Memref.isWhole_whole _) hwx16_0 hstage16_0

abbrev win16_1 : Pipeline.Window sig grid16 :=
  Pipeline.Window.ofSpec (Memref.whole main_arg20) S96x96.size cc16_transform_1 reads16_1 false true 1 stage16_1 sem16_1
    hrank16 hreads16_1 hinb16_1 nbuf16_1 (Memref.isWhole_whole _) hwx16_1 hstage16_1

abbrev win16_2 : Pipeline.Window sig grid16 :=
  Pipeline.Window.ofSpec (Memref.whole main_v174) S1x96.size cc16_transform_2 reads16_2 false true 1 stage16_2 sem16_2
    hrank16 hreads16_2 hinb16_2 nbuf16_2 (Memref.isWhole_whole _) hwx16_2 hstage16_2

abbrev win16_3 : Pipeline.Window sig grid16 :=
  Pipeline.Window.ofSpec (Memref.whole main_v175) S2000x1.size cc16_transform_3 reads16_3 false false 2 stage16_3 sem16_3
    hrank16 hreads16_3 hinb16_3 nbuf16_3 (Memref.isWhole_whole _) hwx16_3 hstage16_3

abbrev win16_4 : Pipeline.Window sig grid16 :=
  Pipeline.Window.ofSpec (Memref.whole main_v176_0) S2000x96.size cc16_transform_4 reads16_4 true false 2 stage16_4 sem16_4
    hrank16 hreads16_4 hinb16_4 nbuf16_4 (Memref.isWhole_whole _) hwx16_4 hstage16_4

abbrev win16_5 : Pipeline.Window sig grid16 :=
  Pipeline.Window.ofSpec (Memref.whole main_v176_1) S2000x96.size cc16_transform_5 reads16_5 true false 2 stage16_5 sem16_5
    hrank16 hreads16_5 hinb16_5 nbuf16_5 (Memref.isWhole_whole _) hwx16_5 hstage16_5

abbrev win16 : Fin 6 → Pipeline.Window sig grid16 := fun | 0 => win16_0 | 1 => win16_1 | 2 => win16_2 | 3 => win16_3 | 4 => win16_4 | 5 => win16_5 | ⟨_ + 6, h⟩ => absurd h (Nat.not_lt.2 (Nat.le_add_left _ _))
abbrev spec16 : Fin 6 → Pipeline.WinSpec sig grid16.rank := fun w => (win16 w).toWinSpec

abbrev win17_0 : Pipeline.Window sig grid17 :=
  Pipeline.Window.ofSpec (Memref.whole main_v189) S2000x96.size cc17_transform_0 reads17_0 false false 2 stage17_0 sem17_0
    hrank17 hreads17_0 hinb17_0 nbuf17_0 (Memref.isWhole_whole _) hwx17_0 hstage17_0

abbrev win17_1 : Pipeline.Window sig grid17 :=
  Pipeline.Window.ofSpec (Memref.whole main_v176_0) S2000x96.size cc17_transform_1 reads17_1 false false 2 stage17_1 sem17_1
    hrank17 hreads17_1 hinb17_1 nbuf17_1 (Memref.isWhole_whole _) hwx17_1 hstage17_1

abbrev win17_2 : Pipeline.Window sig grid17 :=
  Pipeline.Window.ofSpec (Memref.whole main_v190) S2000x96.size cc17_transform_2 reads17_2 true false 2 stage17_2 sem17_2
    hrank17 hreads17_2 hinb17_2 nbuf17_2 (Memref.isWhole_whole _) hwx17_2 hstage17_2

abbrev win17 : Fin 3 → Pipeline.Window sig grid17 := fun | 0 => win17_0 | 1 => win17_1 | 2 => win17_2 | ⟨_ + 3, h⟩ => absurd h (Nat.not_lt.2 (Nat.le_add_left _ _))
abbrev spec17 : Fin 3 → Pipeline.WinSpec sig grid17.rank := fun w => (win17 w).toWinSpec

class Facts : Prop extends Facts₀ where

variable [Facts]
-- ==== ReferenceIdeal.lean ====
abbrev S50000x96 : Shape := ⟨2, ![50000, 96]⟩
abbrev S2x800000 : Shape := ⟨2, ![2, 800000]⟩
abbrev S50000x163 : Shape := ⟨2, ![50000, 163]⟩
abbrev S96x125 : Shape := ⟨2, ![96, 125]⟩
abbrev S125 : Shape := ⟨1, ![125]⟩
abbrev S125x144 : Shape := ⟨2, ![125, 144]⟩
abbrev S144 : Shape := ⟨1, ![144]⟩
abbrev S144x163 : Shape := ⟨2, ![144, 163]⟩
abbrev S163 : Shape := ⟨1, ![163]⟩
abbrev S163x192 : Shape := ⟨2, ![163, 192]⟩
abbrev S192 : Shape := ⟨1, ![192]⟩
abbrev S96x96 : Shape := ⟨2, ![96, 96]⟩
abbrev S96 : Shape := ⟨1, ![96]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S50000x125 : Shape := ⟨2, ![50000, 125]⟩
abbrev S800000x125 : Shape := ⟨2, ![800000, 125]⟩
abbrev S1x125 : Shape := ⟨2, ![1, 125]⟩
abbrev S50000x144 : Shape := ⟨2, ![50000, 144]⟩
abbrev S800000x144 : Shape := ⟨2, ![800000, 144]⟩
abbrev S1x144 : Shape := ⟨2, ![1, 144]⟩
abbrev S800000x163 : Shape := ⟨2, ![800000, 163]⟩
abbrev S1x163 : Shape := ⟨2, ![1, 163]⟩
abbrev S50000x192 : Shape := ⟨2, ![50000, 192]⟩
abbrev S800000x192 : Shape := ⟨2, ![800000, 192]⟩
abbrev S1x192 : Shape := ⟨2, ![1, 192]⟩
abbrev S800000x96 : Shape := ⟨2, ![800000, 96]⟩
abbrev S1x96 : Shape := ⟨2, ![1, 96]⟩

abbrev nBuf : Space → Nat
  | .hbm => 298
  | .vmem => 0
  | .smem => 0
  | _ => 0

abbrev hbmTy0_0 (i : Nat) : BufTy := match i % 128 with
  | 0 => ⟨S50000x96, .f32⟩
  | 1 => ⟨S2x800000, .i32⟩
  | 2 => ⟨S50000x163, .f32⟩
  | 3 => ⟨S50000x96, .f32⟩
  | 4 => ⟨S96x125, .f32⟩
  | 5 => ⟨S125, .f32⟩
  | 6 => ⟨S125x144, .f32⟩
  | 7 => ⟨S144, .f32⟩
  | 8 => ⟨S144x163, .f32⟩
  | 9 => ⟨S163, .f32⟩
  | 10 => ⟨S144x163, .f32⟩
  | 11 => ⟨S163, .f32⟩
  | 12 => ⟨S163x192, .f32⟩
  | 13 => ⟨S192, .f32⟩
  | 14 => ⟨S96x96, .f32⟩
  | 15 => ⟨S96, .f32⟩
  | 16 => ⟨S96x96, .f32⟩
  | 17 => ⟨S96, .f32⟩
  | 18 => ⟨S96x96, .f32⟩
  | 19 => ⟨S96, .f32⟩
  | 20 => ⟨S96x96, .f32⟩
  | 21 => ⟨S96, .f32⟩
  | 22 => ⟨S1x800000, .i32⟩
  | 23 => ⟨S800000, .i32⟩
  | 24 => ⟨S1x800000, .i32⟩
  | 25 => ⟨S800000, .i32⟩
  | 26 => ⟨S_, .f32⟩
  | 27 => ⟨S800000, .f32⟩
  | 28 => ⟨S_, .f32⟩
  | 29 => ⟨S50000, .f32⟩
  | 30 => ⟨S800000x1, .i32⟩
  | 31 => ⟨S50000, .f32⟩
  | 32 => ⟨S_, .f32⟩
  | 33 => ⟨S50000, .f32⟩
  | 34 => ⟨S50000, .f32⟩
  | 35 => ⟨S_, .f32⟩
  | 36 => ⟨S50000, .f32⟩
  | 37 => ⟨S50000, .f32⟩
  | 38 => ⟨S_, .i32⟩
  | 39 => ⟨S800000, .i32⟩
  | 40 => ⟨S800000, .i1⟩
  | 41 => ⟨S_, .i32⟩
  | 42 => ⟨S800000, .i32⟩
  | 43 => ⟨S800000, .i32⟩
  | 44 => ⟨S800000, .i32⟩
  | 45 => ⟨S800000x1, .i32⟩
  | 46 => ⟨S800000, .f32⟩
  | 47 => ⟨S_, .i32⟩
  | 48 => ⟨S800000, .i32⟩
  | 49 => ⟨S800000, .i1⟩
  | 50 => ⟨S_, .i32⟩
  | 51 => ⟨S800000, .i32⟩
  | 52 => ⟨S800000, .i32⟩
  | 53 => ⟨S800000, .i32⟩
  | 54 => ⟨S800000x1, .i32⟩
  | 55 => ⟨S800000, .f32⟩
  | 56 => ⟨S800000, .f32⟩
  | 57 => ⟨S50000, .f32⟩
  | 58 => ⟨S50000x1, .f32⟩
  | 59 => ⟨S50000x125, .f32⟩
  | 60 => ⟨S_, .i32⟩
  | 61 => ⟨S800000, .i32⟩
  | 62 => ⟨S800000, .i1⟩
  | 63 => ⟨S_, .i32⟩
  | 64 => ⟨S800000, .i32⟩
  | 65 => ⟨S800000, .i32⟩
  | 66 => ⟨S800000, .i32⟩
  | 67 => ⟨S800000x1, .i32⟩
  | 68 => ⟨S800000x125, .f32⟩
  | 69 => ⟨S800000x1, .f32⟩
  | 70 => ⟨S800000x125, .f32⟩
  | 71 => ⟨S800000x125, .f32⟩
  | 72 => ⟨S_, .f32⟩
  | 73 => ⟨S50000x125, .f32⟩
  | 74 => ⟨S800000x1, .i32⟩
  | 75 => ⟨S50000x125, .f32⟩
  | 76 => ⟨S50000x125, .f32⟩
  | 77 => ⟨S50000x125, .f32⟩
  | 78 => ⟨S50000x125, .f32⟩
  | 79 => ⟨S1x125, .f32⟩
  | 80 => ⟨S50000x125, .f32⟩
  | 81 => ⟨S50000x125, .f32⟩
  | 82 => ⟨S_, .f32⟩
  | 83 => ⟨S50000x125, .f32⟩
  | 84 => ⟨S50000x125, .f32⟩
  | 85 => ⟨S50000x144, .f32⟩
  | 86 => ⟨S_, .i32⟩
  | 87 => ⟨S800000, .i32⟩
  | 88 => ⟨S800000, .i1⟩
  | 89 => ⟨S_, .i32⟩
  | 90 => ⟨S800000, .i32⟩
  | 91 => ⟨S800000, .i32⟩
  | 92 => ⟨S800000, .i32⟩
  | 93 => ⟨S800000x1, .i32⟩
  | 94 => ⟨S800000x144, .f32⟩
  | 95 => ⟨S800000x1, .f32⟩
  | 96 => ⟨S800000x144, .f32⟩
  | 97 => ⟨S800000x144, .f32⟩
  | 98 => ⟨S_, .f32⟩
  | 99 => ⟨S50000x144, .f32⟩
  | 100 => ⟨S800000x1, .i32⟩
  | 101 => ⟨S50000x144, .f32⟩
  | 102 => ⟨S50000x144, .f32⟩
  | 103 => ⟨S50000x144, .f32⟩
  | 104 => ⟨S50000x144, .f32⟩
  | 105 => ⟨S1x144, .f32⟩
  | 106 => ⟨S50000x144, .f32⟩
  | 107 => ⟨S50000x144, .f32⟩
  | 108 => ⟨S_, .f32⟩
  | 109 => ⟨S50000x144, .f32⟩
  | 110 => ⟨S50000x144, .f32⟩
  | 111 => ⟨S50000x163, .f32⟩
  | 112 => ⟨S_, .i32⟩
  | 113 => ⟨S800000, .i32⟩
  | 114 => ⟨S800000, .i1⟩
  | 115 => ⟨S_, .i32⟩
  | 116 => ⟨S800000, .i32⟩
  | 117 => ⟨S800000, .i32⟩
  | 118 => ⟨S800000, .i32⟩
  | 119 => ⟨S800000x1, .i32⟩
  | 120 => ⟨S800000x163, .f32⟩
  | 121 => ⟨S800000x1, .f32⟩
  | 122 => ⟨S800000x163, .f32⟩
  | 123 => ⟨S800000x163, .f32⟩
  | 124 => ⟨S_, .f32⟩
  | 125 => ⟨S50000x163, .f32⟩
  | 126 => ⟨S800000x1, .i32⟩
  | 127 => ⟨S50000x163, .f32⟩
  | _ => ⟨S50000x96, .f32⟩

abbrev hbmTy0_1 (i : Nat) : BufTy := match i % 128 with
  | 0 => ⟨S50000x163, .f32⟩
  | 1 => ⟨S50000x163, .f32⟩
  | 2 => ⟨S50000x163, .f32⟩
  | 3 => ⟨S1x163, .f32⟩
  | 4 => ⟨S50000x163, .f32⟩
  | 5 => ⟨S50000x163, .f32⟩
  | 6 => ⟨S50000x163, .f32⟩
  | 7 => ⟨S_, .i32⟩
  | 8 => ⟨S800000, .i32⟩
  | 9 => ⟨S800000, .i1⟩
  | 10 => ⟨S_, .i32⟩
  | 11 => ⟨S800000, .i32⟩
  | 12 => ⟨S800000, .i32⟩
  | 13 => ⟨S800000, .i32⟩
  | 14 => ⟨S800000x1, .i32⟩
  | 15 => ⟨S800000x163, .f32⟩
  | 16 => ⟨S800000x1, .f32⟩
  | 17 => ⟨S800000x163, .f32⟩
  | 18 => ⟨S800000x163, .f32⟩
  | 19 => ⟨S_, .f32⟩
  | 20 => ⟨S50000x163, .f32⟩
  | 21 => ⟨S800000x1, .i32⟩
  | 22 => ⟨S50000x163, .f32⟩
  | 23 => ⟨S50000x163, .f32⟩
  | 24 => ⟨S50000x163, .f32⟩
  | 25 => ⟨S50000x163, .f32⟩
  | 26 => ⟨S1x163, .f32⟩
  | 27 => ⟨S50000x163, .f32⟩
  | 28 => ⟨S50000x163, .f32⟩
  | 29 => ⟨S50000x163, .f32⟩
  | 30 => ⟨S50000x163, .f32⟩
  | 31 => ⟨S_, .f32⟩
  | 32 => ⟨S50000x163, .f32⟩
  | 33 => ⟨S50000x163, .f32⟩
  | 34 => ⟨S50000x163, .f32⟩
  | 35 => ⟨S50000x192, .f32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000x192, .f32⟩
  | 45 => ⟨S800000x1, .f32⟩
  | 46 => ⟨S800000x192, .f32⟩
  | 47 => ⟨S800000x192, .f32⟩
  | 48 => ⟨S_, .f32⟩
  | 49 => ⟨S50000x192, .f32⟩
  | 50 => ⟨S800000x1, .i32⟩
  | 51 => ⟨S50000x192, .f32⟩
  | 52 => ⟨S50000x192, .f32⟩
  | 53 => ⟨S50000x192, .f32⟩
  | 54 => ⟨S50000x192, .f32⟩
  | 55 => ⟨S1x192, .f32⟩
  | 56 => ⟨S50000x192, .f32⟩
  | 57 => ⟨S50000x192, .f32⟩
  | 58 => ⟨S50000x192, .f32⟩
  | 59 => ⟨S50000x192, .f32⟩
  | 60 => ⟨S_, .f32⟩
  | 61 => ⟨S50000x192, .f32⟩
  | 62 => ⟨S50000x192, .f32⟩
  | 63 => ⟨S_, .f32⟩
  | 64 => ⟨S50000x192, .f32⟩
  | 65 => ⟨S50000x192, .f32⟩
  | 66 => ⟨S50000x96, .f32⟩
  | 67 => ⟨S_, .i32⟩
  | 68 => ⟨S800000, .i32⟩
  | 69 => ⟨S800000, .i1⟩
  | 70 => ⟨S_, .i32⟩
  | 71 => ⟨S800000, .i32⟩
  | 72 => ⟨S800000, .i32⟩
  | 73 => ⟨S800000, .i32⟩
  | 74 => ⟨S800000x1, .i32⟩
  | 75 => ⟨S800000x96, .f32⟩
  | 76 => ⟨S800000x1, .f32⟩
  | 77 => ⟨S800000x96, .f32⟩
  | 78 => ⟨S800000x96, .f32⟩
  | 79 => ⟨S_, .f32⟩
  | 80 => ⟨S50000x96, .f32⟩
  | 81 => ⟨S800000x1, .i32⟩
  | 82 => ⟨S50000x96, .f32⟩
  | 83 => ⟨S50000x96, .f32⟩
  | 84 => ⟨S50000x96, .f32⟩
  | 85 => ⟨S50000x96, .f32⟩
  | 86 => ⟨S1x96, .f32⟩
  | 87 => ⟨S50000x96, .f32⟩
  | 88 => ⟨S50000x96, .f32⟩
  | 89 => ⟨S_, .f32⟩
  | 90 => ⟨S50000x96, .f32⟩
  | 91 => ⟨S50000x96, .f32⟩
  | 92 => ⟨S50000x96, .f32⟩
  | 93 => ⟨S_, .i32⟩
  | 94 => ⟨S800000, .i32⟩
  | 95 => ⟨S800000, .i1⟩
  | 96 => ⟨S_, .i32⟩
  | 97 => ⟨S800000, .i32⟩
  | 98 => ⟨S800000, .i32⟩
  | 99 => ⟨S800000, .i32⟩
  | 100 => ⟨S800000x1, .i32⟩
  | 101 => ⟨S800000x96, .f32⟩
  | 102 => ⟨S800000x1, .f32⟩
  | 103 => ⟨S800000x96, .f32⟩
  | 104 => ⟨S800000x96, .f32⟩
  | 105 => ⟨S_, .f32⟩
  | 106 => ⟨S50000x96, .f32⟩
  | 107 => ⟨S800000x1, .i32⟩
  | 108 => ⟨S50000x96, .f32⟩
  | 109 => ⟨S50000x96, .f32⟩
  | 110 => ⟨S50000x96, .f32⟩
  | 111 => ⟨S50000x96, .f32⟩
  | 112 => ⟨S1x96, .f32⟩
  | 113 => ⟨S50000x96, .f32⟩
  | 114 => ⟨S50000x96, .f32⟩
  | 115 => ⟨S50000x96, .f32⟩
  | 116 => ⟨S_, .i32⟩
  | 117 => ⟨S800000, .i32⟩
  | 118 => ⟨S800000, .i1⟩
  | 119 => ⟨S_, .i32⟩
  | 120 => ⟨S800000, .i32⟩
  | 121 => ⟨S800000, .i32⟩
  | 122 => ⟨S800000, .i32⟩
  | 123 => ⟨S800000x1, .i32⟩
  | 124 => ⟨S800000x96, .f32⟩
  | 125 => ⟨S800000x1, .f32⟩
  | 126 => ⟨S800000x96, .f32⟩
  | 127 => ⟨S800000x96, .f32⟩
  | _ => ⟨S50000x96, .f32⟩

abbrev hbmTy0_2 (i : Nat) : BufTy := match i % 128 with
  | 0 => ⟨S_, .f32⟩
  | 1 => ⟨S50000x96, .f32⟩
  | 2 => ⟨S800000x1, .i32⟩
  | 3 => ⟨S50000x96, .f32⟩
  | 4 => ⟨S50000x96, .f32⟩
  | 5 => ⟨S50000x96, .f32⟩
  | 6 => ⟨S50000x96, .f32⟩
  | 7 => ⟨S1x96, .f32⟩
  | 8 => ⟨S50000x96, .f32⟩
  | 9 => ⟨S50000x96, .f32⟩
  | 10 => ⟨S50000x96, .f32⟩
  | 11 => ⟨S50000x96, .f32⟩
  | 12 => ⟨S_, .f32⟩
  | 13 => ⟨S50000x96, .f32⟩
  | 14 => ⟨S50000x96, .f32⟩
  | 15 => ⟨S50000x96, .f32⟩
  | 16 => ⟨S50000x96, .f32⟩
  | 17 => ⟨S_, .i32⟩
  | 18 => ⟨S800000, .i32⟩
  | 19 => ⟨S800000, .i1⟩
  | 20 => ⟨S_, .i32⟩
  | 21 => ⟨S800000, .i32⟩
  | 22 => ⟨S800000, .i32⟩
  | 23 => ⟨S800000, .i32⟩
  | 24 => ⟨S800000x1, .i32⟩
  | 25 => ⟨S800000x96, .f32⟩
  | 26 => ⟨S800000x1, .f32⟩
  | 27 => ⟨S800000x96, .f32⟩
  | 28 => ⟨S800000x96, .f32⟩
  | 29 => ⟨S_, .f32⟩
  | 30 => ⟨S50000x96, .f32⟩
  | 31 => ⟨S800000x1, .i32⟩
  | 32 => ⟨S50000x96, .f32⟩
  | 33 => ⟨S50000x96, .f32⟩
  | 34 => ⟨S50000x96, .f32⟩
  | 35 => ⟨S50000x96, .f32⟩
  | 36 => ⟨S1x96, .f32⟩
  | 37 => ⟨S50000x96, .f32⟩
  | 38 => ⟨S50000x96, .f32⟩
  | 39 => ⟨S_, .f32⟩
  | 40 => ⟨S50000x96, .f32⟩
  | 41 => ⟨S50000x96, .f32⟩
  | _ => ⟨S50000x96, .f32⟩

abbrev hbmTy (i : Nat) : BufTy := match i / 128 with
  | 0 => hbmTy0_0 i
  | 1 => hbmTy0_1 i
  | 2 => hbmTy0_2 i
  | _ => ⟨S50000x96, .f32⟩

abbrev bufTy : (tb : Table) → Fin (tcTables nBuf tb) → BufTy
  | .hbm, ⟨i, _⟩ => hbmTy i
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_cst : Ref sig .tc := ⟨.hbm, 26, rfl⟩
abbrev main_v4 : Ref sig .tc := ⟨.hbm, 27, rfl⟩
abbrev main_cst_0 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_cst_1 : Ref sig .tc := ⟨.hbm, 32, rfl⟩
abbrev main_v8 : Ref sig .tc := ⟨.hbm, 33, rfl⟩
abbrev main_v9 : Ref sig .tc := ⟨.hbm, 34, rfl⟩
abbrev main_cst_2 : Ref sig .tc := ⟨.hbm, 35, rfl⟩
abbrev main_v10 : Ref sig .tc := ⟨.hbm, 36, rfl⟩
abbrev main_v11 : Ref sig .tc := ⟨.hbm, 37, rfl⟩
abbrev main_c : Ref sig .tc := ⟨.hbm, 38, rfl⟩
abbrev main_v12 : Ref sig .tc := ⟨.hbm, 39, rfl⟩
abbrev main_v13 : Ref sig .tc := ⟨.hbm, 40, rfl⟩
abbrev main_c_3 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_c_4 : Ref sig .tc := ⟨.hbm, 47, rfl⟩
abbrev main_v19 : Ref sig .tc := ⟨.hbm, 48, rfl⟩
abbrev main_v20 : Ref sig .tc := ⟨.hbm, 49, rfl⟩
abbrev main_c_5 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_c_6 : Ref sig .tc := ⟨.hbm, 60, rfl⟩
abbrev main_v30 : Ref sig .tc := ⟨.hbm, 61, rfl⟩
abbrev main_v31 : Ref sig .tc := ⟨.hbm, 62, rfl⟩
abbrev main_c_7 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_cst_8 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_call0_cst : Ref sig .tc := ⟨.hbm, 82, rfl⟩
abbrev main_call0_v0 : Ref sig .tc := ⟨.hbm, 83, rfl⟩
abbrev main_v49 : Ref sig .tc := ⟨.hbm, 84, rfl⟩
abbrev main_v50 : Ref sig .tc := ⟨.hbm, 85, rfl⟩
abbrev main_c_9 : Ref sig .tc := ⟨.hbm, 86, rfl⟩
abbrev main_v51 : Ref sig .tc := ⟨.hbm, 87, rfl⟩
abbrev main_v52 : Ref sig .tc := ⟨.hbm, 88, rfl⟩
abbrev main_c_10 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_cst_11 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_call1_cst : Ref sig .tc := ⟨.hbm, 108, rfl⟩
abbrev main_call1_v0 : Ref sig .tc := ⟨.hbm, 109, rfl⟩
abbrev main_v70 : Ref sig .tc := ⟨.hbm, 110, rfl⟩
abbrev main_v71 : Ref sig .tc := ⟨.hbm, 111, rfl⟩
abbrev main_c_12 : Ref sig .tc := ⟨.hbm, 112, rfl⟩
abbrev main_v72 : Ref sig .tc := ⟨.hbm, 113, rfl⟩
abbrev main_v73 : Ref sig .tc := ⟨.hbm, 114, rfl⟩
abbrev main_c_13 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_cst_14 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_c_15 : Ref sig .tc := ⟨.hbm, 135, rfl⟩
abbrev main_v92 : Ref sig .tc := ⟨.hbm, 136, rfl⟩
abbrev main_v93 : Ref sig .tc := ⟨.hbm, 137, rfl⟩
abbrev main_c_16 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_cst_17 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_cst_18 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_c_19 : Ref sig .tc := ⟨.hbm, 164, rfl⟩
abbrev main_v117 : Ref sig .tc := ⟨.hbm, 165, rfl⟩
abbrev main_v118 : Ref sig .tc := ⟨.hbm, 166, rfl⟩
abbrev main_c_20 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_cst_21 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_cst_22 : Ref sig .tc := ⟨.hbm, 188, rfl⟩
abbrev main_v138 : Ref sig .tc := ⟨.hbm, 189, rfl⟩
abbrev main_v139 : Ref sig .tc := ⟨.hbm, 190, rfl⟩
abbrev main_cst_23 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_c_24 : Ref sig .tc := ⟨.hbm, 195, rfl⟩
abbrev main_v143 : Ref sig .tc := ⟨.hbm, 196, rfl⟩
abbrev main_v144 : Ref sig .tc := ⟨.hbm, 197, rfl⟩
abbrev main_c_25 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_v148 : Ref sig .tc := ⟨.hbm, 202, rfl⟩
abbrev main_v149 : Ref sig .tc := ⟨.hbm, 203, rfl⟩
abbrev main_v150 : Ref sig .tc := ⟨.hbm, 204, rfl⟩
abbrev main_v151 : Ref sig .tc := ⟨.hbm, 205, rfl⟩
abbrev main_v152 : Ref sig .tc := ⟨.hbm, 206, rfl⟩
abbrev main_cst_26 : Ref sig .tc := ⟨.hbm, 207, rfl⟩
abbrev main_v153 : Ref sig .tc := ⟨.hbm, 208, rfl⟩
abbrev main_v154 : Ref sig .tc := ⟨.hbm, 209, rfl⟩
abbrev main_v155 : Ref sig .tc := ⟨.hbm, 210, rfl⟩
abbrev main_v156 : Ref sig .tc := ⟨.hbm, 211, rfl⟩
abbrev main_v157 : Ref sig .tc := ⟨.hbm, 212, rfl⟩
abbrev main_v158 : Ref sig .tc := ⟨.hbm, 213, rfl⟩
abbrev main_v159 : Ref sig .tc := ⟨.hbm, 214, rfl⟩
abbrev main_v160 : Ref sig .tc := ⟨.hbm, 215, rfl⟩
abbrev main_v161 : Ref sig .tc := ⟨.hbm, 216, rfl⟩
abbrev main_call2_cst : Ref sig .tc := ⟨.hbm, 217, rfl⟩
abbrev main_call2_v0 : Ref sig .tc := ⟨.hbm, 218, rfl⟩
abbrev main_v162 : Ref sig .tc := ⟨.hbm, 219, rfl⟩
abbrev main_v163 : Ref sig .tc := ⟨.hbm, 220, rfl⟩
abbrev main_c_27 : Ref sig .tc := ⟨.hbm, 221, rfl⟩
abbrev main_v164 : Ref sig .tc := ⟨.hbm, 222, rfl⟩
abbrev main_v165 : Ref sig .tc := ⟨.hbm, 223, rfl⟩
abbrev main_c_28 : Ref sig .tc := ⟨.hbm, 224, rfl⟩
abbrev main_v166 : Ref sig .tc := ⟨.hbm, 225, rfl⟩
abbrev main_v167 : Ref sig .tc := ⟨.hbm, 226, rfl⟩
abbrev main_v168 : Ref sig .tc := ⟨.hbm, 227, rfl⟩
abbrev main_v169 : Ref sig .tc := ⟨.hbm, 228, rfl⟩
abbrev main_v170 : Ref sig .tc := ⟨.hbm, 229, rfl⟩
abbrev main_v171 : Ref sig .tc := ⟨.hbm, 230, rfl⟩
abbrev main_v172 : Ref sig .tc := ⟨.hbm, 231, rfl⟩
abbrev main_v173 : Ref sig .tc := ⟨.hbm, 232, rfl⟩
abbrev main_cst_29 : Ref sig .tc := ⟨.hbm, 233, rfl⟩
abbrev main_v174 : Ref sig .tc := ⟨.hbm, 234, rfl⟩
abbrev main_v175 : Ref sig .tc := ⟨.hbm, 235, rfl⟩
abbrev main_v176 : Ref sig .tc := ⟨.hbm, 236, rfl⟩
abbrev main_v177 : Ref sig .tc := ⟨.hbm, 237, rfl⟩
abbrev main_v178 : Ref sig .tc := ⟨.hbm, 238, rfl⟩
abbrev main_v179 : Ref sig .tc := ⟨.hbm, 239, rfl⟩
abbrev main_v180 : Ref sig .tc := ⟨.hbm, 240, rfl⟩
abbrev main_v181 : Ref sig .tc := ⟨.hbm, 241, rfl⟩
abbrev main_v182 : Ref sig .tc := ⟨.hbm, 242, rfl⟩
abbrev main_v183 : Ref sig .tc := ⟨.hbm, 243, rfl⟩
abbrev main_c_30 : Ref sig .tc := ⟨.hbm, 244, rfl⟩
abbrev main_v184 : Ref sig .tc := ⟨.hbm, 245, rfl⟩
abbrev main_v185 : Ref sig .tc := ⟨.hbm, 246, rfl⟩
abbrev main_c_31 : Ref sig .tc := ⟨.hbm, 247, rfl⟩
abbrev main_v186 : Ref sig .tc := ⟨.hbm, 248, rfl⟩
abbrev main_v187 : Ref sig .tc := ⟨.hbm, 249, rfl⟩
abbrev main_v188 : Ref sig .tc := ⟨.hbm, 250, rfl⟩
abbrev main_v189 : Ref sig .tc := ⟨.hbm, 251, rfl⟩
abbrev main_v190 : Ref sig .tc := ⟨.hbm, 252, rfl⟩
abbrev main_v191 : Ref sig .tc := ⟨.hbm, 253, rfl⟩
abbrev main_v192 : Ref sig .tc := ⟨.hbm, 254, rfl⟩
abbrev main_v193 : Ref sig .tc := ⟨.hbm, 255, rfl⟩
abbrev main_cst_32 : Ref sig .tc := ⟨.hbm, 256, rfl⟩
abbrev main_v194 : Ref sig .tc := ⟨.hbm, 257, rfl⟩
abbrev main_v195 : Ref sig .tc := ⟨.hbm, 258, rfl⟩
abbrev main_v196 : Ref sig .tc := ⟨.hbm, 259, rfl⟩
abbrev main_v197 : Ref sig .tc := ⟨.hbm, 260, rfl⟩
abbrev main_v198 : Ref sig .tc := ⟨.hbm, 261, rfl⟩
abbrev main_v199 : Ref sig .tc := ⟨.hbm, 262, rfl⟩
abbrev main_v200 : Ref sig .tc := ⟨.hbm, 263, rfl⟩
abbrev main_v201 : Ref sig .tc := ⟨.hbm, 264, rfl⟩
abbrev main_v202 : Ref sig .tc := ⟨.hbm, 265, rfl⟩
abbrev main_v203 : Ref sig .tc := ⟨.hbm, 266, rfl⟩
abbrev main_v204 : Ref sig .tc := ⟨.hbm, 267, rfl⟩
abbrev main_cst_33 : Ref sig .tc := ⟨.hbm, 268, rfl⟩
abbrev main_v205 : Ref sig .tc := ⟨.hbm, 269, rfl⟩
abbrev main_v206 : Ref sig .tc := ⟨.hbm, 270, rfl⟩
abbrev main_v207 : Ref sig .tc := ⟨.hbm, 271, rfl⟩
abbrev main_v208 : Ref sig .tc := ⟨.hbm, 272, rfl⟩
abbrev main_c_34 : Ref sig .tc := ⟨.hbm, 273, rfl⟩
abbrev main_v209 : Ref sig .tc := ⟨.hbm, 274, rfl⟩
abbrev main_v210 : Ref sig .tc := ⟨.hbm, 275, rfl⟩
abbrev main_c_35 : Ref sig .tc := ⟨.hbm, 276, rfl⟩
abbrev main_v211 : Ref sig .tc := ⟨.hbm, 277, rfl⟩
abbrev main_v212 : Ref sig .tc := ⟨.hbm, 278, rfl⟩
abbrev main_v213 : Ref sig .tc := ⟨.hbm, 279, rfl⟩
abbrev main_v214 : Ref sig .tc := ⟨.hbm, 280, rfl⟩
abbrev main_v215 : Ref sig .tc := ⟨.hbm, 281, rfl⟩
abbrev main_v216 : Ref sig .tc := ⟨.hbm, 282, rfl⟩
abbrev main_v217 : Ref sig .tc := ⟨.hbm, 283, rfl⟩
abbrev main_v218 : Ref sig .tc := ⟨.hbm, 284, rfl⟩
abbrev main_cst_36 : Ref sig .tc := ⟨.hbm, 285, rfl⟩
abbrev main_v219 : Ref sig .tc := ⟨.hbm, 286, rfl⟩
abbrev main_v220 : Ref sig .tc := ⟨.hbm, 287, rfl⟩
abbrev main_v221 : Ref sig .tc := ⟨.hbm, 288, rfl⟩
abbrev main_v222 : Ref sig .tc := ⟨.hbm, 289, rfl⟩
abbrev main_v223 : Ref sig .tc := ⟨.hbm, 290, rfl⟩
abbrev main_v224 : Ref sig .tc := ⟨.hbm, 291, rfl⟩
abbrev main_v225 : Ref sig .tc := ⟨.hbm, 292, rfl⟩
abbrev main_v226 : Ref sig .tc := ⟨.hbm, 293, rfl⟩
abbrev main_v227 : Ref sig .tc := ⟨.hbm, 294, rfl⟩
abbrev main_call3_cst : Ref sig .tc := ⟨.hbm, 295, rfl⟩
abbrev main_call3_v0 : Ref sig .tc := ⟨.hbm, 296, rfl⟩
abbrev main_v228 : Ref sig .tc := ⟨.hbm, 297, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S800000x1_S800000x125_0_1 : S800000x1.BroadcastsInDim S800000x125 (![0, 1] : Fin 2 → Fin S800000x125.rank)
  bcast_S_S50000x125 : S_.BroadcastsInDim S50000x125 (![] : Fin 0 → Fin S50000x125.rank)
  bcast_S50000x1_S50000x125_0_1 : S50000x1.BroadcastsInDim S50000x125 (![0, 1] : Fin 2 → Fin S50000x125.rank)
  bcast_S125_S1x125_1 : S125.BroadcastsInDim S1x125 (![1] : Fin 1 → Fin S1x125.rank)
  bcast_S1x125_S50000x125_0_1 : S1x125.BroadcastsInDim S50000x125 (![0, 1] : Fin 2 → Fin S50000x125.rank)
  bcast_S800000x1_S800000x144_0_1 : S800000x1.BroadcastsInDim S800000x144 (![0, 1] : Fin 2 → Fin S800000x144.rank)
  bcast_S_S50000x144 : S_.BroadcastsInDim S50000x144 (![] : Fin 0 → Fin S50000x144.rank)
  bcast_S50000x1_S50000x144_0_1 : S50000x1.BroadcastsInDim S50000x144 (![0, 1] : Fin 2 → Fin S50000x144.rank)
  bcast_S144_S1x144_1 : S144.BroadcastsInDim S1x144 (![1] : Fin 1 → Fin S1x144.rank)
  bcast_S1x144_S50000x144_0_1 : S1x144.BroadcastsInDim S50000x144 (![0, 1] : Fin 2 → Fin S50000x144.rank)
  bcast_S800000x1_S800000x163_0_1 : S800000x1.BroadcastsInDim S800000x163 (![0, 1] : Fin 2 → Fin S800000x163.rank)
  bcast_S_S50000x163 : S_.BroadcastsInDim S50000x163 (![] : Fin 0 → Fin S50000x163.rank)
  bcast_S50000x1_S50000x163_0_1 : S50000x1.BroadcastsInDim S50000x163 (![0, 1] : Fin 2 → Fin S50000x163.rank)
  bcast_S163_S1x163_1 : S163.BroadcastsInDim S1x163 (![1] : Fin 1 → Fin S1x163.rank)
  bcast_S1x163_S50000x163_0_1 : S1x163.BroadcastsInDim S50000x163 (![0, 1] : Fin 2 → Fin S50000x163.rank)
  bcast_S800000x1_S800000x192_0_1 : S800000x1.BroadcastsInDim S800000x192 (![0, 1] : Fin 2 → Fin S800000x192.rank)
  bcast_S_S50000x192 : S_.BroadcastsInDim S50000x192 (![] : Fin 0 → Fin S50000x192.rank)
  bcast_S50000x1_S50000x192_0_1 : S50000x1.BroadcastsInDim S50000x192 (![0, 1] : Fin 2 → Fin S50000x192.rank)
  bcast_S192_S1x192_1 : S192.BroadcastsInDim S1x192 (![1] : Fin 1 → Fin S1x192.rank)
  bcast_S1x192_S50000x192_0_1 : S1x192.BroadcastsInDim S50000x192 (![0, 1] : Fin 2 → Fin S50000x192.rank)
  bcast_S800000x1_S800000x96_0_1 : S800000x1.BroadcastsInDim S800000x96 (![0, 1] : Fin 2 → Fin S800000x96.rank)
  bcast_S_S50000x96 : S_.BroadcastsInDim S50000x96 (![] : Fin 0 → Fin S50000x96.rank)
  bcast_S50000x1_S50000x96_0_1 : S50000x1.BroadcastsInDim S50000x96 (![0, 1] : Fin 2 → Fin S50000x96.rank)
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S50000x96_S96x125_S50000x125_1_0_0_1_n_n_wf : DotDims.WF S50000x96 S96x125 S50000x125 [1] [0] [0] [1] [] []
  gather_S50000x125_S800000x1_S800000x125_1_0_n_n_0_1_1125_wf : GatherDims.WF S50000x125 S800000x1 S800000x125 [1] [0] [] [0] [] 1 ![1, 125]
  scatter_S50000x125_S800000x1_S800000x125_1_0_0_1_wf : ScatterDims.WF S50000x125 S800000x1 S800000x125 [1] [0] [0] 1
  dot_S50000x125_S125x144_S50000x144_1_0_0_1_n_n_wf : DotDims.WF S50000x125 S125x144 S50000x144 [1] [0] [0] [1] [] []
  gather_S50000x144_S800000x1_S800000x144_1_0_n_n_0_1_1144_wf : GatherDims.WF S50000x144 S800000x1 S800000x144 [1] [0] [] [0] [] 1 ![1, 144]
  scatter_S50000x144_S800000x1_S800000x144_1_0_0_1_wf : ScatterDims.WF S50000x144 S800000x1 S800000x144 [1] [0] [0] 1
  dot_S50000x144_S144x163_S50000x163_1_0_0_1_n_n_wf : DotDims.WF S50000x144 S144x163 S50000x163 [1] [0] [0] [1] [] []
  gather_S50000x163_S800000x1_S800000x163_1_0_n_n_0_1_1163_wf : GatherDims.WF S50000x163 S800000x1 S800000x163 [1] [0] [] [0] [] 1 ![1, 163]
  scatter_S50000x163_S800000x1_S800000x163_1_0_0_1_wf : ScatterDims.WF S50000x163 S800000x1 S800000x163 [1] [0] [0] 1
  dot_S50000x163_S163x192_S50000x192_1_0_0_1_n_n_wf : DotDims.WF S50000x163 S163x192 S50000x192 [1] [0] [0] [1] [] []
  gather_S50000x192_S800000x1_S800000x192_1_0_n_n_0_1_1192_wf : GatherDims.WF S50000x192 S800000x1 S800000x192 [1] [0] [] [0] [] 1 ![1, 192]
  scatter_S50000x192_S800000x1_S800000x192_1_0_0_1_wf : ScatterDims.WF S50000x192 S800000x1 S800000x192 [1] [0] [0] 1
  dot_S50000x96_S96x96_S50000x96_1_0_0_1_n_n_wf : DotDims.WF S50000x96 S96x96 S50000x96 [1] [0] [0] [1] [] []
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S50000x96_S96x125_S50000x125_1_0_0_1_n_n : DotDims S50000x96 S96x125 S50000x125 where
  lhsContracting := [1]
  rhsContracting := [0]
  lhsNonContracting := [0]
  rhsNonContracting := [1]
  lhsBatch := []
  rhsBatch := []
  wf := dot_S50000x96_S96x125_S50000x125_1_0_0_1_n_n_wf
def gather_S50000x125_S800000x1_S800000x125_1_0_n_n_0_1_1125 : GatherDims S50000x125 S800000x1 S800000x125 where
  offsetDims := [1]
  collapsedSliceDims := [0]
  operandBatchingDims := []
  startIndicesBatchingDims := []
  startIndexMap := [0]
  indexVectorDim := 1
  sliceSizes := ![1, 125]
  wf := gather_S50000x125_S800000x1_S800000x125_1_0_n_n_0_1_1125_wf
def scatter_S50000x125_S800000x1_S800000x125_1_0_0_1 : ScatterDims S50000x125 S800000x1 S800000x125 where
  updateWindowDims := [1]
  insertedWindowDims := [0]
  scatterDimsToOperandDims := [0]
  indexVectorDim := 1
  wf := scatter_S50000x125_S800000x1_S800000x125_1_0_0_1_wf
def dot_S50000x125_S125x144_S50000x144_1_0_0_1_n_n : DotDims S50000x125 S125x144 S50000x144 where
  lhsContracting := [1]
  rhsContracting := [0]
  lhsNonContracting := [0]
  rhsNonContracting := [1]
  lhsBatch := []
  rhsBatch := []
  wf := dot_S50000x125_S125x144_S50000x144_1_0_0_1_n_n_wf
def gather_S50000x144_S800000x1_S800000x144_1_0_n_n_0_1_1144 : GatherDims S50000x144 S800000x1 S800000x144 where
  offsetDims := [1]
  collapsedSliceDims := [0]
  operandBatchingDims := []
  startIndicesBatchingDims := []
  startIndexMap := [0]
  indexVectorDim := 1
  sliceSizes := ![1, 144]
  wf := gather_S50000x144_S800000x1_S800000x144_1_0_n_n_0_1_1144_wf
def scatter_S50000x144_S800000x1_S800000x144_1_0_0_1 : ScatterDims S50000x144 S800000x1 S800000x144 where
  updateWindowDims := [1]
  insertedWindowDims := [0]
  scatterDimsToOperandDims := [0]
  indexVectorDim := 1
  wf := scatter_S50000x144_S800000x1_S800000x144_1_0_0_1_wf
def dot_S50000x144_S144x163_S50000x163_1_0_0_1_n_n : DotDims S50000x144 S144x163 S50000x163 where
  lhsContracting := [1]
  rhsContracting := [0]
  lhsNonContracting := [0]
  rhsNonContracting := [1]
  lhsBatch := []
  rhsBatch := []
  wf := dot_S50000x144_S144x163_S50000x163_1_0_0_1_n_n_wf
def gather_S50000x163_S800000x1_S800000x163_1_0_n_n_0_1_1163 : GatherDims S50000x163 S800000x1 S800000x163 where
  offsetDims := [1]
  collapsedSliceDims := [0]
  operandBatchingDims := []
  startIndicesBatchingDims := []
  startIndexMap := [0]
  indexVectorDim := 1
  sliceSizes := ![1, 163]
  wf := gather_S50000x163_S800000x1_S800000x163_1_0_n_n_0_1_1163_wf
def scatter_S50000x163_S800000x1_S800000x163_1_0_0_1 : ScatterDims S50000x163 S800000x1 S800000x163 where
  updateWindowDims := [1]
  insertedWindowDims := [0]
  scatterDimsToOperandDims := [0]
  indexVectorDim := 1
  wf := scatter_S50000x163_S800000x1_S800000x163_1_0_0_1_wf
def dot_S50000x163_S163x192_S50000x192_1_0_0_1_n_n : DotDims S50000x163 S163x192 S50000x192 where
  lhsContracting := [1]
  rhsContracting := [0]
  lhsNonContracting := [0]
  rhsNonContracting := [1]
  lhsBatch := []
  rhsBatch := []
  wf := dot_S50000x163_S163x192_S50000x192_1_0_0_1_n_n_wf
def gather_S50000x192_S800000x1_S800000x192_1_0_n_n_0_1_1192 : GatherDims S50000x192 S800000x1 S800000x192 where
  offsetDims := [1]
  collapsedSliceDims := [0]
  operandBatchingDims := []
  startIndicesBatchingDims := []
  startIndexMap := [0]
  indexVectorDim := 1
  sliceSizes := ![1, 192]
  wf := gather_S50000x192_S800000x1_S800000x192_1_0_n_n_0_1_1192_wf
def scatter_S50000x192_S800000x1_S800000x192_1_0_0_1 : ScatterDims S50000x192 S800000x1 S800000x192 where
  updateWindowDims := [1]
  insertedWindowDims := [0]
  scatterDimsToOperandDims := [0]
  indexVectorDim := 1
  wf := scatter_S50000x192_S800000x1_S800000x192_1_0_0_1_wf
def dot_S50000x96_S96x96_S50000x96_1_0_0_1_n_n : DotDims S50000x96 S96x96 S50000x96 where
  lhsContracting := [1]
  rhsContracting := [0]
  lhsNonContracting := [0]
  rhsNonContracting := [1]
  lhsBatch := []
  rhsBatch := []
  wf := dot_S50000x96_S96x96_S50000x96_1_0_0_1_n_n_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf

class Facts : Prop extends Facts₀ where

variable [Facts]
-- ==== Proof.KeepMacro.lean ====
/-
  Buffers that a layer leaves alone. Layer l of the program is four segments: a stretch of host operations, the
  dense pallas_call, a second stretch of host operations, the epilogue pallas_call. A buffer that none of the four
  writes holds at the layer's exit boundary what it held at the entry boundary; chained over consecutive layers,
  a value computed once (the edge lists, the normalisation coefficients, a weight argument, an earlier layer's
  output) is still there when a later layer reads it.
-/
import proofs.«420299_j43722767073851_4_alg».proof.Proof.Gen.KernelIdeal.Frame

set_option maxRecDepth 16384

noncomputable section

namespace Cert.KernelIdeal.Keep

open Cert.KernelIdeal Cert.KernelIdeal.Gen
open Idealize.ShloMosaic Idealize.ShloMosaic.TcCoe Idealize.SL.Sem

variable {F : FTy → Type} [FloatOps F]

variable (m : (ℓ : Loc nD τ sig) → Buf (Elt F) ℓ) (ρ : Dev nD → PrngReg)

/-- A buffer that no operation of a host stretch writes keeps its contents over the stretch. -/
macro "host_keep" ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

end Cert.KernelIdeal.Keep

end
-- ==== Proof.KeepCarried.lean ====
/-
  Buffers that a layer leaves alone. Layer l of the program is four segments: a stretch of host operations, the
  dense pallas_call, a second stretch of host operations, the epilogue pallas_call. A buffer that none of the four
  writes holds at the layer's exit boundary what it held at the entry boundary; chained over consecutive layers,
  a value computed once (the edge lists, the normalisation coefficients, a weight argument, an earlier layer's
  output) is still there when a later layer reads it.
-/
import proofs.«420299_j43722767073851_4_alg».proof.Proof.Gen.KernelIdeal.Frame
import proofs.«420299_j43722767073851_4_alg».proof.Proof.KeepMacro

set_option maxRecDepth 16384

noncomputable section

namespace Cert.KernelIdeal.Keep

open Cert.KernelIdeal Cert.KernelIdeal.Gen
open Idealize.ShloMosaic Idealize.ShloMosaic.TcCoe Idealize.SL.Sem

variable {F : FTy → Type} [FloatOps F]

variable (m : (ℓ : Loc nD τ sig) → Buf (Elt F) ℓ) (ρ : Dev nD → PrngReg)

/-! ### main_v61: boundary 8 to boundary 12 -/
theorem keepL3_v61 (c : Dev nD) : W12 m ρ c (Proc.devRef .tc main_v61) = W8 m ρ c (Proc.devRef .tc main_v61) :=
  (W12_of_ne m ρ c main_v61 (by decide)).trans <| (show W11 m ρ c (Proc.devRef .tc main_v61) = W10 m ρ c (Proc.devRef .tc main_v61) from by host_keep hostOps5).trans <|
  (show W10 m ρ c (Proc.devRef .tc main_v61) = W9 m ρ c (Proc.devRef .tc main_v61) from (W10_arr m ρ c 0).trans (((dat4 (V9 m ρ) c).arrAt_in 0 rfl _).trans (A_eq4 (V9 m ρ) c 0))).trans (show W9 m ρ c (Proc.devRef .tc main_v61) = W8 m ρ c (Proc.devRef .tc main_v61) from by host_keep hostOps4)
theorem keep_v61_12 (c : Dev nD) : W12 m ρ c (Proc.devRef .tc main_v61) = W8 m ρ c (Proc.devRef .tc main_v61) :=
  keepL3_v61 m ρ c

/-! ### main_v78: boundary 12 to boundary 16 -/
theorem keepL4_v78 (c : Dev nD) : W16 m ρ c (Proc.devRef .tc main_v78) = W12 m ρ c (Proc.devRef .tc main_v78) :=
  (W16_of_ne m ρ c main_v78 (by decide)).trans <| (show W15 m ρ c (Proc.devRef .tc main_v78) = W14 m ρ c (Proc.devRef .tc main_v78) from by host_keep hostOps7).trans <|
  (W14_of_ne m ρ c main_v78 (by decide)).trans (show W13 m ρ c (Proc.devRef .tc main_v78) = W12 m ρ c (Proc.devRef .tc main_v78) from by host_keep hostOps6)
theorem keep_v78_16 (c : Dev nD) : W16 m ρ c (Proc.devRef .tc main_v78) = W12 m ρ c (Proc.devRef .tc main_v78) :=
  keepL4_v78 m ρ c

/-! ### main_v117: boundary 20 to boundary 36 -/
theorem keepL6_v117 (c : Dev nD) : W24 m ρ c (Proc.devRef .tc main_v117) = W20 m ρ c (Proc.devRef .tc main_v117) :=
  (W24_of_ne m ρ c main_v117 (by decide)).trans <| (show W23 m ρ c (Proc.devRef .tc main_v117) = W22 m ρ c (Proc.devRef .tc main_v117) from by host_keep hostOps11).trans <|
  (W22_of_ne m ρ c main_v117 (by decide)).trans (show W21 m ρ c (Proc.devRef .tc main_v117) = W20 m ρ c (Proc.devRef .tc main_v117) from by host_keep hostOps10)
theorem keep_v117_24 (c : Dev nD) : W24 m ρ c (Proc.devRef .tc main_v117) = W20 m ρ c (Proc.devRef .tc main_v117) :=
  keepL6_v117 m ρ c
theorem keepL7_v117 (c : Dev nD) : W28 m ρ c (Proc.devRef .tc main_v117) = W24 m ρ c (Proc.devRef .tc main_v117) :=
  (W28_of_ne m ρ c main_v117 (by decide)).trans <| (show W27 m ρ c (Proc.devRef .tc main_v117) = W26 m ρ c (Proc.devRef .tc main_v117) from by host_keep hostOps13).trans <|
  (W26_of_ne m ρ c main_v117 (by decide)).trans (show W25 m ρ c (Proc.devRef .tc main_v117) = W24 m ρ c (Proc.devRef .tc main_v117) from by host_keep hostOps12)
theorem keep_v117_28 (c : Dev nD) : W28 m ρ c (Proc.devRef .tc main_v117) = W20 m ρ c (Proc.devRef .tc main_v117) :=
  (keepL7_v117 m ρ c).trans (keep_v117_24 m ρ c)
theorem keepL8_v117 (c : Dev nD) : W32 m ρ c (Proc.devRef .tc main_v117) = W28 m ρ c (Proc.devRef .tc main_v117) :=
  (W32_of_ne m ρ c main_v117 (by decide)).trans <| (show W31 m ρ c (Proc.devRef .tc main_v117) = W30 m ρ c (Proc.devRef .tc main_v117) from by host_keep hostOps15).trans <|
  (W30_of_ne m ρ c main_v117 (by decide)).trans (show W29 m ρ c (Proc.devRef .tc main_v117) = W28 m ρ c (Proc.devRef .tc main_v117) from by host_keep hostOps14)
theorem keep_v117_32 (c : Dev nD) : W32 m ρ c (Proc.devRef .tc main_v117) = W20 m ρ c (Proc.devRef .tc main_v117) :=
  (keepL8_v117 m ρ c).trans (keep_v117_28 m ρ c)
theorem keepL9_v117 (c : Dev nD) : W36 m ρ c (Proc.devRef .tc main_v117) = W32 m ρ c (Proc.devRef .tc main_v117) :=
  (W36_of_ne m ρ c main_v117 (by decide)).trans <| (show W35 m ρ c (Proc.devRef .tc main_v117) = W34 m ρ c (Proc.devRef .tc main_v117) from by host_keep hostOps17).trans <|
  (W34_of_ne m ρ c main_v117 (by decide)).trans (show W33 m ρ c (Proc.devRef .tc main_v117) = W32 m ρ c (Proc.devRef .tc main_v117) from by host_keep hostOps16)
theorem keep_v117_36 (c : Dev nD) : W36 m ρ c (Proc.devRef .tc main_v117) = W20 m ρ c (Proc.devRef .tc main_v117) :=
  (keepL9_v117 m ρ c).trans (keep_v117_32 m ρ c)

/-! ### main_v134: boundary 24 to boundary 28 -/
theorem keepL7_v134 (c : Dev nD) : W28 m ρ c (Proc.devRef .tc main_v134) = W24 m ρ c (Proc.devRef .tc main_v134) :=
  (W28_of_ne m ρ c main_v134 (by decide)).trans <| (show W27 m ρ c (Proc.devRef .tc main_v134) = W26 m ρ c (Proc.devRef .tc main_v134) from by host_keep hostOps13).trans <|
  (show W26 m ρ c (Proc.devRef .tc main_v134) = W25 m ρ c (Proc.devRef .tc main_v134) from (W26_arr m ρ c 0).trans (((dat12 (V25 m ρ) c).arrAt_in 0 rfl _).trans (A_eq12 (V25 m ρ) c 0))).trans (show W25 m ρ c (Proc.devRef .tc main_v134) = W24 m ρ c (Proc.devRef .tc main_v134) from by host_keep hostOps12)
theorem keep_v134_28 (c : Dev nD) : W28 m ρ c (Proc.devRef .tc main_v134) = W24 m ρ c (Proc.devRef .tc main_v134) :=
  keepL7_v134 m ρ c

/-! ### main_v151: boundary 28 to boundary 32 -/
theorem keepL8_v151 (c : Dev nD) : W32 m ρ c (Proc.devRef .tc main_v151) = W28 m ρ c (Proc.devRef .tc main_v151) :=
  (W32_of_ne m ρ c main_v151 (by decide)).trans <| (show W31 m ρ c (Proc.devRef .tc main_v151) = W30 m ρ c (Proc.devRef .tc main_v151) from by host_keep hostOps15).trans <|
  (W30_of_ne m ρ c main_v151 (by decide)).trans (show W29 m ρ c (Proc.devRef .tc main_v151) = W28 m ρ c (Proc.devRef .tc main_v151) from by host_keep hostOps14)
theorem keep_v151_32 (c : Dev nD) : W32 m ρ c (Proc.devRef .tc main_v151) = W28 m ρ c (Proc.devRef .tc main_v151) :=
  keepL8_v151 m ρ c

end Cert.KernelIdeal.Keep

end
-- ==== Proof.Spec.lean ====
/-
  The value each pallas_call of the kernel leaves in its output arrays, as whole-array functions on the extended
  reals, index by index. A dense call leaves the matrix product of its node features with the layer's weights
  (a sum over the contracted axis), and that product scaled row by row by the self-loop coefficient plus the bias
  row; an epilogue call leaves the sum of the aggregated messages and the self-loop term, passed through the
  layer's activation.
-/
import Idealize.ShloMosaic.PureOps.Ideal
import Idealize.ShloMosaic.Lib.ValueIdx

noncomputable section

namespace Cert.Spec

open Idealize.ShloMosaic

/-- The left operand's index (row of the output index, contracted position k). -/
abbrev lix {n a b : ℕ} (i : (⟨2, ![n, b]⟩ : Shape).Idx) (k : Fin a) : (⟨2, ![n, a]⟩ : Shape).Idx := fun d => match d with
  | ⟨0, _⟩ => ⟨(i 0).val, (i 0).isLt⟩
  | ⟨1, _⟩ => ⟨k.val, k.isLt⟩

/-- The right operand's index (contracted position k, column of the output index). -/
abbrev rix {n a b : ℕ} (i : (⟨2, ![n, b]⟩ : Shape).Idx) (k : Fin a) : (⟨2, ![a, b]⟩ : Shape).Idx := fun d => match d with
  | ⟨0, _⟩ => ⟨k.val, k.isLt⟩
  | ⟨1, _⟩ => ⟨(i 1).val, (i 1).isLt⟩

/-- The entry of an n x 1 column in the row of the index. -/
abbrev colIx {n b : ℕ} (i : (⟨2, ![n, b]⟩ : Shape).Idx) : (⟨2, ![n, 1]⟩ : Shape).Idx := fun d => match d with
  | ⟨0, _⟩ => ⟨(i 0).val, (i 0).isLt⟩
  | ⟨1, _⟩ => ⟨0, Nat.one_pos⟩

/-- The entry of a 1 x b row in the column of the index. -/
abbrev rowIx {n b : ℕ} (i : (⟨2, ![n, b]⟩ : Shape).Idx) : (⟨2, ![1, b]⟩ : Shape).Idx := fun d => match d with
  | ⟨0, _⟩ => ⟨0, Nat.one_pos⟩
  | ⟨1, _⟩ => ⟨(i 1).val, (i 1).isLt⟩

/-- The matrix product h · W, entry by entry a sum over the contracted axis. -/
def mm {n a b : ℕ} (h : (⟨2, ![n, a]⟩ : Shape).Idx → EReal) (W : (⟨2, ![a, b]⟩ : Shape).Idx → EReal) :
    (⟨2, ![n, b]⟩ : Shape).Idx → EReal :=
  fun i => ∑ k : Fin a, h (lix i k) * W (rix i k)

/-- The self-loop term of a layer: (h · W) scaled row by row by the column sc, plus the bias row. -/
def dense {n a b : ℕ} (h : (⟨2, ![n, a]⟩ : Shape).Idx → EReal) (W : (⟨2, ![a, b]⟩ : Shape).Idx → EReal)
    (bias : (⟨2, ![1, b]⟩ : Shape).Idx → EReal) (sc : (⟨2, ![n, 1]⟩ : Shape).Idx → EReal) :
    (⟨2, ![n, b]⟩ : Shape).Idx → EReal :=
  fun i => mm h W i * sc (colIx i) + bias (rowIx i)

/-- Aggregated messages plus the self-loop term, no activation. -/
def epiNone {n b : ℕ} (agg oi : (⟨2, ![n, b]⟩ : Shape).Idx → EReal) : (⟨2, ![n, b]⟩ : Shape).Idx → EReal :=
  fun i => agg i + oi i

/-- Aggregated messages plus the self-loop term, then max with zero. -/
def epiRelu {n b : ℕ} (agg oi : (⟨2, ![n, b]⟩ : Shape).Idx → EReal) : (⟨2, ![n, b]⟩ : Shape).Idx → EReal :=
  fun i => max (agg i + oi i) 0

/-- Aggregated messages plus the self-loop term, then the logistic function. -/
def epiSigmoid {n b : ℕ} (agg oi : (⟨2, ![n, b]⟩ : Shape).Idx → EReal) : (⟨2, ![n, b]⟩ : Shape).Idx → EReal :=
  fun i => Ideal.logistic (agg i + oi i)

end Cert.Spec

end
-- ==== Proof.LibColumn.lean ====
/-
  The keepdims column forms of a vector: a length-a vector viewed as an a x 1 column, and an a x 1 column
  repeated across b columns, each read at an index. (The row forms, 1 x b, are in the library.)
-/
import Idealize.ShloMosaic.Lib.Pipeline.Value
import Idealize.ShloMosaic.Lib.ValueIdx

namespace Cert.LibColumn

open Idealize.ShloMosaic Idealize.ShloMosaic.ValueIdx

variable {α : Type}

/-- A length-a vector cast to an a x 1 column reads, at (i, u), the vector at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An a x 1 column broadcast to a x b reads, at (p, c), the column's entry in row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.LibColumn
-- ==== Proof.RegD0.lean ====
/-
  The first dense call of the kernel (node features 50000 x 96, weights 96 x 125), read as whole arrays on the
  extended reals. Its grid has 25 points; point t holds rows 2000 t .. 2000 t + 1999 of the node features, of the
  self-loop column and of both outputs, and the whole of the weights and of the bias row. One block of the product
  is a sum over the contracted axis; one block of the self-loop term is that product scaled row by row by the column
  plus the bias row. The blocks of the 25 points tile each output array, so each array ends holding the whole
  product h · W, respectively (h · W) scaled by the column plus the bias row.
-/
import proofs.«420299_j43722767073851_4_alg».proof.Proof.Gen.KernelIdeal.Frame
import proofs.«420299_j43722767073851_4_alg».proof.Proof.Spec
import proofs.«420299_j43722767073851_4_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384
noncomputable section
namespace Cert.KernelIdeal.RegVal
open Idealize.ShloMosaic Idealize.ShloMosaic.TcCoe Idealize.SL.Sem Cert.KernelIdeal Cert.KernelIdeal.Gen
open Idealize.ShloMosaic.Pipeline (Dat Cfg Window)
open Idealize.ShloMosaic.ValueIdx

/-! ## The product h · W of one block, entry by entry -/

/-- Row axis of the left operand: the output index's row. -/
theorem lhs_mm0_0 (i : S2000x125.Idx) (q : dot_S2000x96_S96x125_S2000x125_1_0_0_1_n_n.contr.Idx) :
    (dot_S2000x96_S96x125_S2000x125_1_0_0_1_n_n.lhsIdx i q 0).val = (i 0).val := by
  unfold DotDims.lhsIdx
  rw [dif_neg (show ¬(0 : Fin S2000x96.rank) ∈ dot_S2000x96_S96x125_S2000x125_1_0_0_1_n_n.lhsBatch by decide), dif_pos (show (0 : Fin S2000x96.rank) ∈ dot_S2000x96_S96x125_S2000x125_1_0_0_1_n_n.lhsNonContracting by decide)]
  rfl
/-- Column axis of the left operand: the contracted position. -/
theorem lhs_mm0_1 (i : S2000x125.Idx) (q : dot_S2000x96_S96x125_S2000x125_1_0_0_1_n_n.contr.Idx) :
    (dot_S2000x96_S96x125_S2000x125_1_0_0_1_n_n.lhsIdx i q 1).val = (q ⟨0, by decide⟩).val :=
  dot_S2000x96_S96x125_S2000x125_1_0_0_1_n_n.lhsIdx_val_of_single rfl i q
/-- Row axis of the right operand: the contracted position. -/
theorem rhs_mm0_0 (i : S2000x125.Idx) (q : dot_S2000x96_S96x125_S2000x125_1_0_0_1_n_n.contr.Idx) :
    (dot_S2000x96_S96x125_S2000x125_1_0_0_1_n_n.rhsIdx i q 0).val = (q ⟨0, by decide⟩).val :=
  dot_S2000x96_S96x125_S2000x125_1_0_0_1_n_n.rhsIdx_val_of_single rfl i q
/-- Column axis of the right operand: the output index's column. -/
theorem rhs_mm0_1 (i : S2000x125.Idx) (q : dot_S2000x96_S96x125_S2000x125_1_0_0_1_n_n.contr.Idx) :
    (dot_S2000x96_S96x125_S2000x125_1_0_0_1_n_n.rhsIdx i q 1).val = (i 1).val := by
  unfold DotDims.rhsIdx
  rw [dif_neg (show ¬(1 : Fin S96x125.rank) ∈ dot_S2000x96_S96x125_S2000x125_1_0_0_1_n_n.rhsBatch by decide), dif_pos (show (1 : Fin S96x125.rank) ∈ dot_S2000x96_S96x125_S2000x125_1_0_0_1_n_n.rhsNonContracting by decide)]
  rfl

/-- The block product at an index: the sum over the 96 contracted positions of the left operand's entry in the
    index's row times the right operand's entry in the index's column. -/
theorem blockProd0_apply (x0 : Vec Ideal S2000x96 .f32) (x1 : Vec Ideal S96x125 .f32) (j : S2000x125.Idx) :
    k0_pay1 (F := Ideal) x0 x1 j = ∑ k : Fin 96, x0 (Cert.Spec.lix j k) * x1 (Cert.Spec.rix j k) := by
  unfold k0_pay1
  refine (Ideal.matmul_constant_zero_apply dot_S2000x96_S96x125_S2000x125_1_0_0_1_n_n none x0 x1 j).trans ?_
  rw [← Equiv.sum_comp (ValueIdx.contrEquiv1 dot_S2000x96_S96x125_S2000x125_1_0_0_1_n_n 96 rfl rfl).symm]
  refine Finset.sum_congr rfl fun k _ => ?_
  have hk := ValueIdx.contrEquiv1_symm_val dot_S2000x96_S96x125_S2000x125_1_0_0_1_n_n 96 rfl rfl k
  have el : dot_S2000x96_S96x125_S2000x125_1_0_0_1_n_n.lhsIdx j ((ValueIdx.contrEquiv1 dot_S2000x96_S96x125_S2000x125_1_0_0_1_n_n 96 rfl rfl).symm k) = Cert.Spec.lix j k := funext fun a => Fin.ext (by
    match a with
    | ⟨0, _⟩ => exact lhs_mm0_0 _ _
    | ⟨1, _⟩ => exact (lhs_mm0_1 _ _).trans hk)
  have er : dot_S2000x96_S96x125_S2000x125_1_0_0_1_n_n.rhsIdx j ((ValueIdx.contrEquiv1 dot_S2000x96_S96x125_S2000x125_1_0_0_1_n_n 96 rfl rfl).symm k) = Cert.Spec.rix j k := funext fun a => Fin.ext (by
    match a with
    | ⟨0, _⟩ => exact (rhs_mm0_0 _ _).trans hk
    | ⟨1, _⟩ => exact rhs_mm0_1 _ _)
  rw [el, er]

/-! ## The scaled product plus the bias row, of one block, entry by entry -/

/-- The block's self-loop term at an index: the block product there, times the column's entry in the index's row,
    plus the bias row's entry in the index's column. -/
theorem blockDense0_apply (x0 : Vec Ideal S2000x96 .f32) (x1 : Vec Ideal S96x125 .f32) (x3 : Vec Ideal S2000x1 .f32)
    (x7 : Vec Ideal S1x125 .f32) (j : S2000x125.Idx) :
    k0_pay2 (F := Ideal) x0 x1 x3 x7 j
      = k0_pay1 (F := Ideal) x0 x1 j * x3 (Cert.Spec.colIx j) + x7 (Cert.Spec.rowIx j) := by
  obtain ⟨p, q, rfl⟩ : ∃ (p : Fin 2000) (q : Fin 125), j = ix2 p q := ⟨j 0, j 1, eq_ix2 j⟩
  have ec : Cert.Spec.colIx (ix2 p q) = ix2 p (0 : Fin 1) := funext fun a => by
    match a with
    | ⟨0, _⟩ => rfl
    | ⟨1, _⟩ => rfl
  have er : Cert.Spec.rowIx (ix2 p q) = ix2 (0 : Fin 1) q := funext fun a => by
    match a with
    | ⟨0, _⟩ => rfl
    | ⟨1, _⟩ => rfl
  unfold k0_pay2
  show k0_pay1 (F := Ideal) x0 x1 (ix2 p q)
        * broadcastTo S2000x125 (shapeCast S2000x1 x3 shapeCasts_S2000x1_S2000x1) broadcasts_S2000x1_S2000x125 (ix2 p q)
      + broadcastTo S2000x125 (shapeCast S1x125 x7 shapeCasts_S1x125_S1x125) broadcasts_S1x125_S2000x125 (ix2 p q) = _
  rw [shapeCast_self, shapeCast_self, Cert.LibColumn.broadcastTo_a1_ab_apply, broadcastTo_1b_ab_apply, ec, er]

variable (V : (c : Dev nD) → (b : Ref sig .tc) → Buf (Elt Ideal) ((c : Thread nD τ).loc b))

/-! ## From blocks to the arrays -/

theorem zeroOff0 : (![0, 0] : Fin 2 → Nat) = fun _ => 0 := funext fun a => by
  match a with
  | ⟨0, _⟩ => rfl
  | ⟨1, _⟩ => rfl

/-- The printed index maps over the grid: the windows cut in row blocks (node features, column, both outputs) sit at
    block row t, block column 0; the weights and the bias row are their one block. -/
theorem blockIdx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- The block product of point t at a block index is the whole product h · W at the array index whose row is
    2000 t plus the block index's row and whose column is the block index's column. -/
theorem blockProd0_at (c : Dev nD) (t : Fin cfg0.N) (j : S2000x125.Idx) (i : S50000x125.Idx)
    (hr : (i 0).val = t.val * 2000 + (j 0).val) (hc : (i 1).val = (j 1).val) :
    k0_pay1 (F := Ideal) (iblk0 V c 0 t) (iblk0 V c 1 t) j = Cert.Spec.mm (V c main_arg0) (V c main_arg4) i := by
  obtain ⟨e00, e01, e10, e11, -⟩ := blockIdx0 t
  rw [blockProd0_apply]
  unfold Cert.Spec.mm
  refine Finset.sum_congr rfl fun k _ => ?_
  have a0 : iblk0 V c 0 t (Cert.Spec.lix j k) = V c main_arg0 (Cert.Spec.lix i k) := by
    show V c main_arg0 (((cfg0.win 0).blk t).view.emb (Cert.Spec.lix j k)) = _
    refine congrArg (V c main_arg0) ?_
    funext a; apply Fin.ext
    match a with
    | ⟨0, _⟩ => show win0_0.index t (0 : Fin 2) * 2000 + 1 * (j 0).val = (i 0).val; omega
    | ⟨1, _⟩ => show win0_0.index t (1 : Fin 2) * 96 + 1 * k.val = k.val; omega
  have a1 : iblk0 V c 1 t (Cert.Spec.rix j k) = V c main_arg4 (Cert.Spec.rix i k) := by
    show V c main_arg4 (((cfg0.win 1).blk t).view.emb (Cert.Spec.rix j k)) = _
    refine congrArg (V c main_arg4) ?_
    funext a; apply Fin.ext
    match a with
    | ⟨0, _⟩ => show win0_1.index t (0 : Fin 2) * 96 + 1 * k.val = k.val; omega
    | ⟨1, _⟩ => show win0_1.index t (1 : Fin 2) * 125 + 1 * (j 1).val = (i 1).val; omega
  rw [a0, a1]

/-! ### The product's array (output window 5) -/

/-- What point t writes back to the product's array is block t of h · W of the arrays as the region finds them. -/
theorem flushed0_5 (c : Dev nD) (t : Fin cfg0.N) :
    (dat0 (F := Ideal) V c).flushed 5 t
      = ((cfg0.win 5).blk t).view.read (Elt Ideal) (Cert.Spec.mm (V c main_arg0) (V c main_arg4)) := by
  show (cfg0.win 5).cut (grid0.coords t) ((dat0 (F := Ideal) V c).after 5 t) = _
  rw [after0_5]
  unfold out0_5
  rw [View.canon_unit_zero zeroOff0]
  simp only [View.ld_unit_zero (S := S2000x96) zeroOff0, View.ld_unit_zero (S := S96x125) zeroOff0]
  obtain ⟨-, -, -, -, -, -, -, -, -, -, e50, e51⟩ := blockIdx0 t
  refine funext fun (j : S2000x125.Idx) => ?_
  show k0_pay1 (F := Ideal) (iblk0 V c 0 t) (iblk0 V c 1 t) j
      = Cert.Spec.mm (V c main_arg0) (V c main_arg4) (((cfg0.win 5).blk t).view.emb j : S50000x125.Idx)
  refine blockProd0_at V c t j _ ?_ ?_
  · show win0_5.index t (0 : Fin 2) * 2000 + 1 * (j 0).val = t.val * 2000 + (j 0).val; omega
  · show win0_5.index t (1 : Fin 2) * 125 + 1 * (j 1).val = (j 1).val; omega

/-- An index of the product's array is in point t's block iff each coordinate is in the block's range on its axis. -/
theorem mem_blk0_5 (t : Fin cfg0.N) (i : S50000x125.Idx) :
    i ∈ ((cfg0.win 5).blk t).view.set ↔ ∀ a : Fin 2, win0_5.index t a * S2000x125.size a ≤ (i a).val
      ∧ (i a).val < win0_5.index t a * S2000x125.size a + S2000x125.size a := by
  show i ∈ ((View.whole main_v30_1).slice (win0_5.rect t)).set ↔ _
  rw [View.set_slice_whole, Rect.mem_set_unit]
  exact Iff.rfl

/-- Every index of the product's array is in the block of the point its row divided by 2000 names, and every point
    writes its block back. -/
theorem covered0_5 (i : S50000x125.Idx) :
    ∃ t : Fin cfg0.N, (cfg0.win 5).flush t = true ∧ i ∈ ((cfg0.win 5).blk t).view.set := by
  have hi0 : (i 0).val < 50000 := (i 0).isLt
  have hi1 : (i 1).val < 125 := (i 1).isLt
  have ht : (i 0).val / 2000 < cfg0.N := by show (i 0).val / 2000 < 25; omega
  obtain ⟨-, -, -, -, -, -, -, -, -, -, e50, e51⟩ := blockIdx0 ⟨(i 0).val / 2000, ht⟩
  have e50' : win0_5.index ⟨(i 0).val / 2000, ht⟩ (0 : Fin 2) = (i 0).val / 2000 := e50
  refine ⟨⟨(i 0).val / 2000, ht⟩, flush0_5 _, ?_⟩
  rw [mem_blk0_5]
  intro a
  match a with
  | ⟨0, _⟩ =>
    show win0_5.index ⟨(i 0).val / 2000, ht⟩ (0 : Fin 2) * 2000 ≤ (i 0).val
      ∧ (i 0).val < win0_5.index ⟨(i 0).val / 2000, ht⟩ (0 : Fin 2) * 2000 + 2000
    omega
  | ⟨1, _⟩ =>
    show win0_5.index ⟨(i 0).val / 2000, ht⟩ (1 : Fin 2) * 125 ≤ (i 1).val
      ∧ (i 1).val < win0_5.index ⟨(i 0).val / 2000, ht⟩ (1 : Fin 2) * 125 + 125
    omega

/-- The product's array after the region: h · W of the node features and the weights as the region finds them. -/
theorem arr0_5 (c : Dev nD) :
    (dat0 (F := Ideal) V c).arrAt 5 cfg0.N = Cert.Spec.mm (V c main_arg0) (V c main_arg4) :=
  (dat0 (F := Ideal) V c).arrAt_eq_of_cover 5 (Cert.Spec.mm (V c main_arg0) (V c main_arg4))
    (fun t _ => flushed0_5 V c t) covered0_5

/-! ### The self-loop term's array (output window 4) -/

/-- What point t writes back to the self-loop term's array is block t of (h · W) scaled row by row by the column,
    plus the bias row, of the arrays as the region finds them. -/
theorem flushed0_4 (c : Dev nD) (t : Fin cfg0.N) :
    (dat0 (F := Ideal) V c).flushed 4 t
      = ((cfg0.win 4).blk t).view.read (Elt Ideal)
          (Cert.Spec.dense (V c main_arg0) (V c main_arg4) (V c main_v28) (V c main_v29)) := by
  show (cfg0.win 4).cut (grid0.coords t) ((dat0 (F := Ideal) V c).after 4 t) = _
  rw [after0_4]
  unfold out0_4
  rw [View.canon_unit_zero zeroOff0]
  simp only [View.ld_unit_zero (S := S2000x96) zeroOff0, View.ld_unit_zero (S := S96x125) zeroOff0,
    View.ld_unit_zero (S := S2000x1) zeroOff0, View.ld_unit_zero (S := S1x125) zeroOff0]
  obtain ⟨-, -, -, -, e20, e21, e30, e31, e40, e41, -, -⟩ := blockIdx0 t
  refine funext fun (j : S2000x125.Idx) => ?_
  show k0_pay2 (F := Ideal) (iblk0 V c 0 t) (iblk0 V c 1 t) (iblk0 V c 3 t) (iblk0 V c 2 t) j
      = Cert.Spec.dense (V c main_arg0) (V c main_arg4) (V c main_v28) (V c main_v29)
          (((cfg0.win 4).blk t).view.emb j : S50000x125.Idx)
  have hp : k0_pay1 (F := Ideal) (iblk0 V c 0 t) (iblk0 V c 1 t) j
      = Cert.Spec.mm (V c main_arg0) (V c main_arg4) (((cfg0.win 4).blk t).view.emb j : S50000x125.Idx) := by
    refine blockProd0_at V c t j _ ?_ ?_
    · show win0_4.index t (0 : Fin 2) * 2000 + 1 * (j 0).val = t.val * 2000 + (j 0).val; omega
    · show win0_4.index t (1 : Fin 2) * 125 + 1 * (j 1).val = (j 1).val; omega
  have hcol : iblk0 V c 3 t (Cert.Spec.colIx j)
      = V c main_v29 (Cert.Spec.colIx (((cfg0.win 4).blk t).view.emb j : S50000x125.Idx)) := by
    show V c main_v29 (((cfg0.win 3).blk t).view.emb (Cert.Spec.colIx j)) = _
    refine congrArg (V c main_v29) ?_
    funext a; apply Fin.ext
    match a with
    | ⟨0, _⟩ => show win0_3.index t (0 : Fin 2) * 2000 + 1 * (j 0).val = win0_4.index t (0 : Fin 2) * 2000 + 1 * (j 0).val; omega
    | ⟨1, _⟩ => show win0_3.index t (1 : Fin 2) * 1 + 1 * 0 = 0; omega
  have hrow : iblk0 V c 2 t (Cert.Spec.rowIx j)
      = V c main_v28 (Cert.Spec.rowIx (((cfg0.win 4).blk t).view.emb j : S50000x125.Idx)) := by
    show V c main_v28 (((cfg0.win 2).blk t).view.emb (Cert.Spec.rowIx j)) = _
    refine congrArg (V c main_v28) ?_
    funext a; apply Fin.ext
    match a with
    | ⟨0, _⟩ => show win0_2.index t (0 : Fin 2) * 1 + 1 * 0 = 0; omega
    | ⟨1, _⟩ => show win0_2.index t (1 : Fin 2) * 125 + 1 * (j 1).val = win0_4.index t (1 : Fin 2) * 125 + 1 * (j 1).val; omega
  rw [blockDense0_apply, hp, hcol, hrow]
  rfl

/-- An index of the self-loop term's array is in point t's block iff each coordinate is in the block's range on its
    axis. -/
theorem mem_blk0_4 (t : Fin cfg0.N) (i : S50000x125.Idx) :
    i ∈ ((cfg0.win 4).blk t).view.set ↔ ∀ a : Fin 2, win0_4.index t a * S2000x125.size a ≤ (i a).val
      ∧ (i a).val < win0_4.index t a * S2000x125.size a + S2000x125.size a := by
  show i ∈ ((View.whole main_v30_0).slice (win0_4.rect t)).set ↔ _
  rw [View.set_slice_whole, Rect.mem_set_unit]
  exact Iff.rfl

/-- Every index of the self-loop term's array is in the block of the point its row divided by 2000 names, and every
    point writes its block back. -/
theorem covered0_4 (i : S50000x125.Idx) :
    ∃ t : Fin cfg0.N, (cfg0.win 4).flush t = true ∧ i ∈ ((cfg0.win 4).blk t).view.set := by
  have hi0 : (i 0).val < 50000 := (i 0).isLt
  have hi1 : (i 1).val < 125 := (i 1).isLt
  have ht : (i 0).val / 2000 < cfg0.N := by show (i 0).val / 2000 < 25; omega
  obtain ⟨-, -, -, -, -, -, -, -, e40, e41, -, -⟩ := blockIdx0 ⟨(i 0).val / 2000, ht⟩
  have e40' : win0_4.index ⟨(i 0).val / 2000, ht⟩ (0 : Fin 2) = (i 0).val / 2000 := e40
  refine ⟨⟨(i 0).val / 2000, ht⟩, flush0_4 _, ?_⟩
  rw [mem_blk0_4]
  intro a
  match a with
  | ⟨0, _⟩ =>
    show win0_4.index ⟨(i 0).val / 2000, ht⟩ (0 : Fin 2) * 2000 ≤ (i 0).val
      ∧ (i 0).val < win0_4.index ⟨(i 0).val / 2000, ht⟩ (0 : Fin 2) * 2000 + 2000
    omega
  | ⟨1, _⟩ =>
    show win0_4.index ⟨(i 0).val / 2000, ht⟩ (1 : Fin 2) * 125 ≤ (i 1).val
      ∧ (i 1).val < win0_4.index ⟨(i 0).val / 2000, ht⟩ (1 : Fin 2) * 125 + 125
    omega

/-- The self-loop term's array after the region: (h · W) scaled row by row by the column, plus the bias row, of the
    node features, weights, bias row and column as the region finds them. -/
theorem arr0_4 (c : Dev nD) :
    (dat0 (F := Ideal) V c).arrAt 4 cfg0.N
      = Cert.Spec.dense (V c main_arg0) (V c main_arg4) (V c main_v28) (V c main_v29) :=
  (dat0 (F := Ideal) V c).arrAt_eq_of_cover 4
    (Cert.Spec.dense (V c main_arg0) (V c main_arg4) (V c main_v28) (V c main_v29))
    (fun t _ => flushed0_4 V c t) covered0_4

end Cert.KernelIdeal.RegVal
end
-- ==== Proof.RegE1.lean ====
/-
  Region 1, an epilogue call on 125 columns. Its two inputs are the aggregated messages and the self-loop term, both
  50000 x 125; its output, also 50000 x 125, holds at every index the sum of the two inputs there, replaced by zero
  where the sum is negative.

  The call works on 25 blocks of 2000 whole rows. At grid point t every window stands on rows 2000 t .. 2000 t + 1999,
  so an entry of the output block depends on the two input entries of the same row and column only. The 25 row
  blocks fill the 50000 rows, hence the whole output array is that pointwise function of the two input arrays.
-/
import proofs.«420299_j43722767073851_4_alg».proof.Proof.Gen.KernelIdeal.Frame
import proofs.«420299_j43722767073851_4_alg».proof.Proof.Spec
import Idealize.ShloMosaic.Lib.Pipeline.Value
import Idealize.ShloMosaic.Lib.ValueIdx
import Idealize.ShloMosaic.PureOps.Ideal
import Idealize.ShloMosaic.PureOps.Ideal.Laws

set_option maxRecDepth 16384

noncomputable section
namespace Cert.KernelIdeal.RegVal
open Idealize.ShloMosaic Idealize.ShloMosaic.TcCoe Idealize.SL.Sem Cert.KernelIdeal Cert.KernelIdeal.Gen
open Idealize.ShloMosaic.Pipeline (Dat Cfg Window)
open Idealize.ShloMosaic.ValueIdx

variable (V : (c : Dev nD) → (b : Ref sig .tc) → Buf (Elt Ideal) ((c : Thread nD τ).loc b))

/-- The body reads and writes each of its blocks from the block's first row and first column. -/
theorem origin1 : (![0, 0] : Fin 2 → Nat) = fun _ => 0 := funext fun a => by fin_cases a <;> rfl

/-- The body's value at an index of its block: the two loaded blocks added there, then the larger of that sum and
    zero (the zero word of the 32-bit format is the real number 0). -/
theorem epi1_apply (x0 x1 : FVec Ideal S2000x125 .f32) (j : S2000x125.Idx) :
    k1_pay1 (F := Ideal) x0 x1 j = max (x0 j + x1 j) 0 := by
  unfold k1_pay1
  simp only [shapeCast_self]
  show max (x0 j + x1 j) (Ideal.ofBits .f32 0x00000000#32) = _
  rw [Ideal.ofBits_zero_f32]

/-- The same value, when the two block entries are the entries of two whole arrays at one index: the pointwise
    function of the two arrays at that index. -/
theorem epi1_apply_of_entries (A B : FVec Ideal S50000x125 .f32) (x0 x1 : FVec Ideal S2000x125 .f32)
    (j : S2000x125.Idx) (i : S50000x125.Idx) (h0 : x0 j = A i) (h1 : x1 j = B i) :
    k1_pay1 (F := Ideal) x0 x1 j = Cert.Spec.epiRelu A B i := by
  rw [epi1_apply, h0, h1]
  rfl

/-- At grid point t each of the three windows stands on row block t and on the one column block. -/
theorem blockIndex1 : ∀ t : Fin cfg1.N, win1_0.index t (0 : Fin 2) = win1_2.index t (0 : Fin 2)
    ∧ win1_0.index t (1 : Fin 2) = win1_2.index t (1 : Fin 2)
    ∧ win1_1.index t (0 : Fin 2) = win1_2.index t (0 : Fin 2)
    ∧ win1_1.index t (1 : Fin 2) = win1_2.index t (1 : Fin 2)
    ∧ win1_2.index t (0 : Fin 2) ≤ 24
    ∧ win1_2.index t (1 : Fin 2) = 0 :=
  (by decide +kernel : ∀ t : Fin grid1.N, _)

/-- Every one of the 25 row blocks is the output's block at some grid point. -/
theorem blockIndex1_onto : ∀ q : Fin 25, ∃ t : Fin cfg1.N, win1_2.index t = ![q.val, 0] :=
  (by decide +kernel : ∀ q : Fin 25, ∃ t : Fin grid1.N, win1_2.index t = ![q.val, 0])

/-- What grid point t writes back to the output array is block t of the pointwise function of the two input arrays:
    an entry of the output block and the entries of the two input blocks it is computed from sit at the same row and
    column of their arrays (block index times block size plus the coordinate inside the block, on each axis). -/
theorem flushed1_2_eq (c : Dev nD) (t : Fin cfg1.N) :
    (dat1 (F := Ideal) V c).flushed 2 t
      = ((cfg1.win 2).blk t).view.read (Elt Ideal) (Cert.Spec.epiRelu (V c main_v43) (V c main_v30_0)) := by
  show (cfg1.win 2).cut (grid1.coords t) ((dat1 (F := Ideal) V c).after 2 t) = _
  rw [after1_2]
  unfold out1_2
  rw [View.canon_unit_zero origin1]
  simp only [View.ld_unit_zero (S := S2000x125) origin1]
  obtain ⟨e0, e1, e2, e3, e4, e5⟩ := blockIndex1 t
  funext j
  have h0 : ((cfg1.win 0).blk t).view.emb j = ((cfg1.win 2).blk t).view.emb j := by
    funext a; apply Fin.ext
    match a with
    | ⟨0, _⟩ => show win1_0.index t (0 : Fin 2) * 2000 + 1 * (j 0).val = win1_2.index t (0 : Fin 2) * 2000 + 1 * (j 0).val; omega
    | ⟨1, _⟩ => show win1_0.index t (1 : Fin 2) * 125 + 1 * (j 1).val = win1_2.index t (1 : Fin 2) * 125 + 1 * (j 1).val; omega
  have h1 : ((cfg1.win 1).blk t).view.emb j = ((cfg1.win 2).blk t).view.emb j := by
    funext a; apply Fin.ext
    match a with
    | ⟨0, _⟩ => show win1_1.index t (0 : Fin 2) * 2000 + 1 * (j 0).val = win1_2.index t (0 : Fin 2) * 2000 + 1 * (j 0).val; omega
    | ⟨1, _⟩ => show win1_1.index t (1 : Fin 2) * 125 + 1 * (j 1).val = win1_2.index t (1 : Fin 2) * 125 + 1 * (j 1).val; omega
  exact epi1_apply_of_entries (V c main_v43) (V c main_v30_0) (iblk1 V c 0 t) (iblk1 V c 1 t) j
    (((cfg1.win 2).blk t).view.emb j) (congrArg (V c main_v43) h0) (congrArg (V c main_v30_0) h1)

/-- An index of the output array lies in grid point t's block exactly when, on each axis, its coordinate lies in the
    block's range there. -/
theorem mem_block1_2 (t : Fin cfg1.N) (i : S50000x125.Idx) :
    i ∈ ((cfg1.win 2).blk t).view.set ↔ ∀ a : Fin 2, win1_2.index t a * S2000x125.size a ≤ (i a).val
      ∧ (i a).val < win1_2.index t a * S2000x125.size a + S2000x125.size a := by
  show i ∈ ((View.whole main_v44).slice (win1_2.rect t)).set ↔ _
  rw [View.set_slice_whole, Rect.mem_set_unit]
  exact Iff.rfl

/-- Every index of the output array is written back by some grid point: row r lies in row block r / 2000. -/
theorem covered1_2 (i : S50000x125.Idx) :
    ∃ t : Fin cfg1.N, (cfg1.win 2).flush t = true ∧ i ∈ ((cfg1.win 2).blk t).view.set := by
  have hi0 : (i 0).val < 50000 := (i 0).isLt
  have hi1 : (i 1).val < 125 := (i 1).isLt
  obtain ⟨t, ht⟩ := blockIndex1_onto ⟨(i 0).val / 2000, by omega⟩
  have q0 : win1_2.index t (0 : Fin 2) = (i 0).val / 2000 := congrFun ht 0
  have q1 : win1_2.index t (1 : Fin 2) = 0 := congrFun ht 1
  refine ⟨t, flush1_2 t, ?_⟩
  rw [mem_block1_2]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 125 ≤ (i 1).val ∧ (i 1).val < win1_2.index t (1 : Fin 2) * 125 + 125; omega

/-- The output array of region 1 after the call: the sum of the aggregated messages and the self-loop term, then the
    maximum with zero, index by index. -/
theorem arr1_2 (c : Dev nD) : (dat1 (F := Ideal) V c).arrAt 2 cfg1.N = Cert.Spec.epiRelu (V c main_v43) (V c main_v30_0) :=
  (dat1 (F := Ideal) V c).arrAt_eq_of_cover 2 (Cert.Spec.epiRelu (V c main_v43) (V c main_v30_0))
    (fun t _ => flushed1_2_eq V c t) covered1_2

end Cert.KernelIdeal.RegVal
end
-- ==== Proof.Match1.lean ====
/-
  Layer 1 (96 -> 125 columns, relu), as pure functions of the argument arrays: the kernel's two calls and the
  reference's operations compute one array.
  The reference's layer is relu((agg + hw * sc) + b) with hw = h · W, sc the self-loop coefficient broadcast along
  rows and b the bias broadcast along columns; the kernel's is relu(agg + (hw * sc + b)) with sc read from an
  n x 1 column and b from a 1 x c row. The two agree entry by entry by associativity of addition on the extended
  reals (no finiteness is needed: only + is regrouped).
-/
import proofs.«420299_j43722767073851_4_alg».proof.Proof.Gen.ReferenceIdeal.Read
import proofs.«420299_j43722767073851_4_alg».proof.Proof.Spec
import proofs.«420299_j43722767073851_4_alg».proof.Proof.LibColumn
import Idealize.ShloMosaic.Lib.ValueLayout
import Idealize.ShloMosaic.Lib.ValueIdx
import Idealize.ShloMosaic.PureOps.Ideal.Laws
import Idealize.ShloMosaic.PureOps.Ideal

noncomputable section

namespace Cert.Match

open Idealize.ShloMosaic Idealize.ShloMosaic.ValueIdx Cert.ReferenceIdeal Cert.ReferenceIdeal.Read

/-- The matrix product of the layer's input with its weights is the reference's dot_general. -/
theorem mm_L1
    (x0 : (⟨S50000x96, .f32⟩ : BufTy).Contents (Elt Ideal))
    (x4 : (⟨S96x125, .f32⟩ : BufTy).Contents (Elt Ideal)) :
    Cert.Spec.mm (n := 50000) (a := 96) (b := 125) x0 x4 = val_main_v29 (F := Ideal) x0 x4 := by
  funext i
  rw [val_main_v29_apply]
  unfold Cert.Spec.mm
  refine Finset.sum_congr rfl fun k _ => ?_
  have el : Cert.Spec.lix (a := 96) i k = lidx_main_v29 i k := funext fun d => by
    match d with
    | ⟨0, _⟩ => rfl
    | ⟨1, _⟩ => rfl
  have er : Cert.Spec.rix (n := 50000) (a := 96) i k = ridx_main_v29 i k := funext fun d => by
    match d with
    | ⟨0, _⟩ => rfl
    | ⟨1, _⟩ => rfl
  rw [el, er]

/-- The layer's output: the epilogue of the aggregated messages and the dense call's self-loop term is the
    reference's relu of ((agg + hw * sc) + b). -/
theorem out_L1
    (x0 : (⟨S50000x96, .f32⟩ : BufTy).Contents (Elt Ideal))
    (x1 : (⟨S2x800000, .i32⟩ : BufTy).Contents (Elt Ideal))
    (x4 : (⟨S96x125, .f32⟩ : BufTy).Contents (Elt Ideal))
    (x5 : (⟨S125, .f32⟩ : BufTy).Contents (Elt Ideal))
    (hb : (⟨1, ![125]⟩ : Shape).ShapeCasts ⟨2, ![1, 125]⟩) (hs : (⟨1, ![50000]⟩ : Shape).ShapeCasts ⟨2, ![50000, 1]⟩) :
    Cert.Spec.epiRelu (n := 50000) (b := 125) (val_main_v42 (F := Ideal) x0 x1 x4)
      (Cert.Spec.dense (n := 50000) (a := 96) (b := 125) x0 x4 (shapeCast ⟨2, ![1, 125]⟩ x5 hb)
        (shapeCast ⟨2, ![50000, 1]⟩ (val_main_v27 (F := Ideal) x1) hs))
    = val_main_v49 (F := Ideal) x0 x1 x4 x5 := by
  funext i
  rw [val_main_v49_apply, val_main_v48_apply, val_main_v45_apply, val_main_v44_apply, val_main_v43_apply, val_main_v28_apply,
    val_main_v47_apply, val_main_v46_apply, val_main_call0_v0_apply, val_main_call0_cst_apply, ← mm_L1]
  have ec : Cert.Spec.colIx (n := 50000) (b := 125) i = ix2 (⟨(i 0).val, (i 0).isLt⟩ : Fin 50000) (⟨0, Nat.one_pos⟩ : Fin 1) :=
    funext fun d => by
      match d with
      | ⟨0, _⟩ => rfl
      | ⟨1, _⟩ => rfl
  have er : Cert.Spec.rowIx (n := 50000) (b := 125) i = ix2 (⟨0, Nat.one_pos⟩ : Fin 1) (⟨(i 1).val, (i 1).isLt⟩ : Fin 125) :=
    funext fun d => by
      match d with
      | ⟨0, _⟩ => rfl
      | ⟨1, _⟩ => rfl
  have e1 : idx_main_v28 (idx_main_v43 i) = ix1 (⟨(i 0).val, (i 0).isLt⟩ : Fin 50000) := funext fun d => by
    match d with
    | ⟨0, _⟩ => rfl
  have e2 : idx_main_v46 (idx_main_v47 i) = ix1 (⟨(i 1).val, (i 1).isLt⟩ : Fin 125) := funext fun d => by
    match d with
    | ⟨0, _⟩ => rfl
  unfold Cert.Spec.epiRelu Cert.Spec.dense
  rw [ec, er, Cert.LibColumn.shapeCast_a_a1_apply, shapeCast_a_1a_apply, e1, e2]
  simp only [Ideal.maximumf_def, Ideal.addf_def, Ideal.mulf_def, Ideal.ofBits_def, Ideal.ofBits_zero_f32]
  rw [add_assoc]

end Cert.Match

end
-- ==== Proof.Layer1.lean ====
/-
  Layer 1 (edge branch, first convolution) of the kernel's program, segment by segment, and the values the whole
  program shares.
  The first host stretch computes, from the edge list alone, the source and target node of every edge, the
  symmetric normalisation coefficient of every edge and the self-loop coefficient of every node: the same
  operations as the reference's, so the same arrays. It also lays the bias out as a 1 x 125 row and the self-loop
  coefficients as a 50000 x 1 column for the dense call. The dense call leaves x · W and (x · W) * sc + b; the second
  host stretch gathers the product's rows along the edges, scales them and scatter-adds them into the target
  nodes; the epilogue call adds the self-loop term and applies relu. The result is the reference's first layer.
-/
import proofs.«420299_j43722767073851_4_alg».proof.Proof.Gen.KernelIdeal.Frame
import proofs.«420299_j43722767073851_4_alg».proof.Proof.Gen.ReferenceIdeal.Read
import proofs.«420299_j43722767073851_4_alg».proof.Proof.Spec
import proofs.«420299_j43722767073851_4_alg».proof.Proof.KeepMacro
import proofs.«420299_j43722767073851_4_alg».proof.Proof.RegD0
import proofs.«420299_j43722767073851_4_alg».proof.Proof.RegE1
import proofs.«420299_j43722767073851_4_alg».proof.Proof.Match1
import Idealize.ShloMosaic.Lib.StableHlo.Run

set_option maxRecDepth 16384

noncomputable section

namespace Cert.KernelIdeal.Chain

open Cert.KernelIdeal Cert.KernelIdeal.Gen Cert.KernelIdeal.Keep
open Idealize.ShloMosaic Idealize.ShloMosaic.TcCoe Idealize.SL.Sem
open Cert.ReferenceIdeal.Read

variable (m : (ℓ : Loc nD τ sig) → Buf (Elt Ideal) ℓ) (ρ : Dev nD → PrngReg)

/-! ## What the first host stretch computes from the edge list -/

set_option maxHeartbeats 1600000 in
/-- The source node of every edge. -/
theorem g1_v1 (c : Dev nD) : W1 m ρ c (Proc.devRef .tc main_v1) = val_main_v1 (F := Ideal) (m ((c : Thread nD τ).loc main_arg1)) := by
  show StableHlo.after hostOps0 (W0 m ρ c) (Proc.devRef .tc main_v1) = _
  after_results
  rfl

set_option maxHeartbeats 1600000 in
/-- The target node of every edge. -/
theorem g1_v3 (c : Dev nD) : W1 m ρ c (Proc.devRef .tc main_v3) = val_main_v3 (F := Ideal) (m ((c : Thread nD τ).loc main_arg1)) := by
  show StableHlo.after hostOps0 (W0 m ρ c) (Proc.devRef .tc main_v3) = _
  after_results
  rfl

set_option maxHeartbeats 1600000 in
/-- The normalisation coefficient of every edge. -/
theorem g1_v26 (c : Dev nD) : W1 m ρ c (Proc.devRef .tc main_v26) = val_main_v26 (F := Ideal) (m ((c : Thread nD τ).loc main_arg1)) := by
  show StableHlo.after hostOps0 (W0 m ρ c) (Proc.devRef .tc main_v26) = _
  after_results_simp
  all_goals rfl

set_option maxHeartbeats 1600000 in
/-- The self-loop coefficient of every node. -/
theorem g1_v27 (c : Dev nD) : W1 m ρ c (Proc.devRef .tc main_v27) = val_main_v27 (F := Ideal) (m ((c : Thread nD τ).loc main_arg1)) := by
  show StableHlo.after hostOps0 (W0 m ρ c) (Proc.devRef .tc main_v27) = _
  after_results
  rfl

/-! ## The dense call's inputs at its entry -/

theorem in0_h (c : Dev nD) : V1 m ρ c main_arg0 = (m ((c : Thread nD τ).loc main_arg0)) :=
  show W1 m ρ c (Proc.devRef .tc main_arg0) = W0 m ρ c (Proc.devRef .tc main_arg0) from by host_keep hostOps0

theorem in0_W (c : Dev nD) : V1 m ρ c main_arg4 = (m ((c : Thread nD τ).loc main_arg4)) :=
  show W1 m ρ c (Proc.devRef .tc main_arg4) = W0 m ρ c (Proc.devRef .tc main_arg4) from by host_keep hostOps0

set_option maxHeartbeats 1600000 in
/-- The bias as a 1 x 125 row. -/
theorem in0_b (c : Dev nD) : V1 m ρ c main_v28 = shapeCast S1x125 (m ((c : Thread nD τ).loc main_arg5)) shapeCasts_S125_S1x125 := by
  show StableHlo.after hostOps0 (W0 m ρ c) (Proc.devRef .tc main_v28) = _
  after_results
  rfl

set_option maxHeartbeats 1600000 in
/-- The self-loop coefficients as a 50000 x 1 column. -/
theorem in0_sc (c : Dev nD) : V1 m ρ c main_v29 = shapeCast S50000x1 (val_main_v27 (F := Ideal) (m ((c : Thread nD τ).loc main_arg1))) shapeCasts_S50000_S50000x1 := by
  show StableHlo.after hostOps0 (W0 m ρ c) (Proc.devRef .tc main_v29) = _
  after_results
  rfl

/-! ## The dense call's outputs -/

/-- x · W, the reference's dot_general. -/
theorem hw_L1 (c : Dev nD) : W2 m ρ c (Proc.devRef .tc main_v30_1) = val_main_v29 (F := Ideal) (m ((c : Thread nD τ).loc main_arg0)) (m ((c : Thread nD τ).loc main_arg4)) := by
  refine (W2_arr m ρ c 5).trans ?_
  rw [Cert.KernelIdeal.RegVal.arr0_5 (V1 m ρ) c, in0_h m ρ c, in0_W m ρ c]
  exact Cert.Match.mm_L1 _ _

/-- The self-loop term (x · W) * sc + b. -/
theorem oi_L1 (c : Dev nD) : W2 m ρ c (Proc.devRef .tc main_v30_0)
    = Cert.Spec.dense (m ((c : Thread nD τ).loc main_arg0)) (m ((c : Thread nD τ).loc main_arg4)) (shapeCast S1x125 (m ((c : Thread nD τ).loc main_arg5)) shapeCasts_S125_S1x125)
        (shapeCast S50000x1 (val_main_v27 (F := Ideal) (m ((c : Thread nD τ).loc main_arg1))) shapeCasts_S50000_S50000x1) := by
  refine (W2_arr m ρ c 4).trans ?_
  rw [Cert.KernelIdeal.RegVal.arr0_4 (V1 m ρ) c, in0_h m ρ c, in0_W m ρ c, in0_b m ρ c, in0_sc m ρ c]

/-! ## The shared values after the dense call -/

theorem g2_v1 (c : Dev nD) : W2 m ρ c (Proc.devRef .tc main_v1) = val_main_v1 (F := Ideal) (m ((c : Thread nD τ).loc main_arg1)) :=
  (W2_of_ne m ρ c main_v1 (by decide)).trans (g1_v1 m ρ c)
theorem g2_v3 (c : Dev nD) : W2 m ρ c (Proc.devRef .tc main_v3) = val_main_v3 (F := Ideal) (m ((c : Thread nD τ).loc main_arg1)) :=
  (W2_of_ne m ρ c main_v3 (by decide)).trans (g1_v3 m ρ c)
theorem g2_v26 (c : Dev nD) : W2 m ρ c (Proc.devRef .tc main_v26) = val_main_v26 (F := Ideal) (m ((c : Thread nD τ).loc main_arg1)) :=
  (W2_of_ne m ρ c main_v26 (by decide)).trans (g1_v26 m ρ c)
theorem g2_v27 (c : Dev nD) : W2 m ρ c (Proc.devRef .tc main_v27) = val_main_v27 (F := Ideal) (m ((c : Thread nD τ).loc main_arg1)) :=
  (W2_of_ne m ρ c main_v27 (by decide)).trans (g1_v27 m ρ c)

/-! ## The aggregated messages, and the epilogue -/

set_option maxHeartbeats 1600000 in
/-- Rows of x · W gathered along the edges, scaled by the edge coefficients, scatter-added into the target nodes. -/
theorem agg_L1 (c : Dev nD) : V3 m ρ c main_v43 = val_main_v42 (F := Ideal) (m ((c : Thread nD τ).loc main_arg0)) (m ((c : Thread nD τ).loc main_arg1)) (m ((c : Thread nD τ).loc main_arg4)) := by
  show StableHlo.after hostOps1 (W2 m ρ c) (Proc.devRef .tc main_v43) = _
  after_results
  rw [g2_v1 m ρ c, g2_v3 m ρ c, g2_v26 m ρ c, hw_L1 m ρ c]
  rfl

theorem oi3_L1 (c : Dev nD) : V3 m ρ c main_v30_0
    = Cert.Spec.dense (m ((c : Thread nD τ).loc main_arg0)) (m ((c : Thread nD τ).loc main_arg4)) (shapeCast S1x125 (m ((c : Thread nD τ).loc main_arg5)) shapeCasts_S125_S1x125)
        (shapeCast S50000x1 (val_main_v27 (F := Ideal) (m ((c : Thread nD τ).loc main_arg1))) shapeCasts_S50000_S50000x1) :=
  (show W3 m ρ c (Proc.devRef .tc main_v30_0) = W2 m ρ c (Proc.devRef .tc main_v30_0) from by host_keep hostOps1).trans (oi_L1 m ρ c)

/-- The layer's output is the reference's. -/
theorem out_L1 (c : Dev nD) : W4 m ρ c (Proc.devRef .tc main_v44) = val_main_v49 (F := Ideal) (m ((c : Thread nD τ).loc main_arg0)) (m ((c : Thread nD τ).loc main_arg1)) (m ((c : Thread nD τ).loc main_arg4)) (m ((c : Thread nD τ).loc main_arg5)) := by
  refine (W4_arr m ρ c 2).trans ?_
  rw [Cert.KernelIdeal.RegVal.arr1_2 (V3 m ρ) c, agg_L1 m ρ c, oi3_L1 m ρ c]
  exact Cert.Match.out_L1 _ _ _ _ _ _

/-! ## The shared values at the layer's exit -/

theorem at4_v1 (c : Dev nD) : W4 m ρ c (Proc.devRef .tc main_v1) = val_main_v1 (F := Ideal) (m ((c : Thread nD τ).loc main_arg1)) :=
  (W4_of_ne m ρ c main_v1 (by decide)).trans <| (show W3 m ρ c (Proc.devRef .tc main_v1) = W2 m ρ c (Proc.devRef .tc main_v1) from by host_keep hostOps1).trans (g2_v1 m ρ c)
theorem at4_v3 (c : Dev nD) : W4 m ρ c (Proc.devRef .tc main_v3) = val_main_v3 (F := Ideal) (m ((c : Thread nD τ).loc main_arg1)) :=
  (W4_of_ne m ρ c main_v3 (by decide)).trans <| (show W3 m ρ c (Proc.devRef .tc main_v3) = W2 m ρ c (Proc.devRef .tc main_v3) from by host_keep hostOps1).trans (g2_v3 m ρ c)
theorem at4_v26 (c : Dev nD) : W4 m ρ c (Proc.devRef .tc main_v26) = val_main_v26 (F := Ideal) (m ((c : Thread nD τ).loc main_arg1)) :=
  (W4_of_ne m ρ c main_v26 (by decide)).trans <| (show W3 m ρ c (Proc.devRef .tc main_v26) = W2 m ρ c (Proc.devRef .tc main_v26) from by host_keep hostOps1).trans (g2_v26 m ρ c)
theorem at4_v27 (c : Dev nD) : W4 m ρ c (Proc.devRef .tc main_v27) = val_main_v27 (F := Ideal) (m ((c : Thread nD τ).loc main_arg1)) :=
  (W4_of_ne m ρ c main_v27 (by decide)).trans <| (show W3 m ρ c (Proc.devRef .tc main_v27) = W2 m ρ c (Proc.devRef .tc main_v27) from by host_keep hostOps1).trans (g2_v27 m ρ c)

end Cert.KernelIdeal.Chain

end
-- ==== Proof.KeepGlobals.lean ====
/-
  Buffers that a layer leaves alone. Layer l of the program is four segments: a stretch of host operations, the
  dense pallas_call, a second stretch of host operations, the epilogue pallas_call. A buffer that none of the four
  writes holds at the layer's exit boundary what it held at the entry boundary; chained over consecutive layers,
  a value computed once (the edge lists, the normalisation coefficients, a weight argument, an earlier layer's
  output) is still there when a later layer reads it.
-/
import proofs.«420299_j43722767073851_4_alg».proof.Proof.Gen.KernelIdeal.Frame
import proofs.«420299_j43722767073851_4_alg».proof.Proof.KeepMacro

set_option maxRecDepth 16384

noncomputable section

namespace Cert.KernelIdeal.Keep

open Cert.KernelIdeal Cert.KernelIdeal.Gen
open Idealize.ShloMosaic Idealize.ShloMosaic.TcCoe Idealize.SL.Sem

variable {F : FTy → Type} [FloatOps F]

variable (m : (ℓ : Loc nD τ sig) → Buf (Elt F) ℓ) (ρ : Dev nD → PrngReg)

/-! ### main_v1: boundary 4 to boundary 32 -/
theorem keepL2_v1 (c : Dev nD) : W8 m ρ c (Proc.devRef .tc main_v1) = W4 m ρ c (Proc.devRef .tc main_v1) :=
  (W8_of_ne m ρ c main_v1 (by decide)).trans <| (show W7 m ρ c (Proc.devRef .tc main_v1) = W6 m ρ c (Proc.devRef .tc main_v1) from by host_keep hostOps3).trans <|
  (W6_of_ne m ρ c main_v1 (by decide)).trans (show W5 m ρ c (Proc.devRef .tc main_v1) = W4 m ρ c (Proc.devRef .tc main_v1) from by host_keep hostOps2)
theorem keep_v1_8 (c : Dev nD) : W8 m ρ c (Proc.devRef .tc main_v1) = W4 m ρ c (Proc.devRef .tc main_v1) :=
  keepL2_v1 m ρ c
theorem keepL3_v1 (c : Dev nD) : W12 m ρ c (Proc.devRef .tc main_v1) = W8 m ρ c (Proc.devRef .tc main_v1) :=
  (W12_of_ne m ρ c main_v1 (by decide)).trans <| (show W11 m ρ c (Proc.devRef .tc main_v1) = W10 m ρ c (Proc.devRef .tc main_v1) from by host_keep hostOps5).trans <|
  (W10_of_ne m ρ c main_v1 (by decide)).trans (show W9 m ρ c (Proc.devRef .tc main_v1) = W8 m ρ c (Proc.devRef .tc main_v1) from by host_keep hostOps4)
theorem keep_v1_12 (c : Dev nD) : W12 m ρ c (Proc.devRef .tc main_v1) = W4 m ρ c (Proc.devRef .tc main_v1) :=
  (keepL3_v1 m ρ c).trans (keep_v1_8 m ρ c)
theorem keepL4_v1 (c : Dev nD) : W16 m ρ c (Proc.devRef .tc main_v1) = W12 m ρ c (Proc.devRef .tc main_v1) :=
  (W16_of_ne m ρ c main_v1 (by decide)).trans <| (show W15 m ρ c (Proc.devRef .tc main_v1) = W14 m ρ c (Proc.devRef .tc main_v1) from by host_keep hostOps7).trans <|
  (W14_of_ne m ρ c main_v1 (by decide)).trans (show W13 m ρ c (Proc.devRef .tc main_v1) = W12 m ρ c (Proc.devRef .tc main_v1) from by host_keep hostOps6)
theorem keep_v1_16 (c : Dev nD) : W16 m ρ c (Proc.devRef .tc main_v1) = W4 m ρ c (Proc.devRef .tc main_v1) :=
  (keepL4_v1 m ρ c).trans (keep_v1_12 m ρ c)
theorem keepL5_v1 (c : Dev nD) : W20 m ρ c (Proc.devRef .tc main_v1) = W16 m ρ c (Proc.devRef .tc main_v1) :=
  (W20_of_ne m ρ c main_v1 (by decide)).trans <| (show W19 m ρ c (Proc.devRef .tc main_v1) = W18 m ρ c (Proc.devRef .tc main_v1) from by host_keep hostOps9).trans <|
  (W18_of_ne m ρ c main_v1 (by decide)).trans (show W17 m ρ c (Proc.devRef .tc main_v1) = W16 m ρ c (Proc.devRef .tc main_v1) from by host_keep hostOps8)
theorem keep_v1_20 (c : Dev nD) : W20 m ρ c (Proc.devRef .tc main_v1) = W4 m ρ c (Proc.devRef .tc main_v1) :=
  (keepL5_v1 m ρ c).trans (keep_v1_16 m ρ c)
theorem keepL6_v1 (c : Dev nD) : W24 m ρ c (Proc.devRef .tc main_v1) = W20 m ρ c (Proc.devRef .tc main_v1) :=
  (W24_of_ne m ρ c main_v1 (by decide)).trans <| (show W23 m ρ c (Proc.devRef .tc main_v1) = W22 m ρ c (Proc.devRef .tc main_v1) from by host_keep hostOps11).trans <|
  (W22_of_ne m ρ c main_v1 (by decide)).trans (show W21 m ρ c (Proc.devRef .tc main_v1) = W20 m ρ c (Proc.devRef .tc main_v1) from by host_keep hostOps10)
theorem keep_v1_24 (c : Dev nD) : W24 m ρ c (Proc.devRef .tc main_v1) = W4 m ρ c (Proc.devRef .tc main_v1) :=
  (keepL6_v1 m ρ c).trans (keep_v1_20 m ρ c)
theorem keepL7_v1 (c : Dev nD) : W28 m ρ c (Proc.devRef .tc main_v1) = W24 m ρ c (Proc.devRef .tc main_v1) :=
  (W28_of_ne m ρ c main_v1 (by decide)).trans <| (show W27 m ρ c (Proc.devRef .tc main_v1) = W26 m ρ c (Proc.devRef .tc main_v1) from by host_keep hostOps13).trans <|
  (W26_of_ne m ρ c main_v1 (by decide)).trans (show W25 m ρ c (Proc.devRef .tc main_v1) = W24 m ρ c (Proc.devRef .tc main_v1) from by host_keep hostOps12)
theorem keep_v1_28 (c : Dev nD) : W28 m ρ c (Proc.devRef .tc main_v1) = W4 m ρ c (Proc.devRef .tc main_v1) :=
  (keepL7_v1 m ρ c).trans (keep_v1_24 m ρ c)
theorem keepL8_v1 (c : Dev nD) : W32 m ρ c (Proc.devRef .tc main_v1) = W28 m ρ c (Proc.devRef .tc main_v1) :=
  (W32_of_ne m ρ c main_v1 (by decide)).trans <| (show W31 m ρ c (Proc.devRef .tc main_v1) = W30 m ρ c (Proc.devRef .tc main_v1) from by host_keep hostOps15).trans <|
  (W30_of_ne m ρ c main_v1 (by decide)).trans (show W29 m ρ c (Proc.devRef .tc main_v1) = W28 m ρ c (Proc.devRef .tc main_v1) from by host_keep hostOps14)
theorem keep_v1_32 (c : Dev nD) : W32 m ρ c (Proc.devRef .tc main_v1) = W4 m ρ c (Proc.devRef .tc main_v1) :=
  (keepL8_v1 m ρ c).trans (keep_v1_28 m ρ c)

/-! ### main_v3: boundary 4 to boundary 32 -/
theorem keepL2_v3 (c : Dev nD) : W8 m ρ c (Proc.devRef .tc main_v3) = W4 m ρ c (Proc.devRef .tc main_v3) :=
  (W8_of_ne m ρ c main_v3 (by decide)).trans <| (show W7 m ρ c (Proc.devRef .tc main_v3) = W6 m ρ c (Proc.devRef .tc main_v3) from by host_keep hostOps3).trans <|
  (W6_of_ne m ρ c main_v3 (by decide)).trans (show W5 m ρ c (Proc.devRef .tc main_v3) = W4 m ρ c (Proc.devRef .tc main_v3) from by host_keep hostOps2)
theorem keep_v3_8 (c : Dev nD) : W8 m ρ c (Proc.devRef .tc main_v3) = W4 m ρ c (Proc.devRef .tc main_v3) :=
  keepL2_v3 m ρ c
theorem keepL3_v3 (c : Dev nD) : W12 m ρ c (Proc.devRef .tc main_v3) = W8 m ρ c (Proc.devRef .tc main_v3) :=
  (W12_of_ne m ρ c main_v3 (by decide)).trans <| (show W11 m ρ c (Proc.devRef .tc main_v3) = W10 m ρ c (Proc.devRef .tc main_v3) from by host_keep hostOps5).trans <|
  (W10_of_ne m ρ c main_v3 (by decide)).trans (show W9 m ρ c (Proc.devRef .tc main_v3) = W8 m ρ c (Proc.devRef .tc main_v3) from by host_keep hostOps4)
theorem keep_v3_12 (c : Dev nD) : W12 m ρ c (Proc.devRef .tc main_v3) = W4 m ρ c (Proc.devRef .tc main_v3) :=
  (keepL3_v3 m ρ c).trans (keep_v3_8 m ρ c)
theorem keepL4_v3 (c : Dev nD) : W16 m ρ c (Proc.devRef .tc main_v3) = W12 m ρ c (Proc.devRef .tc main_v3) :=
  (W16_of_ne m ρ c main_v3 (by decide)).trans <| (show W15 m ρ c (Proc.devRef .tc main_v3) = W14 m ρ c (Proc.devRef .tc main_v3) from by host_keep hostOps7).trans <|
  (W14_of_ne m ρ c main_v3 (by decide)).trans (show W13 m ρ c (Proc.devRef .tc main_v3) = W12 m ρ c (Proc.devRef .tc main_v3) from by host_keep hostOps6)
theorem keep_v3_16 (c : Dev nD) : W16 m ρ c (Proc.devRef .tc main_v3) = W4 m ρ c (Proc.devRef .tc main_v3) :=
  (keepL4_v3 m ρ c).trans (keep_v3_12 m ρ c)
theorem keepL5_v3 (c : Dev nD) : W20 m ρ c (Proc.devRef .tc main_v3) = W16 m ρ c (Proc.devRef .tc main_v3) :=
  (W20_of_ne m ρ c main_v3 (by decide)).trans <| (show W19 m ρ c (Proc.devRef .tc main_v3) = W18 m ρ c (Proc.devRef .tc main_v3) from by host_keep hostOps9).trans <|
  (W18_of_ne m ρ c main_v3 (by decide)).trans (show W17 m ρ c (Proc.devRef .tc main_v3) = W16 m ρ c (Proc.devRef .tc main_v3) from by host_keep hostOps8)
theorem keep_v3_20 (c : Dev nD) : W20 m ρ c (Proc.devRef .tc main_v3) = W4 m ρ c (Proc.devRef .tc main_v3) :=
  (keepL5_v3 m ρ c).trans (keep_v3_16 m ρ c)
theorem keepL6_v3 (c : Dev nD) : W24 m ρ c (Proc.devRef .tc main_v3) = W20 m ρ c (Proc.devRef .tc main_v3) :=
  (W24_of_ne m ρ c main_v3 (by decide)).trans <| (show W23 m ρ c (Proc.devRef .tc main_v3) = W22 m ρ c (Proc.devRef .tc main_v3) from by host_keep hostOps11).trans <|
  (W22_of_ne m ρ c main_v3 (by decide)).trans (show W21 m ρ c (Proc.devRef .tc main_v3) = W20 m ρ c (Proc.devRef .tc main_v3) from by host_keep hostOps10)
theorem keep_v3_24 (c : Dev nD) : W24 m ρ c (Proc.devRef .tc main_v3) = W4 m ρ c (Proc.devRef .tc main_v3) :=
  (keepL6_v3 m ρ c).trans (keep_v3_20 m ρ c)
theorem keepL7_v3 (c : Dev nD) : W28 m ρ c (Proc.devRef .tc main_v3) = W24 m ρ c (Proc.devRef .tc main_v3) :=
  (W28_of_ne m ρ c main_v3 (by decide)).trans <| (show W27 m ρ c (Proc.devRef .tc main_v3) = W26 m ρ c (Proc.devRef .tc main_v3) from by host_keep hostOps13).trans <|
  (W26_of_ne m ρ c main_v3 (by decide)).trans (show W25 m ρ c (Proc.devRef .tc main_v3) = W24 m ρ c (Proc.devRef .tc main_v3) from by host_keep hostOps12)
theorem keep_v3_28 (c : Dev nD) : W28 m ρ c (Proc.devRef .tc main_v3) = W4 m ρ c (Proc.devRef .tc main_v3) :=
  (keepL7_v3 m ρ c).trans (keep_v3_24 m ρ c)
theorem keepL8_v3 (c : Dev nD) : W32 m ρ c (Proc.devRef .tc main_v3) = W28 m ρ c (Proc.devRef .tc main_v3) :=
  (W32_of_ne m ρ c main_v3 (by decide)).trans <| (show W31 m ρ c (Proc.devRef .tc main_v3) = W30 m ρ c (Proc.devRef .tc main_v3) from by host_keep hostOps15).trans <|
  (W30_of_ne m ρ c main_v3 (by decide)).trans (show W29 m ρ c (Proc.devRef .tc main_v3) = W28 m ρ c (Proc.devRef .tc main_v3) from by host_keep hostOps14)
theorem keep_v3_32 (c : Dev nD) : W32 m ρ c (Proc.devRef .tc main_v3) = W4 m ρ c (Proc.devRef .tc main_v3) :=
  (keepL8_v3 m ρ c).trans (keep_v3_28 m ρ c)

/-! ### main_v26: boundary 4 to boundary 32 -/
theorem keepL2_v26 (c : Dev nD) : W8 m ρ c (Proc.devRef .tc main_v26) = W4 m ρ c (Proc.devRef .tc main_v26) :=
  (W8_of_ne m ρ c main_v26 (by decide)).trans <| (show W7 m ρ c (Proc.devRef .tc main_v26) = W6 m ρ c (Proc.devRef .tc main_v26) from by host_keep hostOps3).trans <|
  (W6_of_ne m ρ c main_v26 (by decide)).trans (show W5 m ρ c (Proc.devRef .tc main_v26) = W4 m ρ c (Proc.devRef .tc main_v26) from by host_keep hostOps2)
theorem keep_v26_8 (c : Dev nD) : W8 m ρ c (Proc.devRef .tc main_v26) = W4 m ρ c (Proc.devRef .tc main_v26) :=
  keepL2_v26 m ρ c
theorem keepL3_v26 (c : Dev nD) : W12 m ρ c (Proc.devRef .tc main_v26) = W8 m ρ c (Proc.devRef .tc main_v26) :=
  (W12_of_ne m ρ c main_v26 (by decide)).trans <| (show W11 m ρ c (Proc.devRef .tc main_v26) = W10 m ρ c (Proc.devRef .tc main_v26) from by host_keep hostOps5).trans <|
  (W10_of_ne m ρ c main_v26 (by decide)).trans (show W9 m ρ c (Proc.devRef .tc main_v26) = W8 m ρ c (Proc.devRef .tc main_v26) from by host_keep hostOps4)
theorem keep_v26_12 (c : Dev nD) : W12 m ρ c (Proc.devRef .tc main_v26) = W4 m ρ c (Proc.devRef .tc main_v26) :=
  (keepL3_v26 m ρ c).trans (keep_v26_8 m ρ c)
theorem keepL4_v26 (c : Dev nD) : W16 m ρ c (Proc.devRef .tc main_v26) = W12 m ρ c (Proc.devRef .tc main_v26) :=
  (W16_of_ne m ρ c main_v26 (by decide)).trans <| (show W15 m ρ c (Proc.devRef .tc main_v26) = W14 m ρ c (Proc.devRef .tc main_v26) from by host_keep hostOps7).trans <|
  (W14_of_ne m ρ c main_v26 (by decide)).trans (show W13 m ρ c (Proc.devRef .tc main_v26) = W12 m ρ c (Proc.devRef .tc main_v26) from by host_keep hostOps6)
theorem keep_v26_16 (c : Dev nD) : W16 m ρ c (Proc.devRef .tc main_v26) = W4 m ρ c (Proc.devRef .tc main_v26) :=
  (keepL4_v26 m ρ c).trans (keep_v26_12 m ρ c)
theorem keepL5_v26 (c : Dev nD) : W20 m ρ c (Proc.devRef .tc main_v26) = W16 m ρ c (Proc.devRef .tc main_v26) :=
  (W20_of_ne m ρ c main_v26 (by decide)).trans <| (show W19 m ρ c (Proc.devRef .tc main_v26) = W18 m ρ c (Proc.devRef .tc main_v26) from by host_keep hostOps9).trans <|
  (W18_of_ne m ρ c main_v26 (by decide)).trans (show W17 m ρ c (Proc.devRef .tc main_v26) = W16 m ρ c (Proc.devRef .tc main_v26) from by host_keep hostOps8)
theorem keep_v26_20 (c : Dev nD) : W20 m ρ c (Proc.devRef .tc main_v26) = W4 m ρ c (Proc.devRef .tc main_v26) :=
  (keepL5_v26 m ρ c).trans (keep_v26_16 m ρ c)
theorem keepL6_v26 (c : Dev nD) : W24 m ρ c (Proc.devRef .tc main_v26) = W20 m ρ c (Proc.devRef .tc main_v26) :=
  (W24_of_ne m ρ c main_v26 (by decide)).trans <| (show W23 m ρ c (Proc.devRef .tc main_v26) = W22 m ρ c (Proc.devRef .tc main_v26) from by host_keep hostOps11).trans <|
  (W22_of_ne m ρ c main_v26 (by decide)).trans (show W21 m ρ c (Proc.devRef .tc main_v26) = W20 m ρ c (Proc.devRef .tc main_v26) from by host_keep hostOps10)
theorem keep_v26_24 (c : Dev nD) : W24 m ρ c (Proc.devRef .tc main_v26) = W4 m ρ c (Proc.devRef .tc main_v26) :=
  (keepL6_v26 m ρ c).trans (keep_v26_20 m ρ c)
theorem keepL7_v26 (c : Dev nD) : W28 m ρ c (Proc.devRef .tc main_v26) = W24 m ρ c (Proc.devRef .tc main_v26) :=
  (W28_of_ne m ρ c main_v26 (by decide)).trans <| (show W27 m ρ c (Proc.devRef .tc main_v26) = W26 m ρ c (Proc.devRef .tc main_v26) from by host_keep hostOps13).trans <|
  (W26_of_ne m ρ c main_v26 (by decide)).trans (show W25 m ρ c (Proc.devRef .tc main_v26) = W24 m ρ c (Proc.devRef .tc main_v26) from by host_keep hostOps12)
theorem keep_v26_28 (c : Dev nD) : W28 m ρ c (Proc.devRef .tc main_v26) = W4 m ρ c (Proc.devRef .tc main_v26) :=
  (keepL7_v26 m ρ c).trans (keep_v26_24 m ρ c)
theorem keepL8_v26 (c : Dev nD) : W32 m ρ c (Proc.devRef .tc main_v26) = W28 m ρ c (Proc.devRef .tc main_v26) :=
  (W32_of_ne m ρ c main_v26 (by decide)).trans <| (show W31 m ρ c (Proc.devRef .tc main_v26) = W30 m ρ c (Proc.devRef .tc main_v26) from by host_keep hostOps15).trans <|
  (W30_of_ne m ρ c main_v26 (by decide)).trans (show W29 m ρ c (Proc.devRef .tc main_v26) = W28 m ρ c (Proc.devRef .tc main_v26) from by host_keep hostOps14)
theorem keep_v26_32 (c : Dev nD) : W32 m ρ c (Proc.devRef .tc main_v26) = W4 m ρ c (Proc.devRef .tc main_v26) :=
  (keepL8_v26 m ρ c).trans (keep_v26_28 m ρ c)

/-! ### main_v27: boundary 4 to boundary 32 -/
theorem keepL2_v27 (c : Dev nD) : W8 m ρ c (Proc.devRef .tc main_v27) = W4 m ρ c (Proc.devRef .tc main_v27) :=
  (W8_of_ne m ρ c main_v27 (by decide)).trans <| (show W7 m ρ c (Proc.devRef .tc main_v27) = W6 m ρ c (Proc.devRef .tc main_v27) from by host_keep hostOps3).trans <|
  (W6_of_ne m ρ c main_v27 (by decide)).trans (show W5 m ρ c (Proc.devRef .tc main_v27) = W4 m ρ c (Proc.devRef .tc main_v27) from by host_keep hostOps2)
theorem keep_v27_8 (c : Dev nD) : W8 m ρ c (Proc.devRef .tc main_v27) = W4 m ρ c (Proc.devRef .tc main_v27) :=
  keepL2_v27 m ρ c
theorem keepL3_v27 (c : Dev nD) : W12 m ρ c (Proc.devRef .tc main_v27) = W8 m ρ c (Proc.devRef .tc main_v27) :=
  (W12_of_ne m ρ c main_v27 (by decide)).trans <| (show W11 m ρ c (Proc.devRef .tc main_v27) = W10 m ρ c (Proc.devRef .tc main_v27) from by host_keep hostOps5).trans <|
  (W10_of_ne m ρ c main_v27 (by decide)).trans (show W9 m ρ c (Proc.devRef .tc main_v27) = W8 m ρ c (Proc.devRef .tc main_v27) from by host_keep hostOps4)
theorem keep_v27_12 (c : Dev nD) : W12 m ρ c (Proc.devRef .tc main_v27) = W4 m ρ c (Proc.devRef .tc main_v27) :=
  (keepL3_v27 m ρ c).trans (keep_v27_8 m ρ c)
theorem keepL4_v27 (c : Dev nD) : W16 m ρ c (Proc.devRef .tc main_v27) = W12 m ρ c (Proc.devRef .tc main_v27) :=
  (W16_of_ne m ρ c main_v27 (by decide)).trans <| (show W15 m ρ c (Proc.devRef .tc main_v27) = W14 m ρ c (Proc.devRef .tc main_v27) from by host_keep hostOps7).trans <|
  (W14_of_ne m ρ c main_v27 (by decide)).trans (show W13 m ρ c (Proc.devRef .tc main_v27) = W12 m ρ c (Proc.devRef .tc main_v27) from by host_keep hostOps6)
theorem keep_v27_16 (c : Dev nD) : W16 m ρ c (Proc.devRef .tc main_v27) = W4 m ρ c (Proc.devRef .tc main_v27) :=
  (keepL4_v27 m ρ c).trans (keep_v27_12 m ρ c)
theorem keepL5_v27 (c : Dev nD) : W20 m ρ c (Proc.devRef .tc main_v27) = W16 m ρ c (Proc.devRef .tc main_v27) :=
  (W20_of_ne m ρ c main_v27 (by decide)).trans <| (show W19 m ρ c (Proc.devRef .tc main_v27) = W18 m ρ c (Proc.devRef .tc main_v27) from by host_keep hostOps9).trans <|
  (W18_of_ne m ρ c main_v27 (by decide)).trans (show W17 m ρ c (Proc.devRef .tc main_v27) = W16 m ρ c (Proc.devRef .tc main_v27) from by host_keep hostOps8)
theorem keep_v27_20 (c : Dev nD) : W20 m ρ c (Proc.devRef .tc main_v27) = W4 m ρ c (Proc.devRef .tc main_v27) :=
  (keepL5_v27 m ρ c).trans (keep_v27_16 m ρ c)
theorem keepL6_v27 (c : Dev nD) : W24 m ρ c (Proc.devRef .tc main_v27) = W20 m ρ c (Proc.devRef .tc main_v27) :=
  (W24_of_ne m ρ c main_v27 (by decide)).trans <| (show W23 m ρ c (Proc.devRef .tc main_v27) = W22 m ρ c (Proc.devRef .tc main_v27) from by host_keep hostOps11).trans <|
  (W22_of_ne m ρ c main_v27 (by decide)).trans (show W21 m ρ c (Proc.devRef .tc main_v27) = W20 m ρ c (Proc.devRef .tc main_v27) from by host_keep hostOps10)
theorem keep_v27_24 (c : Dev nD) : W24 m ρ c (Proc.devRef .tc main_v27) = W4 m ρ c (Proc.devRef .tc main_v27) :=
  (keepL6_v27 m ρ c).trans (keep_v27_20 m ρ c)
theorem keepL7_v27 (c : Dev nD) : W28 m ρ c (Proc.devRef .tc main_v27) = W24 m ρ c (Proc.devRef .tc main_v27) :=
  (W28_of_ne m ρ c main_v27 (by decide)).trans <| (show W27 m ρ c (Proc.devRef .tc main_v27) = W26 m ρ c (Proc.devRef .tc main_v27) from by host_keep hostOps13).trans <|
  (W26_of_ne m ρ c main_v27 (by decide)).trans (show W25 m ρ c (Proc.devRef .tc main_v27) = W24 m ρ c (Proc.devRef .tc main_v27) from by host_keep hostOps12)
theorem keep_v27_28 (c : Dev nD) : W28 m ρ c (Proc.devRef .tc main_v27) = W4 m ρ c (Proc.devRef .tc main_v27) :=
  (keepL7_v27 m ρ c).trans (keep_v27_24 m ρ c)
theorem keepL8_v27 (c : Dev nD) : W32 m ρ c (Proc.devRef .tc main_v27) = W28 m ρ c (Proc.devRef .tc main_v27) :=
  (W32_of_ne m ρ c main_v27 (by decide)).trans <| (show W31 m ρ c (Proc.devRef .tc main_v27) = W30 m ρ c (Proc.devRef .tc main_v27) from by host_keep hostOps15).trans <|
  (W30_of_ne m ρ c main_v27 (by decide)).trans (show W29 m ρ c (Proc.devRef .tc main_v27) = W28 m ρ c (Proc.devRef .tc main_v27) from by host_keep hostOps14)
theorem keep_v27_32 (c : Dev nD) : W32 m ρ c (Proc.devRef .tc main_v27) = W4 m ρ c (Proc.devRef .tc main_v27) :=
  (keepL8_v27 m ρ c).trans (keep_v27_28 m ρ c)

end Cert.KernelIdeal.Keep

end
-- ==== Proof.KeepArgsA.lean ====
/-
  Buffers that a layer leaves alone. Layer l of the program is four segments: a stretch of host operations, the
  dense pallas_call, a second stretch of host operations, the epilogue pallas_call. A buffer that none of the four
  writes holds at the layer's exit boundary what it held at the entry boundary; chained over consecutive layers,
  a value computed once (the edge lists, the normalisation coefficients, a weight argument, an earlier layer's
  output) is still there when a later layer reads it.
-/
import proofs.«420299_j43722767073851_4_alg».proof.Proof.Gen.KernelIdeal.Frame
import proofs.«420299_j43722767073851_4_alg».proof.Proof.KeepMacro

set_option maxRecDepth 16384

noncomputable section

namespace Cert.KernelIdeal.Keep

open Cert.KernelIdeal Cert.KernelIdeal.Gen
open Idealize.ShloMosaic Idealize.ShloMosaic.TcCoe Idealize.SL.Sem

variable {F : FTy → Type} [FloatOps F]

variable (m : (ℓ : Loc nD τ sig) → Buf (Elt F) ℓ) (ρ : Dev nD → PrngReg)

/-! ### main_arg6: boundary 0 to boundary 4 -/
theorem keepL1_arg6 (c : Dev nD) : W4 m ρ c (Proc.devRef .tc main_arg6) = W0 m ρ c (Proc.devRef .tc main_arg6) :=
  (W4_of_ne m ρ c main_arg6 (by decide)).trans <| (show W3 m ρ c (Proc.devRef .tc main_arg6) = W2 m ρ c (Proc.devRef .tc main_arg6) from by host_keep hostOps1).trans <|
  (W2_of_ne m ρ c main_arg6 (by decide)).trans (show W1 m ρ c (Proc.devRef .tc main_arg6) = W0 m ρ c (Proc.devRef .tc main_arg6) from by host_keep hostOps0)
theorem keep_arg6_4 (c : Dev nD) : W4 m ρ c (Proc.devRef .tc main_arg6) = W0 m ρ c (Proc.devRef .tc main_arg6) :=
  keepL1_arg6 m ρ c

/-! ### main_arg7: boundary 0 to boundary 4 -/
theorem keepL1_arg7 (c : Dev nD) : W4 m ρ c (Proc.devRef .tc main_arg7) = W0 m ρ c (Proc.devRef .tc main_arg7) :=
  (W4_of_ne m ρ c main_arg7 (by decide)).trans <| (show W3 m ρ c (Proc.devRef .tc main_arg7) = W2 m ρ c (Proc.devRef .tc main_arg7) from by host_keep hostOps1).trans <|
  (W2_of_ne m ρ c main_arg7 (by decide)).trans (show W1 m ρ c (Proc.devRef .tc main_arg7) = W0 m ρ c (Proc.devRef .tc main_arg7) from by host_keep hostOps0)
theorem keep_arg7_4 (c : Dev nD) : W4 m ρ c (Proc.devRef .tc main_arg7) = W0 m ρ c (Proc.devRef .tc main_arg7) :=
  keepL1_arg7 m ρ c

/-! ### main_arg8: boundary 0 to boundary 8 -/
theorem keepL1_arg8 (c : Dev nD) : W4 m ρ c (Proc.devRef .tc main_arg8) = W0 m ρ c (Proc.devRef .tc main_arg8) :=
  (W4_of_ne m ρ c main_arg8 (by decide)).trans <| (show W3 m ρ c (Proc.devRef .tc main_arg8) = W2 m ρ c (Proc.devRef .tc main_arg8) from by host_keep hostOps1).trans <|
  (W2_of_ne m ρ c main_arg8 (by decide)).trans (show W1 m ρ c (Proc.devRef .tc main_arg8) = W0 m ρ c (Proc.devRef .tc main_arg8) from by host_keep hostOps0)
theorem keep_arg8_4 (c : Dev nD) : W4 m ρ c (Proc.devRef .tc main_arg8) = W0 m ρ c (Proc.devRef .tc main_arg8) :=
  keepL1_arg8 m ρ c
theorem keepL2_arg8 (c : Dev nD) : W8 m ρ c (Proc.devRef .tc main_arg8) = W4 m ρ c (Proc.devRef .tc main_arg8) :=
  (W8_of_ne m ρ c main_arg8 (by decide)).trans <| (show W7 m ρ c (Proc.devRef .tc main_arg8) = W6 m ρ c (Proc.devRef .tc main_arg8) from by host_keep hostOps3).trans <|
  (W6_of_ne m ρ c main_arg8 (by decide)).trans (show W5 m ρ c (Proc.devRef .tc main_arg8) = W4 m ρ c (Proc.devRef .tc main_arg8) from by host_keep hostOps2)
theorem keep_arg8_8 (c : Dev nD) : W8 m ρ c (Proc.devRef .tc main_arg8) = W0 m ρ c (Proc.devRef .tc main_arg8) :=
  (keepL2_arg8 m ρ c).trans (keep_arg8_4 m ρ c)

/-! ### main_arg9: boundary 0 to boundary 8 -/
theorem keepL1_arg9 (c : Dev nD) : W4 m ρ c (Proc.devRef .tc main_arg9) = W0 m ρ c (Proc.devRef .tc main_arg9) :=
  (W4_of_ne m ρ c main_arg9 (by decide)).trans <| (show W3 m ρ c (Proc.devRef .tc main_arg9) = W2 m ρ c (Proc.devRef .tc main_arg9) from by host_keep hostOps1).trans <|
  (W2_of_ne m ρ c main_arg9 (by decide)).trans (show W1 m ρ c (Proc.devRef .tc main_arg9) = W0 m ρ c (Proc.devRef .tc main_arg9) from by host_keep hostOps0)
theorem keep_arg9_4 (c : Dev nD) : W4 m ρ c (Proc.devRef .tc main_arg9) = W0 m ρ c (Proc.devRef .tc main_arg9) :=
  keepL1_arg9 m ρ c
theorem keepL2_arg9 (c : Dev nD) : W8 m ρ c (Proc.devRef .tc main_arg9) = W4 m ρ c (Proc.devRef .tc main_arg9) :=
  (W8_of_ne m ρ c main_arg9 (by decide)).trans <| (show W7 m ρ c (Proc.devRef .tc main_arg9) = W6 m ρ c (Proc.devRef .tc main_arg9) from by host_keep hostOps3).trans <|
  (W6_of_ne m ρ c main_arg9 (by decide)).trans (show W5 m ρ c (Proc.devRef .tc main_arg9) = W4 m ρ c (Proc.devRef .tc main_arg9) from by host_keep hostOps2)
theorem keep_arg9_8 (c : Dev nD) : W8 m ρ c (Proc.devRef .tc main_arg9) = W0 m ρ c (Proc.devRef .tc main_arg9) :=
  (keepL2_arg9 m ρ c).trans (keep_arg9_4 m ρ c)

/-! ### main_arg10: boundary 0 to boundary 12 -/
theorem keepL1_arg10 (c : Dev nD) : W4 m ρ c (Proc.devRef .tc main_arg10) = W0 m ρ c (Proc.devRef .tc main_arg10) :=
  (W4_of_ne m ρ c main_arg10 (by decide)).trans <| (show W3 m ρ c (Proc.devRef .tc main_arg10) = W2 m ρ c (Proc.devRef .tc main_arg10) from by host_keep hostOps1).trans <|
  (W2_of_ne m ρ c main_arg10 (by decide)).trans (show W1 m ρ c (Proc.devRef .tc main_arg10) = W0 m ρ c (Proc.devRef .tc main_arg10) from by host_keep hostOps0)
theorem keep_arg10_4 (c : Dev nD) : W4 m ρ c (Proc.devRef .tc main_arg10) = W0 m ρ c (Proc.devRef .tc main_arg10) :=
  keepL1_arg10 m ρ c
theorem keepL2_arg10 (c : Dev nD) : W8 m ρ c (Proc.devRef .tc main_arg10) = W4 m ρ c (Proc.devRef .tc main_arg10) :=
  (W8_of_ne m ρ c main_arg10 (by decide)).trans <| (show W7 m ρ c (Proc.devRef .tc main_arg10) = W6 m ρ c (Proc.devRef .tc main_arg10) from by host_keep hostOps3).trans <|
  (W6_of_ne m ρ c main_arg10 (by decide)).trans (show W5 m ρ c (Proc.devRef .tc main_arg10) = W4 m ρ c (Proc.devRef .tc main_arg10) from by host_keep hostOps2)
theorem keep_arg10_8 (c : Dev nD) : W8 m ρ c (Proc.devRef .tc main_arg10) = W0 m ρ c (Proc.devRef .tc main_arg10) :=
  (keepL2_arg10 m ρ c).trans (keep_arg10_4 m ρ c)
theorem keepL3_arg10 (c : Dev nD) : W12 m ρ c (Proc.devRef .tc main_arg10) = W8 m ρ c (Proc.devRef .tc main_arg10) :=
  (W12_of_ne m ρ c main_arg10 (by decide)).trans <| (show W11 m ρ c (Proc.devRef .tc main_arg10) = W10 m ρ c (Proc.devRef .tc main_arg10) from by host_keep hostOps5).trans <|
  (W10_of_ne m ρ c main_arg10 (by decide)).trans (show W9 m ρ c (Proc.devRef .tc main_arg10) = W8 m ρ c (Proc.devRef .tc main_arg10) from by host_keep hostOps4)
theorem keep_arg10_12 (c : Dev nD) : W12 m ρ c (Proc.devRef .tc main_arg10) = W0 m ρ c (Proc.devRef .tc main_arg10) :=
  (keepL3_arg10 m ρ c).trans (keep_arg10_8 m ρ c)

/-! ### main_arg11: boundary 0 to boundary 12 -/
theorem keepL1_arg11 (c : Dev nD) : W4 m ρ c (Proc.devRef .tc main_arg11) = W0 m ρ c (Proc.devRef .tc main_arg11) :=
  (W4_of_ne m ρ c main_arg11 (by decide)).trans <| (show W3 m ρ c (Proc.devRef .tc main_arg11) = W2 m ρ c (Proc.devRef .tc main_arg11) from by host_keep hostOps1).trans <|
  (W2_of_ne m ρ c main_arg11 (by decide)).trans (show W1 m ρ c (Proc.devRef .tc main_arg11) = W0 m ρ c (Proc.devRef .tc main_arg11) from by host_keep hostOps0)
theorem keep_arg11_4 (c : Dev nD) : W4 m ρ c (Proc.devRef .tc main_arg11) = W0 m ρ c (Proc.devRef .tc main_arg11) :=
  keepL1_arg11 m ρ c
theorem keepL2_arg11 (c : Dev nD) : W8 m ρ c (Proc.devRef .tc main_arg11) = W4 m ρ c (Proc.devRef .tc main_arg11) :=
  (W8_of_ne m ρ c main_arg11 (by decide)).trans <| (show W7 m ρ c (Proc.devRef .tc main_arg11) = W6 m ρ c (Proc.devRef .tc main_arg11) from by host_keep hostOps3).trans <|
  (W6_of_ne m ρ c main_arg11 (by decide)).trans (show W5 m ρ c (Proc.devRef .tc main_arg11) = W4 m ρ c (Proc.devRef .tc main_arg11) from by host_keep hostOps2)
theorem keep_arg11_8 (c : Dev nD) : W8 m ρ c (Proc.devRef .tc main_arg11) = W0 m ρ c (Proc.devRef .tc main_arg11) :=
  (keepL2_arg11 m ρ c).trans (keep_arg11_4 m ρ c)
theorem keepL3_arg11 (c : Dev nD) : W12 m ρ c (Proc.devRef .tc main_arg11) = W8 m ρ c (Proc.devRef .tc main_arg11) :=
  (W12_of_ne m ρ c main_arg11 (by decide)).trans <| (show W11 m ρ c (Proc.devRef .tc main_arg11) = W10 m ρ c (Proc.devRef .tc main_arg11) from by host_keep hostOps5).trans <|
  (W10_of_ne m ρ c main_arg11 (by decide)).trans (show W9 m ρ c (Proc.devRef .tc main_arg11) = W8 m ρ c (Proc.devRef .tc main_arg11) from by host_keep hostOps4)
theorem keep_arg11_12 (c : Dev nD) : W12 m ρ c (Proc.devRef .tc main_arg11) = W0 m ρ c (Proc.devRef .tc main_arg11) :=
  (keepL3_arg11 m ρ c).trans (keep_arg11_8 m ρ c)

/-! ### main_arg12: boundary 0 to boundary 16 -/
theorem keepL1_arg12 (c : Dev nD) : W4 m ρ c (Proc.devRef .tc main_arg12) = W0 m ρ c (Proc.devRef .tc main_arg12) :=
  (W4_of_ne m ρ c main_arg12 (by decide)).trans <| (show W3 m ρ c (Proc.devRef .tc main_arg12) = W2 m ρ c (Proc.devRef .tc main_arg12) from by host_keep hostOps1).trans <|
  (W2_of_ne m ρ c main_arg12 (by decide)).trans (show W1 m ρ c (Proc.devRef .tc main_arg12) = W0 m ρ c (Proc.devRef .tc main_arg12) from by host_keep hostOps0)
theorem keep_arg12_4 (c : Dev nD) : W4 m ρ c (Proc.devRef .tc main_arg12) = W0 m ρ c (Proc.devRef .tc main_arg12) :=
  keepL1_arg12 m ρ c
theorem keepL2_arg12 (c : Dev nD) : W8 m ρ c (Proc.devRef .tc main_arg12) = W4 m ρ c (Proc.devRef .tc main_arg12) :=
  (W8_of_ne m ρ c main_arg12 (by decide)).trans <| (show W7 m ρ c (Proc.devRef .tc main_arg12) = W6 m ρ c (Proc.devRef .tc main_arg12) from by host_keep hostOps3).trans <|
  (W6_of_ne m ρ c main_arg12 (by decide)).trans (show W5 m ρ c (Proc.devRef .tc main_arg12) = W4 m ρ c (Proc.devRef .tc main_arg12) from by host_keep hostOps2)
theorem keep_arg12_8 (c : Dev nD) : W8 m ρ c (Proc.devRef .tc main_arg12) = W0 m ρ c (Proc.devRef .tc main_arg12) :=
  (keepL2_arg12 m ρ c).trans (keep_arg12_4 m ρ c)
theorem keepL3_arg12 (c : Dev nD) : W12 m ρ c (Proc.devRef .tc main_arg12) = W8 m ρ c (Proc.devRef .tc main_arg12) :=
  (W12_of_ne m ρ c main_arg12 (by decide)).trans <| (show W11 m ρ c (Proc.devRef .tc main_arg12) = W10 m ρ c (Proc.devRef .tc main_arg12) from by host_keep hostOps5).trans <|
  (W10_of_ne m ρ c main_arg12 (by decide)).trans (show W9 m ρ c (Proc.devRef .tc main_arg12) = W8 m ρ c (Proc.devRef .tc main_arg12) from by host_keep hostOps4)
theorem keep_arg12_12 (c : Dev nD) : W12 m ρ c (Proc.devRef .tc main_arg12) = W0 m ρ c (Proc.devRef .tc main_arg12) :=
  (keepL3_arg12 m ρ c).trans (keep_arg12_8 m ρ c)
theorem keepL4_arg12 (c : Dev nD) : W16 m ρ c (Proc.devRef .tc main_arg12) = W12 m ρ c (Proc.devRef .tc main_arg12) :=
  (W16_of_ne m ρ c main_arg12 (by decide)).trans <| (show W15 m ρ c (Proc.devRef .tc main_arg12) = W14 m ρ c (Proc.devRef .tc main_arg12) from by host_keep hostOps7).trans <|
  (W14_of_ne m ρ c main_arg12 (by decide)).trans (show W13 m ρ c (Proc.devRef .tc main_arg12) = W12 m ρ c (Proc.devRef .tc main_arg12) from by host_keep hostOps6)
theorem keep_arg12_16 (c : Dev nD) : W16 m ρ c (Proc.devRef .tc main_arg12) = W0 m ρ c (Proc.devRef .tc main_arg12) :=
  (keepL4_arg12 m ρ c).trans (keep_arg12_12 m ρ c)

/-! ### main_arg13: boundary 0 to boundary 16 -/
theorem keepL1_arg13 (c : Dev nD) : W4 m ρ c (Proc.devRef .tc main_arg13) = W0 m ρ c (Proc.devRef .tc main_arg13) :=
  (W4_of_ne m ρ c main_arg13 (by decide)).trans <| (show W3 m ρ c (Proc.devRef .tc main_arg13) = W2 m ρ c (Proc.devRef .tc main_arg13) from by host_keep hostOps1).trans <|
  (W2_of_ne m ρ c main_arg13 (by decide)).trans (show W1 m ρ c (Proc.devRef .tc main_arg13) = W0 m ρ c (Proc.devRef .tc main_arg13) from by host_keep hostOps0)
theorem keep_arg13_4 (c : Dev nD) : W4 m ρ c (Proc.devRef .tc main_arg13) = W0 m ρ c (Proc.devRef .tc main_arg13) :=
  keepL1_arg13 m ρ c
theorem keepL2_arg13 (c : Dev nD) : W8 m ρ c (Proc.devRef .tc main_arg13) = W4 m ρ c (Proc.devRef .tc main_arg13) :=
  (W8_of_ne m ρ c main_arg13 (by decide)).trans <| (show W7 m ρ c (Proc.devRef .tc main_arg13) = W6 m ρ c (Proc.devRef .tc main_arg13) from by host_keep hostOps3).trans <|
  (W6_of_ne m ρ c main_arg13 (by decide)).trans (show W5 m ρ c (Proc.devRef .tc main_arg13) = W4 m ρ c (Proc.devRef .tc main_arg13) from by host_keep hostOps2)
theorem keep_arg13_8 (c : Dev nD) : W8 m ρ c (Proc.devRef .tc main_arg13) = W0 m ρ c (Proc.devRef .tc main_arg13) :=
  (keepL2_arg13 m ρ c).trans (keep_arg13_4 m ρ c)
theorem keepL3_arg13 (c : Dev nD) : W12 m ρ c (Proc.devRef .tc main_arg13) = W8 m ρ c (Proc.devRef .tc main_arg13) :=
  (W12_of_ne m ρ c main_arg13 (by decide)).trans <| (show W11 m ρ c (Proc.devRef .tc main_arg13) = W10 m ρ c (Proc.devRef .tc main_arg13) from by host_keep hostOps5).trans <|
  (W10_of_ne m ρ c main_arg13 (by decide)).trans (show W9 m ρ c (Proc.devRef .tc main_arg13) = W8 m ρ c (Proc.devRef .tc main_arg13) from by host_keep hostOps4)
theorem keep_arg13_12 (c : Dev nD) : W12 m ρ c (Proc.devRef .tc main_arg13) = W0 m ρ c (Proc.devRef .tc main_arg13) :=
  (keepL3_arg13 m ρ c).trans (keep_arg13_8 m ρ c)
theorem keepL4_arg13 (c : Dev nD) : W16 m ρ c (Proc.devRef .tc main_arg13) = W12 m ρ c (Proc.devRef .tc main_arg13) :=
  (W16_of_ne m ρ c main_arg13 (by decide)).trans <| (show W15 m ρ c (Proc.devRef .tc main_arg13) = W14 m ρ c (Proc.devRef .tc main_arg13) from by host_keep hostOps7).trans <|
  (W14_of_ne m ρ c main_arg13 (by decide)).trans (show W13 m ρ c (Proc.devRef .tc main_arg13) = W12 m ρ c (Proc.devRef .tc main_arg13) from by host_keep hostOps6)
theorem keep_arg13_16 (c : Dev nD) : W16 m ρ c (Proc.devRef .tc main_arg13) = W0 m ρ c (Proc.devRef .tc main_arg13) :=
  (keepL4_arg13 m ρ c).trans (keep_arg13_12 m ρ c)

/-! ### main_arg2: boundary 0 to boundary 16 -/
theorem keepL1_arg2 (c : Dev nD) : W4 m ρ c (Proc.devRef .tc main_arg2) = W0 m ρ c (Proc.devRef .tc main_arg2) :=
  (W4_of_ne m ρ c main_arg2 (by decide)).trans <| (show W3 m ρ c (Proc.devRef .tc main_arg2) = W2 m ρ c (Proc.devRef .tc main_arg2) from by host_keep hostOps1).trans <|
  (W2_of_ne m ρ c main_arg2 (by decide)).trans (show W1 m ρ c (Proc.devRef .tc main_arg2) = W0 m ρ c (Proc.devRef .tc main_arg2) from by host_keep hostOps0)
theorem keep_arg2_4 (c : Dev nD) : W4 m ρ c (Proc.devRef .tc main_arg2) = W0 m ρ c (Proc.devRef .tc main_arg2) :=
  keepL1_arg2 m ρ c
theorem keepL2_arg2 (c : Dev nD) : W8 m ρ c (Proc.devRef .tc main_arg2) = W4 m ρ c (Proc.devRef .tc main_arg2) :=
  (W8_of_ne m ρ c main_arg2 (by decide)).trans <| (show W7 m ρ c (Proc.devRef .tc main_arg2) = W6 m ρ c (Proc.devRef .tc main_arg2) from by host_keep hostOps3).trans <|
  (W6_of_ne m ρ c main_arg2 (by decide)).trans (show W5 m ρ c (Proc.devRef .tc main_arg2) = W4 m ρ c (Proc.devRef .tc main_arg2) from by host_keep hostOps2)
theorem keep_arg2_8 (c : Dev nD) : W8 m ρ c (Proc.devRef .tc main_arg2) = W0 m ρ c (Proc.devRef .tc main_arg2) :=
  (keepL2_arg2 m ρ c).trans (keep_arg2_4 m ρ c)
theorem keepL3_arg2 (c : Dev nD) : W12 m ρ c (Proc.devRef .tc main_arg2) = W8 m ρ c (Proc.devRef .tc main_arg2) :=
  (W12_of_ne m ρ c main_arg2 (by decide)).trans <| (show W11 m ρ c (Proc.devRef .tc main_arg2) = W10 m ρ c (Proc.devRef .tc main_arg2) from by host_keep hostOps5).trans <|
  (W10_of_ne m ρ c main_arg2 (by decide)).trans (show W9 m ρ c (Proc.devRef .tc main_arg2) = W8 m ρ c (Proc.devRef .tc main_arg2) from by host_keep hostOps4)
theorem keep_arg2_12 (c : Dev nD) : W12 m ρ c (Proc.devRef .tc main_arg2) = W0 m ρ c (Proc.devRef .tc main_arg2) :=
  (keepL3_arg2 m ρ c).trans (keep_arg2_8 m ρ c)
theorem keepL4_arg2 (c : Dev nD) : W16 m ρ c (Proc.devRef .tc main_arg2) = W12 m ρ c (Proc.devRef .tc main_arg2) :=
  (W16_of_ne m ρ c main_arg2 (by decide)).trans <| (show W15 m ρ c (Proc.devRef .tc main_arg2) = W14 m ρ c (Proc.devRef .tc main_arg2) from by host_keep hostOps7).trans <|
  (W14_of_ne m ρ c main_arg2 (by decide)).trans (show W13 m ρ c (Proc.devRef .tc main_arg2) = W12 m ρ c (Proc.devRef .tc main_arg2) from by host_keep hostOps6)
theorem keep_arg2_16 (c : Dev nD) : W16 m ρ c (Proc.devRef .tc main_arg2) = W0 m ρ c (Proc.devRef .tc main_arg2) :=
  (keepL4_arg2 m ρ c).trans (keep_arg2_12 m ρ c)

end Cert.KernelIdeal.Keep

end
-- ==== Proof.RegD2.lean ====
/-
  The second dense call of the kernel (node features 50000 x 125, weights 125 x 144), read as whole arrays on the
  extended reals. Its grid has 25 points; point t holds rows 2000 t .. 2000 t + 1999 of the node features, of the
  self-loop column and of both outputs, and the whole of the weights and of the bias row. One block of the product
  is a sum over the contracted axis (the left operand first passes through a cast to its own shape); one block of
  the self-loop term is that product scaled row by row by the column plus the bias row. The blocks of the 25 points
  tile each output array, so each array ends holding the whole product h · W, respectively (h · W) scaled by the
  column plus the bias row.
-/
import proofs.«420299_j43722767073851_4_alg».proof.Proof.Gen.KernelIdeal.Frame
import proofs.«420299_j43722767073851_4_alg».proof.Proof.Spec
import proofs.«420299_j43722767073851_4_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384
noncomputable section
namespace Cert.KernelIdeal.RegVal
open Idealize.ShloMosaic Idealize.ShloMosaic.TcCoe Idealize.SL.Sem Cert.KernelIdeal Cert.KernelIdeal.Gen
open Idealize.ShloMosaic.Pipeline (Dat Cfg Window)
open Idealize.ShloMosaic.ValueIdx

/-! ## The product h · W of one block, entry by entry -/

/-- Row axis of the left operand: the output index's row. -/
theorem lhs_mm2_0 (i : S2000x144.Idx) (q : dot_S2000x125_S125x144_S2000x144_1_0_0_1_n_n.contr.Idx) :
    (dot_S2000x125_S125x144_S2000x144_1_0_0_1_n_n.lhsIdx i q 0).val = (i 0).val := by
  unfold DotDims.lhsIdx
  rw [dif_neg (show ¬(0 : Fin S2000x125.rank) ∈ dot_S2000x125_S125x144_S2000x144_1_0_0_1_n_n.lhsBatch by decide), dif_pos (show (0 : Fin S2000x125.rank) ∈ dot_S2000x125_S125x144_S2000x144_1_0_0_1_n_n.lhsNonContracting by decide)]
  rfl
/-- Column axis of the left operand: the contracted position. -/
theorem lhs_mm2_1 (i : S2000x144.Idx) (q : dot_S2000x125_S125x144_S2000x144_1_0_0_1_n_n.contr.Idx) :
    (dot_S2000x125_S125x144_S2000x144_1_0_0_1_n_n.lhsIdx i q 1).val = (q ⟨0, by decide⟩).val :=
  dot_S2000x125_S125x144_S2000x144_1_0_0_1_n_n.lhsIdx_val_of_single rfl i q
/-- Row axis of the right operand: the contracted position. -/
theorem rhs_mm2_0 (i : S2000x144.Idx) (q : dot_S2000x125_S125x144_S2000x144_1_0_0_1_n_n.contr.Idx) :
    (dot_S2000x125_S125x144_S2000x144_1_0_0_1_n_n.rhsIdx i q 0).val = (q ⟨0, by decide⟩).val :=
  dot_S2000x125_S125x144_S2000x144_1_0_0_1_n_n.rhsIdx_val_of_single rfl i q
/-- Column axis of the right operand: the output index's column. -/
theorem rhs_mm2_1 (i : S2000x144.Idx) (q : dot_S2000x125_S125x144_S2000x144_1_0_0_1_n_n.contr.Idx) :
    (dot_S2000x125_S125x144_S2000x144_1_0_0_1_n_n.rhsIdx i q 1).val = (i 1).val := by
  unfold DotDims.rhsIdx
  rw [dif_neg (show ¬(1 : Fin S125x144.rank) ∈ dot_S2000x125_S125x144_S2000x144_1_0_0_1_n_n.rhsBatch by decide), dif_pos (show (1 : Fin S125x144.rank) ∈ dot_S2000x125_S125x144_S2000x144_1_0_0_1_n_n.rhsNonContracting by decide)]
  rfl

/-- The block product at an index: the left operand enters through a cast to its own shape, which changes nothing;
    the product is the sum over the 125 contracted positions of the left operand's entry in the index's row times the
    right operand's entry in the index's column. -/
theorem blockProd2_apply (x0 : Vec Ideal S2000x125 .f32) (x1 : Vec Ideal S125x144 .f32) (j : S2000x144.Idx) :
    k2_pay1 (F := Ideal) x0 x1 j = ∑ k : Fin 125, x0 (Cert.Spec.lix j k) * x1 (Cert.Spec.rix j k) := by
  unfold k2_pay1
  refine (Ideal.matmul_constant_zero_apply dot_S2000x125_S125x144_S2000x144_1_0_0_1_n_n none
    (shapeCast S2000x125 x0 shapeCasts_S2000x125_S2000x125) x1 j).trans ?_
  rw [shapeCast_self]
  rw [← Equiv.sum_comp (ValueIdx.contrEquiv1 dot_S2000x125_S125x144_S2000x144_1_0_0_1_n_n 125 rfl rfl).symm]
  refine Finset.sum_congr rfl fun k _ => ?_
  have hk := ValueIdx.contrEquiv1_symm_val dot_S2000x125_S125x144_S2000x144_1_0_0_1_n_n 125 rfl rfl k
  have el : dot_S2000x125_S125x144_S2000x144_1_0_0_1_n_n.lhsIdx j ((ValueIdx.contrEquiv1 dot_S2000x125_S125x144_S2000x144_1_0_0_1_n_n 125 rfl rfl).symm k) = Cert.Spec.lix j k := funext fun a => Fin.ext (by
    match a with
    | ⟨0, _⟩ => exact lhs_mm2_0 _ _
    | ⟨1, _⟩ => exact (lhs_mm2_1 _ _).trans hk)
  have er : dot_S2000x125_S125x144_S2000x144_1_0_0_1_n_n.rhsIdx j ((ValueIdx.contrEquiv1 dot_S2000x125_S125x144_S2000x144_1_0_0_1_n_n 125 rfl rfl).symm k) = Cert.Spec.rix j k := funext fun a => Fin.ext (by
    match a with
    | ⟨0, _⟩ => exact (rhs_mm2_0 _ _).trans hk
    | ⟨1, _⟩ => exact rhs_mm2_1 _ _)
  rw [el, er]

/-! ## The scaled product plus the bias row, of one block, entry by entry -/

/-- The block's self-loop term at an index: the block product there, times the column's entry in the index's row,
    plus the bias row's entry in the index's column. -/
theorem blockDense2_apply (x0 : Vec Ideal S2000x125 .f32) (x1 : Vec Ideal S125x144 .f32) (x3 : Vec Ideal S2000x1 .f32)
    (x7 : Vec Ideal S1x144 .f32) (j : S2000x144.Idx) :
    k2_pay2 (F := Ideal) x0 x1 x3 x7 j
      = k2_pay1 (F := Ideal) x0 x1 j * x3 (Cert.Spec.colIx j) + x7 (Cert.Spec.rowIx j) := by
  obtain ⟨p, q, rfl⟩ : ∃ (p : Fin 2000) (q : Fin 144), j = ix2 p q := ⟨j 0, j 1, eq_ix2 j⟩
  have ec : Cert.Spec.colIx (ix2 p q) = ix2 p (0 : Fin 1) := funext fun a => by
    match a with
    | ⟨0, _⟩ => rfl
    | ⟨1, _⟩ => rfl
  have er : Cert.Spec.rowIx (ix2 p q) = ix2 (0 : Fin 1) q := funext fun a => by
    match a with
    | ⟨0, _⟩ => rfl
    | ⟨1, _⟩ => rfl
  unfold k2_pay2
  show k2_pay1 (F := Ideal) x0 x1 (ix2 p q)
        * broadcastTo S2000x144 (shapeCast S2000x1 x3 shapeCasts_S2000x1_S2000x1) broadcasts_S2000x1_S2000x144 (ix2 p q)
      + broadcastTo S2000x144 (shapeCast S1x144 x7 shapeCasts_S1x144_S1x144) broadcasts_S1x144_S2000x144 (ix2 p q) = _
  rw [shapeCast_self, shapeCast_self, Cert.LibColumn.broadcastTo_a1_ab_apply, broadcastTo_1b_ab_apply, ec, er]

variable (V : (c : Dev nD) → (b : Ref sig .tc) → Buf (Elt Ideal) ((c : Thread nD τ).loc b))

/-! ## From blocks to the arrays -/

theorem zeroOff2 : (![0, 0] : Fin 2 → Nat) = fun _ => 0 := funext fun a => by
  match a with
  | ⟨0, _⟩ => rfl
  | ⟨1, _⟩ => rfl

/-- The printed index maps over the grid: the windows cut in row blocks (node features, column, both outputs) sit at
    block row t, block column 0; the weights and the bias row are their one block. -/
theorem blockIdx2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0 :=
  (by decide +kernel : ∀ t : Fin grid2.N, _)

/-- The block product of point t at a block index is the whole product h · W at the array index whose row is
    2000 t plus the block index's row and whose column is the block index's column. -/
theorem blockProd2_at (c : Dev nD) (t : Fin cfg2.N) (j : S2000x144.Idx) (i : S50000x144.Idx)
    (hr : (i 0).val = t.val * 2000 + (j 0).val) (hc : (i 1).val = (j 1).val) :
    k2_pay1 (F := Ideal) (iblk2 V c 0 t) (iblk2 V c 1 t) j = Cert.Spec.mm (V c main_v44) (V c main_arg6) i := by
  obtain ⟨e00, e01, e10, e11, -⟩ := blockIdx2 t
  rw [blockProd2_apply]
  unfold Cert.Spec.mm
  refine Finset.sum_congr rfl fun k _ => ?_
  have a0 : iblk2 V c 0 t (Cert.Spec.lix j k) = V c main_v44 (Cert.Spec.lix i k) := by
    show V c main_v44 (((cfg2.win 0).blk t).view.emb (Cert.Spec.lix j k)) = _
    refine congrArg (V c main_v44) ?_
    funext a; apply Fin.ext
    match a with
    | ⟨0, _⟩ => show win2_0.index t (0 : Fin 2) * 2000 + 1 * (j 0).val = (i 0).val; omega
    | ⟨1, _⟩ => show win2_0.index t (1 : Fin 2) * 125 + 1 * k.val = k.val; omega
  have a1 : iblk2 V c 1 t (Cert.Spec.rix j k) = V c main_arg6 (Cert.Spec.rix i k) := by
    show V c main_arg6 (((cfg2.win 1).blk t).view.emb (Cert.Spec.rix j k)) = _
    refine congrArg (V c main_arg6) ?_
    funext a; apply Fin.ext
    match a with
    | ⟨0, _⟩ => show win2_1.index t (0 : Fin 2) * 125 + 1 * k.val = k.val; omega
    | ⟨1, _⟩ => show win2_1.index t (1 : Fin 2) * 144 + 1 * (j 1).val = (i 1).val; omega
  rw [a0, a1]

/-! ### The product's array (output window 5) -/

/-- What point t writes back to the product's array is block t of h · W of the arrays as the region finds them. -/
theorem flushed2_5 (c : Dev nD) (t : Fin cfg2.N) :
    (dat2 (F := Ideal) V c).flushed 5 t
      = ((cfg2.win 5).blk t).view.read (Elt Ideal) (Cert.Spec.mm (V c main_v44) (V c main_arg6)) := by
  show (cfg2.win 5).cut (grid2.coords t) ((dat2 (F := Ideal) V c).after 5 t) = _
  rw [after2_5]
  unfold out2_5
  rw [View.canon_unit_zero zeroOff2]
  simp only [View.ld_unit_zero (S := S2000x125) zeroOff2, View.ld_unit_zero (S := S125x144) zeroOff2]
  obtain ⟨-, -, -, -, -, -, -, -, -, -, e50, e51⟩ := blockIdx2 t
  refine funext fun (j : S2000x144.Idx) => ?_
  show k2_pay1 (F := Ideal) (iblk2 V c 0 t) (iblk2 V c 1 t) j
      = Cert.Spec.mm (V c main_v44) (V c main_arg6) (((cfg2.win 5).blk t).view.emb j : S50000x144.Idx)
  refine blockProd2_at V c t j _ ?_ ?_
  · show win2_5.index t (0 : Fin 2) * 2000 + 1 * (j 0).val = t.val * 2000 + (j 0).val; omega
  · show win2_5.index t (1 : Fin 2) * 144 + 1 * (j 1).val = (j 1).val; omega

/-- An index of the product's array is in point t's block iff each coordinate is in the block's range on its axis. -/
theorem mem_blk2_5 (t : Fin cfg2.N) (i : S50000x144.Idx) :
    i ∈ ((cfg2.win 5).blk t).view.set ↔ ∀ a : Fin 2, win2_5.index t a * S2000x144.size a ≤ (i a).val
      ∧ (i a).val < win2_5.index t a * S2000x144.size a + S2000x144.size a := by
  show i ∈ ((View.whole main_v47_1).slice (win2_5.rect t)).set ↔ _
  rw [View.set_slice_whole, Rect.mem_set_unit]
  exact Iff.rfl

/-- Every index of the product's array is in the block of the point its row divided by 2000 names, and every point
    writes its block back. -/
theorem covered2_5 (i : S50000x144.Idx) :
    ∃ t : Fin cfg2.N, (cfg2.win 5).flush t = true ∧ i ∈ ((cfg2.win 5).blk t).view.set := by
  have hi0 : (i 0).val < 50000 := (i 0).isLt
  have hi1 : (i 1).val < 144 := (i 1).isLt
  have ht : (i 0).val / 2000 < cfg2.N := by show (i 0).val / 2000 < 25; omega
  obtain ⟨-, -, -, -, -, -, -, -, -, -, e50, e51⟩ := blockIdx2 ⟨(i 0).val / 2000, ht⟩
  have e50' : win2_5.index ⟨(i 0).val / 2000, ht⟩ (0 : Fin 2) = (i 0).val / 2000 := e50
  refine ⟨⟨(i 0).val / 2000, ht⟩, flush2_5 _, ?_⟩
  rw [mem_blk2_5]
  intro a
  match a with
  | ⟨0, _⟩ =>
    show win2_5.index ⟨(i 0).val / 2000, ht⟩ (0 : Fin 2) * 2000 ≤ (i 0).val
      ∧ (i 0).val < win2_5.index ⟨(i 0).val / 2000, ht⟩ (0 : Fin 2) * 2000 + 2000
    omega
  | ⟨1, _⟩ =>
    show win2_5.index ⟨(i 0).val / 2000, ht⟩ (1 : Fin 2) * 144 ≤ (i 1).val
      ∧ (i 1).val < win2_5.index ⟨(i 0).val / 2000, ht⟩ (1 : Fin 2) * 144 + 144
    omega

/-- The product's array after the region: h · W of the node features and the weights as the region finds them. -/
theorem arr2_5 (c : Dev nD) :
    (dat2 (F := Ideal) V c).arrAt 5 cfg2.N = Cert.Spec.mm (V c main_v44) (V c main_arg6) :=
  (dat2 (F := Ideal) V c).arrAt_eq_of_cover 5 (Cert.Spec.mm (V c main_v44) (V c main_arg6))
    (fun t _ => flushed2_5 V c t) covered2_5

/-! ### The self-loop term's array (output window 4) -/

/-- What point t writes back to the self-loop term's array is block t of (h · W) scaled row by row by the column,
    plus the bias row, of the arrays as the region finds them. -/
theorem flushed2_4 (c : Dev nD) (t : Fin cfg2.N) :
    (dat2 (F := Ideal) V c).flushed 4 t
      = ((cfg2.win 4).blk t).view.read (Elt Ideal)
          (Cert.Spec.dense (V c main_v44) (V c main_arg6) (V c main_v45) (V c main_v46)) := by
  show (cfg2.win 4).cut (grid2.coords t) ((dat2 (F := Ideal) V c).after 4 t) = _
  rw [after2_4]
  unfold out2_4
  rw [View.canon_unit_zero zeroOff2]
  simp only [View.ld_unit_zero (S := S2000x125) zeroOff2, View.ld_unit_zero (S := S125x144) zeroOff2,
    View.ld_unit_zero (S := S2000x1) zeroOff2, View.ld_unit_zero (S := S1x144) zeroOff2]
  obtain ⟨-, -, -, -, e20, e21, e30, e31, e40, e41, -, -⟩ := blockIdx2 t
  refine funext fun (j : S2000x144.Idx) => ?_
  show k2_pay2 (F := Ideal) (iblk2 V c 0 t) (iblk2 V c 1 t) (iblk2 V c 3 t) (iblk2 V c 2 t) j
      = Cert.Spec.dense (V c main_v44) (V c main_arg6) (V c main_v45) (V c main_v46)
          (((cfg2.win 4).blk t).view.emb j : S50000x144.Idx)
  have hp : k2_pay1 (F := Ideal) (iblk2 V c 0 t) (iblk2 V c 1 t) j
      = Cert.Spec.mm (V c main_v44) (V c main_arg6) (((cfg2.win 4).blk t).view.emb j : S50000x144.Idx) := by
    refine blockProd2_at V c t j _ ?_ ?_
    · show win2_4.index t (0 : Fin 2) * 2000 + 1 * (j 0).val = t.val * 2000 + (j 0).val; omega
    · show win2_4.index t (1 : Fin 2) * 144 + 1 * (j 1).val = (j 1).val; omega
  have hcol : iblk2 V c 3 t (Cert.Spec.colIx j)
      = V c main_v46 (Cert.Spec.colIx (((cfg2.win 4).blk t).view.emb j : S50000x144.Idx)) := by
    show V c main_v46 (((cfg2.win 3).blk t).view.emb (Cert.Spec.colIx j)) = _
    refine congrArg (V c main_v46) ?_
    funext a; apply Fin.ext
    match a with
    | ⟨0, _⟩ => show win2_3.index t (0 : Fin 2) * 2000 + 1 * (j 0).val = win2_4.index t (0 : Fin 2) * 2000 + 1 * (j 0).val; omega
    | ⟨1, _⟩ => show win2_3.index t (1 : Fin 2) * 1 + 1 * 0 = 0; omega
  have hrow : iblk2 V c 2 t (Cert.Spec.rowIx j)
      = V c main_v45 (Cert.Spec.rowIx (((cfg2.win 4).blk t).view.emb j : S50000x144.Idx)) := by
    show V c main_v45 (((cfg2.win 2).blk t).view.emb (Cert.Spec.rowIx j)) = _
    refine congrArg (V c main_v45) ?_
    funext a; apply Fin.ext
    match a with
    | ⟨0, _⟩ => show win2_2.index t (0 : Fin 2) * 1 + 1 * 0 = 0; omega
    | ⟨1, _⟩ => show win2_2.index t (1 : Fin 2) * 144 + 1 * (j 1).val = win2_4.index t (1 : Fin 2) * 144 + 1 * (j 1).val; omega
  rw [blockDense2_apply, hp, hcol, hrow]
  rfl

/-- An index of the self-loop term's array is in point t's block iff each coordinate is in the block's range on its
    axis. -/
theorem mem_blk2_4 (t : Fin cfg2.N) (i : S50000x144.Idx) :
    i ∈ ((cfg2.win 4).blk t).view.set ↔ ∀ a : Fin 2, win2_4.index t a * S2000x144.size a ≤ (i a).val
      ∧ (i a).val < win2_4.index t a * S2000x144.size a + S2000x144.size a := by
  show i ∈ ((View.whole main_v47_0).slice (win2_4.rect t)).set ↔ _
  rw [View.set_slice_whole, Rect.mem_set_unit]
  exact Iff.rfl

/-- Every index of the self-loop term's array is in the block of the point its row divided by 2000 names, and every
    point writes its block back. -/
theorem covered2_4 (i : S50000x144.Idx) :
    ∃ t : Fin cfg2.N, (cfg2.win 4).flush t = true ∧ i ∈ ((cfg2.win 4).blk t).view.set := by
  have hi0 : (i 0).val < 50000 := (i 0).isLt
  have hi1 : (i 1).val < 144 := (i 1).isLt
  have ht : (i 0).val / 2000 < cfg2.N := by show (i 0).val / 2000 < 25; omega
  obtain ⟨-, -, -, -, -, -, -, -, e40, e41, -, -⟩ := blockIdx2 ⟨(i 0).val / 2000, ht⟩
  have e40' : win2_4.index ⟨(i 0).val / 2000, ht⟩ (0 : Fin 2) = (i 0).val / 2000 := e40
  refine ⟨⟨(i 0).val / 2000, ht⟩, flush2_4 _, ?_⟩
  rw [mem_blk2_4]
  intro a
  match a with
  | ⟨0, _⟩ =>
    show win2_4.index ⟨(i 0).val / 2000, ht⟩ (0 : Fin 2) * 2000 ≤ (i 0).val
      ∧ (i 0).val < win2_4.index ⟨(i 0).val / 2000, ht⟩ (0 : Fin 2) * 2000 + 2000
    omega
  | ⟨1, _⟩ =>
    show win2_4.index ⟨(i 0).val / 2000, ht⟩ (1 : Fin 2) * 144 ≤ (i 1).val
      ∧ (i 1).val < win2_4.index ⟨(i 0).val / 2000, ht⟩ (1 : Fin 2) * 144 + 144
    omega

/-- The self-loop term's array after the region: (h · W) scaled row by row by the column, plus the bias row, of the
    node features, weights, bias row and column as the region finds them. -/
theorem arr2_4 (c : Dev nD) :
    (dat2 (F := Ideal) V c).arrAt 4 cfg2.N
      = Cert.Spec.dense (V c main_v44) (V c main_arg6) (V c main_v45) (V c main_v46) :=
  (dat2 (F := Ideal) V c).arrAt_eq_of_cover 4
    (Cert.Spec.dense (V c main_v44) (V c main_arg6) (V c main_v45) (V c main_v46))
    (fun t _ => flushed2_4 V c t) covered2_4

end Cert.KernelIdeal.RegVal
end
-- ==== Proof.RegE3.lean ====
/-
  Region 3, an epilogue call on 144 columns. Its two inputs are the aggregated messages and the self-loop term, both
  50000 x 144; its output, also 50000 x 144, holds at every index the sum of the two inputs there, replaced by zero
  where the sum is negative.

  The call works on 25 blocks of 2000 whole rows. At grid point t every window stands on rows 2000 t .. 2000 t + 1999,
  so an entry of the output block depends on the two input entries of the same row and column only. The 25 row
  blocks fill the 50000 rows, hence the whole output array is that pointwise function of the two input arrays.
-/
import proofs.«420299_j43722767073851_4_alg».proof.Proof.Gen.KernelIdeal.Frame
import proofs.«420299_j43722767073851_4_alg».proof.Proof.Spec
import Idealize.ShloMosaic.Lib.Pipeline.Value
import Idealize.ShloMosaic.Lib.ValueIdx
import Idealize.ShloMosaic.PureOps.Ideal
import Idealize.ShloMosaic.PureOps.Ideal.Laws

set_option maxRecDepth 16384

noncomputable section
namespace Cert.KernelIdeal.RegVal
open Idealize.ShloMosaic Idealize.ShloMosaic.TcCoe Idealize.SL.Sem Cert.KernelIdeal Cert.KernelIdeal.Gen
open Idealize.ShloMosaic.Pipeline (Dat Cfg Window)
open Idealize.ShloMosaic.ValueIdx

variable (V : (c : Dev nD) → (b : Ref sig .tc) → Buf (Elt Ideal) ((c : Thread nD τ).loc b))

/-- The body reads and writes each of its blocks from the block's first row and first column. -/
theorem origin3 : (![0, 0] : Fin 2 → Nat) = fun _ => 0 := funext fun a => by fin_cases a <;> rfl

/-- The body's value at an index of its block: the two loaded blocks added there, then the larger of that sum and
    zero (the zero word of the 32-bit format is the real number 0). -/
theorem epi3_apply (x0 x1 : FVec Ideal S2000x144 .f32) (j : S2000x144.Idx) :
    k3_pay1 (F := Ideal) x0 x1 j = max (x0 j + x1 j) 0 := by
  unfold k3_pay1
  simp only [shapeCast_self]
  show max (x0 j + x1 j) (Ideal.ofBits .f32 0x00000000#32) = _
  rw [Ideal.ofBits_zero_f32]

/-- The same value, when the two block entries are the entries of two whole arrays at one index: the pointwise
    function of the two arrays at that index. -/
theorem epi3_apply_of_entries (A B : FVec Ideal S50000x144 .f32) (x0 x1 : FVec Ideal S2000x144 .f32)
    (j : S2000x144.Idx) (i : S50000x144.Idx) (h0 : x0 j = A i) (h1 : x1 j = B i) :
    k3_pay1 (F := Ideal) x0 x1 j = Cert.Spec.epiRelu A B i := by
  rw [epi3_apply, h0, h1]
  rfl

/-- At grid point t each of the three windows stands on row block t and on the one column block. -/
theorem blockIndex3 : ∀ t : Fin cfg3.N, win3_0.index t (0 : Fin 2) = win3_2.index t (0 : Fin 2)
    ∧ win3_0.index t (1 : Fin 2) = win3_2.index t (1 : Fin 2)
    ∧ win3_1.index t (0 : Fin 2) = win3_2.index t (0 : Fin 2)
    ∧ win3_1.index t (1 : Fin 2) = win3_2.index t (1 : Fin 2)
    ∧ win3_2.index t (0 : Fin 2) ≤ 24
    ∧ win3_2.index t (1 : Fin 2) = 0 :=
  (by decide +kernel : ∀ t : Fin grid3.N, _)

/-- Every one of the 25 row blocks is the output's block at some grid point. -/
theorem blockIndex3_onto : ∀ q : Fin 25, ∃ t : Fin cfg3.N, win3_2.index t = ![q.val, 0] :=
  (by decide +kernel : ∀ q : Fin 25, ∃ t : Fin grid3.N, win3_2.index t = ![q.val, 0])

/-- What grid point t writes back to the output array is block t of the pointwise function of the two input arrays:
    an entry of the output block and the entries of the two input blocks it is computed from sit at the same row and
    column of their arrays (block index times block size plus the coordinate inside the block, on each axis). -/
theorem flushed3_2_eq (c : Dev nD) (t : Fin cfg3.N) :
    (dat3 (F := Ideal) V c).flushed 2 t
      = ((cfg3.win 2).blk t).view.read (Elt Ideal) (Cert.Spec.epiRelu (V c main_v60) (V c main_v47_0)) := by
  show (cfg3.win 2).cut (grid3.coords t) ((dat3 (F := Ideal) V c).after 2 t) = _
  rw [after3_2]
  unfold out3_2
  rw [View.canon_unit_zero origin3]
  simp only [View.ld_unit_zero (S := S2000x144) origin3]
  obtain ⟨e0, e1, e2, e3, e4, e5⟩ := blockIndex3 t
  funext j
  have h0 : ((cfg3.win 0).blk t).view.emb j = ((cfg3.win 2).blk t).view.emb j := by
    funext a; apply Fin.ext
    match a with
    | ⟨0, _⟩ => show win3_0.index t (0 : Fin 2) * 2000 + 1 * (j 0).val = win3_2.index t (0 : Fin 2) * 2000 + 1 * (j 0).val; omega
    | ⟨1, _⟩ => show win3_0.index t (1 : Fin 2) * 144 + 1 * (j 1).val = win3_2.index t (1 : Fin 2) * 144 + 1 * (j 1).val; omega
  have h1 : ((cfg3.win 1).blk t).view.emb j = ((cfg3.win 2).blk t).view.emb j := by
    funext a; apply Fin.ext
    match a with
    | ⟨0, _⟩ => show win3_1.index t (0 : Fin 2) * 2000 + 1 * (j 0).val = win3_2.index t (0 : Fin 2) * 2000 + 1 * (j 0).val; omega
    | ⟨1, _⟩ => show win3_1.index t (1 : Fin 2) * 144 + 1 * (j 1).val = win3_2.index t (1 : Fin 2) * 144 + 1 * (j 1).val; omega
  exact epi3_apply_of_entries (V c main_v60) (V c main_v47_0) (iblk3 V c 0 t) (iblk3 V c 1 t) j
    (((cfg3.win 2).blk t).view.emb j) (congrArg (V c main_v60) h0) (congrArg (V c main_v47_0) h1)

/-- An index of the output array lies in grid point t's block exactly when, on each axis, its coordinate lies in the
    block's range there. -/
theorem mem_block3_2 (t : Fin cfg3.N) (i : S50000x144.Idx) :
    i ∈ ((cfg3.win 2).blk t).view.set ↔ ∀ a : Fin 2, win3_2.index t a * S2000x144.size a ≤ (i a).val
      ∧ (i a).val < win3_2.index t a * S2000x144.size a + S2000x144.size a := by
  show i ∈ ((View.whole main_v61).slice (win3_2.rect t)).set ↔ _
  rw [View.set_slice_whole, Rect.mem_set_unit]
  exact Iff.rfl

/-- Every index of the output array is written back by some grid point: row r lies in row block r / 2000. -/
theorem covered3_2 (i : S50000x144.Idx) :
    ∃ t : Fin cfg3.N, (cfg3.win 2).flush t = true ∧ i ∈ ((cfg3.win 2).blk t).view.set := by
  have hi0 : (i 0).val < 50000 := (i 0).isLt
  have hi1 : (i 1).val < 144 := (i 1).isLt
  obtain ⟨t, ht⟩ := blockIndex3_onto ⟨(i 0).val / 2000, by omega⟩
  have q0 : win3_2.index t (0 : Fin 2) = (i 0).val / 2000 := congrFun ht 0
  have q1 : win3_2.index t (1 : Fin 2) = 0 := congrFun ht 1
  refine ⟨t, flush3_2 t, ?_⟩
  rw [mem_block3_2]
  intro a
  match a with
  | ⟨0, _⟩ => show win3_2.index t (0 : Fin 2) * 2000 ≤ (i 0).val ∧ (i 0).val < win3_2.index t (0 : Fin 2) * 2000 + 2000; omega
  | ⟨1, _⟩ => show win3_2.index t (1 : Fin 2) * 144 ≤ (i 1).val ∧ (i 1).val < win3_2.index t (1 : Fin 2) * 144 + 144; omega

/-- The output array of region 3 after the call: the sum of the aggregated messages and the self-loop term, then the
    maximum with zero, index by index. -/
theorem arr3_2 (c : Dev nD) : (dat3 (F := Ideal) V c).arrAt 2 cfg3.N = Cert.Spec.epiRelu (V c main_v60) (V c main_v47_0) :=
  (dat3 (F := Ideal) V c).arrAt_eq_of_cover 2 (Cert.Spec.epiRelu (V c main_v60) (V c main_v47_0))
    (fun t _ => flushed3_2_eq V c t) covered3_2

end Cert.KernelIdeal.RegVal
end
-- ==== Proof.Match2.lean ====
/-
  Layer 2 (125 -> 144 columns, relu), as pure functions of the argument arrays: the kernel's two calls and the
  reference's operations compute one array.
  The reference's layer is relu((agg + hw * sc) + b) with hw = h · W, sc the self-loop coefficient broadcast along
  rows and b the bias broadcast along columns; the kernel's is relu(agg + (hw * sc + b)) with sc read from an
  n x 1 column and b from a 1 x c row. The two agree entry by entry by associativity of addition on the extended
  reals (no finiteness is needed: only + is regrouped).
-/
import proofs.«420299_j43722767073851_4_alg».proof.Proof.Gen.ReferenceIdeal.Read
import proofs.«420299_j43722767073851_4_alg».proof.Proof.Spec
import proofs.«420299_j43722767073851_4_alg».proof.Proof.LibColumn
import Idealize.ShloMosaic.Lib.ValueLayout
import Idealize.ShloMosaic.Lib.ValueIdx
import Idealize.ShloMosaic.PureOps.Ideal.Laws
import Idealize.ShloMosaic.PureOps.Ideal

noncomputable section

namespace Cert.Match

open Idealize.ShloMosaic Idealize.ShloMosaic.ValueIdx Cert.ReferenceIdeal Cert.ReferenceIdeal.Read

/-- The matrix product of the layer's input with its weights is the reference's dot_general. -/
theorem mm_L2
    (x0 : (⟨S50000x96, .f32⟩ : BufTy).Contents (Elt Ideal))
    (x1 : (⟨S2x800000, .i32⟩ : BufTy).Contents (Elt Ideal))
    (x4 : (⟨S96x125, .f32⟩ : BufTy).Contents (Elt Ideal))
    (x5 : (⟨S125, .f32⟩ : BufTy).Contents (Elt Ideal))
    (x6 : (⟨S125x144, .f32⟩ : BufTy).Contents (Elt Ideal)) :
    Cert.Spec.mm (n := 50000) (a := 125) (b := 144) (val_main_v49 (F := Ideal) x0 x1 x4 x5) x6 = val_main_v50 (F := Ideal) x0 x1 x4 x5 x6 := by
  funext i
  rw [val_main_v50_apply]
  unfold Cert.Spec.mm
  refine Finset.sum_congr rfl fun k _ => ?_
  have el : Cert.Spec.lix (a := 125) i k = lidx_main_v50 i k := funext fun d => by
    match d with
    | ⟨0, _⟩ => rfl
    | ⟨1, _⟩ => rfl
  have er : Cert.Spec.rix (n := 50000) (a := 125) i k = ridx_main_v50 i k := funext fun d => by
    match d with
    | ⟨0, _⟩ => rfl
    | ⟨1, _⟩ => rfl
  rw [el, er]

/-- The layer's output: the epilogue of the aggregated messages and the dense call's self-loop term is the
    reference's relu of ((agg + hw * sc) + b). -/
theorem out_L2
    (x0 : (⟨S50000x96, .f32⟩ : BufTy).Contents (Elt Ideal))
    (x1 : (⟨S2x800000, .i32⟩ : BufTy).Contents (Elt Ideal))
    (x4 : (⟨S96x125, .f32⟩ : BufTy).Contents (Elt Ideal))
    (x5 : (⟨S125, .f32⟩ : BufTy).Contents (Elt Ideal))
    (x6 : (⟨S125x144, .f32⟩ : BufTy).Contents (Elt Ideal))
    (x7 : (⟨S144, .f32⟩ : BufTy).Contents (Elt Ideal))
    (hb : (⟨1, ![144]⟩ : Shape).ShapeCasts ⟨2, ![1, 144]⟩) (hs : (⟨1, ![50000]⟩ : Shape).ShapeCasts ⟨2, ![50000, 1]⟩) :
    Cert.Spec.epiRelu (n := 50000) (b := 144) (val_main_v63 (F := Ideal) x0 x1 x4 x5 x6)
      (Cert.Spec.dense (n := 50000) (a := 125) (b := 144) (val_main_v49 (F := Ideal) x0 x1 x4 x5) x6 (shapeCast ⟨2, ![1, 144]⟩ x7 hb)
        (shapeCast ⟨2, ![50000, 1]⟩ (val_main_v27 (F := Ideal) x1) hs))
    = val_main_v70 (F := Ideal) x0 x1 x4 x5 x6 x7 := by
  funext i
  rw [val_main_v70_apply, val_main_v69_apply, val_main_v66_apply, val_main_v65_apply, val_main_v64_apply, val_main_v28_apply,
    val_main_v68_apply, val_main_v67_apply, val_main_call1_v0_apply, val_main_call1_cst_apply, ← mm_L2]
  have ec : Cert.Spec.colIx (n := 50000) (b := 144) i = ix2 (⟨(i 0).val, (i 0).isLt⟩ : Fin 50000) (⟨0, Nat.one_pos⟩ : Fin 1) :=
    funext fun d => by
      match d with
      | ⟨0, _⟩ => rfl
      | ⟨1, _⟩ => rfl
  have er : Cert.Spec.rowIx (n := 50000) (b := 144) i = ix2 (⟨0, Nat.one_pos⟩ : Fin 1) (⟨(i 1).val, (i 1).isLt⟩ : Fin 144) :=
    funext fun d => by
      match d with
      | ⟨0, _⟩ => rfl
      | ⟨1, _⟩ => rfl
  have e1 : idx_main_v28 (idx_main_v64 i) = ix1 (⟨(i 0).val, (i 0).isLt⟩ : Fin 50000) := funext fun d => by
    match d with
    | ⟨0, _⟩ => rfl
  have e2 : idx_main_v67 (idx_main_v68 i) = ix1 (⟨(i 1).val, (i 1).isLt⟩ : Fin 144) := funext fun d => by
    match d with
    | ⟨0, _⟩ => rfl
  unfold Cert.Spec.epiRelu Cert.Spec.dense
  rw [ec, er, Cert.LibColumn.shapeCast_a_a1_apply, shapeCast_a_1a_apply, e1, e2]
  simp only [Ideal.maximumf_def, Ideal.addf_def, Ideal.mulf_def, Ideal.ofBits_def, Ideal.ofBits_zero_f32]
  rw [add_assoc]

end Cert.Match

end
-- ==== Proof.Layer2.lean ====
/-
  Layer 2 (edge branch, second convolution) of the kernel's program, segment by segment.
  The layer reads the previous layer's output h, its weight matrix and bias (arguments nothing has written), and
  the values the whole program shares (the edges' source and target nodes, the edge and self-loop coefficients).
  The first host stretch lays the bias out as a 1 x 144 row and the self-loop coefficients as a 50000 x 1 column;
  the dense call leaves h · W and (h · W) * sc + b; the second host stretch gathers the product's rows along the
  edges, scales them and scatter-adds them into the target nodes; the epilogue call adds the self-loop term and
  applies relu. The result is the reference's second layer.
-/
import proofs.«420299_j43722767073851_4_alg».proof.Proof.Layer1
import proofs.«420299_j43722767073851_4_alg».proof.Proof.KeepGlobals
import proofs.«420299_j43722767073851_4_alg».proof.Proof.KeepArgsA
import proofs.«420299_j43722767073851_4_alg».proof.Proof.RegD2
import proofs.«420299_j43722767073851_4_alg».proof.Proof.RegE3
import proofs.«420299_j43722767073851_4_alg».proof.Proof.Match2

set_option maxRecDepth 16384

noncomputable section

namespace Cert.KernelIdeal.Chain

open Cert.KernelIdeal Cert.KernelIdeal.Gen Cert.KernelIdeal.Keep
open Idealize.ShloMosaic Idealize.ShloMosaic.TcCoe Idealize.SL.Sem
open Cert.ReferenceIdeal.Read

variable (m : (ℓ : Loc nD τ sig) → Buf (Elt Ideal) ℓ) (ρ : Dev nD → PrngReg)

/-! ## The dense call's inputs at its entry -/

/-- The layer's input: the previous layer's output. -/
theorem in2_h (c : Dev nD) : V5 m ρ c main_v44 = val_main_v49 (F := Ideal) (m ((c : Thread nD τ).loc main_arg0)) (m ((c : Thread nD τ).loc main_arg1)) (m ((c : Thread nD τ).loc main_arg4)) (m ((c : Thread nD τ).loc main_arg5)) :=
  (show W5 m ρ c (Proc.devRef .tc main_v44) = W4 m ρ c (Proc.devRef .tc main_v44) from by host_keep hostOps2).trans (out_L1 m ρ c)

theorem in2_W (c : Dev nD) : V5 m ρ c main_arg6 = (m ((c : Thread nD τ).loc main_arg6)) :=
  (show W5 m ρ c (Proc.devRef .tc main_arg6) = W4 m ρ c (Proc.devRef .tc main_arg6) from by host_keep hostOps2).trans (keep_arg6_4 m ρ c)

/-- The bias as a 1 x 144 row. -/
theorem in2_b (c : Dev nD) : V5 m ρ c main_v45 = shapeCast S1x144 (m ((c : Thread nD τ).loc main_arg7)) shapeCasts_S144_S1x144 := by
  show StableHlo.after hostOps2 (W4 m ρ c) (Proc.devRef .tc main_v45) = _
  after_results
  rw [keep_arg7_4 m ρ c]
  rfl

/-- The self-loop coefficients as a 50000 x 1 column. -/
theorem in2_sc (c : Dev nD) : V5 m ρ c main_v46 = shapeCast S50000x1 (val_main_v27 (F := Ideal) (m ((c : Thread nD τ).loc main_arg1))) shapeCasts_S50000_S50000x1 := by
  show StableHlo.after hostOps2 (W4 m ρ c) (Proc.devRef .tc main_v46) = _
  after_results
  rw [at4_v27 m ρ c]
  rfl

/-! ## The dense call's outputs -/

/-- h · W, the reference's dot_general. -/
theorem hw_L2 (c : Dev nD) : W6 m ρ c (Proc.devRef .tc main_v47_1) = val_main_v50 (F := Ideal) (m ((c : Thread nD τ).loc main_arg0)) (m ((c : Thread nD τ).loc main_arg1)) (m ((c : Thread nD τ).loc main_arg4)) (m ((c : Thread nD τ).loc main_arg5)) (m ((c : Thread nD τ).loc main_arg6)) := by
  refine (W6_arr m ρ c 5).trans ?_
  rw [Cert.KernelIdeal.RegVal.arr2_5 (V5 m ρ) c, in2_h m ρ c, in2_W m ρ c]
  exact Cert.Match.mm_L2 _ _ _ _ _

/-- The self-loop term (h · W) * sc + b. -/
theorem oi_L2 (c : Dev nD) : W6 m ρ c (Proc.devRef .tc main_v47_0)
    = Cert.Spec.dense (val_main_v49 (F := Ideal) (m ((c : Thread nD τ).loc main_arg0)) (m ((c : Thread nD τ).loc main_arg1)) (m ((c : Thread nD τ).loc main_arg4)) (m ((c : Thread nD τ).loc main_arg5))) (m ((c : Thread nD τ).loc main_arg6)) (shapeCast S1x144 (m ((c : Thread nD τ).loc main_arg7)) shapeCasts_S144_S1x144)
        (shapeCast S50000x1 (val_main_v27 (F := Ideal) (m ((c : Thread nD τ).loc main_arg1))) shapeCasts_S50000_S50000x1) := by
  refine (W6_arr m ρ c 4).trans ?_
  rw [Cert.KernelIdeal.RegVal.arr2_4 (V5 m ρ) c, in2_h m ρ c, in2_W m ρ c, in2_b m ρ c, in2_sc m ρ c]

/-! ## The shared values after the dense call -/

theorem g6_v1 (c : Dev nD) : W6 m ρ c (Proc.devRef .tc main_v1) = val_main_v1 (F := Ideal) (m ((c : Thread nD τ).loc main_arg1)) :=
  (W6_of_ne m ρ c main_v1 (by decide)).trans <| (show W5 m ρ c (Proc.devRef .tc main_v1) = W4 m ρ c (Proc.devRef .tc main_v1) from by host_keep hostOps2).trans (at4_v1 m ρ c)
theorem g6_v3 (c : Dev nD) : W6 m ρ c (Proc.devRef .tc main_v3) = val_main_v3 (F := Ideal) (m ((c : Thread nD τ).loc main_arg1)) :=
  (W6_of_ne m ρ c main_v3 (by decide)).trans <| (show W5 m ρ c (Proc.devRef .tc main_v3) = W4 m ρ c (Proc.devRef .tc main_v3) from by host_keep hostOps2).trans (at4_v3 m ρ c)
theorem g6_v26 (c : Dev nD) : W6 m ρ c (Proc.devRef .tc main_v26) = val_main_v26 (F := Ideal) (m ((c : Thread nD τ).loc main_arg1)) :=
  (W6_of_ne m ρ c main_v26 (by decide)).trans <| (show W5 m ρ c (Proc.devRef .tc main_v26) = W4 m ρ c (Proc.devRef .tc main_v26) from by host_keep hostOps2).trans (at4_v26 m ρ c)

/-! ## The aggregated messages, and the epilogue -/

set_option maxHeartbeats 1600000 in
/-- Rows of h · W gathered along the edges, scaled by the edge coefficients, scatter-added into the target nodes. -/
theorem agg_L2 (c : Dev nD) : V7 m ρ c main_v60 = val_main_v63 (F := Ideal) (m ((c : Thread nD τ).loc main_arg0)) (m ((c : Thread nD τ).loc main_arg1)) (m ((c : Thread nD τ).loc main_arg4)) (m ((c : Thread nD τ).loc main_arg5)) (m ((c : Thread nD τ).loc main_arg6)) := by
  show StableHlo.after hostOps3 (W6 m ρ c) (Proc.devRef .tc main_v60) = _
  after_results
  rw [g6_v1 m ρ c, g6_v3 m ρ c, g6_v26 m ρ c, hw_L2 m ρ c]
  rfl

theorem oi3_L2 (c : Dev nD) : V7 m ρ c main_v47_0
    = Cert.Spec.dense (val_main_v49 (F := Ideal) (m ((c : Thread nD τ).loc main_arg0)) (m ((c : Thread nD τ).loc main_arg1)) (m ((c : Thread nD τ).loc main_arg4)) (m ((c : Thread nD τ).loc main_arg5))) (m ((c : Thread nD τ).loc main_arg6)) (shapeCast S1x144 (m ((c : Thread nD τ).loc main_arg7)) shapeCasts_S144_S1x144)
        (shapeCast S50000x1 (val_main_v27 (F := Ideal) (m ((c : Thread nD τ).loc main_arg1))) shapeCasts_S50000_S50000x1) :=
  (show W7 m ρ c (Proc.devRef .tc main_v47_0) = W6 m ρ c (Proc.devRef .tc main_v47_0) from by host_keep hostOps3).trans (oi_L2 m ρ c)

/-- The layer's output is the reference's. -/
theorem out_L2 (c : Dev nD) : W8 m ρ c (Proc.devRef .tc main_v61) = val_main_v70 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) := by
  refine (W8_arr m ρ c 2).trans ?_
  rw [Cert.KernelIdeal.RegVal.arr3_2 (V7 m ρ) c, agg_L2 m ρ c, oi3_L2 m ρ c]
  exact Cert.Match.out_L2 _ _ _ _ _ _ _ _

/-! ## The shared values at the layer's exit -/

theorem at8_v1 (c : Dev nD) : W8 m ρ c (Proc.devRef .tc main_v1) = val_main_v1 (F := Ideal) (m ((c : Thread nD τ).loc main_arg1)) :=
  (keepL2_v1 m ρ c).trans (at4_v1 m ρ c)
theorem at8_v3 (c : Dev nD) : W8 m ρ c (Proc.devRef .tc main_v3) = val_main_v3 (F := Ideal) (m ((c : Thread nD τ).loc main_arg1)) :=
  (keepL2_v3 m ρ c).trans (at4_v3 m ρ c)
theorem at8_v26 (c : Dev nD) : W8 m ρ c (Proc.devRef .tc main_v26) = val_main_v26 (F := Ideal) (m ((c : Thread nD τ).loc main_arg1)) :=
  (keepL2_v26 m ρ c).trans (at4_v26 m ρ c)
theorem at8_v27 (c : Dev nD) : W8 m ρ c (Proc.devRef .tc main_v27) = val_main_v27 (F := Ideal) (m ((c : Thread nD τ).loc main_arg1)) :=
  (keepL2_v27 m ρ c).trans (at4_v27 m ρ c)

end Cert.KernelIdeal.Chain

end
-- ==== Proof.RegD4.lean ====
/-
  The third dense call of the kernel (node features 50000 x 144, weights 144 x 163), read as whole arrays on the
  extended reals. Its grid has 25 points; point t holds rows 2000 t .. 2000 t + 1999 of the node features, of the
  self-loop column and of both outputs, and the whole of the weights and of the bias row. One block of the product
  is a sum over the contracted axis (the left operand first passes through a cast to its own shape); one block of
  the self-loop term is that product scaled row by row by the column plus the bias row. The blocks of the 25 points
  tile each output array, so each array ends holding the whole product h · W, respectively (h · W) scaled by the
  column plus the bias row.
-/
import proofs.«420299_j43722767073851_4_alg».proof.Proof.Gen.KernelIdeal.Frame
import proofs.«420299_j43722767073851_4_alg».proof.Proof.Spec
import proofs.«420299_j43722767073851_4_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384
noncomputable section
namespace Cert.KernelIdeal.RegVal
open Idealize.ShloMosaic Idealize.ShloMosaic.TcCoe Idealize.SL.Sem Cert.KernelIdeal Cert.KernelIdeal.Gen
open Idealize.ShloMosaic.Pipeline (Dat Cfg Window)
open Idealize.ShloMosaic.ValueIdx

/-! ## The product h · W of one block, entry by entry -/

/-- Row axis of the left operand: the output index's row. -/
theorem lhs_mm4_0 (i : S2000x163.Idx) (q : dot_S2000x144_S144x163_S2000x163_1_0_0_1_n_n.contr.Idx) :
    (dot_S2000x144_S144x163_S2000x163_1_0_0_1_n_n.lhsIdx i q 0).val = (i 0).val := by
  unfold DotDims.lhsIdx
  rw [dif_neg (show ¬(0 : Fin S2000x144.rank) ∈ dot_S2000x144_S144x163_S2000x163_1_0_0_1_n_n.lhsBatch by decide), dif_pos (show (0 : Fin S2000x144.rank) ∈ dot_S2000x144_S144x163_S2000x163_1_0_0_1_n_n.lhsNonContracting by decide)]
  rfl
/-- Column axis of the left operand: the contracted position. -/
theorem lhs_mm4_1 (i : S2000x163.Idx) (q : dot_S2000x144_S144x163_S2000x163_1_0_0_1_n_n.contr.Idx) :
    (dot_S2000x144_S144x163_S2000x163_1_0_0_1_n_n.lhsIdx i q 1).val = (q ⟨0, by decide⟩).val :=
  dot_S2000x144_S144x163_S2000x163_1_0_0_1_n_n.lhsIdx_val_of_single rfl i q
/-- Row axis of the right operand: the contracted position. -/
theorem rhs_mm4_0 (i : S2000x163.Idx) (q : dot_S2000x144_S144x163_S2000x163_1_0_0_1_n_n.contr.Idx) :
    (dot_S2000x144_S144x163_S2000x163_1_0_0_1_n_n.rhsIdx i q 0).val = (q ⟨0, by decide⟩).val :=
  dot_S2000x144_S144x163_S2000x163_1_0_0_1_n_n.rhsIdx_val_of_single rfl i q
/-- Column axis of the right operand: the output index's column. -/
theorem rhs_mm4_1 (i : S2000x163.Idx) (q : dot_S2000x144_S144x163_S2000x163_1_0_0_1_n_n.contr.Idx) :
    (dot_S2000x144_S144x163_S2000x163_1_0_0_1_n_n.rhsIdx i q 1).val = (i 1).val := by
  unfold DotDims.rhsIdx
  rw [dif_neg (show ¬(1 : Fin S144x163.rank) ∈ dot_S2000x144_S144x163_S2000x163_1_0_0_1_n_n.rhsBatch by decide), dif_pos (show (1 : Fin S144x163.rank) ∈ dot_S2000x144_S144x163_S2000x163_1_0_0_1_n_n.rhsNonContracting by decide)]
  rfl

/-- The block product at an index: the left operand enters through a cast to its own shape, which changes nothing;
    the product is the sum over the 144 contracted positions of the left operand's entry in the index's row times the
    right operand's entry in the index's column. -/
theorem blockProd4_apply (x0 : Vec Ideal S2000x144 .f32) (x1 : Vec Ideal S144x163 .f32) (j : S2000x163.Idx) :
    k4_pay1 (F := Ideal) x0 x1 j = ∑ k : Fin 144, x0 (Cert.Spec.lix j k) * x1 (Cert.Spec.rix j k) := by
  unfold k4_pay1
  refine (Ideal.matmul_constant_zero_apply dot_S2000x144_S144x163_S2000x163_1_0_0_1_n_n none
    (shapeCast S2000x144 x0 shapeCasts_S2000x144_S2000x144) x1 j).trans ?_
  rw [shapeCast_self]
  rw [← Equiv.sum_comp (ValueIdx.contrEquiv1 dot_S2000x144_S144x163_S2000x163_1_0_0_1_n_n 144 rfl rfl).symm]
  refine Finset.sum_congr rfl fun k _ => ?_
  have hk := ValueIdx.contrEquiv1_symm_val dot_S2000x144_S144x163_S2000x163_1_0_0_1_n_n 144 rfl rfl k
  have el : dot_S2000x144_S144x163_S2000x163_1_0_0_1_n_n.lhsIdx j ((ValueIdx.contrEquiv1 dot_S2000x144_S144x163_S2000x163_1_0_0_1_n_n 144 rfl rfl).symm k) = Cert.Spec.lix j k := funext fun a => Fin.ext (by
    match a with
    | ⟨0, _⟩ => exact lhs_mm4_0 _ _
    | ⟨1, _⟩ => exact (lhs_mm4_1 _ _).trans hk)
  have er : dot_S2000x144_S144x163_S2000x163_1_0_0_1_n_n.rhsIdx j ((ValueIdx.contrEquiv1 dot_S2000x144_S144x163_S2000x163_1_0_0_1_n_n 144 rfl rfl).symm k) = Cert.Spec.rix j k := funext fun a => Fin.ext (by
    match a with
    | ⟨0, _⟩ => exact (rhs_mm4_0 _ _).trans hk
    | ⟨1, _⟩ => exact rhs_mm4_1 _ _)
  rw [el, er]

/-! ## The scaled product plus the bias row, of one block, entry by entry -/

/-- The block's self-loop term at an index: the block product there, times the column's entry in the index's row,
    plus the bias row's entry in the index's column. -/
theorem blockDense4_apply (x0 : Vec Ideal S2000x144 .f32) (x1 : Vec Ideal S144x163 .f32) (x3 : Vec Ideal S2000x1 .f32)
    (x7 : Vec Ideal S1x163 .f32) (j : S2000x163.Idx) :
    k4_pay2 (F := Ideal) x0 x1 x3 x7 j
      = k4_pay1 (F := Ideal) x0 x1 j * x3 (Cert.Spec.colIx j) + x7 (Cert.Spec.rowIx j) := by
  obtain ⟨p, q, rfl⟩ : ∃ (p : Fin 2000) (q : Fin 163), j = ix2 p q := ⟨j 0, j 1, eq_ix2 j⟩
  have ec : Cert.Spec.colIx (ix2 p q) = ix2 p (0 : Fin 1) := funext fun a => by
    match a with
    | ⟨0, _⟩ => rfl
    | ⟨1, _⟩ => rfl
  have er : Cert.Spec.rowIx (ix2 p q) = ix2 (0 : Fin 1) q := funext fun a => by
    match a with
    | ⟨0, _⟩ => rfl
    | ⟨1, _⟩ => rfl
  unfold k4_pay2
  show k4_pay1 (F := Ideal) x0 x1 (ix2 p q)
        * broadcastTo S2000x163 (shapeCast S2000x1 x3 shapeCasts_S2000x1_S2000x1) broadcasts_S2000x1_S2000x163 (ix2 p q)
      + broadcastTo S2000x163 (shapeCast S1x163 x7 shapeCasts_S1x163_S1x163) broadcasts_S1x163_S2000x163 (ix2 p q) = _
  rw [shapeCast_self, shapeCast_self, Cert.LibColumn.broadcastTo_a1_ab_apply, broadcastTo_1b_ab_apply, ec, er]

variable (V : (c : Dev nD) → (b : Ref sig .tc) → Buf (Elt Ideal) ((c : Thread nD τ).loc b))

/-! ## From blocks to the arrays -/

theorem zeroOff4 : (![0, 0] : Fin 2 → Nat) = fun _ => 0 := funext fun a => by
  match a with
  | ⟨0, _⟩ => rfl
  | ⟨1, _⟩ => rfl

/-- The printed index maps over the grid: the windows cut in row blocks (node features, column, both outputs) sit at
    block row t, block column 0; the weights and the bias row are their one block. -/
theorem blockIdx4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0
    ∧ win4_4.index t (0 : Fin 2) = t.val ∧ win4_4.index t (1 : Fin 2) = 0
    ∧ win4_5.index t (0 : Fin 2) = t.val ∧ win4_5.index t (1 : Fin 2) = 0 :=
  (by decide +kernel : ∀ t : Fin grid4.N, _)

/-- The block product of point t at a block index is the whole product h · W at the array index whose row is
    2000 t plus the block index's row and whose column is the block index's column. -/
theorem blockProd4_at (c : Dev nD) (t : Fin cfg4.N) (j : S2000x163.Idx) (i : S50000x163.Idx)
    (hr : (i 0).val = t.val * 2000 + (j 0).val) (hc : (i 1).val = (j 1).val) :
    k4_pay1 (F := Ideal) (iblk4 V c 0 t) (iblk4 V c 1 t) j = Cert.Spec.mm (V c main_v61) (V c main_arg8) i := by
  obtain ⟨e00, e01, e10, e11, -⟩ := blockIdx4 t
  rw [blockProd4_apply]
  unfold Cert.Spec.mm
  refine Finset.sum_congr rfl fun k _ => ?_
  have a0 : iblk4 V c 0 t (Cert.Spec.lix j k) = V c main_v61 (Cert.Spec.lix i k) := by
    show V c main_v61 (((cfg4.win 0).blk t).view.emb (Cert.Spec.lix j k)) = _
    refine congrArg (V c main_v61) ?_
    funext a; apply Fin.ext
    match a with
    | ⟨0, _⟩ => show win4_0.index t (0 : Fin 2) * 2000 + 1 * (j 0).val = (i 0).val; omega
    | ⟨1, _⟩ => show win4_0.index t (1 : Fin 2) * 144 + 1 * k.val = k.val; omega
  have a1 : iblk4 V c 1 t (Cert.Spec.rix j k) = V c main_arg8 (Cert.Spec.rix i k) := by
    show V c main_arg8 (((cfg4.win 1).blk t).view.emb (Cert.Spec.rix j k)) = _
    refine congrArg (V c main_arg8) ?_
    funext a; apply Fin.ext
    match a with
    | ⟨0, _⟩ => show win4_1.index t (0 : Fin 2) * 144 + 1 * k.val = k.val; omega
    | ⟨1, _⟩ => show win4_1.index t (1 : Fin 2) * 163 + 1 * (j 1).val = (i 1).val; omega
  rw [a0, a1]

/-! ### The product's array (output window 5) -/

/-- What point t writes back to the product's array is block t of h · W of the arrays as the region finds them. -/
theorem flushed4_5 (c : Dev nD) (t : Fin cfg4.N) :
    (dat4 (F := Ideal) V c).flushed 5 t
      = ((cfg4.win 5).blk t).view.read (Elt Ideal) (Cert.Spec.mm (V c main_v61) (V c main_arg8)) := by
  show (cfg4.win 5).cut (grid4.coords t) ((dat4 (F := Ideal) V c).after 5 t) = _
  rw [after4_5]
  unfold out4_5
  rw [View.canon_unit_zero zeroOff4]
  simp only [View.ld_unit_zero (S := S2000x144) zeroOff4, View.ld_unit_zero (S := S144x163) zeroOff4]
  obtain ⟨-, -, -, -, -, -, -, -, -, -, e50, e51⟩ := blockIdx4 t
  refine funext fun (j : S2000x163.Idx) => ?_
  show k4_pay1 (F := Ideal) (iblk4 V c 0 t) (iblk4 V c 1 t) j
      = Cert.Spec.mm (V c main_v61) (V c main_arg8) (((cfg4.win 5).blk t).view.emb j : S50000x163.Idx)
  refine blockProd4_at V c t j _ ?_ ?_
  · show win4_5.index t (0 : Fin 2) * 2000 + 1 * (j 0).val = t.val * 2000 + (j 0).val; omega
  · show win4_5.index t (1 : Fin 2) * 163 + 1 * (j 1).val = (j 1).val; omega

/-- An index of the product's array is in point t's block iff each coordinate is in the block's range on its axis. -/
theorem mem_blk4_5 (t : Fin cfg4.N) (i : S50000x163.Idx) :
    i ∈ ((cfg4.win 5).blk t).view.set ↔ ∀ a : Fin 2, win4_5.index t a * S2000x163.size a ≤ (i a).val
      ∧ (i a).val < win4_5.index t a * S2000x163.size a + S2000x163.size a := by
  show i ∈ ((View.whole main_v64_1).slice (win4_5.rect t)).set ↔ _
  rw [View.set_slice_whole, Rect.mem_set_unit]
  exact Iff.rfl

/-- Every index of the product's array is in the block of the point its row divided by 2000 names, and every point
    writes its block back. -/
theorem covered4_5 (i : S50000x163.Idx) :
    ∃ t : Fin cfg4.N, (cfg4.win 5).flush t = true ∧ i ∈ ((cfg4.win 5).blk t).view.set := by
  have hi0 : (i 0).val < 50000 := (i 0).isLt
  have hi1 : (i 1).val < 163 := (i 1).isLt
  have ht : (i 0).val / 2000 < cfg4.N := by show (i 0).val / 2000 < 25; omega
  obtain ⟨-, -, -, -, -, -, -, -, -, -, e50, e51⟩ := blockIdx4 ⟨(i 0).val / 2000, ht⟩
  have e50' : win4_5.index ⟨(i 0).val / 2000, ht⟩ (0 : Fin 2) = (i 0).val / 2000 := e50
  refine ⟨⟨(i 0).val / 2000, ht⟩, flush4_5 _, ?_⟩
  rw [mem_blk4_5]
  intro a
  match a with
  | ⟨0, _⟩ =>
    show win4_5.index ⟨(i 0).val / 2000, ht⟩ (0 : Fin 2) * 2000 ≤ (i 0).val
      ∧ (i 0).val < win4_5.index ⟨(i 0).val / 2000, ht⟩ (0 : Fin 2) * 2000 + 2000
    omega
  | ⟨1, _⟩ =>
    show win4_5.index ⟨(i 0).val / 2000, ht⟩ (1 : Fin 2) * 163 ≤ (i 1).val
      ∧ (i 1).val < win4_5.index ⟨(i 0).val / 2000, ht⟩ (1 : Fin 2) * 163 + 163
    omega

/-- The product's array after the region: h · W of the node features and the weights as the region finds them. -/
theorem arr4_5 (c : Dev nD) :
    (dat4 (F := Ideal) V c).arrAt 5 cfg4.N = Cert.Spec.mm (V c main_v61) (V c main_arg8) :=
  (dat4 (F := Ideal) V c).arrAt_eq_of_cover 5 (Cert.Spec.mm (V c main_v61) (V c main_arg8))
    (fun t _ => flushed4_5 V c t) covered4_5

/-! ### The self-loop term's array (output window 4) -/

/-- What point t writes back to the self-loop term's array is block t of (h · W) scaled row by row by the column,
    plus the bias row, of the arrays as the region finds them. -/
theorem flushed4_4 (c : Dev nD) (t : Fin cfg4.N) :
    (dat4 (F := Ideal) V c).flushed 4 t
      = ((cfg4.win 4).blk t).view.read (Elt Ideal)
          (Cert.Spec.dense (V c main_v61) (V c main_arg8) (V c main_v62) (V c main_v63)) := by
  show (cfg4.win 4).cut (grid4.coords t) ((dat4 (F := Ideal) V c).after 4 t) = _
  rw [after4_4]
  unfold out4_4
  rw [View.canon_unit_zero zeroOff4]
  simp only [View.ld_unit_zero (S := S2000x144) zeroOff4, View.ld_unit_zero (S := S144x163) zeroOff4,
    View.ld_unit_zero (S := S2000x1) zeroOff4, View.ld_unit_zero (S := S1x163) zeroOff4]
  obtain ⟨-, -, -, -, e20, e21, e30, e31, e40, e41, -, -⟩ := blockIdx4 t
  refine funext fun (j : S2000x163.Idx) => ?_
  show k4_pay2 (F := Ideal) (iblk4 V c 0 t) (iblk4 V c 1 t) (iblk4 V c 3 t) (iblk4 V c 2 t) j
      = Cert.Spec.dense (V c main_v61) (V c main_arg8) (V c main_v62) (V c main_v63)
          (((cfg4.win 4).blk t).view.emb j : S50000x163.Idx)
  have hp : k4_pay1 (F := Ideal) (iblk4 V c 0 t) (iblk4 V c 1 t) j
      = Cert.Spec.mm (V c main_v61) (V c main_arg8) (((cfg4.win 4).blk t).view.emb j : S50000x163.Idx) := by
    refine blockProd4_at V c t j _ ?_ ?_
    · show win4_4.index t (0 : Fin 2) * 2000 + 1 * (j 0).val = t.val * 2000 + (j 0).val; omega
    · show win4_4.index t (1 : Fin 2) * 163 + 1 * (j 1).val = (j 1).val; omega
  have hcol : iblk4 V c 3 t (Cert.Spec.colIx j)
      = V c main_v63 (Cert.Spec.colIx (((cfg4.win 4).blk t).view.emb j : S50000x163.Idx)) := by
    show V c main_v63 (((cfg4.win 3).blk t).view.emb (Cert.Spec.colIx j)) = _
    refine congrArg (V c main_v63) ?_
    funext a; apply Fin.ext
    match a with
    | ⟨0, _⟩ => show win4_3.index t (0 : Fin 2) * 2000 + 1 * (j 0).val = win4_4.index t (0 : Fin 2) * 2000 + 1 * (j 0).val; omega
    | ⟨1, _⟩ => show win4_3.index t (1 : Fin 2) * 1 + 1 * 0 = 0; omega
  have hrow : iblk4 V c 2 t (Cert.Spec.rowIx j)
      = V c main_v62 (Cert.Spec.rowIx (((cfg4.win 4).blk t).view.emb j : S50000x163.Idx)) := by
    show V c main_v62 (((cfg4.win 2).blk t).view.emb (Cert.Spec.rowIx j)) = _
    refine congrArg (V c main_v62) ?_
    funext a; apply Fin.ext
    match a with
    | ⟨0, _⟩ => show win4_2.index t (0 : Fin 2) * 1 + 1 * 0 = 0; omega
    | ⟨1, _⟩ => show win4_2.index t (1 : Fin 2) * 163 + 1 * (j 1).val = win4_4.index t (1 : Fin 2) * 163 + 1 * (j 1).val; omega
  rw [blockDense4_apply, hp, hcol, hrow]
  rfl

/-- An index of the self-loop term's array is in point t's block iff each coordinate is in the block's range on its
    axis. -/
theorem mem_blk4_4 (t : Fin cfg4.N) (i : S50000x163.Idx) :
    i ∈ ((cfg4.win 4).blk t).view.set ↔ ∀ a : Fin 2, win4_4.index t a * S2000x163.size a ≤ (i a).val
      ∧ (i a).val < win4_4.index t a * S2000x163.size a + S2000x163.size a := by
  show i ∈ ((View.whole main_v64_0).slice (win4_4.rect t)).set ↔ _
  rw [View.set_slice_whole, Rect.mem_set_unit]
  exact Iff.rfl

/-- Every index of the self-loop term's array is in the block of the point its row divided by 2000 names, and every
    point writes its block back. -/
theorem covered4_4 (i : S50000x163.Idx) :
    ∃ t : Fin cfg4.N, (cfg4.win 4).flush t = true ∧ i ∈ ((cfg4.win 4).blk t).view.set := by
  have hi0 : (i 0).val < 50000 := (i 0).isLt
  have hi1 : (i 1).val < 163 := (i 1).isLt
  have ht : (i 0).val / 2000 < cfg4.N := by show (i 0).val / 2000 < 25; omega
  obtain ⟨-, -, -, -, -, -, -, -, e40, e41, -, -⟩ := blockIdx4 ⟨(i 0).val / 2000, ht⟩
  have e40' : win4_4.index ⟨(i 0).val / 2000, ht⟩ (0 : Fin 2) = (i 0).val / 2000 := e40
  refine ⟨⟨(i 0).val / 2000, ht⟩, flush4_4 _, ?_⟩
  rw [mem_blk4_4]
  intro a
  match a with
  | ⟨0, _⟩ =>
    show win4_4.index ⟨(i 0).val / 2000, ht⟩ (0 : Fin 2) * 2000 ≤ (i 0).val
      ∧ (i 0).val < win4_4.index ⟨(i 0).val / 2000, ht⟩ (0 : Fin 2) * 2000 + 2000
    omega
  | ⟨1, _⟩ =>
    show win4_4.index ⟨(i 0).val / 2000, ht⟩ (1 : Fin 2) * 163 ≤ (i 1).val
      ∧ (i 1).val < win4_4.index ⟨(i 0).val / 2000, ht⟩ (1 : Fin 2) * 163 + 163
    omega

/-- The self-loop term's array after the region: (h · W) scaled row by row by the column, plus the bias row, of the
    node features, weights, bias row and column as the region finds them. -/
theorem arr4_4 (c : Dev nD) :
    (dat4 (F := Ideal) V c).arrAt 4 cfg4.N
      = Cert.Spec.dense (V c main_v61) (V c main_arg8) (V c main_v62) (V c main_v63) :=
  (dat4 (F := Ideal) V c).arrAt_eq_of_cover 4
    (Cert.Spec.dense (V c main_v61) (V c main_arg8) (V c main_v62) (V c main_v63))
    (fun t _ => flushed4_4 V c t) covered4_4

end Cert.KernelIdeal.RegVal
end
-- ==== Proof.RegE5.lean ====
/-
  Region 5, an epilogue call on 163 columns with no activation. Its two inputs are the aggregated messages and the
  self-loop term, both 50000 x 163; its output, also 50000 x 163, holds at every index the sum of the two inputs there.

  The call works on 25 blocks of 2000 whole rows. At grid point t every window stands on rows 2000 t .. 2000 t + 1999,
  so an entry of the output block depends on the two input entries of the same row and column only. The 25 row
  blocks fill the 50000 rows, hence the whole output array is that pointwise function of the two input arrays.
-/
import proofs.«420299_j43722767073851_4_alg».proof.Proof.Gen.KernelIdeal.Frame
import proofs.«420299_j43722767073851_4_alg».proof.Proof.Spec
import Idealize.ShloMosaic.Lib.Pipeline.Value
import Idealize.ShloMosaic.Lib.ValueIdx
import Idealize.ShloMosaic.PureOps.Ideal

set_option maxRecDepth 16384

noncomputable section
namespace Cert.KernelIdeal.RegVal
open Idealize.ShloMosaic Idealize.ShloMosaic.TcCoe Idealize.SL.Sem Cert.KernelIdeal Cert.KernelIdeal.Gen
open Idealize.ShloMosaic.Pipeline (Dat Cfg Window)
open Idealize.ShloMosaic.ValueIdx

variable (V : (c : Dev nD) → (b : Ref sig .tc) → Buf (Elt Ideal) ((c : Thread nD τ).loc b))

/-- The body reads and writes each of its blocks from the block's first row and first column. -/
theorem origin5 : (![0, 0] : Fin 2 → Nat) = fun _ => 0 := funext fun a => by fin_cases a <;> rfl

/-- The body's value at an index of its block: the two loaded blocks added there. -/
theorem epi5_apply (x0 x1 : FVec Ideal S2000x163 .f32) (j : S2000x163.Idx) :
    k5_pay1 (F := Ideal) x0 x1 j = x0 j + x1 j := by
  unfold k5_pay1
  simp only [shapeCast_self]
  rfl

/-- The same value, when the two block entries are the entries of two whole arrays at one index: the pointwise
    function of the two arrays at that index. -/
theorem epi5_apply_of_entries (A B : FVec Ideal S50000x163 .f32) (x0 x1 : FVec Ideal S2000x163 .f32)
    (j : S2000x163.Idx) (i : S50000x163.Idx) (h0 : x0 j = A i) (h1 : x1 j = B i) :
    k5_pay1 (F := Ideal) x0 x1 j = Cert.Spec.epiNone A B i := by
  rw [epi5_apply, h0, h1]
  rfl

/-- At grid point t each of the three windows stands on row block t and on the one column block. -/
theorem blockIndex5 : ∀ t : Fin cfg5.N, win5_0.index t (0 : Fin 2) = win5_2.index t (0 : Fin 2)
    ∧ win5_0.index t (1 : Fin 2) = win5_2.index t (1 : Fin 2)
    ∧ win5_1.index t (0 : Fin 2) = win5_2.index t (0 : Fin 2)
    ∧ win5_1.index t (1 : Fin 2) = win5_2.index t (1 : Fin 2)
    ∧ win5_2.index t (0 : Fin 2) ≤ 24
    ∧ win5_2.index t (1 : Fin 2) = 0 :=
  (by decide +kernel : ∀ t : Fin grid5.N, _)

/-- Every one of the 25 row blocks is the output's block at some grid point. -/
theorem blockIndex5_onto : ∀ q : Fin 25, ∃ t : Fin cfg5.N, win5_2.index t = ![q.val, 0] :=
  (by decide +kernel : ∀ q : Fin 25, ∃ t : Fin grid5.N, win5_2.index t = ![q.val, 0])

/-- What grid point t writes back to the output array is block t of the pointwise function of the two input arrays:
    an entry of the output block and the entries of the two input blocks it is computed from sit at the same row and
    column of their arrays (block index times block size plus the coordinate inside the block, on each axis). -/
theorem flushed5_2_eq (c : Dev nD) (t : Fin cfg5.N) :
    (dat5 (F := Ideal) V c).flushed 2 t
      = ((cfg5.win 2).blk t).view.read (Elt Ideal) (Cert.Spec.epiNone (V c main_v77) (V c main_v64_0)) := by
  show (cfg5.win 2).cut (grid5.coords t) ((dat5 (F := Ideal) V c).after 2 t) = _
  rw [after5_2]
  unfold out5_2
  rw [View.canon_unit_zero origin5]
  simp only [View.ld_unit_zero (S := S2000x163) origin5]
  obtain ⟨e0, e1, e2, e3, e4, e5⟩ := blockIndex5 t
  funext j
  have h0 : ((cfg5.win 0).blk t).view.emb j = ((cfg5.win 2).blk t).view.emb j := by
    funext a; apply Fin.ext
    match a with
    | ⟨0, _⟩ => show win5_0.index t (0 : Fin 2) * 2000 + 1 * (j 0).val = win5_2.index t (0 : Fin 2) * 2000 + 1 * (j 0).val; omega
    | ⟨1, _⟩ => show win5_0.index t (1 : Fin 2) * 163 + 1 * (j 1).val = win5_2.index t (1 : Fin 2) * 163 + 1 * (j 1).val; omega
  have h1 : ((cfg5.win 1).blk t).view.emb j = ((cfg5.win 2).blk t).view.emb j := by
    funext a; apply Fin.ext
    match a with
    | ⟨0, _⟩ => show win5_1.index t (0 : Fin 2) * 2000 + 1 * (j 0).val = win5_2.index t (0 : Fin 2) * 2000 + 1 * (j 0).val; omega
    | ⟨1, _⟩ => show win5_1.index t (1 : Fin 2) * 163 + 1 * (j 1).val = win5_2.index t (1 : Fin 2) * 163 + 1 * (j 1).val; omega
  exact epi5_apply_of_entries (V c main_v77) (V c main_v64_0) (iblk5 V c 0 t) (iblk5 V c 1 t) j
    (((cfg5.win 2).blk t).view.emb j) (congrArg (V c main_v77) h0) (congrArg (V c main_v64_0) h1)

/-- An index of the output array lies in grid point t's block exactly when, on each axis, its coordinate lies in the
    block's range there. -/
theorem mem_block5_2 (t : Fin cfg5.N) (i : S50000x163.Idx) :
    i ∈ ((cfg5.win 2).blk t).view.set ↔ ∀ a : Fin 2, win5_2.index t a * S2000x163.size a ≤ (i a).val
      ∧ (i a).val < win5_2.index t a * S2000x163.size a + S2000x163.size a := by
  show i ∈ ((View.whole main_v78).slice (win5_2.rect t)).set ↔ _
  rw [View.set_slice_whole, Rect.mem_set_unit]
  exact Iff.rfl

/-- Every index of the output array is written back by some grid point: row r lies in row block r / 2000. -/
theorem covered5_2 (i : S50000x163.Idx) :
    ∃ t : Fin cfg5.N, (cfg5.win 2).flush t = true ∧ i ∈ ((cfg5.win 2).blk t).view.set := by
  have hi0 : (i 0).val < 50000 := (i 0).isLt
  have hi1 : (i 1).val < 163 := (i 1).isLt
  obtain ⟨t, ht⟩ := blockIndex5_onto ⟨(i 0).val / 2000, by omega⟩
  have q0 : win5_2.index t (0 : Fin 2) = (i 0).val / 2000 := congrFun ht 0
  have q1 : win5_2.index t (1 : Fin 2) = 0 := congrFun ht 1
  refine ⟨t, flush5_2 t, ?_⟩
  rw [mem_block5_2]
  intro a
  match a with
  | ⟨0, _⟩ => show win5_2.index t (0 : Fin 2) * 2000 ≤ (i 0).val ∧ (i 0).val < win5_2.index t (0 : Fin 2) * 2000 + 2000; omega
  | ⟨1, _⟩ => show win5_2.index t (1 : Fin 2) * 163 ≤ (i 1).val ∧ (i 1).val < win5_2.index t (1 : Fin 2) * 163 + 163; omega

/-- The output array of region 5 after the call: the sum of the aggregated messages and the self-loop term, index by
    index. -/
theorem arr5_2 (c : Dev nD) : (dat5 (F := Ideal) V c).arrAt 2 cfg5.N = Cert.Spec.epiNone (V c main_v77) (V c main_v64_0) :=
  (dat5 (F := Ideal) V c).arrAt_eq_of_cover 2 (Cert.Spec.epiNone (V c main_v77) (V c main_v64_0))
    (fun t _ => flushed5_2_eq V c t) covered5_2

end Cert.KernelIdeal.RegVal
end
-- ==== Proof.Match3.lean ====
/-
  Layer 3 (144 -> 163 columns, no activation), as pure functions of the argument arrays: the kernel's two calls and
  the reference's operations compute one array.
  The reference's layer is (agg + hw * sc) + b with hw = h · W, sc the self-loop coefficient broadcast along rows and
  b the bias broadcast along columns; the kernel's is agg + (hw * sc + b) with sc read from an n x 1 column and b from
  a 1 x c row. The two agree entry by entry by associativity of addition on the extended reals (no finiteness is
  needed: only + is regrouped).
-/
import proofs.«420299_j43722767073851_4_alg».proof.Proof.Gen.ReferenceIdeal.Read
import proofs.«420299_j43722767073851_4_alg».proof.Proof.Spec
import proofs.«420299_j43722767073851_4_alg».proof.Proof.LibColumn
import Idealize.ShloMosaic.Lib.ValueLayout
import Idealize.ShloMosaic.Lib.ValueIdx
import Idealize.ShloMosaic.PureOps.Ideal

noncomputable section

namespace Cert.Match

open Idealize.ShloMosaic Idealize.ShloMosaic.ValueIdx Cert.ReferenceIdeal Cert.ReferenceIdeal.Read

/-- The matrix product of the layer's input with its weights is the reference's dot_general. -/
theorem mm_L3
    (x0 : (⟨S50000x96, .f32⟩ : BufTy).Contents (Elt Ideal))
    (x1 : (⟨S2x800000, .i32⟩ : BufTy).Contents (Elt Ideal))
    (x4 : (⟨S96x125, .f32⟩ : BufTy).Contents (Elt Ideal))
    (x5 : (⟨S125, .f32⟩ : BufTy).Contents (Elt Ideal))
    (x6 : (⟨S125x144, .f32⟩ : BufTy).Contents (Elt Ideal))
    (x7 : (⟨S144, .f32⟩ : BufTy).Contents (Elt Ideal))
    (x8 : (⟨S144x163, .f32⟩ : BufTy).Contents (Elt Ideal)) :
    Cert.Spec.mm (n := 50000) (a := 144) (b := 163) (val_main_v70 (F := Ideal) x0 x1 x4 x5 x6 x7) x8 = val_main_v71 (F := Ideal) x0 x1 x4 x5 x6 x7 x8 := by
  funext i
  rw [val_main_v71_apply]
  unfold Cert.Spec.mm
  refine Finset.sum_congr rfl fun k _ => ?_
  have el : Cert.Spec.lix (a := 144) i k = lidx_main_v71 i k := funext fun d => by
    match d with
    | ⟨0, _⟩ => rfl
    | ⟨1, _⟩ => rfl
  have er : Cert.Spec.rix (n := 50000) (a := 144) i k = ridx_main_v71 i k := funext fun d => by
    match d with
    | ⟨0, _⟩ => rfl
    | ⟨1, _⟩ => rfl
  rw [el, er]

/-- The layer's output: the epilogue of the aggregated messages and the dense call's self-loop term is the
    reference's (agg + hw * sc) + b. -/
theorem out_L3
    (x0 : (⟨S50000x96, .f32⟩ : BufTy).Contents (Elt Ideal))
    (x1 : (⟨S2x800000, .i32⟩ : BufTy).Contents (Elt Ideal))
    (x4 : (⟨S96x125, .f32⟩ : BufTy).Contents (Elt Ideal))
    (x5 : (⟨S125, .f32⟩ : BufTy).Contents (Elt Ideal))
    (x6 : (⟨S125x144, .f32⟩ : BufTy).Contents (Elt Ideal))
    (x7 : (⟨S144, .f32⟩ : BufTy).Contents (Elt Ideal))
    (x8 : (⟨S144x163, .f32⟩ : BufTy).Contents (Elt Ideal))
    (x9 : (⟨S163, .f32⟩ : BufTy).Contents (Elt Ideal))
    (hb : (⟨1, ![163]⟩ : Shape).ShapeCasts ⟨2, ![1, 163]⟩) (hs : (⟨1, ![50000]⟩ : Shape).ShapeCasts ⟨2, ![50000, 1]⟩) :
    Cert.Spec.epiNone (n := 50000) (b := 163) (val_main_v84 (F := Ideal) x0 x1 x4 x5 x6 x7 x8)
      (Cert.Spec.dense (n := 50000) (a := 144) (b := 163) (val_main_v70 (F := Ideal) x0 x1 x4 x5 x6 x7) x8 (shapeCast ⟨2, ![1, 163]⟩ x9 hb)
        (shapeCast ⟨2, ![50000, 1]⟩ (val_main_v27 (F := Ideal) x1) hs))
    = val_main_v90 (F := Ideal) x0 x1 x4 x5 x6 x7 x8 x9 := by
  funext i
  rw [val_main_v90_apply, val_main_v87_apply, val_main_v86_apply, val_main_v85_apply, val_main_v28_apply,
    val_main_v89_apply, val_main_v88_apply, ← mm_L3]
  have ec : Cert.Spec.colIx (n := 50000) (b := 163) i = ix2 (⟨(i 0).val, (i 0).isLt⟩ : Fin 50000) (⟨0, Nat.one_pos⟩ : Fin 1) :=
    funext fun d => by
      match d with
      | ⟨0, _⟩ => rfl
      | ⟨1, _⟩ => rfl
  have er : Cert.Spec.rowIx (n := 50000) (b := 163) i = ix2 (⟨0, Nat.one_pos⟩ : Fin 1) (⟨(i 1).val, (i 1).isLt⟩ : Fin 163) :=
    funext fun d => by
      match d with
      | ⟨0, _⟩ => rfl
      | ⟨1, _⟩ => rfl
  have e1 : idx_main_v28 (idx_main_v85 i) = ix1 (⟨(i 0).val, (i 0).isLt⟩ : Fin 50000) := funext fun d => by
    match d with
    | ⟨0, _⟩ => rfl
  have e2 : idx_main_v88 (idx_main_v89 i) = ix1 (⟨(i 1).val, (i 1).isLt⟩ : Fin 163) := funext fun d => by
    match d with
    | ⟨0, _⟩ => rfl
  unfold Cert.Spec.epiNone Cert.Spec.dense
  rw [ec, er, Cert.LibColumn.shapeCast_a_a1_apply, shapeCast_a_1a_apply, e1, e2]
  simp only [Ideal.addf_def, Ideal.mulf_def]
  rw [add_assoc]

end Cert.Match

end
-- ==== Proof.Layer3.lean ====
/-
  Layer 3 (edge branch, third convolution) of the kernel's program, segment by segment.
  The layer reads the previous layer's output h, its weight matrix and bias (arguments nothing has written), and
  the values the whole program shares (the edges' source and target nodes, the edge and self-loop coefficients).
  The first host stretch lays the bias out as a 1 x 163 row and the self-loop coefficients as a 50000 x 1 column;
  the dense call leaves h · W and (h · W) * sc + b; the second host stretch gathers the product's rows along the
  edges, scales them and scatter-adds them into the target nodes; the epilogue call adds the self-loop term and
  applies no activation. The result is the reference's layer.
-/
import proofs.«420299_j43722767073851_4_alg».proof.Proof.Layer2
import proofs.«420299_j43722767073851_4_alg».proof.Proof.KeepGlobals
import proofs.«420299_j43722767073851_4_alg».proof.Proof.KeepArgsA
import proofs.«420299_j43722767073851_4_alg».proof.Proof.RegD4
import proofs.«420299_j43722767073851_4_alg».proof.Proof.RegE5
import proofs.«420299_j43722767073851_4_alg».proof.Proof.Match3

set_option maxRecDepth 16384

noncomputable section

namespace Cert.KernelIdeal.Chain

open Cert.KernelIdeal Cert.KernelIdeal.Gen Cert.KernelIdeal.Keep
open Idealize.ShloMosaic Idealize.ShloMosaic.TcCoe Idealize.SL.Sem
open Cert.ReferenceIdeal.Read

variable (m : (ℓ : Loc nD τ sig) → Buf (Elt Ideal) ℓ) (ρ : Dev nD → PrngReg)

/-! ## The dense call's inputs at its entry -/

/-- The layer's input: the previous layer's output. -/
theorem in4_h (c : Dev nD) : V9 m ρ c main_v61 = val_main_v70 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) :=
  (show W9 m ρ c (Proc.devRef .tc main_v61) = W8 m ρ c (Proc.devRef .tc main_v61) from by host_keep hostOps4).trans (out_L2 m ρ c)

theorem in4_W (c : Dev nD) : V9 m ρ c main_arg8 = (m ((c : Thread nD τ).loc main_arg8)) :=
  (show W9 m ρ c (Proc.devRef .tc main_arg8) = W8 m ρ c (Proc.devRef .tc main_arg8) from by host_keep hostOps4).trans (keep_arg8_8 m ρ c)

/-- The bias as a 1 x 163 row. -/
theorem in4_b (c : Dev nD) : V9 m ρ c main_v62 = shapeCast S1x163 (m ((c : Thread nD τ).loc main_arg9)) shapeCasts_S163_S1x163 := by
  show StableHlo.after hostOps4 (W8 m ρ c) (Proc.devRef .tc main_v62) = _
  after_results
  rw [keep_arg9_8 m ρ c]
  rfl

/-- The self-loop coefficients as a 50000 x 1 column. -/
theorem in4_sc (c : Dev nD) : V9 m ρ c main_v63 = shapeCast S50000x1 (val_main_v27 (F := Ideal) (m ((c : Thread nD τ).loc main_arg1))) shapeCasts_S50000_S50000x1 := by
  show StableHlo.after hostOps4 (W8 m ρ c) (Proc.devRef .tc main_v63) = _
  after_results
  rw [at8_v27 m ρ c]
  rfl

/-! ## The dense call's outputs -/

/-- h · W, the reference's dot_general. -/
theorem hw_L3 (c : Dev nD) : W10 m ρ c (Proc.devRef .tc main_v64_1) = val_main_v71 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W10_arr m ρ c 5).trans ?_
  rw [Cert.KernelIdeal.RegVal.arr4_5 (V9 m ρ) c, in4_h m ρ c, in4_W m ρ c]
  exact Cert.Match.mm_L3 _ _ _ _ _ _ _

/-- The self-loop term (h · W) * sc + b. -/
theorem oi_L3 (c : Dev nD) : W10 m ρ c (Proc.devRef .tc main_v64_0)
    = Cert.Spec.dense (val_main_v70 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7))) (m ((c : Thread nD τ).loc main_arg8)) (shapeCast S1x163 (m ((c : Thread nD τ).loc main_arg9)) shapeCasts_S163_S1x163)
        (shapeCast S50000x1 (val_main_v27 (F := Ideal) (m ((c : Thread nD τ).loc main_arg1))) shapeCasts_S50000_S50000x1) := by
  refine (W10_arr m ρ c 4).trans ?_
  rw [Cert.KernelIdeal.RegVal.arr4_4 (V9 m ρ) c, in4_h m ρ c, in4_W m ρ c, in4_b m ρ c, in4_sc m ρ c]

/-! ## The shared values after the dense call -/

theorem g10_v1 (c : Dev nD) : W10 m ρ c (Proc.devRef .tc main_v1) = val_main_v1 (F := Ideal) (m ((c : Thread nD τ).loc main_arg1)) :=
  (W10_of_ne m ρ c main_v1 (by decide)).trans <| (show W9 m ρ c (Proc.devRef .tc main_v1) = W8 m ρ c (Proc.devRef .tc main_v1) from by host_keep hostOps4).trans (at8_v1 m ρ c)
theorem g10_v3 (c : Dev nD) : W10 m ρ c (Proc.devRef .tc main_v3) = val_main_v3 (F := Ideal) (m ((c : Thread nD τ).loc main_arg1)) :=
  (W10_of_ne m ρ c main_v3 (by decide)).trans <| (show W9 m ρ c (Proc.devRef .tc main_v3) = W8 m ρ c (Proc.devRef .tc main_v3) from by host_keep hostOps4).trans (at8_v3 m ρ c)
theorem g10_v26 (c : Dev nD) : W10 m ρ c (Proc.devRef .tc main_v26) = val_main_v26 (F := Ideal) (m ((c : Thread nD τ).loc main_arg1)) :=
  (W10_of_ne m ρ c main_v26 (by decide)).trans <| (show W9 m ρ c (Proc.devRef .tc main_v26) = W8 m ρ c (Proc.devRef .tc main_v26) from by host_keep hostOps4).trans (at8_v26 m ρ c)

/-! ## The aggregated messages, and the epilogue -/

set_option maxHeartbeats 1600000 in
/-- Rows of h · W gathered along the edges, scaled by the edge coefficients, scatter-added into the target nodes. -/
theorem agg_L3 (c : Dev nD) : V11 m ρ c main_v77 = val_main_v84 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps5 (W10 m ρ c) (Proc.devRef .tc main_v77) = _
  after_results
  rw [g10_v1 m ρ c, g10_v3 m ρ c, g10_v26 m ρ c, hw_L3 m ρ c]
  rfl

theorem oi3_L3 (c : Dev nD) : V11 m ρ c main_v64_0
    = Cert.Spec.dense (val_main_v70 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7))) (m ((c : Thread nD τ).loc main_arg8)) (shapeCast S1x163 (m ((c : Thread nD τ).loc main_arg9)) shapeCasts_S163_S1x163)
        (shapeCast S50000x1 (val_main_v27 (F := Ideal) (m ((c : Thread nD τ).loc main_arg1))) shapeCasts_S50000_S50000x1) :=
  (show W11 m ρ c (Proc.devRef .tc main_v64_0) = W10 m ρ c (Proc.devRef .tc main_v64_0) from by host_keep hostOps5).trans (oi_L3 m ρ c)

/-- The layer's output is the reference's. -/
theorem out_L3 (c : Dev nD) : W12 m ρ c (Proc.devRef .tc main_v78) = val_main_v90 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W12_arr m ρ c 2).trans ?_
  rw [Cert.KernelIdeal.RegVal.arr5_2 (V11 m ρ) c, agg_L3 m ρ c, oi3_L3 m ρ c]
  exact Cert.Match.out_L3 _ _ _ _ _ _ _ _ _ _

/-! ## The shared values at the layer's exit -/

theorem at12_v1 (c : Dev nD) : W12 m ρ c (Proc.devRef .tc main_v1) = val_main_v1 (F := Ideal) (m ((c : Thread nD τ).loc main_arg1)) :=
  (keepL3_v1 m ρ c).trans (at8_v1 m ρ c)
theorem at12_v3 (c : Dev nD) : W12 m ρ c (Proc.devRef .tc main_v3) = val_main_v3 (F := Ideal) (m ((c : Thread nD τ).loc main_arg1)) :=
  (keepL3_v3 m ρ c).trans (at8_v3 m ρ c)
theorem at12_v26 (c : Dev nD) : W12 m ρ c (Proc.devRef .tc main_v26) = val_main_v26 (F := Ideal) (m ((c : Thread nD τ).loc main_arg1)) :=
  (keepL3_v26 m ρ c).trans (at8_v26 m ρ c)
theorem at12_v27 (c : Dev nD) : W12 m ρ c (Proc.devRef .tc main_v27) = val_main_v27 (F := Ideal) (m ((c : Thread nD τ).loc main_arg1)) :=
  (keepL3_v27 m ρ c).trans (at8_v27 m ρ c)

end Cert.KernelIdeal.Chain

end
-- ==== Proof.RegD6.lean ====
/-
  The fourth dense call of the kernel (node features 50000 x 144, weights 144 x 163), read as whole arrays on the
  extended reals. Its grid has 25 points; point t holds rows 2000 t .. 2000 t + 1999 of the node features, of the
  self-loop column and of both outputs, and the whole of the weights and of the bias row. One block of the product
  is a sum over the contracted axis (the left operand first passes through a cast to its own shape); one block of
  the self-loop term is that product scaled row by row by the column plus the bias row. The blocks of the 25 points
  tile each output array, so each array ends holding the whole product h · W, respectively (h · W) scaled by the
  column plus the bias row.
-/
import proofs.«420299_j43722767073851_4_alg».proof.Proof.Gen.KernelIdeal.Frame
import proofs.«420299_j43722767073851_4_alg».proof.Proof.Spec
import proofs.«420299_j43722767073851_4_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384
noncomputable section
namespace Cert.KernelIdeal.RegVal
open Idealize.ShloMosaic Idealize.ShloMosaic.TcCoe Idealize.SL.Sem Cert.KernelIdeal Cert.KernelIdeal.Gen
open Idealize.ShloMosaic.Pipeline (Dat Cfg Window)
open Idealize.ShloMosaic.ValueIdx

/-! ## The product h · W of one block, entry by entry -/

/-- Row axis of the left operand: the output index's row. -/
theorem lhs_mm6_0 (i : S2000x163.Idx) (q : dot_S2000x144_S144x163_S2000x163_1_0_0_1_n_n.contr.Idx) :
    (dot_S2000x144_S144x163_S2000x163_1_0_0_1_n_n.lhsIdx i q 0).val = (i 0).val := by
  unfold DotDims.lhsIdx
  rw [dif_neg (show ¬(0 : Fin S2000x144.rank) ∈ dot_S2000x144_S144x163_S2000x163_1_0_0_1_n_n.lhsBatch by decide), dif_pos (show (0 : Fin S2000x144.rank) ∈ dot_S2000x144_S144x163_S2000x163_1_0_0_1_n_n.lhsNonContracting by decide)]
  rfl
/-- Column axis of the left operand: the contracted position. -/
theorem lhs_mm6_1 (i : S2000x163.Idx) (q : dot_S2000x144_S144x163_S2000x163_1_0_0_1_n_n.contr.Idx) :
    (dot_S2000x144_S144x163_S2000x163_1_0_0_1_n_n.lhsIdx i q 1).val = (q ⟨0, by decide⟩).val :=
  dot_S2000x144_S144x163_S2000x163_1_0_0_1_n_n.lhsIdx_val_of_single rfl i q
/-- Row axis of the right operand: the contracted position. -/
theorem rhs_mm6_0 (i : S2000x163.Idx) (q : dot_S2000x144_S144x163_S2000x163_1_0_0_1_n_n.contr.Idx) :
    (dot_S2000x144_S144x163_S2000x163_1_0_0_1_n_n.rhsIdx i q 0).val = (q ⟨0, by decide⟩).val :=
  dot_S2000x144_S144x163_S2000x163_1_0_0_1_n_n.rhsIdx_val_of_single rfl i q
/-- Column axis of the right operand: the output index's column. -/
theorem rhs_mm6_1 (i : S2000x163.Idx) (q : dot_S2000x144_S144x163_S2000x163_1_0_0_1_n_n.contr.Idx) :
    (dot_S2000x144_S144x163_S2000x163_1_0_0_1_n_n.rhsIdx i q 1).val = (i 1).val := by
  unfold DotDims.rhsIdx
  rw [dif_neg (show ¬(1 : Fin S144x163.rank) ∈ dot_S2000x144_S144x163_S2000x163_1_0_0_1_n_n.rhsBatch by decide), dif_pos (show (1 : Fin S144x163.rank) ∈ dot_S2000x144_S144x163_S2000x163_1_0_0_1_n_n.rhsNonContracting by decide)]
  rfl

/-- The block product at an index: the left operand enters through a cast to its own shape, which changes nothing;
    the product is the sum over the 144 contracted positions of the left operand's entry in the index's row times the
    right operand's entry in the index's column. -/
theorem blockProd6_apply (x0 : Vec Ideal S2000x144 .f32) (x1 : Vec Ideal S144x163 .f32) (j : S2000x163.Idx) :
    k6_pay1 (F := Ideal) x0 x1 j = ∑ k : Fin 144, x0 (Cert.Spec.lix j k) * x1 (Cert.Spec.rix j k) := by
  unfold k6_pay1
  refine (Ideal.matmul_constant_zero_apply dot_S2000x144_S144x163_S2000x163_1_0_0_1_n_n none
    (shapeCast S2000x144 x0 shapeCasts_S2000x144_S2000x144) x1 j).trans ?_
  rw [shapeCast_self]
  rw [← Equiv.sum_comp (ValueIdx.contrEquiv1 dot_S2000x144_S144x163_S2000x163_1_0_0_1_n_n 144 rfl rfl).symm]
  refine Finset.sum_congr rfl fun k _ => ?_
  have hk := ValueIdx.contrEquiv1_symm_val dot_S2000x144_S144x163_S2000x163_1_0_0_1_n_n 144 rfl rfl k
  have el : dot_S2000x144_S144x163_S2000x163_1_0_0_1_n_n.lhsIdx j ((ValueIdx.contrEquiv1 dot_S2000x144_S144x163_S2000x163_1_0_0_1_n_n 144 rfl rfl).symm k) = Cert.Spec.lix j k := funext fun a => Fin.ext (by
    match a with
    | ⟨0, _⟩ => exact lhs_mm6_0 _ _
    | ⟨1, _⟩ => exact (lhs_mm6_1 _ _).trans hk)
  have er : dot_S2000x144_S144x163_S2000x163_1_0_0_1_n_n.rhsIdx j ((ValueIdx.contrEquiv1 dot_S2000x144_S144x163_S2000x163_1_0_0_1_n_n 144 rfl rfl).symm k) = Cert.Spec.rix j k := funext fun a => Fin.ext (by
    match a with
    | ⟨0, _⟩ => exact (rhs_mm6_0 _ _).trans hk
    | ⟨1, _⟩ => exact rhs_mm6_1 _ _)
  rw [el, er]

/-! ## The scaled product plus the bias row, of one block, entry by entry -/

/-- The block's self-loop term at an index: the block product there, times the column's entry in the index's row,
    plus the bias row's entry in the index's column. -/
theorem blockDense6_apply (x0 : Vec Ideal S2000x144 .f32) (x1 : Vec Ideal S144x163 .f32) (x3 : Vec Ideal S2000x1 .f32)
    (x7 : Vec Ideal S1x163 .f32) (j : S2000x163.Idx) :
    k6_pay2 (F := Ideal) x0 x1 x3 x7 j
      = k6_pay1 (F := Ideal) x0 x1 j * x3 (Cert.Spec.colIx j) + x7 (Cert.Spec.rowIx j) := by
  obtain ⟨p, q, rfl⟩ : ∃ (p : Fin 2000) (q : Fin 163), j = ix2 p q := ⟨j 0, j 1, eq_ix2 j⟩
  have ec : Cert.Spec.colIx (ix2 p q) = ix2 p (0 : Fin 1) := funext fun a => by
    match a with
    | ⟨0, _⟩ => rfl
    | ⟨1, _⟩ => rfl
  have er : Cert.Spec.rowIx (ix2 p q) = ix2 (0 : Fin 1) q := funext fun a => by
    match a with
    | ⟨0, _⟩ => rfl
    | ⟨1, _⟩ => rfl
  unfold k6_pay2
  show k6_pay1 (F := Ideal) x0 x1 (ix2 p q)
        * broadcastTo S2000x163 (shapeCast S2000x1 x3 shapeCasts_S2000x1_S2000x1) broadcasts_S2000x1_S2000x163 (ix2 p q)
      + broadcastTo S2000x163 (shapeCast S1x163 x7 shapeCasts_S1x163_S1x163) broadcasts_S1x163_S2000x163 (ix2 p q) = _
  rw [shapeCast_self, shapeCast_self, Cert.LibColumn.broadcastTo_a1_ab_apply, broadcastTo_1b_ab_apply, ec, er]

variable (V : (c : Dev nD) → (b : Ref sig .tc) → Buf (Elt Ideal) ((c : Thread nD τ).loc b))

/-! ## From blocks to the arrays -/

theorem zeroOff6 : (![0, 0] : Fin 2 → Nat) = fun _ => 0 := funext fun a => by
  match a with
  | ⟨0, _⟩ => rfl
  | ⟨1, _⟩ => rfl

/-- The printed index maps over the grid: the windows cut in row blocks (node features, column, both outputs) sit at
    block row t, block column 0; the weights and the bias row are their one block. -/
theorem blockIdx6 : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0
    ∧ win6_4.index t (0 : Fin 2) = t.val ∧ win6_4.index t (1 : Fin 2) = 0
    ∧ win6_5.index t (0 : Fin 2) = t.val ∧ win6_5.index t (1 : Fin 2) = 0 :=
  (by decide +kernel : ∀ t : Fin grid6.N, _)

/-- The block product of point t at a block index is the whole product h · W at the array index whose row is
    2000 t plus the block index's row and whose column is the block index's column. -/
theorem blockProd6_at (c : Dev nD) (t : Fin cfg6.N) (j : S2000x163.Idx) (i : S50000x163.Idx)
    (hr : (i 0).val = t.val * 2000 + (j 0).val) (hc : (i 1).val = (j 1).val) :
    k6_pay1 (F := Ideal) (iblk6 V c 0 t) (iblk6 V c 1 t) j = Cert.Spec.mm (V c main_v61) (V c main_arg10) i := by
  obtain ⟨e00, e01, e10, e11, -⟩ := blockIdx6 t
  rw [blockProd6_apply]
  unfold Cert.Spec.mm
  refine Finset.sum_congr rfl fun k _ => ?_
  have a0 : iblk6 V c 0 t (Cert.Spec.lix j k) = V c main_v61 (Cert.Spec.lix i k) := by
    show V c main_v61 (((cfg6.win 0).blk t).view.emb (Cert.Spec.lix j k)) = _
    refine congrArg (V c main_v61) ?_
    funext a; apply Fin.ext
    match a with
    | ⟨0, _⟩ => show win6_0.index t (0 : Fin 2) * 2000 + 1 * (j 0).val = (i 0).val; omega
    | ⟨1, _⟩ => show win6_0.index t (1 : Fin 2) * 144 + 1 * k.val = k.val; omega
  have a1 : iblk6 V c 1 t (Cert.Spec.rix j k) = V c main_arg10 (Cert.Spec.rix i k) := by
    show V c main_arg10 (((cfg6.win 1).blk t).view.emb (Cert.Spec.rix j k)) = _
    refine congrArg (V c main_arg10) ?_
    funext a; apply Fin.ext
    match a with
    | ⟨0, _⟩ => show win6_1.index t (0 : Fin 2) * 144 + 1 * k.val = k.val; omega
    | ⟨1, _⟩ => show win6_1.index t (1 : Fin 2) * 163 + 1 * (j 1).val = (i 1).val; omega
  rw [a0, a1]

/-! ### The product's array (output window 5) -/

/-- What point t writes back to the product's array is block t of h · W of the arrays as the region finds them. -/
theorem flushed6_5 (c : Dev nD) (t : Fin cfg6.N) :
    (dat6 (F := Ideal) V c).flushed 5 t
      = ((cfg6.win 5).blk t).view.read (Elt Ideal) (Cert.Spec.mm (V c main_v61) (V c main_arg10)) := by
  show (cfg6.win 5).cut (grid6.coords t) ((dat6 (F := Ideal) V c).after 5 t) = _
  rw [after6_5]
  unfold out6_5
  rw [View.canon_unit_zero zeroOff6]
  simp only [View.ld_unit_zero (S := S2000x144) zeroOff6, View.ld_unit_zero (S := S144x163) zeroOff6]
  obtain ⟨-, -, -, -, -, -, -, -, -, -, e50, e51⟩ := blockIdx6 t
  refine funext fun (j : S2000x163.Idx) => ?_
  show k6_pay1 (F := Ideal) (iblk6 V c 0 t) (iblk6 V c 1 t) j
      = Cert.Spec.mm (V c main_v61) (V c main_arg10) (((cfg6.win 5).blk t).view.emb j : S50000x163.Idx)
  refine blockProd6_at V c t j _ ?_ ?_
  · show win6_5.index t (0 : Fin 2) * 2000 + 1 * (j 0).val = t.val * 2000 + (j 0).val; omega
  · show win6_5.index t (1 : Fin 2) * 163 + 1 * (j 1).val = (j 1).val; omega

/-- An index of the product's array is in point t's block iff each coordinate is in the block's range on its axis. -/
theorem mem_blk6_5 (t : Fin cfg6.N) (i : S50000x163.Idx) :
    i ∈ ((cfg6.win 5).blk t).view.set ↔ ∀ a : Fin 2, win6_5.index t a * S2000x163.size a ≤ (i a).val
      ∧ (i a).val < win6_5.index t a * S2000x163.size a + S2000x163.size a := by
  show i ∈ ((View.whole main_v81_1).slice (win6_5.rect t)).set ↔ _
  rw [View.set_slice_whole, Rect.mem_set_unit]
  exact Iff.rfl

/-- Every index of the product's array is in the block of the point its row divided by 2000 names, and every point
    writes its block back. -/
theorem covered6_5 (i : S50000x163.Idx) :
    ∃ t : Fin cfg6.N, (cfg6.win 5).flush t = true ∧ i ∈ ((cfg6.win 5).blk t).view.set := by
  have hi0 : (i 0).val < 50000 := (i 0).isLt
  have hi1 : (i 1).val < 163 := (i 1).isLt
  have ht : (i 0).val / 2000 < cfg6.N := by show (i 0).val / 2000 < 25; omega
  obtain ⟨-, -, -, -, -, -, -, -, -, -, e50, e51⟩ := blockIdx6 ⟨(i 0).val / 2000, ht⟩
  have e50' : win6_5.index ⟨(i 0).val / 2000, ht⟩ (0 : Fin 2) = (i 0).val / 2000 := e50
  refine ⟨⟨(i 0).val / 2000, ht⟩, flush6_5 _, ?_⟩
  rw [mem_blk6_5]
  intro a
  match a with
  | ⟨0, _⟩ =>
    show win6_5.index ⟨(i 0).val / 2000, ht⟩ (0 : Fin 2) * 2000 ≤ (i 0).val
      ∧ (i 0).val < win6_5.index ⟨(i 0).val / 2000, ht⟩ (0 : Fin 2) * 2000 + 2000
    omega
  | ⟨1, _⟩ =>
    show win6_5.index ⟨(i 0).val / 2000, ht⟩ (1 : Fin 2) * 163 ≤ (i 1).val
      ∧ (i 1).val < win6_5.index ⟨(i 0).val / 2000, ht⟩ (1 : Fin 2) * 163 + 163
    omega

/-- The product's array after the region: h · W of the node features and the weights as the region finds them. -/
theorem arr6_5 (c : Dev nD) :
    (dat6 (F := Ideal) V c).arrAt 5 cfg6.N = Cert.Spec.mm (V c main_v61) (V c main_arg10) :=
  (dat6 (F := Ideal) V c).arrAt_eq_of_cover 5 (Cert.Spec.mm (V c main_v61) (V c main_arg10))
    (fun t _ => flushed6_5 V c t) covered6_5

/-! ### The self-loop term's array (output window 4) -/

/-- What point t writes back to the self-loop term's array is block t of (h · W) scaled row by row by the column,
    plus the bias row, of the arrays as the region finds them. -/
theorem flushed6_4 (c : Dev nD) (t : Fin cfg6.N) :
    (dat6 (F := Ideal) V c).flushed 4 t
      = ((cfg6.win 4).blk t).view.read (Elt Ideal)
          (Cert.Spec.dense (V c main_v61) (V c main_arg10) (V c main_v79) (V c main_v80)) := by
  show (cfg6.win 4).cut (grid6.coords t) ((dat6 (F := Ideal) V c).after 4 t) = _
  rw [after6_4]
  unfold out6_4
  rw [View.canon_unit_zero zeroOff6]
  simp only [View.ld_unit_zero (S := S2000x144) zeroOff6, View.ld_unit_zero (S := S144x163) zeroOff6,
    View.ld_unit_zero (S := S2000x1) zeroOff6, View.ld_unit_zero (S := S1x163) zeroOff6]
  obtain ⟨-, -, -, -, e20, e21, e30, e31, e40, e41, -, -⟩ := blockIdx6 t
  refine funext fun (j : S2000x163.Idx) => ?_
  show k6_pay2 (F := Ideal) (iblk6 V c 0 t) (iblk6 V c 1 t) (iblk6 V c 3 t) (iblk6 V c 2 t) j
      = Cert.Spec.dense (V c main_v61) (V c main_arg10) (V c main_v79) (V c main_v80)
          (((cfg6.win 4).blk t).view.emb j : S50000x163.Idx)
  have hp : k6_pay1 (F := Ideal) (iblk6 V c 0 t) (iblk6 V c 1 t) j
      = Cert.Spec.mm (V c main_v61) (V c main_arg10) (((cfg6.win 4).blk t).view.emb j : S50000x163.Idx) := by
    refine blockProd6_at V c t j _ ?_ ?_
    · show win6_4.index t (0 : Fin 2) * 2000 + 1 * (j 0).val = t.val * 2000 + (j 0).val; omega
    · show win6_4.index t (1 : Fin 2) * 163 + 1 * (j 1).val = (j 1).val; omega
  have hcol : iblk6 V c 3 t (Cert.Spec.colIx j)
      = V c main_v80 (Cert.Spec.colIx (((cfg6.win 4).blk t).view.emb j : S50000x163.Idx)) := by
    show V c main_v80 (((cfg6.win 3).blk t).view.emb (Cert.Spec.colIx j)) = _
    refine congrArg (V c main_v80) ?_
    funext a; apply Fin.ext
    match a with
    | ⟨0, _⟩ => show win6_3.index t (0 : Fin 2) * 2000 + 1 * (j 0).val = win6_4.index t (0 : Fin 2) * 2000 + 1 * (j 0).val; omega
    | ⟨1, _⟩ => show win6_3.index t (1 : Fin 2) * 1 + 1 * 0 = 0; omega
  have hrow : iblk6 V c 2 t (Cert.Spec.rowIx j)
      = V c main_v79 (Cert.Spec.rowIx (((cfg6.win 4).blk t).view.emb j : S50000x163.Idx)) := by
    show V c main_v79 (((cfg6.win 2).blk t).view.emb (Cert.Spec.rowIx j)) = _
    refine congrArg (V c main_v79) ?_
    funext a; apply Fin.ext
    match a with
    | ⟨0, _⟩ => show win6_2.index t (0 : Fin 2) * 1 + 1 * 0 = 0; omega
    | ⟨1, _⟩ => show win6_2.index t (1 : Fin 2) * 163 + 1 * (j 1).val = win6_4.index t (1 : Fin 2) * 163 + 1 * (j 1).val; omega
  rw [blockDense6_apply, hp, hcol, hrow]
  rfl

/-- An index of the self-loop term's array is in point t's block iff each coordinate is in the block's range on its
    axis. -/
theorem mem_blk6_4 (t : Fin cfg6.N) (i : S50000x163.Idx) :
    i ∈ ((cfg6.win 4).blk t).view.set ↔ ∀ a : Fin 2, win6_4.index t a * S2000x163.size a ≤ (i a).val
      ∧ (i a).val < win6_4.index t a * S2000x163.size a + S2000x163.size a := by
  show i ∈ ((View.whole main_v81_0).slice (win6_4.rect t)).set ↔ _
  rw [View.set_slice_whole, Rect.mem_set_unit]
  exact Iff.rfl

/-- Every index of the self-loop term's array is in the block of the point its row divided by 2000 names, and every
    point writes its block back. -/
theorem covered6_4 (i : S50000x163.Idx) :
    ∃ t : Fin cfg6.N, (cfg6.win 4).flush t = true ∧ i ∈ ((cfg6.win 4).blk t).view.set := by
  have hi0 : (i 0).val < 50000 := (i 0).isLt
  have hi1 : (i 1).val < 163 := (i 1).isLt
  have ht : (i 0).val / 2000 < cfg6.N := by show (i 0).val / 2000 < 25; omega
  obtain ⟨-, -, -, -, -, -, -, -, e40, e41, -, -⟩ := blockIdx6 ⟨(i 0).val / 2000, ht⟩
  have e40' : win6_4.index ⟨(i 0).val / 2000, ht⟩ (0 : Fin 2) = (i 0).val / 2000 := e40
  refine ⟨⟨(i 0).val / 2000, ht⟩, flush6_4 _, ?_⟩
  rw [mem_blk6_4]
  intro a
  match a with
  | ⟨0, _⟩ =>
    show win6_4.index ⟨(i 0).val / 2000, ht⟩ (0 : Fin 2) * 2000 ≤ (i 0).val
      ∧ (i 0).val < win6_4.index ⟨(i 0).val / 2000, ht⟩ (0 : Fin 2) * 2000 + 2000
    omega
  | ⟨1, _⟩ =>
    show win6_4.index ⟨(i 0).val / 2000, ht⟩ (1 : Fin 2) * 163 ≤ (i 1).val
      ∧ (i 1).val < win6_4.index ⟨(i 0).val / 2000, ht⟩ (1 : Fin 2) * 163 + 163
    omega

/-- The self-loop term's array after the region: (h · W) scaled row by row by the column, plus the bias row, of the
    node features, weights, bias row and column as the region finds them. -/
theorem arr6_4 (c : Dev nD) :
    (dat6 (F := Ideal) V c).arrAt 4 cfg6.N
      = Cert.Spec.dense (V c main_v61) (V c main_arg10) (V c main_v79) (V c main_v80) :=
  (dat6 (F := Ideal) V c).arrAt_eq_of_cover 4
    (Cert.Spec.dense (V c main_v61) (V c main_arg10) (V c main_v79) (V c main_v80))
    (fun t _ => flushed6_4 V c t) covered6_4

end Cert.KernelIdeal.RegVal
end
-- ==== Proof.RegE7.lean ====
/-
  Region 7, an epilogue call on 163 columns with no activation. Its two inputs are the aggregated messages and the
  self-loop term, both 50000 x 163; its output, also 50000 x 163, holds at every index the sum of the two inputs there.

  The call works on 25 blocks of 2000 whole rows. At grid point t every window stands on rows 2000 t .. 2000 t + 1999,
  so an entry of the output block depends on the two input entries of the same row and column only. The 25 row
  blocks fill the 50000 rows, hence the whole output array is that pointwise function of the two input arrays.
-/
import proofs.«420299_j43722767073851_4_alg».proof.Proof.Gen.KernelIdeal.Frame
import proofs.«420299_j43722767073851_4_alg».proof.Proof.Spec
import Idealize.ShloMosaic.Lib.Pipeline.Value
import Idealize.ShloMosaic.Lib.ValueIdx
import Idealize.ShloMosaic.PureOps.Ideal

set_option maxRecDepth 16384

noncomputable section
namespace Cert.KernelIdeal.RegVal
open Idealize.ShloMosaic Idealize.ShloMosaic.TcCoe Idealize.SL.Sem Cert.KernelIdeal Cert.KernelIdeal.Gen
open Idealize.ShloMosaic.Pipeline (Dat Cfg Window)
open Idealize.ShloMosaic.ValueIdx

variable (V : (c : Dev nD) → (b : Ref sig .tc) → Buf (Elt Ideal) ((c : Thread nD τ).loc b))

/-- The body reads and writes each of its blocks from the block's first row and first column. -/
theorem origin7 : (![0, 0] : Fin 2 → Nat) = fun _ => 0 := funext fun a => by fin_cases a <;> rfl

/-- The body's value at an index of its block: the two loaded blocks added there. -/
theorem epi7_apply (x0 x1 : FVec Ideal S2000x163 .f32) (j : S2000x163.Idx) :
    k7_pay1 (F := Ideal) x0 x1 j = x0 j + x1 j := by
  unfold k7_pay1
  simp only [shapeCast_self]
  rfl

/-- The same value, when the two block entries are the entries of two whole arrays at one index: the pointwise
    function of the two arrays at that index. -/
theorem epi7_apply_of_entries (A B : FVec Ideal S50000x163 .f32) (x0 x1 : FVec Ideal S2000x163 .f32)
    (j : S2000x163.Idx) (i : S50000x163.Idx) (h0 : x0 j = A i) (h1 : x1 j = B i) :
    k7_pay1 (F := Ideal) x0 x1 j = Cert.Spec.epiNone A B i := by
  rw [epi7_apply, h0, h1]
  rfl

/-- At grid point t each of the three windows stands on row block t and on the one column block. -/
theorem blockIndex7 : ∀ t : Fin cfg7.N, win7_0.index t (0 : Fin 2) = win7_2.index t (0 : Fin 2)
    ∧ win7_0.index t (1 : Fin 2) = win7_2.index t (1 : Fin 2)
    ∧ win7_1.index t (0 : Fin 2) = win7_2.index t (0 : Fin 2)
    ∧ win7_1.index t (1 : Fin 2) = win7_2.index t (1 : Fin 2)
    ∧ win7_2.index t (0 : Fin 2) ≤ 24
    ∧ win7_2.index t (1 : Fin 2) = 0 :=
  (by decide +kernel : ∀ t : Fin grid7.N, _)

/-- Every one of the 25 row blocks is the output's block at some grid point. -/
theorem blockIndex7_onto : ∀ q : Fin 25, ∃ t : Fin cfg7.N, win7_2.index t = ![q.val, 0] :=
  (by decide +kernel : ∀ q : Fin 25, ∃ t : Fin grid7.N, win7_2.index t = ![q.val, 0])

/-- What grid point t writes back to the output array is block t of the pointwise function of the two input arrays:
    an entry of the output block and the entries of the two input blocks it is computed from sit at the same row and
    column of their arrays (block index times block size plus the coordinate inside the block, on each axis). -/
theorem flushed7_2_eq (c : Dev nD) (t : Fin cfg7.N) :
    (dat7 (F := Ideal) V c).flushed 2 t
      = ((cfg7.win 2).blk t).view.read (Elt Ideal) (Cert.Spec.epiNone (V c main_v94) (V c main_v81_0)) := by
  show (cfg7.win 2).cut (grid7.coords t) ((dat7 (F := Ideal) V c).after 2 t) = _
  rw [after7_2]
  unfold out7_2
  rw [View.canon_unit_zero origin7]
  simp only [View.ld_unit_zero (S := S2000x163) origin7]
  obtain ⟨e0, e1, e2, e3, e4, e5⟩ := blockIndex7 t
  funext j
  have h0 : ((cfg7.win 0).blk t).view.emb j = ((cfg7.win 2).blk t).view.emb j := by
    funext a; apply Fin.ext
    match a with
    | ⟨0, _⟩ => show win7_0.index t (0 : Fin 2) * 2000 + 1 * (j 0).val = win7_2.index t (0 : Fin 2) * 2000 + 1 * (j 0).val; omega
    | ⟨1, _⟩ => show win7_0.index t (1 : Fin 2) * 163 + 1 * (j 1).val = win7_2.index t (1 : Fin 2) * 163 + 1 * (j 1).val; omega
  have h1 : ((cfg7.win 1).blk t).view.emb j = ((cfg7.win 2).blk t).view.emb j := by
    funext a; apply Fin.ext
    match a with
    | ⟨0, _⟩ => show win7_1.index t (0 : Fin 2) * 2000 + 1 * (j 0).val = win7_2.index t (0 : Fin 2) * 2000 + 1 * (j 0).val; omega
    | ⟨1, _⟩ => show win7_1.index t (1 : Fin 2) * 163 + 1 * (j 1).val = win7_2.index t (1 : Fin 2) * 163 + 1 * (j 1).val; omega
  exact epi7_apply_of_entries (V c main_v94) (V c main_v81_0) (iblk7 V c 0 t) (iblk7 V c 1 t) j
    (((cfg7.win 2).blk t).view.emb j) (congrArg (V c main_v94) h0) (congrArg (V c main_v81_0) h1)

/-- An index of the output array lies in grid point t's block exactly when, on each axis, its coordinate lies in the
    block's range there. -/
theorem mem_block7_2 (t : Fin cfg7.N) (i : S50000x163.Idx) :
    i ∈ ((cfg7.win 2).blk t).view.set ↔ ∀ a : Fin 2, win7_2.index t a * S2000x163.size a ≤ (i a).val
      ∧ (i a).val < win7_2.index t a * S2000x163.size a + S2000x163.size a := by
  show i ∈ ((View.whole main_v95).slice (win7_2.rect t)).set ↔ _
  rw [View.set_slice_whole, Rect.mem_set_unit]
  exact Iff.rfl

/-- Every index of the output array is written back by some grid point: row r lies in row block r / 2000. -/
theorem covered7_2 (i : S50000x163.Idx) :
    ∃ t : Fin cfg7.N, (cfg7.win 2).flush t = true ∧ i ∈ ((cfg7.win 2).blk t).view.set := by
  have hi0 : (i 0).val < 50000 := (i 0).isLt
  have hi1 : (i 1).val < 163 := (i 1).isLt
  obtain ⟨t, ht⟩ := blockIndex7_onto ⟨(i 0).val / 2000, by omega⟩
  have q0 : win7_2.index t (0 : Fin 2) = (i 0).val / 2000 := congrFun ht 0
  have q1 : win7_2.index t (1 : Fin 2) = 0 := congrFun ht 1
  refine ⟨t, flush7_2 t, ?_⟩
  rw [mem_block7_2]
  intro a
  match a with
  | ⟨0, _⟩ => show win7_2.index t (0 : Fin 2) * 2000 ≤ (i 0).val ∧ (i 0).val < win7_2.index t (0 : Fin 2) * 2000 + 2000; omega
  | ⟨1, _⟩ => show win7_2.index t (1 : Fin 2) * 163 ≤ (i 1).val ∧ (i 1).val < win7_2.index t (1 : Fin 2) * 163 + 163; omega

/-- The output array of region 7 after the call: the sum of the aggregated messages and the self-loop term, index by
    index. -/
theorem arr7_2 (c : Dev nD) : (dat7 (F := Ideal) V c).arrAt 2 cfg7.N = Cert.Spec.epiNone (V c main_v94) (V c main_v81_0) :=
  (dat7 (F := Ideal) V c).arrAt_eq_of_cover 2 (Cert.Spec.epiNone (V c main_v94) (V c main_v81_0))
    (fun t _ => flushed7_2_eq V c t) covered7_2

end Cert.KernelIdeal.RegVal
end
-- ==== Proof.Match4.lean ====
/-
  Layer 4 (144 -> 163 columns, no activation), as pure functions of the argument arrays: the kernel's two calls and
  the reference's operations compute one array.
  The reference's layer is (agg + hw * sc) + b with hw = h · W, sc the self-loop coefficient broadcast along rows and
  b the bias broadcast along columns; the kernel's is agg + (hw * sc + b) with sc read from an n x 1 column and b from
  a 1 x c row. The two agree entry by entry by associativity of addition on the extended reals (no finiteness is
  needed: only + is regrouped).
-/
import proofs.«420299_j43722767073851_4_alg».proof.Proof.Gen.ReferenceIdeal.Read
import proofs.«420299_j43722767073851_4_alg».proof.Proof.Spec
import proofs.«420299_j43722767073851_4_alg».proof.Proof.LibColumn
import Idealize.ShloMosaic.Lib.ValueLayout
import Idealize.ShloMosaic.Lib.ValueIdx
import Idealize.ShloMosaic.PureOps.Ideal

noncomputable section

namespace Cert.Match

open Idealize.ShloMosaic Idealize.ShloMosaic.ValueIdx Cert.ReferenceIdeal Cert.ReferenceIdeal.Read

/-- The matrix product of the layer's input with its weights is the reference's dot_general. -/
theorem mm_L4
    (x0 : (⟨S50000x96, .f32⟩ : BufTy).Contents (Elt Ideal))
    (x1 : (⟨S2x800000, .i32⟩ : BufTy).Contents (Elt Ideal))
    (x4 : (⟨S96x125, .f32⟩ : BufTy).Contents (Elt Ideal))
    (x5 : (⟨S125, .f32⟩ : BufTy).Contents (Elt Ideal))
    (x6 : (⟨S125x144, .f32⟩ : BufTy).Contents (Elt Ideal))
    (x7 : (⟨S144, .f32⟩ : BufTy).Contents (Elt Ideal))
    (x10 : (⟨S144x163, .f32⟩ : BufTy).Contents (Elt Ideal)) :
    Cert.Spec.mm (n := 50000) (a := 144) (b := 163) (val_main_v70 (F := Ideal) x0 x1 x4 x5 x6 x7) x10 = val_main_v91 (F := Ideal) x0 x1 x4 x5 x6 x7 x10 := by
  funext i
  rw [val_main_v91_apply]
  unfold Cert.Spec.mm
  refine Finset.sum_congr rfl fun k _ => ?_
  have el : Cert.Spec.lix (a := 144) i k = lidx_main_v91 i k := funext fun d => by
    match d with
    | ⟨0, _⟩ => rfl
    | ⟨1, _⟩ => rfl
  have er : Cert.Spec.rix (n := 50000) (a := 144) i k = ridx_main_v91 i k := funext fun d => by
    match d with
    | ⟨0, _⟩ => rfl
    | ⟨1, _⟩ => rfl
  rw [el, er]

/-- The layer's output: the epilogue of the aggregated messages and the dense call's self-loop term is the
    reference's (agg + hw * sc) + b. -/
theorem out_L4
    (x0 : (⟨S50000x96, .f32⟩ : BufTy).Contents (Elt Ideal))
    (x1 : (⟨S2x800000, .i32⟩ : BufTy).Contents (Elt Ideal))
    (x4 : (⟨S96x125, .f32⟩ : BufTy).Contents (Elt Ideal))
    (x5 : (⟨S125, .f32⟩ : BufTy).Contents (Elt Ideal))
    (x6 : (⟨S125x144, .f32⟩ : BufTy).Contents (Elt Ideal))
    (x7 : (⟨S144, .f32⟩ : BufTy).Contents (Elt Ideal))
    (x10 : (⟨S144x163, .f32⟩ : BufTy).Contents (Elt Ideal))
    (x11 : (⟨S163, .f32⟩ : BufTy).Contents (Elt Ideal))
    (hb : (⟨1, ![163]⟩ : Shape).ShapeCasts ⟨2, ![1, 163]⟩) (hs : (⟨1, ![50000]⟩ : Shape).ShapeCasts ⟨2, ![50000, 1]⟩) :
    Cert.Spec.epiNone (n := 50000) (b := 163) (val_main_v104 (F := Ideal) x0 x1 x4 x5 x6 x7 x10)
      (Cert.Spec.dense (n := 50000) (a := 144) (b := 163) (val_main_v70 (F := Ideal) x0 x1 x4 x5 x6 x7) x10 (shapeCast ⟨2, ![1, 163]⟩ x11 hb)
        (shapeCast ⟨2, ![50000, 1]⟩ (val_main_v27 (F := Ideal) x1) hs))
    = val_main_v110 (F := Ideal) x0 x1 x4 x5 x6 x7 x10 x11 := by
  funext i
  rw [val_main_v110_apply, val_main_v107_apply, val_main_v106_apply, val_main_v105_apply, val_main_v28_apply,
    val_main_v109_apply, val_main_v108_apply, ← mm_L4]
  have ec : Cert.Spec.colIx (n := 50000) (b := 163) i = ix2 (⟨(i 0).val, (i 0).isLt⟩ : Fin 50000) (⟨0, Nat.one_pos⟩ : Fin 1) :=
    funext fun d => by
      match d with
      | ⟨0, _⟩ => rfl
      | ⟨1, _⟩ => rfl
  have er : Cert.Spec.rowIx (n := 50000) (b := 163) i = ix2 (⟨0, Nat.one_pos⟩ : Fin 1) (⟨(i 1).val, (i 1).isLt⟩ : Fin 163) :=
    funext fun d => by
      match d with
      | ⟨0, _⟩ => rfl
      | ⟨1, _⟩ => rfl
  have e1 : idx_main_v28 (idx_main_v105 i) = ix1 (⟨(i 0).val, (i 0).isLt⟩ : Fin 50000) := funext fun d => by
    match d with
    | ⟨0, _⟩ => rfl
  have e2 : idx_main_v108 (idx_main_v109 i) = ix1 (⟨(i 1).val, (i 1).isLt⟩ : Fin 163) := funext fun d => by
    match d with
    | ⟨0, _⟩ => rfl
  unfold Cert.Spec.epiNone Cert.Spec.dense
  rw [ec, er, Cert.LibColumn.shapeCast_a_a1_apply, shapeCast_a_1a_apply, e1, e2]
  simp only [Ideal.addf_def, Ideal.mulf_def]
  rw [add_assoc]

end Cert.Match

end
-- ==== Proof.Layer4.lean ====
/-
  Layer 4 (edge branch, fourth convolution) of the kernel's program, segment by segment.
  The layer reads the previous layer's output h, its weight matrix and bias (arguments nothing has written), and
  the values the whole program shares (the edges' source and target nodes, the edge and self-loop coefficients).
  The first host stretch lays the bias out as a 1 x 163 row and the self-loop coefficients as a 50000 x 1 column;
  the dense call leaves h · W and (h · W) * sc + b; the second host stretch gathers the product's rows along the
  edges, scales them and scatter-adds them into the target nodes; the epilogue call adds the self-loop term and
  applies no activation. The result is the reference's layer.
-/
import proofs.«420299_j43722767073851_4_alg».proof.Proof.Layer3
import proofs.«420299_j43722767073851_4_alg».proof.Proof.KeepGlobals
import proofs.«420299_j43722767073851_4_alg».proof.Proof.KeepArgsA
import proofs.«420299_j43722767073851_4_alg».proof.Proof.KeepCarried
import proofs.«420299_j43722767073851_4_alg».proof.Proof.RegD6
import proofs.«420299_j43722767073851_4_alg».proof.Proof.RegE7
import proofs.«420299_j43722767073851_4_alg».proof.Proof.Match4

set_option maxRecDepth 16384

noncomputable section

namespace Cert.KernelIdeal.Chain

open Cert.KernelIdeal Cert.KernelIdeal.Gen Cert.KernelIdeal.Keep
open Idealize.ShloMosaic Idealize.ShloMosaic.TcCoe Idealize.SL.Sem
open Cert.ReferenceIdeal.Read

variable (m : (ℓ : Loc nD τ sig) → Buf (Elt Ideal) ℓ) (ρ : Dev nD → PrngReg)

/-! ## The dense call's inputs at its entry -/

/-- The layer's input: the previous layer's output. -/
theorem in6_h (c : Dev nD) : V13 m ρ c main_v61 = val_main_v70 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) :=
  (show W13 m ρ c (Proc.devRef .tc main_v61) = W12 m ρ c (Proc.devRef .tc main_v61) from by host_keep hostOps6).trans ((keep_v61_12 m ρ c).trans (out_L2 m ρ c))

theorem in6_W (c : Dev nD) : V13 m ρ c main_arg10 = (m ((c : Thread nD τ).loc main_arg10)) :=
  (show W13 m ρ c (Proc.devRef .tc main_arg10) = W12 m ρ c (Proc.devRef .tc main_arg10) from by host_keep hostOps6).trans (keep_arg10_12 m ρ c)

/-- The bias as a 1 x 163 row. -/
theorem in6_b (c : Dev nD) : V13 m ρ c main_v79 = shapeCast S1x163 (m ((c : Thread nD τ).loc main_arg11)) shapeCasts_S163_S1x163 := by
  show StableHlo.after hostOps6 (W12 m ρ c) (Proc.devRef .tc main_v79) = _
  after_results
  rw [keep_arg11_12 m ρ c]
  rfl

/-- The self-loop coefficients as a 50000 x 1 column. -/
theorem in6_sc (c : Dev nD) : V13 m ρ c main_v80 = shapeCast S50000x1 (val_main_v27 (F := Ideal) (m ((c : Thread nD τ).loc main_arg1))) shapeCasts_S50000_S50000x1 := by
  show StableHlo.after hostOps6 (W12 m ρ c) (Proc.devRef .tc main_v80) = _
  after_results
  rw [at12_v27 m ρ c]
  rfl

/-! ## The dense call's outputs -/

/-- h · W, the reference's dot_general. -/
theorem hw_L4 (c : Dev nD) : W14 m ρ c (Proc.devRef .tc main_v81_1) = val_main_v91 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg10)) := by
  refine (W14_arr m ρ c 5).trans ?_
  rw [Cert.KernelIdeal.RegVal.arr6_5 (V13 m ρ) c, in6_h m ρ c, in6_W m ρ c]
  exact Cert.Match.mm_L4 _ _ _ _ _ _ _

/-- The self-loop term (h · W) * sc + b. -/
theorem oi_L4 (c : Dev nD) : W14 m ρ c (Proc.devRef .tc main_v81_0)
    = Cert.Spec.dense (val_main_v70 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7))) (m ((c : Thread nD τ).loc main_arg10)) (shapeCast S1x163 (m ((c : Thread nD τ).loc main_arg11)) shapeCasts_S163_S1x163)
        (shapeCast S50000x1 (val_main_v27 (F := Ideal) (m ((c : Thread nD τ).loc main_arg1))) shapeCasts_S50000_S50000x1) := by
  refine (W14_arr m ρ c 4).trans ?_
  rw [Cert.KernelIdeal.RegVal.arr6_4 (V13 m ρ) c, in6_h m ρ c, in6_W m ρ c, in6_b m ρ c, in6_sc m ρ c]

/-! ## The shared values after the dense call -/

theorem g14_v1 (c : Dev nD) : W14 m ρ c (Proc.devRef .tc main_v1) = val_main_v1 (F := Ideal) (m ((c : Thread nD τ).loc main_arg1)) :=
  (W14_of_ne m ρ c main_v1 (by decide)).trans <| (show W13 m ρ c (Proc.devRef .tc main_v1) = W12 m ρ c (Proc.devRef .tc main_v1) from by host_keep hostOps6).trans (at12_v1 m ρ c)
theorem g14_v3 (c : Dev nD) : W14 m ρ c (Proc.devRef .tc main_v3) = val_main_v3 (F := Ideal) (m ((c : Thread nD τ).loc main_arg1)) :=
  (W14_of_ne m ρ c main_v3 (by decide)).trans <| (show W13 m ρ c (Proc.devRef .tc main_v3) = W12 m ρ c (Proc.devRef .tc main_v3) from by host_keep hostOps6).trans (at12_v3 m ρ c)
theorem g14_v26 (c : Dev nD) : W14 m ρ c (Proc.devRef .tc main_v26) = val_main_v26 (F := Ideal) (m ((c : Thread nD τ).loc main_arg1)) :=
  (W14_of_ne m ρ c main_v26 (by decide)).trans <| (show W13 m ρ c (Proc.devRef .tc main_v26) = W12 m ρ c (Proc.devRef .tc main_v26) from by host_keep hostOps6).trans (at12_v26 m ρ c)

/-! ## The aggregated messages, and the epilogue -/

set_option maxHeartbeats 1600000 in
/-- Rows of h · W gathered along the edges, scaled by the edge coefficients, scatter-added into the target nodes. -/
theorem agg_L4 (c : Dev nD) : V15 m ρ c main_v94 = val_main_v104 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg10)) := by
  show StableHlo.after hostOps7 (W14 m ρ c) (Proc.devRef .tc main_v94) = _
  after_results
  rw [g14_v1 m ρ c, g14_v3 m ρ c, g14_v26 m ρ c, hw_L4 m ρ c]
  rfl

theorem oi3_L4 (c : Dev nD) : V15 m ρ c main_v81_0
    = Cert.Spec.dense (val_main_v70 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7))) (m ((c : Thread nD τ).loc main_arg10)) (shapeCast S1x163 (m ((c : Thread nD τ).loc main_arg11)) shapeCasts_S163_S1x163)
        (shapeCast S50000x1 (val_main_v27 (F := Ideal) (m ((c : Thread nD τ).loc main_arg1))) shapeCasts_S50000_S50000x1) :=
  (show W15 m ρ c (Proc.devRef .tc main_v81_0) = W14 m ρ c (Proc.devRef .tc main_v81_0) from by host_keep hostOps7).trans (oi_L4 m ρ c)

/-- The layer's output is the reference's. -/
theorem out_L4 (c : Dev nD) : W16 m ρ c (Proc.devRef .tc main_v95) = val_main_v110 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg10)) (m ((c : Thread nD τ).loc main_arg11)) := by
  refine (W16_arr m ρ c 2).trans ?_
  rw [Cert.KernelIdeal.RegVal.arr7_2 (V15 m ρ) c, agg_L4 m ρ c, oi3_L4 m ρ c]
  exact Cert.Match.out_L4 _ _ _ _ _ _ _ _ _ _

/-! ## The shared values at the layer's exit -/

theorem at16_v1 (c : Dev nD) : W16 m ρ c (Proc.devRef .tc main_v1) = val_main_v1 (F := Ideal) (m ((c : Thread nD τ).loc main_arg1)) :=
  (keepL4_v1 m ρ c).trans (at12_v1 m ρ c)
theorem at16_v3 (c : Dev nD) : W16 m ρ c (Proc.devRef .tc main_v3) = val_main_v3 (F := Ideal) (m ((c : Thread nD τ).loc main_arg1)) :=
  (keepL4_v3 m ρ c).trans (at12_v3 m ρ c)
theorem at16_v26 (c : Dev nD) : W16 m ρ c (Proc.devRef .tc main_v26) = val_main_v26 (F := Ideal) (m ((c : Thread nD τ).loc main_arg1)) :=
  (keepL4_v26 m ρ c).trans (at12_v26 m ρ c)
theorem at16_v27 (c : Dev nD) : W16 m ρ c (Proc.devRef .tc main_v27) = val_main_v27 (F := Ideal) (m ((c : Thread nD τ).loc main_arg1)) :=
  (keepL4_v27 m ρ c).trans (at12_v27 m ρ c)

end Cert.KernelIdeal.Chain

end
-- ==== Proof.RegD8.lean ====
/-
  The fifth dense call of the kernel (node features 50000 x 163, weights 163 x 192), read as whole arrays on the
  extended reals. Its grid has 25 points; point t holds rows 2000 t .. 2000 t + 1999 of the node features, of the
  self-loop column and of both outputs, and the whole of the weights and of the bias row. One block of the product
  is a sum over the contracted axis (the left operand first passes through a cast to its own shape); one block of
  the self-loop term is that product scaled row by row by the column plus the bias row. The blocks of the 25 points
  tile each output array, so each array ends holding the whole product h · W, respectively (h · W) scaled by the
  column plus the bias row.
-/
import proofs.«420299_j43722767073851_4_alg».proof.Proof.Gen.KernelIdeal.Frame
import proofs.«420299_j43722767073851_4_alg».proof.Proof.Spec
import proofs.«420299_j43722767073851_4_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384
noncomputable section
namespace Cert.KernelIdeal.RegVal
open Idealize.ShloMosaic Idealize.ShloMosaic.TcCoe Idealize.SL.Sem Cert.KernelIdeal Cert.KernelIdeal.Gen
open Idealize.ShloMosaic.Pipeline (Dat Cfg Window)
open Idealize.ShloMosaic.ValueIdx

/-! ## The product h · W of one block, entry by entry -/

/-- Row axis of the left operand: the output index's row. -/
theorem lhs_mm8_0 (i : S2000x192.Idx) (q : dot_S2000x163_S163x192_S2000x192_1_0_0_1_n_n.contr.Idx) :
    (dot_S2000x163_S163x192_S2000x192_1_0_0_1_n_n.lhsIdx i q 0).val = (i 0).val := by
  unfold DotDims.lhsIdx
  rw [dif_neg (show ¬(0 : Fin S2000x163.rank) ∈ dot_S2000x163_S163x192_S2000x192_1_0_0_1_n_n.lhsBatch by decide), dif_pos (show (0 : Fin S2000x163.rank) ∈ dot_S2000x163_S163x192_S2000x192_1_0_0_1_n_n.lhsNonContracting by decide)]
  rfl
/-- Column axis of the left operand: the contracted position. -/
theorem lhs_mm8_1 (i : S2000x192.Idx) (q : dot_S2000x163_S163x192_S2000x192_1_0_0_1_n_n.contr.Idx) :
    (dot_S2000x163_S163x192_S2000x192_1_0_0_1_n_n.lhsIdx i q 1).val = (q ⟨0, by decide⟩).val :=
  dot_S2000x163_S163x192_S2000x192_1_0_0_1_n_n.lhsIdx_val_of_single rfl i q
/-- Row axis of the right operand: the contracted position. -/
theorem rhs_mm8_0 (i : S2000x192.Idx) (q : dot_S2000x163_S163x192_S2000x192_1_0_0_1_n_n.contr.Idx) :
    (dot_S2000x163_S163x192_S2000x192_1_0_0_1_n_n.rhsIdx i q 0).val = (q ⟨0, by decide⟩).val :=
  dot_S2000x163_S163x192_S2000x192_1_0_0_1_n_n.rhsIdx_val_of_single rfl i q
/-- Column axis of the right operand: the output index's column. -/
theorem rhs_mm8_1 (i : S2000x192.Idx) (q : dot_S2000x163_S163x192_S2000x192_1_0_0_1_n_n.contr.Idx) :
    (dot_S2000x163_S163x192_S2000x192_1_0_0_1_n_n.rhsIdx i q 1).val = (i 1).val := by
  unfold DotDims.rhsIdx
  rw [dif_neg (show ¬(1 : Fin S163x192.rank) ∈ dot_S2000x163_S163x192_S2000x192_1_0_0_1_n_n.rhsBatch by decide), dif_pos (show (1 : Fin S163x192.rank) ∈ dot_S2000x163_S163x192_S2000x192_1_0_0_1_n_n.rhsNonContracting by decide)]
  rfl

/-- The block product at an index: the left operand enters through a cast to its own shape, which changes nothing;
    the product is the sum over the 163 contracted positions of the left operand's entry in the index's row times the
    right operand's entry in the index's column. -/
theorem blockProd8_apply (x0 : Vec Ideal S2000x163 .f32) (x1 : Vec Ideal S163x192 .f32) (j : S2000x192.Idx) :
    k8_pay1 (F := Ideal) x0 x1 j = ∑ k : Fin 163, x0 (Cert.Spec.lix j k) * x1 (Cert.Spec.rix j k) := by
  unfold k8_pay1
  refine (Ideal.matmul_constant_zero_apply dot_S2000x163_S163x192_S2000x192_1_0_0_1_n_n none
    (shapeCast S2000x163 x0 shapeCasts_S2000x163_S2000x163) x1 j).trans ?_
  rw [shapeCast_self]
  rw [← Equiv.sum_comp (ValueIdx.contrEquiv1 dot_S2000x163_S163x192_S2000x192_1_0_0_1_n_n 163 rfl rfl).symm]
  refine Finset.sum_congr rfl fun k _ => ?_
  have hk := ValueIdx.contrEquiv1_symm_val dot_S2000x163_S163x192_S2000x192_1_0_0_1_n_n 163 rfl rfl k
  have el : dot_S2000x163_S163x192_S2000x192_1_0_0_1_n_n.lhsIdx j ((ValueIdx.contrEquiv1 dot_S2000x163_S163x192_S2000x192_1_0_0_1_n_n 163 rfl rfl).symm k) = Cert.Spec.lix j k := funext fun a => Fin.ext (by
    match a with
    | ⟨0, _⟩ => exact lhs_mm8_0 _ _
    | ⟨1, _⟩ => exact (lhs_mm8_1 _ _).trans hk)
  have er : dot_S2000x163_S163x192_S2000x192_1_0_0_1_n_n.rhsIdx j ((ValueIdx.contrEquiv1 dot_S2000x163_S163x192_S2000x192_1_0_0_1_n_n 163 rfl rfl).symm k) = Cert.Spec.rix j k := funext fun a => Fin.ext (by
    match a with
    | ⟨0, _⟩ => exact (rhs_mm8_0 _ _).trans hk
    | ⟨1, _⟩ => exact rhs_mm8_1 _ _)
  rw [el, er]

/-! ## The scaled product plus the bias row, of one block, entry by entry -/

/-- The block's self-loop term at an index: the block product there, times the column's entry in the index's row,
    plus the bias row's entry in the index's column. -/
theorem blockDense8_apply (x0 : Vec Ideal S2000x163 .f32) (x1 : Vec Ideal S163x192 .f32) (x3 : Vec Ideal S2000x1 .f32)
    (x7 : Vec Ideal S1x192 .f32) (j : S2000x192.Idx) :
    k8_pay2 (F := Ideal) x0 x1 x3 x7 j
      = k8_pay1 (F := Ideal) x0 x1 j * x3 (Cert.Spec.colIx j) + x7 (Cert.Spec.rowIx j) := by
  obtain ⟨p, q, rfl⟩ : ∃ (p : Fin 2000) (q : Fin 192), j = ix2 p q := ⟨j 0, j 1, eq_ix2 j⟩
  have ec : Cert.Spec.colIx (ix2 p q) = ix2 p (0 : Fin 1) := funext fun a => by
    match a with
    | ⟨0, _⟩ => rfl
    | ⟨1, _⟩ => rfl
  have er : Cert.Spec.rowIx (ix2 p q) = ix2 (0 : Fin 1) q := funext fun a => by
    match a with
    | ⟨0, _⟩ => rfl
    | ⟨1, _⟩ => rfl
  unfold k8_pay2
  show k8_pay1 (F := Ideal) x0 x1 (ix2 p q)
        * broadcastTo S2000x192 (shapeCast S2000x1 x3 shapeCasts_S2000x1_S2000x1) broadcasts_S2000x1_S2000x192 (ix2 p q)
      + broadcastTo S2000x192 (shapeCast S1x192 x7 shapeCasts_S1x192_S1x192) broadcasts_S1x192_S2000x192 (ix2 p q) = _
  rw [shapeCast_self, shapeCast_self, Cert.LibColumn.broadcastTo_a1_ab_apply, broadcastTo_1b_ab_apply, ec, er]

variable (V : (c : Dev nD) → (b : Ref sig .tc) → Buf (Elt Ideal) ((c : Thread nD τ).loc b))

/-! ## From blocks to the arrays -/

theorem zeroOff8 : (![0, 0] : Fin 2 → Nat) = fun _ => 0 := funext fun a => by
  match a with
  | ⟨0, _⟩ => rfl
  | ⟨1, _⟩ => rfl

/-- The printed index maps over the grid: the windows cut in row blocks (node features, column, both outputs) sit at
    block row t, block column 0; the weights and the bias row are their one block. -/
theorem blockIdx8 : ∀ t : Fin cfg8.N,
    win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = t.val ∧ win8_3.index t (1 : Fin 2) = 0
    ∧ win8_4.index t (0 : Fin 2) = t.val ∧ win8_4.index t (1 : Fin 2) = 0
    ∧ win8_5.index t (0 : Fin 2) = t.val ∧ win8_5.index t (1 : Fin 2) = 0 :=
  (by decide +kernel : ∀ t : Fin grid8.N, _)

/-- The block product of point t at a block index is the whole product h · W at the array index whose row is
    2000 t plus the block index's row and whose column is the block index's column. -/
theorem blockProd8_at (c : Dev nD) (t : Fin cfg8.N) (j : S2000x192.Idx) (i : S50000x192.Idx)
    (hr : (i 0).val = t.val * 2000 + (j 0).val) (hc : (i 1).val = (j 1).val) :
    k8_pay1 (F := Ideal) (iblk8 V c 0 t) (iblk8 V c 1 t) j = Cert.Spec.mm (V c main_v100) (V c main_arg12) i := by
  obtain ⟨e00, e01, e10, e11, -⟩ := blockIdx8 t
  rw [blockProd8_apply]
  unfold Cert.Spec.mm
  refine Finset.sum_congr rfl fun k _ => ?_
  have a0 : iblk8 V c 0 t (Cert.Spec.lix j k) = V c main_v100 (Cert.Spec.lix i k) := by
    show V c main_v100 (((cfg8.win 0).blk t).view.emb (Cert.Spec.lix j k)) = _
    refine congrArg (V c main_v100) ?_
    funext a; apply Fin.ext
    match a with
    | ⟨0, _⟩ => show win8_0.index t (0 : Fin 2) * 2000 + 1 * (j 0).val = (i 0).val; omega
    | ⟨1, _⟩ => show win8_0.index t (1 : Fin 2) * 163 + 1 * k.val = k.val; omega
  have a1 : iblk8 V c 1 t (Cert.Spec.rix j k) = V c main_arg12 (Cert.Spec.rix i k) := by
    show V c main_arg12 (((cfg8.win 1).blk t).view.emb (Cert.Spec.rix j k)) = _
    refine congrArg (V c main_arg12) ?_
    funext a; apply Fin.ext
    match a with
    | ⟨0, _⟩ => show win8_1.index t (0 : Fin 2) * 163 + 1 * k.val = k.val; omega
    | ⟨1, _⟩ => show win8_1.index t (1 : Fin 2) * 192 + 1 * (j 1).val = (i 1).val; omega
  rw [a0, a1]

/-! ### The product's array (output window 5) -/

/-- What point t writes back to the product's array is block t of h · W of the arrays as the region finds them. -/
theorem flushed8_5 (c : Dev nD) (t : Fin cfg8.N) :
    (dat8 (F := Ideal) V c).flushed 5 t
      = ((cfg8.win 5).blk t).view.read (Elt Ideal) (Cert.Spec.mm (V c main_v100) (V c main_arg12)) := by
  show (cfg8.win 5).cut (grid8.coords t) ((dat8 (F := Ideal) V c).after 5 t) = _
  rw [after8_5]
  unfold out8_5
  rw [View.canon_unit_zero zeroOff8]
  simp only [View.ld_unit_zero (S := S2000x163) zeroOff8, View.ld_unit_zero (S := S163x192) zeroOff8]
  obtain ⟨-, -, -, -, -, -, -, -, -, -, e50, e51⟩ := blockIdx8 t
  refine funext fun (j : S2000x192.Idx) => ?_
  show k8_pay1 (F := Ideal) (iblk8 V c 0 t) (iblk8 V c 1 t) j
      = Cert.Spec.mm (V c main_v100) (V c main_arg12) (((cfg8.win 5).blk t).view.emb j : S50000x192.Idx)
  refine blockProd8_at V c t j _ ?_ ?_
  · show win8_5.index t (0 : Fin 2) * 2000 + 1 * (j 0).val = t.val * 2000 + (j 0).val; omega
  · show win8_5.index t (1 : Fin 2) * 192 + 1 * (j 1).val = (j 1).val; omega

/-- An index of the product's array is in point t's block iff each coordinate is in the block's range on its axis. -/
theorem mem_blk8_5 (t : Fin cfg8.N) (i : S50000x192.Idx) :
    i ∈ ((cfg8.win 5).blk t).view.set ↔ ∀ a : Fin 2, win8_5.index t a * S2000x192.size a ≤ (i a).val
      ∧ (i a).val < win8_5.index t a * S2000x192.size a + S2000x192.size a := by
  show i ∈ ((View.whole main_v103_1).slice (win8_5.rect t)).set ↔ _
  rw [View.set_slice_whole, Rect.mem_set_unit]
  exact Iff.rfl

/-- Every index of the product's array is in the block of the point its row divided by 2000 names, and every point
    writes its block back. -/
theorem covered8_5 (i : S50000x192.Idx) :
    ∃ t : Fin cfg8.N, (cfg8.win 5).flush t = true ∧ i ∈ ((cfg8.win 5).blk t).view.set := by
  have hi0 : (i 0).val < 50000 := (i 0).isLt
  have hi1 : (i 1).val < 192 := (i 1).isLt
  have ht : (i 0).val / 2000 < cfg8.N := by show (i 0).val / 2000 < 25; omega
  obtain ⟨-, -, -, -, -, -, -, -, -, -, e50, e51⟩ := blockIdx8 ⟨(i 0).val / 2000, ht⟩
  have e50' : win8_5.index ⟨(i 0).val / 2000, ht⟩ (0 : Fin 2) = (i 0).val / 2000 := e50
  refine ⟨⟨(i 0).val / 2000, ht⟩, flush8_5 _, ?_⟩
  rw [mem_blk8_5]
  intro a
  match a with
  | ⟨0, _⟩ =>
    show win8_5.index ⟨(i 0).val / 2000, ht⟩ (0 : Fin 2) * 2000 ≤ (i 0).val
      ∧ (i 0).val < win8_5.index ⟨(i 0).val / 2000, ht⟩ (0 : Fin 2) * 2000 + 2000
    omega
  | ⟨1, _⟩ =>
    show win8_5.index ⟨(i 0).val / 2000, ht⟩ (1 : Fin 2) * 192 ≤ (i 1).val
      ∧ (i 1).val < win8_5.index ⟨(i 0).val / 2000, ht⟩ (1 : Fin 2) * 192 + 192
    omega

/-- The product's array after the region: h · W of the node features and the weights as the region finds them. -/
theorem arr8_5 (c : Dev nD) :
    (dat8 (F := Ideal) V c).arrAt 5 cfg8.N = Cert.Spec.mm (V c main_v100) (V c main_arg12) :=
  (dat8 (F := Ideal) V c).arrAt_eq_of_cover 5 (Cert.Spec.mm (V c main_v100) (V c main_arg12))
    (fun t _ => flushed8_5 V c t) covered8_5

/-! ### The self-loop term's array (output window 4) -/

/-- What point t writes back to the self-loop term's array is block t of (h · W) scaled row by row by the column,
    plus the bias row, of the arrays as the region finds them. -/
theorem flushed8_4 (c : Dev nD) (t : Fin cfg8.N) :
    (dat8 (F := Ideal) V c).flushed 4 t
      = ((cfg8.win 4).blk t).view.read (Elt Ideal)
          (Cert.Spec.dense (V c main_v100) (V c main_arg12) (V c main_v101) (V c main_v102)) := by
  show (cfg8.win 4).cut (grid8.coords t) ((dat8 (F := Ideal) V c).after 4 t) = _
  rw [after8_4]
  unfold out8_4
  rw [View.canon_unit_zero zeroOff8]
  simp only [View.ld_unit_zero (S := S2000x163) zeroOff8, View.ld_unit_zero (S := S163x192) zeroOff8,
    View.ld_unit_zero (S := S2000x1) zeroOff8, View.ld_unit_zero (S := S1x192) zeroOff8]
  obtain ⟨-, -, -, -, e20, e21, e30, e31, e40, e41, -, -⟩ := blockIdx8 t
  refine funext fun (j : S2000x192.Idx) => ?_
  show k8_pay2 (F := Ideal) (iblk8 V c 0 t) (iblk8 V c 1 t) (iblk8 V c 3 t) (iblk8 V c 2 t) j
      = Cert.Spec.dense (V c main_v100) (V c main_arg12) (V c main_v101) (V c main_v102)
          (((cfg8.win 4).blk t).view.emb j : S50000x192.Idx)
  have hp : k8_pay1 (F := Ideal) (iblk8 V c 0 t) (iblk8 V c 1 t) j
      = Cert.Spec.mm (V c main_v100) (V c main_arg12) (((cfg8.win 4).blk t).view.emb j : S50000x192.Idx) := by
    refine blockProd8_at V c t j _ ?_ ?_
    · show win8_4.index t (0 : Fin 2) * 2000 + 1 * (j 0).val = t.val * 2000 + (j 0).val; omega
    · show win8_4.index t (1 : Fin 2) * 192 + 1 * (j 1).val = (j 1).val; omega
  have hcol : iblk8 V c 3 t (Cert.Spec.colIx j)
      = V c main_v102 (Cert.Spec.colIx (((cfg8.win 4).blk t).view.emb j : S50000x192.Idx)) := by
    show V c main_v102 (((cfg8.win 3).blk t).view.emb (Cert.Spec.colIx j)) = _
    refine congrArg (V c main_v102) ?_
    funext a; apply Fin.ext
    match a with
    | ⟨0, _⟩ => show win8_3.index t (0 : Fin 2) * 2000 + 1 * (j 0).val = win8_4.index t (0 : Fin 2) * 2000 + 1 * (j 0).val; omega
    | ⟨1, _⟩ => show win8_3.index t (1 : Fin 2) * 1 + 1 * 0 = 0; omega
  have hrow : iblk8 V c 2 t (Cert.Spec.rowIx j)
      = V c main_v101 (Cert.Spec.rowIx (((cfg8.win 4).blk t).view.emb j : S50000x192.Idx)) := by
    show V c main_v101 (((cfg8.win 2).blk t).view.emb (Cert.Spec.rowIx j)) = _
    refine congrArg (V c main_v101) ?_
    funext a; apply Fin.ext
    match a with
    | ⟨0, _⟩ => show win8_2.index t (0 : Fin 2) * 1 + 1 * 0 = 0; omega
    | ⟨1, _⟩ => show win8_2.index t (1 : Fin 2) * 192 + 1 * (j 1).val = win8_4.index t (1 : Fin 2) * 192 + 1 * (j 1).val; omega
  rw [blockDense8_apply, hp, hcol, hrow]
  rfl

/-- An index of the self-loop term's array is in point t's block iff each coordinate is in the block's range on its
    axis. -/
theorem mem_blk8_4 (t : Fin cfg8.N) (i : S50000x192.Idx) :
    i ∈ ((cfg8.win 4).blk t).view.set ↔ ∀ a : Fin 2, win8_4.index t a * S2000x192.size a ≤ (i a).val
      ∧ (i a).val < win8_4.index t a * S2000x192.size a + S2000x192.size a := by
  show i ∈ ((View.whole main_v103_0).slice (win8_4.rect t)).set ↔ _
  rw [View.set_slice_whole, Rect.mem_set_unit]
  exact Iff.rfl

/-- Every index of the self-loop term's array is in the block of the point its row divided by 2000 names, and every
    point writes its block back. -/
theorem covered8_4 (i : S50000x192.Idx) :
    ∃ t : Fin cfg8.N, (cfg8.win 4).flush t = true ∧ i ∈ ((cfg8.win 4).blk t).view.set := by
  have hi0 : (i 0).val < 50000 := (i 0).isLt
  have hi1 : (i 1).val < 192 := (i 1).isLt
  have ht : (i 0).val / 2000 < cfg8.N := by show (i 0).val / 2000 < 25; omega
  obtain ⟨-, -, -, -, -, -, -, -, e40, e41, -, -⟩ := blockIdx8 ⟨(i 0).val / 2000, ht⟩
  have e40' : win8_4.index ⟨(i 0).val / 2000, ht⟩ (0 : Fin 2) = (i 0).val / 2000 := e40
  refine ⟨⟨(i 0).val / 2000, ht⟩, flush8_4 _, ?_⟩
  rw [mem_blk8_4]
  intro a
  match a with
  | ⟨0, _⟩ =>
    show win8_4.index ⟨(i 0).val / 2000, ht⟩ (0 : Fin 2) * 2000 ≤ (i 0).val
      ∧ (i 0).val < win8_4.index ⟨(i 0).val / 2000, ht⟩ (0 : Fin 2) * 2000 + 2000
    omega
  | ⟨1, _⟩ =>
    show win8_4.index ⟨(i 0).val / 2000, ht⟩ (1 : Fin 2) * 192 ≤ (i 1).val
      ∧ (i 1).val < win8_4.index ⟨(i 0).val / 2000, ht⟩ (1 : Fin 2) * 192 + 192
    omega

/-- The self-loop term's array after the region: (h · W) scaled row by row by the column, plus the bias row, of the
    node features, weights, bias row and column as the region finds them. -/
theorem arr8_4 (c : Dev nD) :
    (dat8 (F := Ideal) V c).arrAt 4 cfg8.N
      = Cert.Spec.dense (V c main_v100) (V c main_arg12) (V c main_v101) (V c main_v102) :=
  (dat8 (F := Ideal) V c).arrAt_eq_of_cover 4
    (Cert.Spec.dense (V c main_v100) (V c main_arg12) (V c main_v101) (V c main_v102))
    (fun t _ => flushed8_4 V c t) covered8_4

end Cert.KernelIdeal.RegVal
end
-- ==== Proof.RegE9.lean ====
/-
  Region 9, an epilogue call on 192 columns. Its two inputs are the aggregated messages and the self-loop term, both
  50000 x 192; its output, also 50000 x 192, holds at every index the logistic function 1 / (1 + exp (-s)) of the sum s
  of the two inputs there.

  The call works on 25 blocks of 2000 whole rows. At grid point t every window stands on rows 2000 t .. 2000 t + 1999,
  so an entry of the output block depends on the two input entries of the same row and column only. The 25 row
  blocks fill the 50000 rows, hence the whole output array is that pointwise function of the two input arrays.
-/
import proofs.«420299_j43722767073851_4_alg».proof.Proof.Gen.KernelIdeal.Frame
import proofs.«420299_j43722767073851_4_alg».proof.Proof.Spec
import Idealize.ShloMosaic.Lib.Pipeline.Value
import Idealize.ShloMosaic.Lib.ValueIdx
import Idealize.ShloMosaic.PureOps.Ideal

set_option maxRecDepth 16384

noncomputable section
namespace Cert.KernelIdeal.RegVal
open Idealize.ShloMosaic Idealize.ShloMosaic.TcCoe Idealize.SL.Sem Cert.KernelIdeal Cert.KernelIdeal.Gen
open Idealize.ShloMosaic.Pipeline (Dat Cfg Window)
open Idealize.ShloMosaic.ValueIdx

variable (V : (c : Dev nD) → (b : Ref sig .tc) → Buf (Elt Ideal) ((c : Thread nD τ).loc b))

/-- The body reads and writes each of its blocks from the block's first row and first column. -/
theorem origin9 : (![0, 0] : Fin 2 → Nat) = fun _ => 0 := funext fun a => by fin_cases a <;> rfl

/-- The body's value at an index of its block: the two loaded blocks added there, then the logistic function of that
    sum (on the extended reals the body's logistic operation is the function 1 / (1 + exp (-s))). -/
theorem epi9_apply (x0 x1 : FVec Ideal S2000x192 .f32) (j : S2000x192.Idx) :
    k9_pay1 (F := Ideal) x0 x1 j = Ideal.logistic (x0 j + x1 j) := by
  unfold k9_pay1
  simp only [shapeCast_self]
  rfl

/-- The same value, when the two block entries are the entries of two whole arrays at one index: the pointwise
    function of the two arrays at that index. -/
theorem epi9_apply_of_entries (A B : FVec Ideal S50000x192 .f32) (x0 x1 : FVec Ideal S2000x192 .f32)
    (j : S2000x192.Idx) (i : S50000x192.Idx) (h0 : x0 j = A i) (h1 : x1 j = B i) :
    k9_pay1 (F := Ideal) x0 x1 j = Cert.Spec.epiSigmoid A B i := by
  rw [epi9_apply, h0, h1]
  rfl

/-- At grid point t each of the three windows stands on row block t and on the one column block. -/
theorem blockIndex9 : ∀ t : Fin cfg9.N, win9_0.index t (0 : Fin 2) = win9_2.index t (0 : Fin 2)
    ∧ win9_0.index t (1 : Fin 2) = win9_2.index t (1 : Fin 2)
    ∧ win9_1.index t (0 : Fin 2) = win9_2.index t (0 : Fin 2)
    ∧ win9_1.index t (1 : Fin 2) = win9_2.index t (1 : Fin 2)
    ∧ win9_2.index t (0 : Fin 2) ≤ 24
    ∧ win9_2.index t (1 : Fin 2) = 0 :=
  (by decide +kernel : ∀ t : Fin grid9.N, _)

/-- Every one of the 25 row blocks is the output's block at some grid point. -/
theorem blockIndex9_onto : ∀ q : Fin 25, ∃ t : Fin cfg9.N, win9_2.index t = ![q.val, 0] :=
  (by decide +kernel : ∀ q : Fin 25, ∃ t : Fin grid9.N, win9_2.index t = ![q.val, 0])

/-- What grid point t writes back to the output array is block t of the pointwise function of the two input arrays:
    an entry of the output block and the entries of the two input blocks it is computed from sit at the same row and
    column of their arrays (block index times block size plus the coordinate inside the block, on each axis). -/
theorem flushed9_2_eq (c : Dev nD) (t : Fin cfg9.N) :
    (dat9 (F := Ideal) V c).flushed 2 t
      = ((cfg9.win 2).blk t).view.read (Elt Ideal) (Cert.Spec.epiSigmoid (V c main_v116) (V c main_v103_0)) := by
  show (cfg9.win 2).cut (grid9.coords t) ((dat9 (F := Ideal) V c).after 2 t) = _
  rw [after9_2]
  unfold out9_2
  rw [View.canon_unit_zero origin9]
  simp only [View.ld_unit_zero (S := S2000x192) origin9]
  obtain ⟨e0, e1, e2, e3, e4, e5⟩ := blockIndex9 t
  funext j
  have h0 : ((cfg9.win 0).blk t).view.emb j = ((cfg9.win 2).blk t).view.emb j := by
    funext a; apply Fin.ext
    match a with
    | ⟨0, _⟩ => show win9_0.index t (0 : Fin 2) * 2000 + 1 * (j 0).val = win9_2.index t (0 : Fin 2) * 2000 + 1 * (j 0).val; omega
    | ⟨1, _⟩ => show win9_0.index t (1 : Fin 2) * 192 + 1 * (j 1).val = win9_2.index t (1 : Fin 2) * 192 + 1 * (j 1).val; omega
  have h1 : ((cfg9.win 1).blk t).view.emb j = ((cfg9.win 2).blk t).view.emb j := by
    funext a; apply Fin.ext
    match a with
    | ⟨0, _⟩ => show win9_1.index t (0 : Fin 2) * 2000 + 1 * (j 0).val = win9_2.index t (0 : Fin 2) * 2000 + 1 * (j 0).val; omega
    | ⟨1, _⟩ => show win9_1.index t (1 : Fin 2) * 192 + 1 * (j 1).val = win9_2.index t (1 : Fin 2) * 192 + 1 * (j 1).val; omega
  exact epi9_apply_of_entries (V c main_v116) (V c main_v103_0) (iblk9 V c 0 t) (iblk9 V c 1 t) j
    (((cfg9.win 2).blk t).view.emb j) (congrArg (V c main_v116) h0) (congrArg (V c main_v103_0) h1)

/-- An index of the output array lies in grid point t's block exactly when, on each axis, its coordinate lies in the
    block's range there. -/
theorem mem_block9_2 (t : Fin cfg9.N) (i : S50000x192.Idx) :
    i ∈ ((cfg9.win 2).blk t).view.set ↔ ∀ a : Fin 2, win9_2.index t a * S2000x192.size a ≤ (i a).val
      ∧ (i a).val < win9_2.index t a * S2000x192.size a + S2000x192.size a := by
  show i ∈ ((View.whole main_v117).slice (win9_2.rect t)).set ↔ _
  rw [View.set_slice_whole, Rect.mem_set_unit]
  exact Iff.rfl

/-- Every index of the output array is written back by some grid point: row r lies in row block r / 2000. -/
theorem covered9_2 (i : S50000x192.Idx) :
    ∃ t : Fin cfg9.N, (cfg9.win 2).flush t = true ∧ i ∈ ((cfg9.win 2).blk t).view.set := by
  have hi0 : (i 0).val < 50000 := (i 0).isLt
  have hi1 : (i 1).val < 192 := (i 1).isLt
  obtain ⟨t, ht⟩ := blockIndex9_onto ⟨(i 0).val / 2000, by omega⟩
  have q0 : win9_2.index t (0 : Fin 2) = (i 0).val / 2000 := congrFun ht 0
  have q1 : win9_2.index t (1 : Fin 2) = 0 := congrFun ht 1
  refine ⟨t, flush9_2 t, ?_⟩
  rw [mem_block9_2]
  intro a
  match a with
  | ⟨0, _⟩ => show win9_2.index t (0 : Fin 2) * 2000 ≤ (i 0).val ∧ (i 0).val < win9_2.index t (0 : Fin 2) * 2000 + 2000; omega
  | ⟨1, _⟩ => show win9_2.index t (1 : Fin 2) * 192 ≤ (i 1).val ∧ (i 1).val < win9_2.index t (1 : Fin 2) * 192 + 192; omega

/-- The output array of region 9 after the call: the logistic function of the sum of the aggregated messages and the
    self-loop term, index by index. -/
theorem arr9_2 (c : Dev nD) : (dat9 (F := Ideal) V c).arrAt 2 cfg9.N = Cert.Spec.epiSigmoid (V c main_v116) (V c main_v103_0) :=
  (dat9 (F := Ideal) V c).arrAt_eq_of_cover 2 (Cert.Spec.epiSigmoid (V c main_v116) (V c main_v103_0))
    (fun t _ => flushed9_2_eq V c t) covered9_2

end Cert.KernelIdeal.RegVal
end
-- ==== Proof.Match5.lean ====
/-
  Layer 5 (163 -> 192 columns, sigmoid), as pure functions of the argument arrays: the kernel's two calls and the
  reference's operations compute one array.
  The reference's layer is 1 / (1 + exp (-s)) at s = (agg + hw * sc) + b with hw = h · W, sc the self-loop coefficient
  broadcast along rows and b the bias broadcast along columns; the kernel's is the logistic function at
  agg + (hw * sc + b) with sc read from an n x 1 column and b from a 1 x c row. On the extended reals the logistic
  function is by definition the quotient 1 / (1 + exp (-s)) (the reference's two ones are the pattern of the real
  number 1), so the two agree entry by entry by associativity of addition (no finiteness is needed: only + is
  regrouped).
-/
import proofs.«420299_j43722767073851_4_alg».proof.Proof.Gen.ReferenceIdeal.Read
import proofs.«420299_j43722767073851_4_alg».proof.Proof.Spec
import proofs.«420299_j43722767073851_4_alg».proof.Proof.LibColumn
import Idealize.ShloMosaic.Lib.ValueLayout
import Idealize.ShloMosaic.Lib.ValueIdx
import Idealize.ShloMosaic.Lib.IdealHost
import Idealize.ShloMosaic.PureOps.Ideal

noncomputable section

namespace Cert.Match

open Idealize.ShloMosaic Idealize.ShloMosaic.ValueIdx Cert.ReferenceIdeal Cert.ReferenceIdeal.Read

/-- The matrix product of the layer's input with its weights is the reference's dot_general. -/
theorem mm_L5
    (x0 : (⟨S50000x96, .f32⟩ : BufTy).Contents (Elt Ideal))
    (x1 : (⟨S2x800000, .i32⟩ : BufTy).Contents (Elt Ideal))
    (x2 : (⟨S50000x163, .f32⟩ : BufTy).Contents (Elt Ideal))
    (x4 : (⟨S96x125, .f32⟩ : BufTy).Contents (Elt Ideal))
    (x5 : (⟨S125, .f32⟩ : BufTy).Contents (Elt Ideal))
    (x6 : (⟨S125x144, .f32⟩ : BufTy).Contents (Elt Ideal))
    (x7 : (⟨S144, .f32⟩ : BufTy).Contents (Elt Ideal))
    (x8 : (⟨S144x163, .f32⟩ : BufTy).Contents (Elt Ideal))
    (x9 : (⟨S163, .f32⟩ : BufTy).Contents (Elt Ideal))
    (x10 : (⟨S144x163, .f32⟩ : BufTy).Contents (Elt Ideal))
    (x11 : (⟨S163, .f32⟩ : BufTy).Contents (Elt Ideal))
    (x12 : (⟨S163x192, .f32⟩ : BufTy).Contents (Elt Ideal)) :
    Cert.Spec.mm (n := 50000) (a := 163) (b := 192) (val_main_v115 (F := Ideal) x0 x1 x2 x4 x5 x6 x7 x8 x9 x10 x11) x12 = val_main_v116 (F := Ideal) x0 x1 x2 x4 x5 x6 x7 x8 x9 x10 x11 x12 := by
  funext i
  rw [val_main_v116_apply]
  unfold Cert.Spec.mm
  refine Finset.sum_congr rfl fun k _ => ?_
  have el : Cert.Spec.lix (a := 163) i k = lidx_main_v116 i k := funext fun d => by
    match d with
    | ⟨0, _⟩ => rfl
    | ⟨1, _⟩ => rfl
  have er : Cert.Spec.rix (n := 50000) (a := 163) i k = ridx_main_v116 i k := funext fun d => by
    match d with
    | ⟨0, _⟩ => rfl
    | ⟨1, _⟩ => rfl
  rw [el, er]

/-- The layer's output: the epilogue of the aggregated messages and the dense call's self-loop term is the
    reference's 1 / (1 + exp (-((agg + hw * sc) + b))). -/
theorem out_L5
    (x0 : (⟨S50000x96, .f32⟩ : BufTy).Contents (Elt Ideal))
    (x1 : (⟨S2x800000, .i32⟩ : BufTy).Contents (Elt Ideal))
    (x2 : (⟨S50000x163, .f32⟩ : BufTy).Contents (Elt Ideal))
    (x4 : (⟨S96x125, .f32⟩ : BufTy).Contents (Elt Ideal))
    (x5 : (⟨S125, .f32⟩ : BufTy).Contents (Elt Ideal))
    (x6 : (⟨S125x144, .f32⟩ : BufTy).Contents (Elt Ideal))
    (x7 : (⟨S144, .f32⟩ : BufTy).Contents (Elt Ideal))
    (x8 : (⟨S144x163, .f32⟩ : BufTy).Contents (Elt Ideal))
    (x9 : (⟨S163, .f32⟩ : BufTy).Contents (Elt Ideal))
    (x10 : (⟨S144x163, .f32⟩ : BufTy).Contents (Elt Ideal))
    (x11 : (⟨S163, .f32⟩ : BufTy).Contents (Elt Ideal))
    (x12 : (⟨S163x192, .f32⟩ : BufTy).Contents (Elt Ideal))
    (x13 : (⟨S192, .f32⟩ : BufTy).Contents (Elt Ideal))
    (hb : (⟨1, ![192]⟩ : Shape).ShapeCasts ⟨2, ![1, 192]⟩) (hs : (⟨1, ![50000]⟩ : Shape).ShapeCasts ⟨2, ![50000, 1]⟩) :
    Cert.Spec.epiSigmoid (n := 50000) (b := 192) (val_main_v129 (F := Ideal) x0 x1 x2 x4 x5 x6 x7 x8 x9 x10 x11 x12)
      (Cert.Spec.dense (n := 50000) (a := 163) (b := 192) (val_main_v115 (F := Ideal) x0 x1 x2 x4 x5 x6 x7 x8 x9 x10 x11) x12 (shapeCast ⟨2, ![1, 192]⟩ x13 hb)
        (shapeCast ⟨2, ![50000, 1]⟩ (val_main_v27 (F := Ideal) x1) hs))
    = val_main_v141 (F := Ideal) x0 x1 x2 x4 x5 x6 x7 x8 x9 x10 x11 x12 x13 := by
  funext i
  rw [val_main_v141_apply, val_main_v140_apply, val_main_cst_23_apply, val_main_v139_apply, val_main_v138_apply,
    val_main_cst_22_apply, val_main_v137_apply, val_main_v136_apply, val_main_v135_apply, val_main_v132_apply,
    val_main_v131_apply, val_main_v130_apply, val_main_v28_apply, val_main_v134_apply, val_main_v133_apply, ← mm_L5]
  have ec : Cert.Spec.colIx (n := 50000) (b := 192) i = ix2 (⟨(i 0).val, (i 0).isLt⟩ : Fin 50000) (⟨0, Nat.one_pos⟩ : Fin 1) :=
    funext fun d => by
      match d with
      | ⟨0, _⟩ => rfl
      | ⟨1, _⟩ => rfl
  have er : Cert.Spec.rowIx (n := 50000) (b := 192) i = ix2 (⟨0, Nat.one_pos⟩ : Fin 1) (⟨(i 1).val, (i 1).isLt⟩ : Fin 192) :=
    funext fun d => by
      match d with
      | ⟨0, _⟩ => rfl
      | ⟨1, _⟩ => rfl
  have e1 : idx_main_v28 (idx_main_v130 i) = ix1 (⟨(i 0).val, (i 0).isLt⟩ : Fin 50000) := funext fun d => by
    match d with
    | ⟨0, _⟩ => rfl
  have e2 : idx_main_v133 (idx_main_v134 i) = ix1 (⟨(i 1).val, (i 1).isLt⟩ : Fin 192) := funext fun d => by
    match d with
    | ⟨0, _⟩ => rfl
  unfold Cert.Spec.epiSigmoid Cert.Spec.dense Ideal.logistic
  rw [ec, er, Cert.LibColumn.shapeCast_a_a1_apply, shapeCast_a_1a_apply, e1, e2]
  simp only [Ideal.hostDivf_def, Ideal.addf_def, Ideal.mulf_def, Ideal.hostUnary_exp_def, Ideal.hostNegf_def,
    Ideal.negf_def, Ideal.ofBits_def, Ideal.ofBits_one_f32]
  rw [add_assoc]

end Cert.Match

end
-- ==== Proof.Layer5.lean ====
/-
  Layer 5 (edge branch, fifth convolution) of the kernel's program, segment by segment.
  The layer's input h is the reparametrised sample mean + noise * exp(log-deviation) / 10, which the first host
  stretch computes from the two previous layers' outputs and the noise argument; the layer also reads its weight matrix and bias (arguments nothing has written), and
  the values the whole program shares (the edges' source and target nodes, the edge and self-loop coefficients).
  The first host stretch lays the bias out as a 1 x 192 row and the self-loop coefficients as a 50000 x 1 column;
  the dense call leaves h · W and (h · W) * sc + b; the second host stretch gathers the product's rows along the
  edges, scales them and scatter-adds them into the target nodes; the epilogue call adds the self-loop term and
  applies the logistic function. The result is the reference's layer.
-/
import proofs.«420299_j43722767073851_4_alg».proof.Proof.Layer4
import proofs.«420299_j43722767073851_4_alg».proof.Proof.KeepGlobals
import proofs.«420299_j43722767073851_4_alg».proof.Proof.KeepArgsA
import proofs.«420299_j43722767073851_4_alg».proof.Proof.KeepCarried
import proofs.«420299_j43722767073851_4_alg».proof.Proof.RegD8
import proofs.«420299_j43722767073851_4_alg».proof.Proof.RegE9
import proofs.«420299_j43722767073851_4_alg».proof.Proof.Match5

set_option maxRecDepth 16384

noncomputable section

namespace Cert.KernelIdeal.Chain

open Cert.KernelIdeal Cert.KernelIdeal.Gen Cert.KernelIdeal.Keep
open Idealize.ShloMosaic Idealize.ShloMosaic.TcCoe Idealize.SL.Sem
open Cert.ReferenceIdeal.Read

variable (m : (ℓ : Loc nD τ sig) → Buf (Elt Ideal) ℓ) (ρ : Dev nD → PrngReg)

/-! ## The dense call's inputs at its entry -/

set_option maxHeartbeats 1600000 in
/-- The layer's input is computed by the first host stretch itself: the mean layer's output plus the noise argument
    times the exponential of the log-deviation layer's output, divided by ten: the reference's own operations on
    the two earlier layers' outputs, which are the reference's. -/
theorem in8_h (c : Dev nD) : V17 m ρ c main_v100 = val_main_v115 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  show StableHlo.after hostOps8 (W16 m ρ c) (Proc.devRef .tc main_v100) = _
  after_results
  rw [show W16 m ρ c (Proc.devRef .tc main_v78) = val_main_v90 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) from (keep_v78_16 m ρ c).trans (out_L3 m ρ c),
    show W16 m ρ c (Proc.devRef .tc main_v95) = val_main_v110 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg10)) (m ((c : Thread nD τ).loc main_arg11)) from out_L4 m ρ c,
    keep_arg2_16 m ρ c]
  rfl

theorem in8_W (c : Dev nD) : V17 m ρ c main_arg12 = (m ((c : Thread nD τ).loc main_arg12)) :=
  (show W17 m ρ c (Proc.devRef .tc main_arg12) = W16 m ρ c (Proc.devRef .tc main_arg12) from by host_keep hostOps8).trans (keep_arg12_16 m ρ c)

/-- The bias as a 1 x 192 row. -/
theorem in8_b (c : Dev nD) : V17 m ρ c main_v101 = shapeCast S1x192 (m ((c : Thread nD τ).loc main_arg13)) shapeCasts_S192_S1x192 := by
  show StableHlo.after hostOps8 (W16 m ρ c) (Proc.devRef .tc main_v101) = _
  after_results
  rw [keep_arg13_16 m ρ c]
  rfl

/-- The self-loop coefficients as a 50000 x 1 column. -/
theorem in8_sc (c : Dev nD) : V17 m ρ c main_v102 = shapeCast S50000x1 (val_main_v27 (F := Ideal) (m ((c : Thread nD τ).loc main_arg1))) shapeCasts_S50000_S50000x1 := by
  show StableHlo.after hostOps8 (W16 m ρ c) (Proc.devRef .tc main_v102) = _
  after_results
  rw [at16_v27 m ρ c]
  rfl

/-! ## The dense call's outputs -/

/-- h · W, the reference's dot_general. -/
theorem hw_L5 (c : Dev nD) : W18 m ρ c (Proc.devRef .tc main_v103_1) = val_main_v116 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (W18_arr m ρ c 5).trans ?_
  rw [Cert.KernelIdeal.RegVal.arr8_5 (V17 m ρ) c, in8_h m ρ c, in8_W m ρ c]
  exact Cert.Match.mm_L5 _ _ _ _ _ _ _ _ _ _ _ _

/-- The self-loop term (h · W) * sc + b. -/
theorem oi_L5 (c : Dev nD) : W18 m ρ c (Proc.devRef .tc main_v103_0)
    = Cert.Spec.dense (val_main_v115 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) (m ((c : Thread nD τ).loc main_arg12)) (shapeCast S1x192 (m ((c : Thread nD τ).loc main_arg13)) shapeCasts_S192_S1x192)
        (shapeCast S50000x1 (val_main_v27 (F := Ideal) (m ((c : Thread nD τ).loc main_arg1))) shapeCasts_S50000_S50000x1) := by
  refine (W18_arr m ρ c 4).trans ?_
  rw [Cert.KernelIdeal.RegVal.arr8_4 (V17 m ρ) c, in8_h m ρ c, in8_W m ρ c, in8_b m ρ c, in8_sc m ρ c]

/-! ## The shared values after the dense call -/

theorem g18_v1 (c : Dev nD) : W18 m ρ c (Proc.devRef .tc main_v1) = val_main_v1 (F := Ideal) (m ((c : Thread nD τ).loc main_arg1)) :=
  (W18_of_ne m ρ c main_v1 (by decide)).trans <| (show W17 m ρ c (Proc.devRef .tc main_v1) = W16 m ρ c (Proc.devRef .tc main_v1) from by host_keep hostOps8).trans (at16_v1 m ρ c)
theorem g18_v3 (c : Dev nD) : W18 m ρ c (Proc.devRef .tc main_v3) = val_main_v3 (F := Ideal) (m ((c : Thread nD τ).loc main_arg1)) :=
  (W18_of_ne m ρ c main_v3 (by decide)).trans <| (show W17 m ρ c (Proc.devRef .tc main_v3) = W16 m ρ c (Proc.devRef .tc main_v3) from by host_keep hostOps8).trans (at16_v3 m ρ c)
theorem g18_v26 (c : Dev nD) : W18 m ρ c (Proc.devRef .tc main_v26) = val_main_v26 (F := Ideal) (m ((c : Thread nD τ).loc main_arg1)) :=
  (W18_of_ne m ρ c main_v26 (by decide)).trans <| (show W17 m ρ c (Proc.devRef .tc main_v26) = W16 m ρ c (Proc.devRef .tc main_v26) from by host_keep hostOps8).trans (at16_v26 m ρ c)

/-! ## The aggregated messages, and the epilogue -/

set_option maxHeartbeats 1600000 in
/-- Rows of h · W gathered along the edges, scaled by the edge coefficients, scatter-added into the target nodes. -/
theorem agg_L5 (c : Dev nD) : V19 m ρ c main_v116 = val_main_v129 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  show StableHlo.after hostOps9 (W18 m ρ c) (Proc.devRef .tc main_v116) = _
  after_results
  rw [g18_v1 m ρ c, g18_v3 m ρ c, g18_v26 m ρ c, hw_L5 m ρ c]
  rfl

theorem oi3_L5 (c : Dev nD) : V19 m ρ c main_v103_0
    = Cert.Spec.dense (val_main_v115 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) (m ((c : Thread nD τ).loc main_arg12)) (shapeCast S1x192 (m ((c : Thread nD τ).loc main_arg13)) shapeCasts_S192_S1x192)
        (shapeCast S50000x1 (val_main_v27 (F := Ideal) (m ((c : Thread nD τ).loc main_arg1))) shapeCasts_S50000_S50000x1) :=
  (show W19 m ρ c (Proc.devRef .tc main_v103_0) = W18 m ρ c (Proc.devRef .tc main_v103_0) from by host_keep hostOps9).trans (oi_L5 m ρ c)

/-- The layer's output is the reference's. -/
theorem out_L5 (c : Dev nD) : W20 m ρ c (Proc.devRef .tc main_v117) = val_main_v141 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (W20_arr m ρ c 2).trans ?_
  rw [Cert.KernelIdeal.RegVal.arr9_2 (V19 m ρ) c, agg_L5 m ρ c, oi3_L5 m ρ c]
  exact Cert.Match.out_L5 _ _ _ _ _ _ _ _ _ _ _ _ _ _ _

/-! ## The shared values at the layer's exit -/

theorem at20_v1 (c : Dev nD) : W20 m ρ c (Proc.devRef .tc main_v1) = val_main_v1 (F := Ideal) (m ((c : Thread nD τ).loc main_arg1)) :=
  (keepL5_v1 m ρ c).trans (at16_v1 m ρ c)
theorem at20_v3 (c : Dev nD) : W20 m ρ c (Proc.devRef .tc main_v3) = val_main_v3 (F := Ideal) (m ((c : Thread nD τ).loc main_arg1)) :=
  (keepL5_v3 m ρ c).trans (at16_v3 m ρ c)
theorem at20_v26 (c : Dev nD) : W20 m ρ c (Proc.devRef .tc main_v26) = val_main_v26 (F := Ideal) (m ((c : Thread nD τ).loc main_arg1)) :=
  (keepL5_v26 m ρ c).trans (at16_v26 m ρ c)
theorem at20_v27 (c : Dev nD) : W20 m ρ c (Proc.devRef .tc main_v27) = val_main_v27 (F := Ideal) (m ((c : Thread nD τ).loc main_arg1)) :=
  (keepL5_v27 m ρ c).trans (at16_v27 m ρ c)

end Cert.KernelIdeal.Chain

end
-- ==== Proof.KeepArgsB.lean ====
/-
  Buffers that a layer leaves alone. Layer l of the program is four segments: a stretch of host operations, the
  dense pallas_call, a second stretch of host operations, the epilogue pallas_call. A buffer that none of the four
  writes holds at the layer's exit boundary what it held at the entry boundary; chained over consecutive layers,
  a value computed once (the edge lists, the normalisation coefficients, a weight argument, an earlier layer's
  output) is still there when a later layer reads it.
-/
import proofs.«420299_j43722767073851_4_alg».proof.Proof.Gen.KernelIdeal.Frame
import proofs.«420299_j43722767073851_4_alg».proof.Proof.KeepMacro

set_option maxRecDepth 16384

noncomputable section

namespace Cert.KernelIdeal.Keep

open Cert.KernelIdeal Cert.KernelIdeal.Gen
open Idealize.ShloMosaic Idealize.ShloMosaic.TcCoe Idealize.SL.Sem

variable {F : FTy → Type} [FloatOps F]

variable (m : (ℓ : Loc nD τ sig) → Buf (Elt F) ℓ) (ρ : Dev nD → PrngReg)

/-! ### main_arg0: boundary 0 to boundary 20 -/
theorem keepL1_arg0 (c : Dev nD) : W4 m ρ c (Proc.devRef .tc main_arg0) = W0 m ρ c (Proc.devRef .tc main_arg0) :=
  (W4_of_ne m ρ c main_arg0 (by decide)).trans <| (show W3 m ρ c (Proc.devRef .tc main_arg0) = W2 m ρ c (Proc.devRef .tc main_arg0) from by host_keep hostOps1).trans <|
  (show W2 m ρ c (Proc.devRef .tc main_arg0) = W1 m ρ c (Proc.devRef .tc main_arg0) from (W2_arr m ρ c 0).trans (((dat0 (V1 m ρ) c).arrAt_in 0 rfl _).trans (A_eq0 (V1 m ρ) c 0))).trans (show W1 m ρ c (Proc.devRef .tc main_arg0) = W0 m ρ c (Proc.devRef .tc main_arg0) from by host_keep hostOps0)
theorem keep_arg0_4 (c : Dev nD) : W4 m ρ c (Proc.devRef .tc main_arg0) = W0 m ρ c (Proc.devRef .tc main_arg0) :=
  keepL1_arg0 m ρ c
theorem keepL2_arg0 (c : Dev nD) : W8 m ρ c (Proc.devRef .tc main_arg0) = W4 m ρ c (Proc.devRef .tc main_arg0) :=
  (W8_of_ne m ρ c main_arg0 (by decide)).trans <| (show W7 m ρ c (Proc.devRef .tc main_arg0) = W6 m ρ c (Proc.devRef .tc main_arg0) from by host_keep hostOps3).trans <|
  (W6_of_ne m ρ c main_arg0 (by decide)).trans (show W5 m ρ c (Proc.devRef .tc main_arg0) = W4 m ρ c (Proc.devRef .tc main_arg0) from by host_keep hostOps2)
theorem keep_arg0_8 (c : Dev nD) : W8 m ρ c (Proc.devRef .tc main_arg0) = W0 m ρ c (Proc.devRef .tc main_arg0) :=
  (keepL2_arg0 m ρ c).trans (keep_arg0_4 m ρ c)
theorem keepL3_arg0 (c : Dev nD) : W12 m ρ c (Proc.devRef .tc main_arg0) = W8 m ρ c (Proc.devRef .tc main_arg0) :=
  (W12_of_ne m ρ c main_arg0 (by decide)).trans <| (show W11 m ρ c (Proc.devRef .tc main_arg0) = W10 m ρ c (Proc.devRef .tc main_arg0) from by host_keep hostOps5).trans <|
  (W10_of_ne m ρ c main_arg0 (by decide)).trans (show W9 m ρ c (Proc.devRef .tc main_arg0) = W8 m ρ c (Proc.devRef .tc main_arg0) from by host_keep hostOps4)
theorem keep_arg0_12 (c : Dev nD) : W12 m ρ c (Proc.devRef .tc main_arg0) = W0 m ρ c (Proc.devRef .tc main_arg0) :=
  (keepL3_arg0 m ρ c).trans (keep_arg0_8 m ρ c)
theorem keepL4_arg0 (c : Dev nD) : W16 m ρ c (Proc.devRef .tc main_arg0) = W12 m ρ c (Proc.devRef .tc main_arg0) :=
  (W16_of_ne m ρ c main_arg0 (by decide)).trans <| (show W15 m ρ c (Proc.devRef .tc main_arg0) = W14 m ρ c (Proc.devRef .tc main_arg0) from by host_keep hostOps7).trans <|
  (W14_of_ne m ρ c main_arg0 (by decide)).trans (show W13 m ρ c (Proc.devRef .tc main_arg0) = W12 m ρ c (Proc.devRef .tc main_arg0) from by host_keep hostOps6)
theorem keep_arg0_16 (c : Dev nD) : W16 m ρ c (Proc.devRef .tc main_arg0) = W0 m ρ c (Proc.devRef .tc main_arg0) :=
  (keepL4_arg0 m ρ c).trans (keep_arg0_12 m ρ c)
theorem keepL5_arg0 (c : Dev nD) : W20 m ρ c (Proc.devRef .tc main_arg0) = W16 m ρ c (Proc.devRef .tc main_arg0) :=
  (W20_of_ne m ρ c main_arg0 (by decide)).trans <| (show W19 m ρ c (Proc.devRef .tc main_arg0) = W18 m ρ c (Proc.devRef .tc main_arg0) from by host_keep hostOps9).trans <|
  (W18_of_ne m ρ c main_arg0 (by decide)).trans (show W17 m ρ c (Proc.devRef .tc main_arg0) = W16 m ρ c (Proc.devRef .tc main_arg0) from by host_keep hostOps8)
theorem keep_arg0_20 (c : Dev nD) : W20 m ρ c (Proc.devRef .tc main_arg0) = W0 m ρ c (Proc.devRef .tc main_arg0) :=
  (keepL5_arg0 m ρ c).trans (keep_arg0_16 m ρ c)

/-! ### main_arg14: boundary 0 to boundary 20 -/
theorem keepL1_arg14 (c : Dev nD) : W4 m ρ c (Proc.devRef .tc main_arg14) = W0 m ρ c (Proc.devRef .tc main_arg14) :=
  (W4_of_ne m ρ c main_arg14 (by decide)).trans <| (show W3 m ρ c (Proc.devRef .tc main_arg14) = W2 m ρ c (Proc.devRef .tc main_arg14) from by host_keep hostOps1).trans <|
  (W2_of_ne m ρ c main_arg14 (by decide)).trans (show W1 m ρ c (Proc.devRef .tc main_arg14) = W0 m ρ c (Proc.devRef .tc main_arg14) from by host_keep hostOps0)
theorem keep_arg14_4 (c : Dev nD) : W4 m ρ c (Proc.devRef .tc main_arg14) = W0 m ρ c (Proc.devRef .tc main_arg14) :=
  keepL1_arg14 m ρ c
theorem keepL2_arg14 (c : Dev nD) : W8 m ρ c (Proc.devRef .tc main_arg14) = W4 m ρ c (Proc.devRef .tc main_arg14) :=
  (W8_of_ne m ρ c main_arg14 (by decide)).trans <| (show W7 m ρ c (Proc.devRef .tc main_arg14) = W6 m ρ c (Proc.devRef .tc main_arg14) from by host_keep hostOps3).trans <|
  (W6_of_ne m ρ c main_arg14 (by decide)).trans (show W5 m ρ c (Proc.devRef .tc main_arg14) = W4 m ρ c (Proc.devRef .tc main_arg14) from by host_keep hostOps2)
theorem keep_arg14_8 (c : Dev nD) : W8 m ρ c (Proc.devRef .tc main_arg14) = W0 m ρ c (Proc.devRef .tc main_arg14) :=
  (keepL2_arg14 m ρ c).trans (keep_arg14_4 m ρ c)
theorem keepL3_arg14 (c : Dev nD) : W12 m ρ c (Proc.devRef .tc main_arg14) = W8 m ρ c (Proc.devRef .tc main_arg14) :=
  (W12_of_ne m ρ c main_arg14 (by decide)).trans <| (show W11 m ρ c (Proc.devRef .tc main_arg14) = W10 m ρ c (Proc.devRef .tc main_arg14) from by host_keep hostOps5).trans <|
  (W10_of_ne m ρ c main_arg14 (by decide)).trans (show W9 m ρ c (Proc.devRef .tc main_arg14) = W8 m ρ c (Proc.devRef .tc main_arg14) from by host_keep hostOps4)
theorem keep_arg14_12 (c : Dev nD) : W12 m ρ c (Proc.devRef .tc main_arg14) = W0 m ρ c (Proc.devRef .tc main_arg14) :=
  (keepL3_arg14 m ρ c).trans (keep_arg14_8 m ρ c)
theorem keepL4_arg14 (c : Dev nD) : W16 m ρ c (Proc.devRef .tc main_arg14) = W12 m ρ c (Proc.devRef .tc main_arg14) :=
  (W16_of_ne m ρ c main_arg14 (by decide)).trans <| (show W15 m ρ c (Proc.devRef .tc main_arg14) = W14 m ρ c (Proc.devRef .tc main_arg14) from by host_keep hostOps7).trans <|
  (W14_of_ne m ρ c main_arg14 (by decide)).trans (show W13 m ρ c (Proc.devRef .tc main_arg14) = W12 m ρ c (Proc.devRef .tc main_arg14) from by host_keep hostOps6)
theorem keep_arg14_16 (c : Dev nD) : W16 m ρ c (Proc.devRef .tc main_arg14) = W0 m ρ c (Proc.devRef .tc main_arg14) :=
  (keepL4_arg14 m ρ c).trans (keep_arg14_12 m ρ c)
theorem keepL5_arg14 (c : Dev nD) : W20 m ρ c (Proc.devRef .tc main_arg14) = W16 m ρ c (Proc.devRef .tc main_arg14) :=
  (W20_of_ne m ρ c main_arg14 (by decide)).trans <| (show W19 m ρ c (Proc.devRef .tc main_arg14) = W18 m ρ c (Proc.devRef .tc main_arg14) from by host_keep hostOps9).trans <|
  (W18_of_ne m ρ c main_arg14 (by decide)).trans (show W17 m ρ c (Proc.devRef .tc main_arg14) = W16 m ρ c (Proc.devRef .tc main_arg14) from by host_keep hostOps8)
theorem keep_arg14_20 (c : Dev nD) : W20 m ρ c (Proc.devRef .tc main_arg14) = W0 m ρ c (Proc.devRef .tc main_arg14) :=
  (keepL5_arg14 m ρ c).trans (keep_arg14_16 m ρ c)

/-! ### main_arg15: boundary 0 to boundary 20 -/
theorem keepL1_arg15 (c : Dev nD) : W4 m ρ c (Proc.devRef .tc main_arg15) = W0 m ρ c (Proc.devRef .tc main_arg15) :=
  (W4_of_ne m ρ c main_arg15 (by decide)).trans <| (show W3 m ρ c (Proc.devRef .tc main_arg15) = W2 m ρ c (Proc.devRef .tc main_arg15) from by host_keep hostOps1).trans <|
  (W2_of_ne m ρ c main_arg15 (by decide)).trans (show W1 m ρ c (Proc.devRef .tc main_arg15) = W0 m ρ c (Proc.devRef .tc main_arg15) from by host_keep hostOps0)
theorem keep_arg15_4 (c : Dev nD) : W4 m ρ c (Proc.devRef .tc main_arg15) = W0 m ρ c (Proc.devRef .tc main_arg15) :=
  keepL1_arg15 m ρ c
theorem keepL2_arg15 (c : Dev nD) : W8 m ρ c (Proc.devRef .tc main_arg15) = W4 m ρ c (Proc.devRef .tc main_arg15) :=
  (W8_of_ne m ρ c main_arg15 (by decide)).trans <| (show W7 m ρ c (Proc.devRef .tc main_arg15) = W6 m ρ c (Proc.devRef .tc main_arg15) from by host_keep hostOps3).trans <|
  (W6_of_ne m ρ c main_arg15 (by decide)).trans (show W5 m ρ c (Proc.devRef .tc main_arg15) = W4 m ρ c (Proc.devRef .tc main_arg15) from by host_keep hostOps2)
theorem keep_arg15_8 (c : Dev nD) : W8 m ρ c (Proc.devRef .tc main_arg15) = W0 m ρ c (Proc.devRef .tc main_arg15) :=
  (keepL2_arg15 m ρ c).trans (keep_arg15_4 m ρ c)
theorem keepL3_arg15 (c : Dev nD) : W12 m ρ c (Proc.devRef .tc main_arg15) = W8 m ρ c (Proc.devRef .tc main_arg15) :=
  (W12_of_ne m ρ c main_arg15 (by decide)).trans <| (show W11 m ρ c (Proc.devRef .tc main_arg15) = W10 m ρ c (Proc.devRef .tc main_arg15) from by host_keep hostOps5).trans <|
  (W10_of_ne m ρ c main_arg15 (by decide)).trans (show W9 m ρ c (Proc.devRef .tc main_arg15) = W8 m ρ c (Proc.devRef .tc main_arg15) from by host_keep hostOps4)
theorem keep_arg15_12 (c : Dev nD) : W12 m ρ c (Proc.devRef .tc main_arg15) = W0 m ρ c (Proc.devRef .tc main_arg15) :=
  (keepL3_arg15 m ρ c).trans (keep_arg15_8 m ρ c)
theorem keepL4_arg15 (c : Dev nD) : W16 m ρ c (Proc.devRef .tc main_arg15) = W12 m ρ c (Proc.devRef .tc main_arg15) :=
  (W16_of_ne m ρ c main_arg15 (by decide)).trans <| (show W15 m ρ c (Proc.devRef .tc main_arg15) = W14 m ρ c (Proc.devRef .tc main_arg15) from by host_keep hostOps7).trans <|
  (W14_of_ne m ρ c main_arg15 (by decide)).trans (show W13 m ρ c (Proc.devRef .tc main_arg15) = W12 m ρ c (Proc.devRef .tc main_arg15) from by host_keep hostOps6)
theorem keep_arg15_16 (c : Dev nD) : W16 m ρ c (Proc.devRef .tc main_arg15) = W0 m ρ c (Proc.devRef .tc main_arg15) :=
  (keepL4_arg15 m ρ c).trans (keep_arg15_12 m ρ c)
theorem keepL5_arg15 (c : Dev nD) : W20 m ρ c (Proc.devRef .tc main_arg15) = W16 m ρ c (Proc.devRef .tc main_arg15) :=
  (W20_of_ne m ρ c main_arg15 (by decide)).trans <| (show W19 m ρ c (Proc.devRef .tc main_arg15) = W18 m ρ c (Proc.devRef .tc main_arg15) from by host_keep hostOps9).trans <|
  (W18_of_ne m ρ c main_arg15 (by decide)).trans (show W17 m ρ c (Proc.devRef .tc main_arg15) = W16 m ρ c (Proc.devRef .tc main_arg15) from by host_keep hostOps8)
theorem keep_arg15_20 (c : Dev nD) : W20 m ρ c (Proc.devRef .tc main_arg15) = W0 m ρ c (Proc.devRef .tc main_arg15) :=
  (keepL5_arg15 m ρ c).trans (keep_arg15_16 m ρ c)

/-! ### main_arg16: boundary 0 to boundary 24 -/
theorem keepL1_arg16 (c : Dev nD) : W4 m ρ c (Proc.devRef .tc main_arg16) = W0 m ρ c (Proc.devRef .tc main_arg16) :=
  (W4_of_ne m ρ c main_arg16 (by decide)).trans <| (show W3 m ρ c (Proc.devRef .tc main_arg16) = W2 m ρ c (Proc.devRef .tc main_arg16) from by host_keep hostOps1).trans <|
  (W2_of_ne m ρ c main_arg16 (by decide)).trans (show W1 m ρ c (Proc.devRef .tc main_arg16) = W0 m ρ c (Proc.devRef .tc main_arg16) from by host_keep hostOps0)
theorem keep_arg16_4 (c : Dev nD) : W4 m ρ c (Proc.devRef .tc main_arg16) = W0 m ρ c (Proc.devRef .tc main_arg16) :=
  keepL1_arg16 m ρ c
theorem keepL2_arg16 (c : Dev nD) : W8 m ρ c (Proc.devRef .tc main_arg16) = W4 m ρ c (Proc.devRef .tc main_arg16) :=
  (W8_of_ne m ρ c main_arg16 (by decide)).trans <| (show W7 m ρ c (Proc.devRef .tc main_arg16) = W6 m ρ c (Proc.devRef .tc main_arg16) from by host_keep hostOps3).trans <|
  (W6_of_ne m ρ c main_arg16 (by decide)).trans (show W5 m ρ c (Proc.devRef .tc main_arg16) = W4 m ρ c (Proc.devRef .tc main_arg16) from by host_keep hostOps2)
theorem keep_arg16_8 (c : Dev nD) : W8 m ρ c (Proc.devRef .tc main_arg16) = W0 m ρ c (Proc.devRef .tc main_arg16) :=
  (keepL2_arg16 m ρ c).trans (keep_arg16_4 m ρ c)
theorem keepL3_arg16 (c : Dev nD) : W12 m ρ c (Proc.devRef .tc main_arg16) = W8 m ρ c (Proc.devRef .tc main_arg16) :=
  (W12_of_ne m ρ c main_arg16 (by decide)).trans <| (show W11 m ρ c (Proc.devRef .tc main_arg16) = W10 m ρ c (Proc.devRef .tc main_arg16) from by host_keep hostOps5).trans <|
  (W10_of_ne m ρ c main_arg16 (by decide)).trans (show W9 m ρ c (Proc.devRef .tc main_arg16) = W8 m ρ c (Proc.devRef .tc main_arg16) from by host_keep hostOps4)
theorem keep_arg16_12 (c : Dev nD) : W12 m ρ c (Proc.devRef .tc main_arg16) = W0 m ρ c (Proc.devRef .tc main_arg16) :=
  (keepL3_arg16 m ρ c).trans (keep_arg16_8 m ρ c)
theorem keepL4_arg16 (c : Dev nD) : W16 m ρ c (Proc.devRef .tc main_arg16) = W12 m ρ c (Proc.devRef .tc main_arg16) :=
  (W16_of_ne m ρ c main_arg16 (by decide)).trans <| (show W15 m ρ c (Proc.devRef .tc main_arg16) = W14 m ρ c (Proc.devRef .tc main_arg16) from by host_keep hostOps7).trans <|
  (W14_of_ne m ρ c main_arg16 (by decide)).trans (show W13 m ρ c (Proc.devRef .tc main_arg16) = W12 m ρ c (Proc.devRef .tc main_arg16) from by host_keep hostOps6)
theorem keep_arg16_16 (c : Dev nD) : W16 m ρ c (Proc.devRef .tc main_arg16) = W0 m ρ c (Proc.devRef .tc main_arg16) :=
  (keepL4_arg16 m ρ c).trans (keep_arg16_12 m ρ c)
theorem keepL5_arg16 (c : Dev nD) : W20 m ρ c (Proc.devRef .tc main_arg16) = W16 m ρ c (Proc.devRef .tc main_arg16) :=
  (W20_of_ne m ρ c main_arg16 (by decide)).trans <| (show W19 m ρ c (Proc.devRef .tc main_arg16) = W18 m ρ c (Proc.devRef .tc main_arg16) from by host_keep hostOps9).trans <|
  (W18_of_ne m ρ c main_arg16 (by decide)).trans (show W17 m ρ c (Proc.devRef .tc main_arg16) = W16 m ρ c (Proc.devRef .tc main_arg16) from by host_keep hostOps8)
theorem keep_arg16_20 (c : Dev nD) : W20 m ρ c (Proc.devRef .tc main_arg16) = W0 m ρ c (Proc.devRef .tc main_arg16) :=
  (keepL5_arg16 m ρ c).trans (keep_arg16_16 m ρ c)
theorem keepL6_arg16 (c : Dev nD) : W24 m ρ c (Proc.devRef .tc main_arg16) = W20 m ρ c (Proc.devRef .tc main_arg16) :=
  (W24_of_ne m ρ c main_arg16 (by decide)).trans <| (show W23 m ρ c (Proc.devRef .tc main_arg16) = W22 m ρ c (Proc.devRef .tc main_arg16) from by host_keep hostOps11).trans <|
  (W22_of_ne m ρ c main_arg16 (by decide)).trans (show W21 m ρ c (Proc.devRef .tc main_arg16) = W20 m ρ c (Proc.devRef .tc main_arg16) from by host_keep hostOps10)
theorem keep_arg16_24 (c : Dev nD) : W24 m ρ c (Proc.devRef .tc main_arg16) = W0 m ρ c (Proc.devRef .tc main_arg16) :=
  (keepL6_arg16 m ρ c).trans (keep_arg16_20 m ρ c)

/-! ### main_arg17: boundary 0 to boundary 24 -/
theorem keepL1_arg17 (c : Dev nD) : W4 m ρ c (Proc.devRef .tc main_arg17) = W0 m ρ c (Proc.devRef .tc main_arg17) :=
  (W4_of_ne m ρ c main_arg17 (by decide)).trans <| (show W3 m ρ c (Proc.devRef .tc main_arg17) = W2 m ρ c (Proc.devRef .tc main_arg17) from by host_keep hostOps1).trans <|
  (W2_of_ne m ρ c main_arg17 (by decide)).trans (show W1 m ρ c (Proc.devRef .tc main_arg17) = W0 m ρ c (Proc.devRef .tc main_arg17) from by host_keep hostOps0)
theorem keep_arg17_4 (c : Dev nD) : W4 m ρ c (Proc.devRef .tc main_arg17) = W0 m ρ c (Proc.devRef .tc main_arg17) :=
  keepL1_arg17 m ρ c
theorem keepL2_arg17 (c : Dev nD) : W8 m ρ c (Proc.devRef .tc main_arg17) = W4 m ρ c (Proc.devRef .tc main_arg17) :=
  (W8_of_ne m ρ c main_arg17 (by decide)).trans <| (show W7 m ρ c (Proc.devRef .tc main_arg17) = W6 m ρ c (Proc.devRef .tc main_arg17) from by host_keep hostOps3).trans <|
  (W6_of_ne m ρ c main_arg17 (by decide)).trans (show W5 m ρ c (Proc.devRef .tc main_arg17) = W4 m ρ c (Proc.devRef .tc main_arg17) from by host_keep hostOps2)
theorem keep_arg17_8 (c : Dev nD) : W8 m ρ c (Proc.devRef .tc main_arg17) = W0 m ρ c (Proc.devRef .tc main_arg17) :=
  (keepL2_arg17 m ρ c).trans (keep_arg17_4 m ρ c)
theorem keepL3_arg17 (c : Dev nD) : W12 m ρ c (Proc.devRef .tc main_arg17) = W8 m ρ c (Proc.devRef .tc main_arg17) :=
  (W12_of_ne m ρ c main_arg17 (by decide)).trans <| (show W11 m ρ c (Proc.devRef .tc main_arg17) = W10 m ρ c (Proc.devRef .tc main_arg17) from by host_keep hostOps5).trans <|
  (W10_of_ne m ρ c main_arg17 (by decide)).trans (show W9 m ρ c (Proc.devRef .tc main_arg17) = W8 m ρ c (Proc.devRef .tc main_arg17) from by host_keep hostOps4)
theorem keep_arg17_12 (c : Dev nD) : W12 m ρ c (Proc.devRef .tc main_arg17) = W0 m ρ c (Proc.devRef .tc main_arg17) :=
  (keepL3_arg17 m ρ c).trans (keep_arg17_8 m ρ c)
theorem keepL4_arg17 (c : Dev nD) : W16 m ρ c (Proc.devRef .tc main_arg17) = W12 m ρ c (Proc.devRef .tc main_arg17) :=
  (W16_of_ne m ρ c main_arg17 (by decide)).trans <| (show W15 m ρ c (Proc.devRef .tc main_arg17) = W14 m ρ c (Proc.devRef .tc main_arg17) from by host_keep hostOps7).trans <|
  (W14_of_ne m ρ c main_arg17 (by decide)).trans (show W13 m ρ c (Proc.devRef .tc main_arg17) = W12 m ρ c (Proc.devRef .tc main_arg17) from by host_keep hostOps6)
theorem keep_arg17_16 (c : Dev nD) : W16 m ρ c (Proc.devRef .tc main_arg17) = W0 m ρ c (Proc.devRef .tc main_arg17) :=
  (keepL4_arg17 m ρ c).trans (keep_arg17_12 m ρ c)
theorem keepL5_arg17 (c : Dev nD) : W20 m ρ c (Proc.devRef .tc main_arg17) = W16 m ρ c (Proc.devRef .tc main_arg17) :=
  (W20_of_ne m ρ c main_arg17 (by decide)).trans <| (show W19 m ρ c (Proc.devRef .tc main_arg17) = W18 m ρ c (Proc.devRef .tc main_arg17) from by host_keep hostOps9).trans <|
  (W18_of_ne m ρ c main_arg17 (by decide)).trans (show W17 m ρ c (Proc.devRef .tc main_arg17) = W16 m ρ c (Proc.devRef .tc main_arg17) from by host_keep hostOps8)
theorem keep_arg17_20 (c : Dev nD) : W20 m ρ c (Proc.devRef .tc main_arg17) = W0 m ρ c (Proc.devRef .tc main_arg17) :=
  (keepL5_arg17 m ρ c).trans (keep_arg17_16 m ρ c)
theorem keepL6_arg17 (c : Dev nD) : W24 m ρ c (Proc.devRef .tc main_arg17) = W20 m ρ c (Proc.devRef .tc main_arg17) :=
  (W24_of_ne m ρ c main_arg17 (by decide)).trans <| (show W23 m ρ c (Proc.devRef .tc main_arg17) = W22 m ρ c (Proc.devRef .tc main_arg17) from by host_keep hostOps11).trans <|
  (W22_of_ne m ρ c main_arg17 (by decide)).trans (show W21 m ρ c (Proc.devRef .tc main_arg17) = W20 m ρ c (Proc.devRef .tc main_arg17) from by host_keep hostOps10)
theorem keep_arg17_24 (c : Dev nD) : W24 m ρ c (Proc.devRef .tc main_arg17) = W0 m ρ c (Proc.devRef .tc main_arg17) :=
  (keepL6_arg17 m ρ c).trans (keep_arg17_20 m ρ c)

end Cert.KernelIdeal.Keep

end
-- ==== Proof.RegD10.lean ====
/-
  The sixth dense call of the kernel (node features 50000 x 96, weights 96 x 96), read as whole arrays on the
  extended reals. Its grid has 25 points; point t holds rows 2000 t .. 2000 t + 1999 of the node features, of the
  self-loop column and of both outputs, and the whole of the weights and of the bias row. One block of the product
  is a sum over the contracted axis; one block of the self-loop term is that product scaled row by row by the column
  plus the bias row. The blocks of the 25 points tile each output array, so each array ends holding the whole
  product h · W, respectively (h · W) scaled by the column plus the bias row.
-/
import proofs.«420299_j43722767073851_4_alg».proof.Proof.Gen.KernelIdeal.Frame
import proofs.«420299_j43722767073851_4_alg».proof.Proof.Spec
import proofs.«420299_j43722767073851_4_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384
noncomputable section
namespace Cert.KernelIdeal.RegVal
open Idealize.ShloMosaic Idealize.ShloMosaic.TcCoe Idealize.SL.Sem Cert.KernelIdeal Cert.KernelIdeal.Gen
open Idealize.ShloMosaic.Pipeline (Dat Cfg Window)
open Idealize.ShloMosaic.ValueIdx

/-! ## The product h · W of one block, entry by entry -/

/-- Row axis of the left operand: the output index's row. -/
theorem lhs_mm10_0 (i : S2000x96.Idx) (q : dot_S2000x96_S96x96_S2000x96_1_0_0_1_n_n.contr.Idx) :
    (dot_S2000x96_S96x96_S2000x96_1_0_0_1_n_n.lhsIdx i q 0).val = (i 0).val := by
  unfold DotDims.lhsIdx
  rw [dif_neg (show ¬(0 : Fin S2000x96.rank) ∈ dot_S2000x96_S96x96_S2000x96_1_0_0_1_n_n.lhsBatch by decide), dif_pos (show (0 : Fin S2000x96.rank) ∈ dot_S2000x96_S96x96_S2000x96_1_0_0_1_n_n.lhsNonContracting by decide)]
  rfl
/-- Column axis of the left operand: the contracted position. -/
theorem lhs_mm10_1 (i : S2000x96.Idx) (q : dot_S2000x96_S96x96_S2000x96_1_0_0_1_n_n.contr.Idx) :
    (dot_S2000x96_S96x96_S2000x96_1_0_0_1_n_n.lhsIdx i q 1).val = (q ⟨0, by decide⟩).val :=
  dot_S2000x96_S96x96_S2000x96_1_0_0_1_n_n.lhsIdx_val_of_single rfl i q
/-- Row axis of the right operand: the contracted position. -/
theorem rhs_mm10_0 (i : S2000x96.Idx) (q : dot_S2000x96_S96x96_S2000x96_1_0_0_1_n_n.contr.Idx) :
    (dot_S2000x96_S96x96_S2000x96_1_0_0_1_n_n.rhsIdx i q 0).val = (q ⟨0, by decide⟩).val :=
  dot_S2000x96_S96x96_S2000x96_1_0_0_1_n_n.rhsIdx_val_of_single rfl i q
/-- Column axis of the right operand: the output index's column. -/
theorem rhs_mm10_1 (i : S2000x96.Idx) (q : dot_S2000x96_S96x96_S2000x96_1_0_0_1_n_n.contr.Idx) :
    (dot_S2000x96_S96x96_S2000x96_1_0_0_1_n_n.rhsIdx i q 1).val = (i 1).val := by
  unfold DotDims.rhsIdx
  rw [dif_neg (show ¬(1 : Fin S96x96.rank) ∈ dot_S2000x96_S96x96_S2000x96_1_0_0_1_n_n.rhsBatch by decide), dif_pos (show (1 : Fin S96x96.rank) ∈ dot_S2000x96_S96x96_S2000x96_1_0_0_1_n_n.rhsNonContracting by decide)]
  rfl

/-- The block product at an index: the sum over the 96 contracted positions of the left operand's entry in the
    index's row times the right operand's entry in the index's column. -/
theorem blockProd10_apply (x0 : Vec Ideal S2000x96 .f32) (x1 : Vec Ideal S96x96 .f32) (j : S2000x96.Idx) :
    k10_pay1 (F := Ideal) x0 x1 j = ∑ k : Fin 96, x0 (Cert.Spec.lix j k) * x1 (Cert.Spec.rix j k) := by
  unfold k10_pay1
  refine (Ideal.matmul_constant_zero_apply dot_S2000x96_S96x96_S2000x96_1_0_0_1_n_n none x0 x1 j).trans ?_
  rw [← Equiv.sum_comp (ValueIdx.contrEquiv1 dot_S2000x96_S96x96_S2000x96_1_0_0_1_n_n 96 rfl rfl).symm]
  refine Finset.sum_congr rfl fun k _ => ?_
  have hk := ValueIdx.contrEquiv1_symm_val dot_S2000x96_S96x96_S2000x96_1_0_0_1_n_n 96 rfl rfl k
  have el : dot_S2000x96_S96x96_S2000x96_1_0_0_1_n_n.lhsIdx j ((ValueIdx.contrEquiv1 dot_S2000x96_S96x96_S2000x96_1_0_0_1_n_n 96 rfl rfl).symm k) = Cert.Spec.lix j k := funext fun a => Fin.ext (by
    match a with
    | ⟨0, _⟩ => exact lhs_mm10_0 _ _
    | ⟨1, _⟩ => exact (lhs_mm10_1 _ _).trans hk)
  have er : dot_S2000x96_S96x96_S2000x96_1_0_0_1_n_n.rhsIdx j ((ValueIdx.contrEquiv1 dot_S2000x96_S96x96_S2000x96_1_0_0_1_n_n 96 rfl rfl).symm k) = Cert.Spec.rix j k := funext fun a => Fin.ext (by
    match a with
    | ⟨0, _⟩ => exact (rhs_mm10_0 _ _).trans hk
    | ⟨1, _⟩ => exact rhs_mm10_1 _ _)
  rw [el, er]

/-! ## The scaled product plus the bias row, of one block, entry by entry -/

/-- The block's self-loop term at an index: the block product there, times the column's entry in the index's row,
    plus the bias row's entry in the index's column. -/
theorem blockDense10_apply (x0 : Vec Ideal S2000x96 .f32) (x1 : Vec Ideal S96x96 .f32) (x3 : Vec Ideal S2000x1 .f32)
    (x7 : Vec Ideal S1x96 .f32) (j : S2000x96.Idx) :
    k10_pay2 (F := Ideal) x0 x1 x3 x7 j
      = k10_pay1 (F := Ideal) x0 x1 j * x3 (Cert.Spec.colIx j) + x7 (Cert.Spec.rowIx j) := by
  obtain ⟨p, q, rfl⟩ : ∃ (p : Fin 2000) (q : Fin 96), j = ix2 p q := ⟨j 0, j 1, eq_ix2 j⟩
  have ec : Cert.Spec.colIx (ix2 p q) = ix2 p (0 : Fin 1) := funext fun a => by
    match a with
    | ⟨0, _⟩ => rfl
    | ⟨1, _⟩ => rfl
  have er : Cert.Spec.rowIx (ix2 p q) = ix2 (0 : Fin 1) q := funext fun a => by
    match a with
    | ⟨0, _⟩ => rfl
    | ⟨1, _⟩ => rfl
  unfold k10_pay2
  show k10_pay1 (F := Ideal) x0 x1 (ix2 p q)
        * broadcastTo S2000x96 (shapeCast S2000x1 x3 shapeCasts_S2000x1_S2000x1) broadcasts_S2000x1_S2000x96 (ix2 p q)
      + broadcastTo S2000x96 (shapeCast S1x96 x7 shapeCasts_S1x96_S1x96) broadcasts_S1x96_S2000x96 (ix2 p q) = _
  rw [shapeCast_self, shapeCast_self, Cert.LibColumn.broadcastTo_a1_ab_apply, broadcastTo_1b_ab_apply, ec, er]

variable (V : (c : Dev nD) → (b : Ref sig .tc) → Buf (Elt Ideal) ((c : Thread nD τ).loc b))

/-! ## From blocks to the arrays -/

theorem zeroOff10 : (![0, 0] : Fin 2 → Nat) = fun _ => 0 := funext fun a => by
  match a with
  | ⟨0, _⟩ => rfl
  | ⟨1, _⟩ => rfl

/-- The printed index maps over the grid: the windows cut in row blocks (node features, column, both outputs) sit at
    block row t, block column 0; the weights and the bias row are their one block. -/
theorem blockIdx10 : ∀ t : Fin cfg10.N,
    win10_0.index t (0 : Fin 2) = t.val ∧ win10_0.index t (1 : Fin 2) = 0
    ∧ win10_1.index t (0 : Fin 2) = 0 ∧ win10_1.index t (1 : Fin 2) = 0
    ∧ win10_2.index t (0 : Fin 2) = 0 ∧ win10_2.index t (1 : Fin 2) = 0
    ∧ win10_3.index t (0 : Fin 2) = t.val ∧ win10_3.index t (1 : Fin 2) = 0
    ∧ win10_4.index t (0 : Fin 2) = t.val ∧ win10_4.index t (1 : Fin 2) = 0
    ∧ win10_5.index t (0 : Fin 2) = t.val ∧ win10_5.index t (1 : Fin 2) = 0 :=
  (by decide +kernel : ∀ t : Fin grid10.N, _)

/-- The block product of point t at a block index is the whole product h · W at the array index whose row is
    2000 t plus the block index's row and whose column is the block index's column. -/
theorem blockProd10_at (c : Dev nD) (t : Fin cfg10.N) (j : S2000x96.Idx) (i : S50000x96.Idx)
    (hr : (i 0).val = t.val * 2000 + (j 0).val) (hc : (i 1).val = (j 1).val) :
    k10_pay1 (F := Ideal) (iblk10 V c 0 t) (iblk10 V c 1 t) j = Cert.Spec.mm (V c main_arg0) (V c main_arg14) i := by
  obtain ⟨e00, e01, e10, e11, -⟩ := blockIdx10 t
  rw [blockProd10_apply]
  unfold Cert.Spec.mm
  refine Finset.sum_congr rfl fun k _ => ?_
  have a0 : iblk10 V c 0 t (Cert.Spec.lix j k) = V c main_arg0 (Cert.Spec.lix i k) := by
    show V c main_arg0 (((cfg10.win 0).blk t).view.emb (Cert.Spec.lix j k)) = _
    refine congrArg (V c main_arg0) ?_
    funext a; apply Fin.ext
    match a with
    | ⟨0, _⟩ => show win10_0.index t (0 : Fin 2) * 2000 + 1 * (j 0).val = (i 0).val; omega
    | ⟨1, _⟩ => show win10_0.index t (1 : Fin 2) * 96 + 1 * k.val = k.val; omega
  have a1 : iblk10 V c 1 t (Cert.Spec.rix j k) = V c main_arg14 (Cert.Spec.rix i k) := by
    show V c main_arg14 (((cfg10.win 1).blk t).view.emb (Cert.Spec.rix j k)) = _
    refine congrArg (V c main_arg14) ?_
    funext a; apply Fin.ext
    match a with
    | ⟨0, _⟩ => show win10_1.index t (0 : Fin 2) * 96 + 1 * k.val = k.val; omega
    | ⟨1, _⟩ => show win10_1.index t (1 : Fin 2) * 96 + 1 * (j 1).val = (i 1).val; omega
  rw [a0, a1]

/-! ### The product's array (output window 5) -/

/-- What point t writes back to the product's array is block t of h · W of the arrays as the region finds them. -/
theorem flushed10_5 (c : Dev nD) (t : Fin cfg10.N) :
    (dat10 (F := Ideal) V c).flushed 5 t
      = ((cfg10.win 5).blk t).view.read (Elt Ideal) (Cert.Spec.mm (V c main_arg0) (V c main_arg14)) := by
  show (cfg10.win 5).cut (grid10.coords t) ((dat10 (F := Ideal) V c).after 5 t) = _
  rw [after10_5]
  unfold out10_5
  rw [View.canon_unit_zero zeroOff10]
  simp only [View.ld_unit_zero (S := S2000x96) zeroOff10, View.ld_unit_zero (S := S96x96) zeroOff10]
  obtain ⟨-, -, -, -, -, -, -, -, -, -, e50, e51⟩ := blockIdx10 t
  refine funext fun (j : S2000x96.Idx) => ?_
  show k10_pay1 (F := Ideal) (iblk10 V c 0 t) (iblk10 V c 1 t) j
      = Cert.Spec.mm (V c main_arg0) (V c main_arg14) (((cfg10.win 5).blk t).view.emb j : S50000x96.Idx)
  refine blockProd10_at V c t j _ ?_ ?_
  · show win10_5.index t (0 : Fin 2) * 2000 + 1 * (j 0).val = t.val * 2000 + (j 0).val; omega
  · show win10_5.index t (1 : Fin 2) * 96 + 1 * (j 1).val = (j 1).val; omega

/-- An index of the product's array is in point t's block iff each coordinate is in the block's range on its axis. -/
theorem mem_blk10_5 (t : Fin cfg10.N) (i : S50000x96.Idx) :
    i ∈ ((cfg10.win 5).blk t).view.set ↔ ∀ a : Fin 2, win10_5.index t a * S2000x96.size a ≤ (i a).val
      ∧ (i a).val < win10_5.index t a * S2000x96.size a + S2000x96.size a := by
  show i ∈ ((View.whole main_v120_1).slice (win10_5.rect t)).set ↔ _
  rw [View.set_slice_whole, Rect.mem_set_unit]
  exact Iff.rfl

/-- Every index of the product's array is in the block of the point its row divided by 2000 names, and every point
    writes its block back. -/
theorem covered10_5 (i : S50000x96.Idx) :
    ∃ t : Fin cfg10.N, (cfg10.win 5).flush t = true ∧ i ∈ ((cfg10.win 5).blk t).view.set := by
  have hi0 : (i 0).val < 50000 := (i 0).isLt
  have hi1 : (i 1).val < 96 := (i 1).isLt
  have ht : (i 0).val / 2000 < cfg10.N := by show (i 0).val / 2000 < 25; omega
  obtain ⟨-, -, -, -, -, -, -, -, -, -, e50, e51⟩ := blockIdx10 ⟨(i 0).val / 2000, ht⟩
  have e50' : win10_5.index ⟨(i 0).val / 2000, ht⟩ (0 : Fin 2) = (i 0).val / 2000 := e50
  refine ⟨⟨(i 0).val / 2000, ht⟩, flush10_5 _, ?_⟩
  rw [mem_blk10_5]
  intro a
  match a with
  | ⟨0, _⟩ =>
    show win10_5.index ⟨(i 0).val / 2000, ht⟩ (0 : Fin 2) * 2000 ≤ (i 0).val
      ∧ (i 0).val < win10_5.index ⟨(i 0).val / 2000, ht⟩ (0 : Fin 2) * 2000 + 2000
    omega
  | ⟨1, _⟩ =>
    show win10_5.index ⟨(i 0).val / 2000, ht⟩ (1 : Fin 2) * 96 ≤ (i 1).val
      ∧ (i 1).val < win10_5.index ⟨(i 0).val / 2000, ht⟩ (1 : Fin 2) * 96 + 96
    omega

/-- The product's array after the region: h · W of the node features and the weights as the region finds them. -/
theorem arr10_5 (c : Dev nD) :
    (dat10 (F := Ideal) V c).arrAt 5 cfg10.N = Cert.Spec.mm (V c main_arg0) (V c main_arg14) :=
  (dat10 (F := Ideal) V c).arrAt_eq_of_cover 5 (Cert.Spec.mm (V c main_arg0) (V c main_arg14))
    (fun t _ => flushed10_5 V c t) covered10_5

/-! ### The self-loop term's array (output window 4) -/

/-- What point t writes back to the self-loop term's array is block t of (h · W) scaled row by row by the column,
    plus the bias row, of the arrays as the region finds them. -/
theorem flushed10_4 (c : Dev nD) (t : Fin cfg10.N) :
    (dat10 (F := Ideal) V c).flushed 4 t
      = ((cfg10.win 4).blk t).view.read (Elt Ideal)
          (Cert.Spec.dense (V c main_arg0) (V c main_arg14) (V c main_v118) (V c main_v119)) := by
  show (cfg10.win 4).cut (grid10.coords t) ((dat10 (F := Ideal) V c).after 4 t) = _
  rw [after10_4]
  unfold out10_4
  rw [View.canon_unit_zero zeroOff10]
  simp only [View.ld_unit_zero (S := S2000x96) zeroOff10, View.ld_unit_zero (S := S96x96) zeroOff10,
    View.ld_unit_zero (S := S2000x1) zeroOff10, View.ld_unit_zero (S := S1x96) zeroOff10]
  obtain ⟨-, -, -, -, e20, e21, e30, e31, e40, e41, -, -⟩ := blockIdx10 t
  refine funext fun (j : S2000x96.Idx) => ?_
  show k10_pay2 (F := Ideal) (iblk10 V c 0 t) (iblk10 V c 1 t) (iblk10 V c 3 t) (iblk10 V c 2 t) j
      = Cert.Spec.dense (V c main_arg0) (V c main_arg14) (V c main_v118) (V c main_v119)
          (((cfg10.win 4).blk t).view.emb j : S50000x96.Idx)
  have hp : k10_pay1 (F := Ideal) (iblk10 V c 0 t) (iblk10 V c 1 t) j
      = Cert.Spec.mm (V c main_arg0) (V c main_arg14) (((cfg10.win 4).blk t).view.emb j : S50000x96.Idx) := by
    refine blockProd10_at V c t j _ ?_ ?_
    · show win10_4.index t (0 : Fin 2) * 2000 + 1 * (j 0).val = t.val * 2000 + (j 0).val; omega
    · show win10_4.index t (1 : Fin 2) * 96 + 1 * (j 1).val = (j 1).val; omega
  have hcol : iblk10 V c 3 t (Cert.Spec.colIx j)
      = V c main_v119 (Cert.Spec.colIx (((cfg10.win 4).blk t).view.emb j : S50000x96.Idx)) := by
    show V c main_v119 (((cfg10.win 3).blk t).view.emb (Cert.Spec.colIx j)) = _
    refine congrArg (V c main_v119) ?_
    funext a; apply Fin.ext
    match a with
    | ⟨0, _⟩ => show win10_3.index t (0 : Fin 2) * 2000 + 1 * (j 0).val = win10_4.index t (0 : Fin 2) * 2000 + 1 * (j 0).val; omega
    | ⟨1, _⟩ => show win10_3.index t (1 : Fin 2) * 1 + 1 * 0 = 0; omega
  have hrow : iblk10 V c 2 t (Cert.Spec.rowIx j)
      = V c main_v118 (Cert.Spec.rowIx (((cfg10.win 4).blk t).view.emb j : S50000x96.Idx)) := by
    show V c main_v118 (((cfg10.win 2).blk t).view.emb (Cert.Spec.rowIx j)) = _
    refine congrArg (V c main_v118) ?_
    funext a; apply Fin.ext
    match a with
    | ⟨0, _⟩ => show win10_2.index t (0 : Fin 2) * 1 + 1 * 0 = 0; omega
    | ⟨1, _⟩ => show win10_2.index t (1 : Fin 2) * 96 + 1 * (j 1).val = win10_4.index t (1 : Fin 2) * 96 + 1 * (j 1).val; omega
  rw [blockDense10_apply, hp, hcol, hrow]
  rfl

/-- An index of the self-loop term's array is in point t's block iff each coordinate is in the block's range on its
    axis. -/
theorem mem_blk10_4 (t : Fin cfg10.N) (i : S50000x96.Idx) :
    i ∈ ((cfg10.win 4).blk t).view.set ↔ ∀ a : Fin 2, win10_4.index t a * S2000x96.size a ≤ (i a).val
      ∧ (i a).val < win10_4.index t a * S2000x96.size a + S2000x96.size a := by
  show i ∈ ((View.whole main_v120_0).slice (win10_4.rect t)).set ↔ _
  rw [View.set_slice_whole, Rect.mem_set_unit]
  exact Iff.rfl

/-- Every index of the self-loop term's array is in the block of the point its row divided by 2000 names, and every
    point writes its block back. -/
theorem covered10_4 (i : S50000x96.Idx) :
    ∃ t : Fin cfg10.N, (cfg10.win 4).flush t = true ∧ i ∈ ((cfg10.win 4).blk t).view.set := by
  have hi0 : (i 0).val < 50000 := (i 0).isLt
  have hi1 : (i 1).val < 96 := (i 1).isLt
  have ht : (i 0).val / 2000 < cfg10.N := by show (i 0).val / 2000 < 25; omega
  obtain ⟨-, -, -, -, -, -, -, -, e40, e41, -, -⟩ := blockIdx10 ⟨(i 0).val / 2000, ht⟩
  have e40' : win10_4.index ⟨(i 0).val / 2000, ht⟩ (0 : Fin 2) = (i 0).val / 2000 := e40
  refine ⟨⟨(i 0).val / 2000, ht⟩, flush10_4 _, ?_⟩
  rw [mem_blk10_4]
  intro a
  match a with
  | ⟨0, _⟩ =>
    show win10_4.index ⟨(i 0).val / 2000, ht⟩ (0 : Fin 2) * 2000 ≤ (i 0).val
      ∧ (i 0).val < win10_4.index ⟨(i 0).val / 2000, ht⟩ (0 : Fin 2) * 2000 + 2000
    omega
  | ⟨1, _⟩ =>
    show win10_4.index ⟨(i 0).val / 2000, ht⟩ (1 : Fin 2) * 96 ≤ (i 1).val
      ∧ (i 1).val < win10_4.index ⟨(i 0).val / 2000, ht⟩ (1 : Fin 2) * 96 + 96
    omega

/-- The self-loop term's array after the region: (h · W) scaled row by row by the column, plus the bias row, of the
    node features, weights, bias row and column as the region finds them. -/
theorem arr10_4 (c : Dev nD) :
    (dat10 (F := Ideal) V c).arrAt 4 cfg10.N
      = Cert.Spec.dense (V c main_arg0) (V c main_arg14) (V c main_v118) (V c main_v119) :=
  (dat10 (F := Ideal) V c).arrAt_eq_of_cover 4
    (Cert.Spec.dense (V c main_arg0) (V c main_arg14) (V c main_v118) (V c main_v119))
    (fun t _ => flushed10_4 V c t) covered10_4

end Cert.KernelIdeal.RegVal
end
-- ==== Proof.RegE11.lean ====
/-
  Region 11, an epilogue call on 96 columns. Its two inputs are the aggregated messages and the self-loop term, both
  50000 x 96; its output, also 50000 x 96, holds at every index the sum of the two inputs there, replaced by zero
  where the sum is negative.

  The call works on 25 blocks of 2000 whole rows. At grid point t every window stands on rows 2000 t .. 2000 t + 1999,
  so an entry of the output block depends on the two input entries of the same row and column only. The 25 row
  blocks fill the 50000 rows, hence the whole output array is that pointwise function of the two input arrays.
-/
import proofs.«420299_j43722767073851_4_alg».proof.Proof.Gen.KernelIdeal.Frame
import proofs.«420299_j43722767073851_4_alg».proof.Proof.Spec
import Idealize.ShloMosaic.Lib.Pipeline.Value
import Idealize.ShloMosaic.Lib.ValueIdx
import Idealize.ShloMosaic.PureOps.Ideal
import Idealize.ShloMosaic.PureOps.Ideal.Laws

set_option maxRecDepth 16384

noncomputable section
namespace Cert.KernelIdeal.RegVal
open Idealize.ShloMosaic Idealize.ShloMosaic.TcCoe Idealize.SL.Sem Cert.KernelIdeal Cert.KernelIdeal.Gen
open Idealize.ShloMosaic.Pipeline (Dat Cfg Window)
open Idealize.ShloMosaic.ValueIdx

variable (V : (c : Dev nD) → (b : Ref sig .tc) → Buf (Elt Ideal) ((c : Thread nD τ).loc b))

/-- The body reads and writes each of its blocks from the block's first row and first column. -/
theorem origin11 : (![0, 0] : Fin 2 → Nat) = fun _ => 0 := funext fun a => by fin_cases a <;> rfl

/-- The body's value at an index of its block: the two loaded blocks added there, then the larger of that sum and
    zero (the zero word of the 32-bit format is the real number 0). -/
theorem epi11_apply (x0 x1 : FVec Ideal S2000x96 .f32) (j : S2000x96.Idx) :
    k11_pay1 (F := Ideal) x0 x1 j = max (x0 j + x1 j) 0 := by
  unfold k11_pay1
  simp only [shapeCast_self]
  show max (x0 j + x1 j) (Ideal.ofBits .f32 0x00000000#32) = _
  rw [Ideal.ofBits_zero_f32]

/-- The same value, when the two block entries are the entries of two whole arrays at one index: the pointwise
    function of the two arrays at that index. -/
theorem epi11_apply_of_entries (A B : FVec Ideal S50000x96 .f32) (x0 x1 : FVec Ideal S2000x96 .f32)
    (j : S2000x96.Idx) (i : S50000x96.Idx) (h0 : x0 j = A i) (h1 : x1 j = B i) :
    k11_pay1 (F := Ideal) x0 x1 j = Cert.Spec.epiRelu A B i := by
  rw [epi11_apply, h0, h1]
  rfl

/-- At grid point t each of the three windows stands on row block t and on the one column block. -/
theorem blockIndex11 : ∀ t : Fin cfg11.N, win11_0.index t (0 : Fin 2) = win11_2.index t (0 : Fin 2)
    ∧ win11_0.index t (1 : Fin 2) = win11_2.index t (1 : Fin 2)
    ∧ win11_1.index t (0 : Fin 2) = win11_2.index t (0 : Fin 2)
    ∧ win11_1.index t (1 : Fin 2) = win11_2.index t (1 : Fin 2)
    ∧ win11_2.index t (0 : Fin 2) ≤ 24
    ∧ win11_2.index t (1 : Fin 2) = 0 :=
  (by decide +kernel : ∀ t : Fin grid11.N, _)

/-- Every one of the 25 row blocks is the output's block at some grid point. -/
theorem blockIndex11_onto : ∀ q : Fin 25, ∃ t : Fin cfg11.N, win11_2.index t = ![q.val, 0] :=
  (by decide +kernel : ∀ q : Fin 25, ∃ t : Fin grid11.N, win11_2.index t = ![q.val, 0])

/-- What grid point t writes back to the output array is block t of the pointwise function of the two input arrays:
    an entry of the output block and the entries of the two input blocks it is computed from sit at the same row and
    column of their arrays (block index times block size plus the coordinate inside the block, on each axis). -/
theorem flushed11_2_eq (c : Dev nD) (t : Fin cfg11.N) :
    (dat11 (F := Ideal) V c).flushed 2 t
      = ((cfg11.win 2).blk t).view.read (Elt Ideal) (Cert.Spec.epiRelu (V c main_v133) (V c main_v120_0)) := by
  show (cfg11.win 2).cut (grid11.coords t) ((dat11 (F := Ideal) V c).after 2 t) = _
  rw [after11_2]
  unfold out11_2
  rw [View.canon_unit_zero origin11]
  simp only [View.ld_unit_zero (S := S2000x96) origin11]
  obtain ⟨e0, e1, e2, e3, e4, e5⟩ := blockIndex11 t
  funext j
  have h0 : ((cfg11.win 0).blk t).view.emb j = ((cfg11.win 2).blk t).view.emb j := by
    funext a; apply Fin.ext
    match a with
    | ⟨0, _⟩ => show win11_0.index t (0 : Fin 2) * 2000 + 1 * (j 0).val = win11_2.index t (0 : Fin 2) * 2000 + 1 * (j 0).val; omega
    | ⟨1, _⟩ => show win11_0.index t (1 : Fin 2) * 96 + 1 * (j 1).val = win11_2.index t (1 : Fin 2) * 96 + 1 * (j 1).val; omega
  have h1 : ((cfg11.win 1).blk t).view.emb j = ((cfg11.win 2).blk t).view.emb j := by
    funext a; apply Fin.ext
    match a with
    | ⟨0, _⟩ => show win11_1.index t (0 : Fin 2) * 2000 + 1 * (j 0).val = win11_2.index t (0 : Fin 2) * 2000 + 1 * (j 0).val; omega
    | ⟨1, _⟩ => show win11_1.index t (1 : Fin 2) * 96 + 1 * (j 1).val = win11_2.index t (1 : Fin 2) * 96 + 1 * (j 1).val; omega
  exact epi11_apply_of_entries (V c main_v133) (V c main_v120_0) (iblk11 V c 0 t) (iblk11 V c 1 t) j
    (((cfg11.win 2).blk t).view.emb j) (congrArg (V c main_v133) h0) (congrArg (V c main_v120_0) h1)

/-- An index of the output array lies in grid point t's block exactly when, on each axis, its coordinate lies in the
    block's range there. -/
theorem mem_block11_2 (t : Fin cfg11.N) (i : S50000x96.Idx) :
    i ∈ ((cfg11.win 2).blk t).view.set ↔ ∀ a : Fin 2, win11_2.index t a * S2000x96.size a ≤ (i a).val
      ∧ (i a).val < win11_2.index t a * S2000x96.size a + S2000x96.size a := by
  show i ∈ ((View.whole main_v134).slice (win11_2.rect t)).set ↔ _
  rw [View.set_slice_whole, Rect.mem_set_unit]
  exact Iff.rfl

/-- Every index of the output array is written back by some grid point: row r lies in row block r / 2000. -/
theorem covered11_2 (i : S50000x96.Idx) :
    ∃ t : Fin cfg11.N, (cfg11.win 2).flush t = true ∧ i ∈ ((cfg11.win 2).blk t).view.set := by
  have hi0 : (i 0).val < 50000 := (i 0).isLt
  have hi1 : (i 1).val < 96 := (i 1).isLt
  obtain ⟨t, ht⟩ := blockIndex11_onto ⟨(i 0).val / 2000, by omega⟩
  have q0 : win11_2.index t (0 : Fin 2) = (i 0).val / 2000 := congrFun ht 0
  have q1 : win11_2.index t (1 : Fin 2) = 0 := congrFun ht 1
  refine ⟨t, flush11_2 t, ?_⟩
  rw [mem_block11_2]
  intro a
  match a with
  | ⟨0, _⟩ => show win11_2.index t (0 : Fin 2) * 2000 ≤ (i 0).val ∧ (i 0).val < win11_2.index t (0 : Fin 2) * 2000 + 2000; omega
  | ⟨1, _⟩ => show win11_2.index t (1 : Fin 2) * 96 ≤ (i 1).val ∧ (i 1).val < win11_2.index t (1 : Fin 2) * 96 + 96; omega

/-- The output array of region 11 after the call: the sum of the aggregated messages and the self-loop term, then the
    maximum with zero, index by index. -/
theorem arr11_2 (c : Dev nD) : (dat11 (F := Ideal) V c).arrAt 2 cfg11.N = Cert.Spec.epiRelu (V c main_v133) (V c main_v120_0) :=
  (dat11 (F := Ideal) V c).arrAt_eq_of_cover 2 (Cert.Spec.epiRelu (V c main_v133) (V c main_v120_0))
    (fun t _ => flushed11_2_eq V c t) covered11_2

end Cert.KernelIdeal.RegVal
end
-- ==== Proof.Match6.lean ====
/-
  Layer 6 (96 -> 96 columns, relu), as pure functions of the argument arrays: the kernel's two calls and the
  reference's operations compute one array.
  The reference's layer is relu((agg + hw * sc) + b) with hw = h · W, sc the self-loop coefficient broadcast along
  rows and b the bias broadcast along columns; the kernel's is relu(agg + (hw * sc + b)) with sc read from an
  n x 1 column and b from a 1 x c row. The two agree entry by entry by associativity of addition on the extended
  reals (no finiteness is needed: only + is regrouped).
-/
import proofs.«420299_j43722767073851_4_alg».proof.Proof.Gen.ReferenceIdeal.Read
import proofs.«420299_j43722767073851_4_alg».proof.Proof.Spec
import proofs.«420299_j43722767073851_4_alg».proof.Proof.LibColumn
import Idealize.ShloMosaic.Lib.ValueLayout
import Idealize.ShloMosaic.Lib.ValueIdx
import Idealize.ShloMosaic.PureOps.Ideal.Laws
import Idealize.ShloMosaic.PureOps.Ideal

noncomputable section

namespace Cert.Match

open Idealize.ShloMosaic Idealize.ShloMosaic.ValueIdx Cert.ReferenceIdeal Cert.ReferenceIdeal.Read

/-- The matrix product of the layer's input with its weights is the reference's dot_general. -/
theorem mm_L6
    (x0 : (⟨S50000x96, .f32⟩ : BufTy).Contents (Elt Ideal))
    (x14 : (⟨S96x96, .f32⟩ : BufTy).Contents (Elt Ideal)) :
    Cert.Spec.mm (n := 50000) (a := 96) (b := 96) x0 x14 = val_main_v142 (F := Ideal) x0 x14 := by
  funext i
  rw [val_main_v142_apply]
  unfold Cert.Spec.mm
  refine Finset.sum_congr rfl fun k _ => ?_
  have el : Cert.Spec.lix (a := 96) i k = lidx_main_v142 i k := funext fun d => by
    match d with
    | ⟨0, _⟩ => rfl
    | ⟨1, _⟩ => rfl
  have er : Cert.Spec.rix (n := 50000) (a := 96) i k = ridx_main_v142 i k := funext fun d => by
    match d with
    | ⟨0, _⟩ => rfl
    | ⟨1, _⟩ => rfl
  rw [el, er]

/-- The layer's output: the epilogue of the aggregated messages and the dense call's self-loop term is the
    reference's relu of ((agg + hw * sc) + b). -/
theorem out_L6
    (x0 : (⟨S50000x96, .f32⟩ : BufTy).Contents (Elt Ideal))
    (x1 : (⟨S2x800000, .i32⟩ : BufTy).Contents (Elt Ideal))
    (x14 : (⟨S96x96, .f32⟩ : BufTy).Contents (Elt Ideal))
    (x15 : (⟨S96, .f32⟩ : BufTy).Contents (Elt Ideal))
    (hb : (⟨1, ![96]⟩ : Shape).ShapeCasts ⟨2, ![1, 96]⟩) (hs : (⟨1, ![50000]⟩ : Shape).ShapeCasts ⟨2, ![50000, 1]⟩) :
    Cert.Spec.epiRelu (n := 50000) (b := 96) (val_main_v155 (F := Ideal) x0 x1 x14)
      (Cert.Spec.dense (n := 50000) (a := 96) (b := 96) x0 x14 (shapeCast ⟨2, ![1, 96]⟩ x15 hb)
        (shapeCast ⟨2, ![50000, 1]⟩ (val_main_v27 (F := Ideal) x1) hs))
    = val_main_v162 (F := Ideal) x0 x1 x14 x15 := by
  funext i
  rw [val_main_v162_apply, val_main_v161_apply, val_main_v158_apply, val_main_v157_apply, val_main_v156_apply, val_main_v28_apply,
    val_main_v160_apply, val_main_v159_apply, val_main_call2_v0_apply, val_main_call2_cst_apply, ← mm_L6]
  have ec : Cert.Spec.colIx (n := 50000) (b := 96) i = ix2 (⟨(i 0).val, (i 0).isLt⟩ : Fin 50000) (⟨0, Nat.one_pos⟩ : Fin 1) :=
    funext fun d => by
      match d with
      | ⟨0, _⟩ => rfl
      | ⟨1, _⟩ => rfl
  have er : Cert.Spec.rowIx (n := 50000) (b := 96) i = ix2 (⟨0, Nat.one_pos⟩ : Fin 1) (⟨(i 1).val, (i 1).isLt⟩ : Fin 96) :=
    funext fun d => by
      match d with
      | ⟨0, _⟩ => rfl
      | ⟨1, _⟩ => rfl
  have e1 : idx_main_v28 (idx_main_v156 i) = ix1 (⟨(i 0).val, (i 0).isLt⟩ : Fin 50000) := funext fun d => by
    match d with
    | ⟨0, _⟩ => rfl
  have e2 : idx_main_v159 (idx_main_v160 i) = ix1 (⟨(i 1).val, (i 1).isLt⟩ : Fin 96) := funext fun d => by
    match d with
    | ⟨0, _⟩ => rfl
  unfold Cert.Spec.epiRelu Cert.Spec.dense
  rw [ec, er, Cert.LibColumn.shapeCast_a_a1_apply, shapeCast_a_1a_apply, e1, e2]
  simp only [Ideal.maximumf_def, Ideal.addf_def, Ideal.mulf_def, Ideal.ofBits_def, Ideal.ofBits_zero_f32]
  rw [add_assoc]

end Cert.Match

end
-- ==== Proof.Layer6.lean ====
/-
  Layer 6 (node branch, first convolution) of the kernel's program, segment by segment.
  The layer reads the previous layer's output h, its weight matrix and bias (arguments nothing has written), and
  the values the whole program shares (the edges' source and target nodes, the edge and self-loop coefficients).
  The first host stretch lays the bias out as a 1 x 96 row and the self-loop coefficients as a 50000 x 1 column;
  the dense call leaves h · W and (h · W) * sc + b; the second host stretch gathers the product's rows along the
  edges, scales them and scatter-adds them into the target nodes; the epilogue call adds the self-loop term and
  applies relu. The result is the reference's layer.
-/
import proofs.«420299_j43722767073851_4_alg».proof.Proof.Layer5
import proofs.«420299_j43722767073851_4_alg».proof.Proof.KeepGlobals
import proofs.«420299_j43722767073851_4_alg».proof.Proof.KeepArgsB
import proofs.«420299_j43722767073851_4_alg».proof.Proof.RegD10
import proofs.«420299_j43722767073851_4_alg».proof.Proof.RegE11
import proofs.«420299_j43722767073851_4_alg».proof.Proof.Match6

set_option maxRecDepth 16384

noncomputable section

namespace Cert.KernelIdeal.Chain

open Cert.KernelIdeal Cert.KernelIdeal.Gen Cert.KernelIdeal.Keep
open Idealize.ShloMosaic Idealize.ShloMosaic.TcCoe Idealize.SL.Sem
open Cert.ReferenceIdeal.Read

variable (m : (ℓ : Loc nD τ sig) → Buf (Elt Ideal) ℓ) (ρ : Dev nD → PrngReg)

/-! ## The dense call's inputs at its entry -/

/-- The layer's input: the previous layer's output. -/
theorem in10_h (c : Dev nD) : V21 m ρ c main_arg0 = (m ((c : Thread nD τ).loc main_arg0)) :=
  (show W21 m ρ c (Proc.devRef .tc main_arg0) = W20 m ρ c (Proc.devRef .tc main_arg0) from by host_keep hostOps10).trans (keep_arg0_20 m ρ c)

theorem in10_W (c : Dev nD) : V21 m ρ c main_arg14 = (m ((c : Thread nD τ).loc main_arg14)) :=
  (show W21 m ρ c (Proc.devRef .tc main_arg14) = W20 m ρ c (Proc.devRef .tc main_arg14) from by host_keep hostOps10).trans (keep_arg14_20 m ρ c)

/-- The bias as a 1 x 96 row. -/
theorem in10_b (c : Dev nD) : V21 m ρ c main_v118 = shapeCast S1x96 (m ((c : Thread nD τ).loc main_arg15)) shapeCasts_S96_S1x96 := by
  show StableHlo.after hostOps10 (W20 m ρ c) (Proc.devRef .tc main_v118) = _
  after_results
  rw [keep_arg15_20 m ρ c]
  rfl

/-- The self-loop coefficients as a 50000 x 1 column. -/
theorem in10_sc (c : Dev nD) : V21 m ρ c main_v119 = shapeCast S50000x1 (val_main_v27 (F := Ideal) (m ((c : Thread nD τ).loc main_arg1))) shapeCasts_S50000_S50000x1 := by
  show StableHlo.after hostOps10 (W20 m ρ c) (Proc.devRef .tc main_v119) = _
  after_results
  rw [at20_v27 m ρ c]
  rfl

/-! ## The dense call's outputs -/

/-- h · W, the reference's dot_general. -/
theorem hw_L6 (c : Dev nD) : W22 m ρ c (Proc.devRef .tc main_v120_1) = val_main_v142 (F := Ideal) (m ((c : Thread nD τ).loc main_arg0)) (m ((c : Thread nD τ).loc main_arg14)) := by
  refine (W22_arr m ρ c 5).trans ?_
  rw [Cert.KernelIdeal.RegVal.arr10_5 (V21 m ρ) c, in10_h m ρ c, in10_W m ρ c]
  exact Cert.Match.mm_L6 _ _

/-- The self-loop term (h · W) * sc + b. -/
theorem oi_L6 (c : Dev nD) : W22 m ρ c (Proc.devRef .tc main_v120_0)
    = Cert.Spec.dense (m ((c : Thread nD τ).loc main_arg0)) (m ((c : Thread nD τ).loc main_arg14)) (shapeCast S1x96 (m ((c : Thread nD τ).loc main_arg15)) shapeCasts_S96_S1x96)
        (shapeCast S50000x1 (val_main_v27 (F := Ideal) (m ((c : Thread nD τ).loc main_arg1))) shapeCasts_S50000_S50000x1) := by
  refine (W22_arr m ρ c 4).trans ?_
  rw [Cert.KernelIdeal.RegVal.arr10_4 (V21 m ρ) c, in10_h m ρ c, in10_W m ρ c, in10_b m ρ c, in10_sc m ρ c]

/-! ## The shared values after the dense call -/

theorem g22_v1 (c : Dev nD) : W22 m ρ c (Proc.devRef .tc main_v1) = val_main_v1 (F := Ideal) (m ((c : Thread nD τ).loc main_arg1)) :=
  (W22_of_ne m ρ c main_v1 (by decide)).trans <| (show W21 m ρ c (Proc.devRef .tc main_v1) = W20 m ρ c (Proc.devRef .tc main_v1) from by host_keep hostOps10).trans (at20_v1 m ρ c)
theorem g22_v3 (c : Dev nD) : W22 m ρ c (Proc.devRef .tc main_v3) = val_main_v3 (F := Ideal) (m ((c : Thread nD τ).loc main_arg1)) :=
  (W22_of_ne m ρ c main_v3 (by decide)).trans <| (show W21 m ρ c (Proc.devRef .tc main_v3) = W20 m ρ c (Proc.devRef .tc main_v3) from by host_keep hostOps10).trans (at20_v3 m ρ c)
theorem g22_v26 (c : Dev nD) : W22 m ρ c (Proc.devRef .tc main_v26) = val_main_v26 (F := Ideal) (m ((c : Thread nD τ).loc main_arg1)) :=
  (W22_of_ne m ρ c main_v26 (by decide)).trans <| (show W21 m ρ c (Proc.devRef .tc main_v26) = W20 m ρ c (Proc.devRef .tc main_v26) from by host_keep hostOps10).trans (at20_v26 m ρ c)

/-! ## The aggregated messages, and the epilogue -/

set_option maxHeartbeats 1600000 in
/-- Rows of h · W gathered along the edges, scaled by the edge coefficients, scatter-added into the target nodes. -/
theorem agg_L6 (c : Dev nD) : V23 m ρ c main_v133 = val_main_v155 (F := Ideal) (m ((c : Thread nD τ).loc main_arg0)) (m ((c : Thread nD τ).loc main_arg1)) (m ((c : Thread nD τ).loc main_arg14)) := by
  show StableHlo.after hostOps11 (W22 m ρ c) (Proc.devRef .tc main_v133) = _
  after_results
  rw [g22_v1 m ρ c, g22_v3 m ρ c, g22_v26 m ρ c, hw_L6 m ρ c]
  rfl

theorem oi3_L6 (c : Dev nD) : V23 m ρ c main_v120_0
    = Cert.Spec.dense (m ((c : Thread nD τ).loc main_arg0)) (m ((c : Thread nD τ).loc main_arg14)) (shapeCast S1x96 (m ((c : Thread nD τ).loc main_arg15)) shapeCasts_S96_S1x96)
        (shapeCast S50000x1 (val_main_v27 (F := Ideal) (m ((c : Thread nD τ).loc main_arg1))) shapeCasts_S50000_S50000x1) :=
  (show W23 m ρ c (Proc.devRef .tc main_v120_0) = W22 m ρ c (Proc.devRef .tc main_v120_0) from by host_keep hostOps11).trans (oi_L6 m ρ c)

/-- The layer's output is the reference's. -/
theorem out_L6 (c : Dev nD) : W24 m ρ c (Proc.devRef .tc main_v134) = val_main_v162 (F := Ideal) (m ((c : Thread nD τ).loc main_arg0)) (m ((c : Thread nD τ).loc main_arg1)) (m ((c : Thread nD τ).loc main_arg14)) (m ((c : Thread nD τ).loc main_arg15)) := by
  refine (W24_arr m ρ c 2).trans ?_
  rw [Cert.KernelIdeal.RegVal.arr11_2 (V23 m ρ) c, agg_L6 m ρ c, oi3_L6 m ρ c]
  exact Cert.Match.out_L6 _ _ _ _ _ _

/-! ## The shared values at the layer's exit -/

theorem at24_v1 (c : Dev nD) : W24 m ρ c (Proc.devRef .tc main_v1) = val_main_v1 (F := Ideal) (m ((c : Thread nD τ).loc main_arg1)) :=
  (keepL6_v1 m ρ c).trans (at20_v1 m ρ c)
theorem at24_v3 (c : Dev nD) : W24 m ρ c (Proc.devRef .tc main_v3) = val_main_v3 (F := Ideal) (m ((c : Thread nD τ).loc main_arg1)) :=
  (keepL6_v3 m ρ c).trans (at20_v3 m ρ c)
theorem at24_v26 (c : Dev nD) : W24 m ρ c (Proc.devRef .tc main_v26) = val_main_v26 (F := Ideal) (m ((c : Thread nD τ).loc main_arg1)) :=
  (keepL6_v26 m ρ c).trans (at20_v26 m ρ c)
theorem at24_v27 (c : Dev nD) : W24 m ρ c (Proc.devRef .tc main_v27) = val_main_v27 (F := Ideal) (m ((c : Thread nD τ).loc main_arg1)) :=
  (keepL6_v27 m ρ c).trans (at20_v27 m ρ c)

end Cert.KernelIdeal.Chain

end
-- ==== Proof.RegD12.lean ====
/-
  The seventh dense call of the kernel (node features 50000 x 96, weights 96 x 96), read as whole arrays on the
  extended reals. Its grid has 25 points; point t holds rows 2000 t .. 2000 t + 1999 of the node features, of the
  self-loop column and of both outputs, and the whole of the weights and of the bias row. One block of the product
  is a sum over the contracted axis (the left operand first passes through a cast to its own shape); one block of
  the self-loop term is that product scaled row by row by the column plus the bias row. The blocks of the 25 points
  tile each output array, so each array ends holding the whole product h · W, respectively (h · W) scaled by the
  column plus the bias row.
-/
import proofs.«420299_j43722767073851_4_alg».proof.Proof.Gen.KernelIdeal.Frame
import proofs.«420299_j43722767073851_4_alg».proof.Proof.Spec
import proofs.«420299_j43722767073851_4_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384
noncomputable section
namespace Cert.KernelIdeal.RegVal
open Idealize.ShloMosaic Idealize.ShloMosaic.TcCoe Idealize.SL.Sem Cert.KernelIdeal Cert.KernelIdeal.Gen
open Idealize.ShloMosaic.Pipeline (Dat Cfg Window)
open Idealize.ShloMosaic.ValueIdx

/-! ## The product h · W of one block, entry by entry -/

/-- Row axis of the left operand: the output index's row. -/
theorem lhs_mm12_0 (i : S2000x96.Idx) (q : dot_S2000x96_S96x96_S2000x96_1_0_0_1_n_n.contr.Idx) :
    (dot_S2000x96_S96x96_S2000x96_1_0_0_1_n_n.lhsIdx i q 0).val = (i 0).val := by
  unfold DotDims.lhsIdx
  rw [dif_neg (show ¬(0 : Fin S2000x96.rank) ∈ dot_S2000x96_S96x96_S2000x96_1_0_0_1_n_n.lhsBatch by decide), dif_pos (show (0 : Fin S2000x96.rank) ∈ dot_S2000x96_S96x96_S2000x96_1_0_0_1_n_n.lhsNonContracting by decide)]
  rfl
/-- Column axis of the left operand: the contracted position. -/
theorem lhs_mm12_1 (i : S2000x96.Idx) (q : dot_S2000x96_S96x96_S2000x96_1_0_0_1_n_n.contr.Idx) :
    (dot_S2000x96_S96x96_S2000x96_1_0_0_1_n_n.lhsIdx i q 1).val = (q ⟨0, by decide⟩).val :=
  dot_S2000x96_S96x96_S2000x96_1_0_0_1_n_n.lhsIdx_val_of_single rfl i q
/-- Row axis of the right operand: the contracted position. -/
theorem rhs_mm12_0 (i : S2000x96.Idx) (q : dot_S2000x96_S96x96_S2000x96_1_0_0_1_n_n.contr.Idx) :
    (dot_S2000x96_S96x96_S2000x96_1_0_0_1_n_n.rhsIdx i q 0).val = (q ⟨0, by decide⟩).val :=
  dot_S2000x96_S96x96_S2000x96_1_0_0_1_n_n.rhsIdx_val_of_single rfl i q
/-- Column axis of the right operand: the output index's column. -/
theorem rhs_mm12_1 (i : S2000x96.Idx) (q : dot_S2000x96_S96x96_S2000x96_1_0_0_1_n_n.contr.Idx) :
    (dot_S2000x96_S96x96_S2000x96_1_0_0_1_n_n.rhsIdx i q 1).val = (i 1).val := by
  unfold DotDims.rhsIdx
  rw [dif_neg (show ¬(1 : Fin S96x96.rank) ∈ dot_S2000x96_S96x96_S2000x96_1_0_0_1_n_n.rhsBatch by decide), dif_pos (show (1 : Fin S96x96.rank) ∈ dot_S2000x96_S96x96_S2000x96_1_0_0_1_n_n.rhsNonContracting by decide)]
  rfl

/-- The block product at an index: the left operand enters through a cast to its own shape, which changes nothing;
    the product is the sum over the 96 contracted positions of the left operand's entry in the index's row times the
    right operand's entry in the index's column. -/
theorem blockProd12_apply (x0 : Vec Ideal S2000x96 .f32) (x1 : Vec Ideal S96x96 .f32) (j : S2000x96.Idx) :
    k12_pay1 (F := Ideal) x0 x1 j = ∑ k : Fin 96, x0 (Cert.Spec.lix j k) * x1 (Cert.Spec.rix j k) := by
  unfold k12_pay1
  refine (Ideal.matmul_constant_zero_apply dot_S2000x96_S96x96_S2000x96_1_0_0_1_n_n none
    (shapeCast S2000x96 x0 shapeCasts_S2000x96_S2000x96) x1 j).trans ?_
  rw [shapeCast_self]
  rw [← Equiv.sum_comp (ValueIdx.contrEquiv1 dot_S2000x96_S96x96_S2000x96_1_0_0_1_n_n 96 rfl rfl).symm]
  refine Finset.sum_congr rfl fun k _ => ?_
  have hk := ValueIdx.contrEquiv1_symm_val dot_S2000x96_S96x96_S2000x96_1_0_0_1_n_n 96 rfl rfl k
  have el : dot_S2000x96_S96x96_S2000x96_1_0_0_1_n_n.lhsIdx j ((ValueIdx.contrEquiv1 dot_S2000x96_S96x96_S2000x96_1_0_0_1_n_n 96 rfl rfl).symm k) = Cert.Spec.lix j k := funext fun a => Fin.ext (by
    match a with
    | ⟨0, _⟩ => exact lhs_mm12_0 _ _
    | ⟨1, _⟩ => exact (lhs_mm12_1 _ _).trans hk)
  have er : dot_S2000x96_S96x96_S2000x96_1_0_0_1_n_n.rhsIdx j ((ValueIdx.contrEquiv1 dot_S2000x96_S96x96_S2000x96_1_0_0_1_n_n 96 rfl rfl).symm k) = Cert.Spec.rix j k := funext fun a => Fin.ext (by
    match a with
    | ⟨0, _⟩ => exact (rhs_mm12_0 _ _).trans hk
    | ⟨1, _⟩ => exact rhs_mm12_1 _ _)
  rw [el, er]

/-! ## The scaled product plus the bias row, of one block, entry by entry -/

/-- The block's self-loop term at an index: the block product there, times the column's entry in the index's row,
    plus the bias row's entry in the index's column. -/
theorem blockDense12_apply (x0 : Vec Ideal S2000x96 .f32) (x1 : Vec Ideal S96x96 .f32) (x3 : Vec Ideal S2000x1 .f32)
    (x7 : Vec Ideal S1x96 .f32) (j : S2000x96.Idx) :
    k12_pay2 (F := Ideal) x0 x1 x3 x7 j
      = k12_pay1 (F := Ideal) x0 x1 j * x3 (Cert.Spec.colIx j) + x7 (Cert.Spec.rowIx j) := by
  obtain ⟨p, q, rfl⟩ : ∃ (p : Fin 2000) (q : Fin 96), j = ix2 p q := ⟨j 0, j 1, eq_ix2 j⟩
  have ec : Cert.Spec.colIx (ix2 p q) = ix2 p (0 : Fin 1) := funext fun a => by
    match a with
    | ⟨0, _⟩ => rfl
    | ⟨1, _⟩ => rfl
  have er : Cert.Spec.rowIx (ix2 p q) = ix2 (0 : Fin 1) q := funext fun a => by
    match a with
    | ⟨0, _⟩ => rfl
    | ⟨1, _⟩ => rfl
  unfold k12_pay2
  show k12_pay1 (F := Ideal) x0 x1 (ix2 p q)
        * broadcastTo S2000x96 (shapeCast S2000x1 x3 shapeCasts_S2000x1_S2000x1) broadcasts_S2000x1_S2000x96 (ix2 p q)
      + broadcastTo S2000x96 (shapeCast S1x96 x7 shapeCasts_S1x96_S1x96) broadcasts_S1x96_S2000x96 (ix2 p q) = _
  rw [shapeCast_self, shapeCast_self, Cert.LibColumn.broadcastTo_a1_ab_apply, broadcastTo_1b_ab_apply, ec, er]

variable (V : (c : Dev nD) → (b : Ref sig .tc) → Buf (Elt Ideal) ((c : Thread nD τ).loc b))

/-! ## From blocks to the arrays -/

theorem zeroOff12 : (![0, 0] : Fin 2 → Nat) = fun _ => 0 := funext fun a => by
  match a with
  | ⟨0, _⟩ => rfl
  | ⟨1, _⟩ => rfl

/-- The printed index maps over the grid: the windows cut in row blocks (node features, column, both outputs) sit at
    block row t, block column 0; the weights and the bias row are their one block. -/
theorem blockIdx12 : ∀ t : Fin cfg12.N,
    win12_0.index t (0 : Fin 2) = t.val ∧ win12_0.index t (1 : Fin 2) = 0
    ∧ win12_1.index t (0 : Fin 2) = 0 ∧ win12_1.index t (1 : Fin 2) = 0
    ∧ win12_2.index t (0 : Fin 2) = 0 ∧ win12_2.index t (1 : Fin 2) = 0
    ∧ win12_3.index t (0 : Fin 2) = t.val ∧ win12_3.index t (1 : Fin 2) = 0
    ∧ win12_4.index t (0 : Fin 2) = t.val ∧ win12_4.index t (1 : Fin 2) = 0
    ∧ win12_5.index t (0 : Fin 2) = t.val ∧ win12_5.index t (1 : Fin 2) = 0 :=
  (by decide +kernel : ∀ t : Fin grid12.N, _)

/-- The block product of point t at a block index is the whole product h · W at the array index whose row is
    2000 t plus the block index's row and whose column is the block index's column. -/
theorem blockProd12_at (c : Dev nD) (t : Fin cfg12.N) (j : S2000x96.Idx) (i : S50000x96.Idx)
    (hr : (i 0).val = t.val * 2000 + (j 0).val) (hc : (i 1).val = (j 1).val) :
    k12_pay1 (F := Ideal) (iblk12 V c 0 t) (iblk12 V c 1 t) j = Cert.Spec.mm (V c main_v134) (V c main_arg16) i := by
  obtain ⟨e00, e01, e10, e11, -⟩ := blockIdx12 t
  rw [blockProd12_apply]
  unfold Cert.Spec.mm
  refine Finset.sum_congr rfl fun k _ => ?_
  have a0 : iblk12 V c 0 t (Cert.Spec.lix j k) = V c main_v134 (Cert.Spec.lix i k) := by
    show V c main_v134 (((cfg12.win 0).blk t).view.emb (Cert.Spec.lix j k)) = _
    refine congrArg (V c main_v134) ?_
    funext a; apply Fin.ext
    match a with
    | ⟨0, _⟩ => show win12_0.index t (0 : Fin 2) * 2000 + 1 * (j 0).val = (i 0).val; omega
    | ⟨1, _⟩ => show win12_0.index t (1 : Fin 2) * 96 + 1 * k.val = k.val; omega
  have a1 : iblk12 V c 1 t (Cert.Spec.rix j k) = V c main_arg16 (Cert.Spec.rix i k) := by
    show V c main_arg16 (((cfg12.win 1).blk t).view.emb (Cert.Spec.rix j k)) = _
    refine congrArg (V c main_arg16) ?_
    funext a; apply Fin.ext
    match a with
    | ⟨0, _⟩ => show win12_1.index t (0 : Fin 2) * 96 + 1 * k.val = k.val; omega
    | ⟨1, _⟩ => show win12_1.index t (1 : Fin 2) * 96 + 1 * (j 1).val = (i 1).val; omega
  rw [a0, a1]

/-! ### The product's array (output window 5) -/

/-- What point t writes back to the product's array is block t of h · W of the arrays as the region finds them. -/
theorem flushed12_5 (c : Dev nD) (t : Fin cfg12.N) :
    (dat12 (F := Ideal) V c).flushed 5 t
      = ((cfg12.win 5).blk t).view.read (Elt Ideal) (Cert.Spec.mm (V c main_v134) (V c main_arg16)) := by
  show (cfg12.win 5).cut (grid12.coords t) ((dat12 (F := Ideal) V c).after 5 t) = _
  rw [after12_5]
  unfold out12_5
  rw [View.canon_unit_zero zeroOff12]
  simp only [View.ld_unit_zero (S := S2000x96) zeroOff12, View.ld_unit_zero (S := S96x96) zeroOff12]
  obtain ⟨-, -, -, -, -, -, -, -, -, -, e50, e51⟩ := blockIdx12 t
  refine funext fun (j : S2000x96.Idx) => ?_
  show k12_pay1 (F := Ideal) (iblk12 V c 0 t) (iblk12 V c 1 t) j
      = Cert.Spec.mm (V c main_v134) (V c main_arg16) (((cfg12.win 5).blk t).view.emb j : S50000x96.Idx)
  refine blockProd12_at V c t j _ ?_ ?_
  · show win12_5.index t (0 : Fin 2) * 2000 + 1 * (j 0).val = t.val * 2000 + (j 0).val; omega
  · show win12_5.index t (1 : Fin 2) * 96 + 1 * (j 1).val = (j 1).val; omega

/-- An index of the product's array is in point t's block iff each coordinate is in the block's range on its axis. -/
theorem mem_blk12_5 (t : Fin cfg12.N) (i : S50000x96.Idx) :
    i ∈ ((cfg12.win 5).blk t).view.set ↔ ∀ a : Fin 2, win12_5.index t a * S2000x96.size a ≤ (i a).val
      ∧ (i a).val < win12_5.index t a * S2000x96.size a + S2000x96.size a := by
  show i ∈ ((View.whole main_v137_1).slice (win12_5.rect t)).set ↔ _
  rw [View.set_slice_whole, Rect.mem_set_unit]
  exact Iff.rfl

/-- Every index of the product's array is in the block of the point its row divided by 2000 names, and every point
    writes its block back. -/
theorem covered12_5 (i : S50000x96.Idx) :
    ∃ t : Fin cfg12.N, (cfg12.win 5).flush t = true ∧ i ∈ ((cfg12.win 5).blk t).view.set := by
  have hi0 : (i 0).val < 50000 := (i 0).isLt
  have hi1 : (i 1).val < 96 := (i 1).isLt
  have ht : (i 0).val / 2000 < cfg12.N := by show (i 0).val / 2000 < 25; omega
  obtain ⟨-, -, -, -, -, -, -, -, -, -, e50, e51⟩ := blockIdx12 ⟨(i 0).val / 2000, ht⟩
  have e50' : win12_5.index ⟨(i 0).val / 2000, ht⟩ (0 : Fin 2) = (i 0).val / 2000 := e50
  refine ⟨⟨(i 0).val / 2000, ht⟩, flush12_5 _, ?_⟩
  rw [mem_blk12_5]
  intro a
  match a with
  | ⟨0, _⟩ =>
    show win12_5.index ⟨(i 0).val / 2000, ht⟩ (0 : Fin 2) * 2000 ≤ (i 0).val
      ∧ (i 0).val < win12_5.index ⟨(i 0).val / 2000, ht⟩ (0 : Fin 2) * 2000 + 2000
    omega
  | ⟨1, _⟩ =>
    show win12_5.index ⟨(i 0).val / 2000, ht⟩ (1 : Fin 2) * 96 ≤ (i 1).val
      ∧ (i 1).val < win12_5.index ⟨(i 0).val / 2000, ht⟩ (1 : Fin 2) * 96 + 96
    omega

/-- The product's array after the region: h · W of the node features and the weights as the region finds them. -/
theorem arr12_5 (c : Dev nD) :
    (dat12 (F := Ideal) V c).arrAt 5 cfg12.N = Cert.Spec.mm (V c main_v134) (V c main_arg16) :=
  (dat12 (F := Ideal) V c).arrAt_eq_of_cover 5 (Cert.Spec.mm (V c main_v134) (V c main_arg16))
    (fun t _ => flushed12_5 V c t) covered12_5

/-! ### The self-loop term's array (output window 4) -/

/-- What point t writes back to the self-loop term's array is block t of (h · W) scaled row by row by the column,
    plus the bias row, of the arrays as the region finds them. -/
theorem flushed12_4 (c : Dev nD) (t : Fin cfg12.N) :
    (dat12 (F := Ideal) V c).flushed 4 t
      = ((cfg12.win 4).blk t).view.read (Elt Ideal)
          (Cert.Spec.dense (V c main_v134) (V c main_arg16) (V c main_v135) (V c main_v136)) := by
  show (cfg12.win 4).cut (grid12.coords t) ((dat12 (F := Ideal) V c).after 4 t) = _
  rw [after12_4]
  unfold out12_4
  rw [View.canon_unit_zero zeroOff12]
  simp only [View.ld_unit_zero (S := S2000x96) zeroOff12, View.ld_unit_zero (S := S96x96) zeroOff12,
    View.ld_unit_zero (S := S2000x1) zeroOff12, View.ld_unit_zero (S := S1x96) zeroOff12]
  obtain ⟨-, -, -, -, e20, e21, e30, e31, e40, e41, -, -⟩ := blockIdx12 t
  refine funext fun (j : S2000x96.Idx) => ?_
  show k12_pay2 (F := Ideal) (iblk12 V c 0 t) (iblk12 V c 1 t) (iblk12 V c 3 t) (iblk12 V c 2 t) j
      = Cert.Spec.dense (V c main_v134) (V c main_arg16) (V c main_v135) (V c main_v136)
          (((cfg12.win 4).blk t).view.emb j : S50000x96.Idx)
  have hp : k12_pay1 (F := Ideal) (iblk12 V c 0 t) (iblk12 V c 1 t) j
      = Cert.Spec.mm (V c main_v134) (V c main_arg16) (((cfg12.win 4).blk t).view.emb j : S50000x96.Idx) := by
    refine blockProd12_at V c t j _ ?_ ?_
    · show win12_4.index t (0 : Fin 2) * 2000 + 1 * (j 0).val = t.val * 2000 + (j 0).val; omega
    · show win12_4.index t (1 : Fin 2) * 96 + 1 * (j 1).val = (j 1).val; omega
  have hcol : iblk12 V c 3 t (Cert.Spec.colIx j)
      = V c main_v136 (Cert.Spec.colIx (((cfg12.win 4).blk t).view.emb j : S50000x96.Idx)) := by
    show V c main_v136 (((cfg12.win 3).blk t).view.emb (Cert.Spec.colIx j)) = _
    refine congrArg (V c main_v136) ?_
    funext a; apply Fin.ext
    match a with
    | ⟨0, _⟩ => show win12_3.index t (0 : Fin 2) * 2000 + 1 * (j 0).val = win12_4.index t (0 : Fin 2) * 2000 + 1 * (j 0).val; omega
    | ⟨1, _⟩ => show win12_3.index t (1 : Fin 2) * 1 + 1 * 0 = 0; omega
  have hrow : iblk12 V c 2 t (Cert.Spec.rowIx j)
      = V c main_v135 (Cert.Spec.rowIx (((cfg12.win 4).blk t).view.emb j : S50000x96.Idx)) := by
    show V c main_v135 (((cfg12.win 2).blk t).view.emb (Cert.Spec.rowIx j)) = _
    refine congrArg (V c main_v135) ?_
    funext a; apply Fin.ext
    match a with
    | ⟨0, _⟩ => show win12_2.index t (0 : Fin 2) * 1 + 1 * 0 = 0; omega
    | ⟨1, _⟩ => show win12_2.index t (1 : Fin 2) * 96 + 1 * (j 1).val = win12_4.index t (1 : Fin 2) * 96 + 1 * (j 1).val; omega
  rw [blockDense12_apply, hp, hcol, hrow]
  rfl

/-- An index of the self-loop term's array is in point t's block iff each coordinate is in the block's range on its
    axis. -/
theorem mem_blk12_4 (t : Fin cfg12.N) (i : S50000x96.Idx) :
    i ∈ ((cfg12.win 4).blk t).view.set ↔ ∀ a : Fin 2, win12_4.index t a * S2000x96.size a ≤ (i a).val
      ∧ (i a).val < win12_4.index t a * S2000x96.size a + S2000x96.size a := by
  show i ∈ ((View.whole main_v137_0).slice (win12_4.rect t)).set ↔ _
  rw [View.set_slice_whole, Rect.mem_set_unit]
  exact Iff.rfl

/-- Every index of the self-loop term's array is in the block of the point its row divided by 2000 names, and every
    point writes its block back. -/
theorem covered12_4 (i : S50000x96.Idx) :
    ∃ t : Fin cfg12.N, (cfg12.win 4).flush t = true ∧ i ∈ ((cfg12.win 4).blk t).view.set := by
  have hi0 : (i 0).val < 50000 := (i 0).isLt
  have hi1 : (i 1).val < 96 := (i 1).isLt
  have ht : (i 0).val / 2000 < cfg12.N := by show (i 0).val / 2000 < 25; omega
  obtain ⟨-, -, -, -, -, -, -, -, e40, e41, -, -⟩ := blockIdx12 ⟨(i 0).val / 2000, ht⟩
  have e40' : win12_4.index ⟨(i 0).val / 2000, ht⟩ (0 : Fin 2) = (i 0).val / 2000 := e40
  refine ⟨⟨(i 0).val / 2000, ht⟩, flush12_4 _, ?_⟩
  rw [mem_blk12_4]
  intro a
  match a with
  | ⟨0, _⟩ =>
    show win12_4.index ⟨(i 0).val / 2000, ht⟩ (0 : Fin 2) * 2000 ≤ (i 0).val
      ∧ (i 0).val < win12_4.index ⟨(i 0).val / 2000, ht⟩ (0 : Fin 2) * 2000 + 2000
    omega
  | ⟨1, _⟩ =>
    show win12_4.index ⟨(i 0).val / 2000, ht⟩ (1 : Fin 2) * 96 ≤ (i 1).val
      ∧ (i 1).val < win12_4.index ⟨(i 0).val / 2000, ht⟩ (1 : Fin 2) * 96 + 96
    omega

/-- The self-loop term's array after the region: (h · W) scaled row by row by the column, plus the bias row, of the
    node features, weights, bias row and column as the region finds them. -/
theorem arr12_4 (c : Dev nD) :
    (dat12 (F := Ideal) V c).arrAt 4 cfg12.N
      = Cert.Spec.dense (V c main_v134) (V c main_arg16) (V c main_v135) (V c main_v136) :=
  (dat12 (F := Ideal) V c).arrAt_eq_of_cover 4
    (Cert.Spec.dense (V c main_v134) (V c main_arg16) (V c main_v135) (V c main_v136))
    (fun t _ => flushed12_4 V c t) covered12_4

end Cert.KernelIdeal.RegVal
end
-- ==== Proof.RegE13.lean ====
/-
  Region 13, an epilogue call on 96 columns with no activation. Its two inputs are the aggregated messages and the
  self-loop term, both 50000 x 96; its output, also 50000 x 96, holds at every index the sum of the two inputs there.

  The call works on 25 blocks of 2000 whole rows. At grid point t every window stands on rows 2000 t .. 2000 t + 1999,
  so an entry of the output block depends on the two input entries of the same row and column only. The 25 row
  blocks fill the 50000 rows, hence the whole output array is that pointwise function of the two input arrays.
-/
import proofs.«420299_j43722767073851_4_alg».proof.Proof.Gen.KernelIdeal.Frame
import proofs.«420299_j43722767073851_4_alg».proof.Proof.Spec
import Idealize.ShloMosaic.Lib.Pipeline.Value
import Idealize.ShloMosaic.Lib.ValueIdx
import Idealize.ShloMosaic.PureOps.Ideal

set_option maxRecDepth 16384

noncomputable section
namespace Cert.KernelIdeal.RegVal
open Idealize.ShloMosaic Idealize.ShloMosaic.TcCoe Idealize.SL.Sem Cert.KernelIdeal Cert.KernelIdeal.Gen
open Idealize.ShloMosaic.Pipeline (Dat Cfg Window)
open Idealize.ShloMosaic.ValueIdx

variable (V : (c : Dev nD) → (b : Ref sig .tc) → Buf (Elt Ideal) ((c : Thread nD τ).loc b))

/-- The body reads and writes each of its blocks from the block's first row and first column. -/
theorem origin13 : (![0, 0] : Fin 2 → Nat) = fun _ => 0 := funext fun a => by fin_cases a <;> rfl

/-- The body's value at an index of its block: the two loaded blocks added there. -/
theorem epi13_apply (x0 x1 : FVec Ideal S2000x96 .f32) (j : S2000x96.Idx) :
    k13_pay1 (F := Ideal) x0 x1 j = x0 j + x1 j := by
  unfold k13_pay1
  simp only [shapeCast_self]
  rfl

/-- The same value, when the two block entries are the entries of two whole arrays at one index: the pointwise
    function of the two arrays at that index. -/
theorem epi13_apply_of_entries (A B : FVec Ideal S50000x96 .f32) (x0 x1 : FVec Ideal S2000x96 .f32)
    (j : S2000x96.Idx) (i : S50000x96.Idx) (h0 : x0 j = A i) (h1 : x1 j = B i) :
    k13_pay1 (F := Ideal) x0 x1 j = Cert.Spec.epiNone A B i := by
  rw [epi13_apply, h0, h1]
  rfl

/-- At grid point t each of the three windows stands on row block t and on the one column block. -/
theorem blockIndex13 : ∀ t : Fin cfg13.N, win13_0.index t (0 : Fin 2) = win13_2.index t (0 : Fin 2)
    ∧ win13_0.index t (1 : Fin 2) = win13_2.index t (1 : Fin 2)
    ∧ win13_1.index t (0 : Fin 2) = win13_2.index t (0 : Fin 2)
    ∧ win13_1.index t (1 : Fin 2) = win13_2.index t (1 : Fin 2)
    ∧ win13_2.index t (0 : Fin 2) ≤ 24
    ∧ win13_2.index t (1 : Fin 2) = 0 :=
  (by decide +kernel : ∀ t : Fin grid13.N, _)

/-- Every one of the 25 row blocks is the output's block at some grid point. -/
theorem blockIndex13_onto : ∀ q : Fin 25, ∃ t : Fin cfg13.N, win13_2.index t = ![q.val, 0] :=
  (by decide +kernel : ∀ q : Fin 25, ∃ t : Fin grid13.N, win13_2.index t = ![q.val, 0])

/-- What grid point t writes back to the output array is block t of the pointwise function of the two input arrays:
    an entry of the output block and the entries of the two input blocks it is computed from sit at the same row and
    column of their arrays (block index times block size plus the coordinate inside the block, on each axis). -/
theorem flushed13_2_eq (c : Dev nD) (t : Fin cfg13.N) :
    (dat13 (F := Ideal) V c).flushed 2 t
      = ((cfg13.win 2).blk t).view.read (Elt Ideal) (Cert.Spec.epiNone (V c main_v150) (V c main_v137_0)) := by
  show (cfg13.win 2).cut (grid13.coords t) ((dat13 (F := Ideal) V c).after 2 t) = _
  rw [after13_2]
  unfold out13_2
  rw [View.canon_unit_zero origin13]
  simp only [View.ld_unit_zero (S := S2000x96) origin13]
  obtain ⟨e0, e1, e2, e3, e4, e5⟩ := blockIndex13 t
  funext j
  have h0 : ((cfg13.win 0).blk t).view.emb j = ((cfg13.win 2).blk t).view.emb j := by
    funext a; apply Fin.ext
    match a with
    | ⟨0, _⟩ => show win13_0.index t (0 : Fin 2) * 2000 + 1 * (j 0).val = win13_2.index t (0 : Fin 2) * 2000 + 1 * (j 0).val; omega
    | ⟨1, _⟩ => show win13_0.index t (1 : Fin 2) * 96 + 1 * (j 1).val = win13_2.index t (1 : Fin 2) * 96 + 1 * (j 1).val; omega
  have h1 : ((cfg13.win 1).blk t).view.emb j = ((cfg13.win 2).blk t).view.emb j := by
    funext a; apply Fin.ext
    match a with
    | ⟨0, _⟩ => show win13_1.index t (0 : Fin 2) * 2000 + 1 * (j 0).val = win13_2.index t (0 : Fin 2) * 2000 + 1 * (j 0).val; omega
    | ⟨1, _⟩ => show win13_1.index t (1 : Fin 2) * 96 + 1 * (j 1).val = win13_2.index t (1 : Fin 2) * 96 + 1 * (j 1).val; omega
  exact epi13_apply_of_entries (V c main_v150) (V c main_v137_0) (iblk13 V c 0 t) (iblk13 V c 1 t) j
    (((cfg13.win 2).blk t).view.emb j) (congrArg (V c main_v150) h0) (congrArg (V c main_v137_0) h1)

/-- An index of the output array lies in grid point t's block exactly when, on each axis, its coordinate lies in the
    block's range there. -/
theorem mem_block13_2 (t : Fin cfg13.N) (i : S50000x96.Idx) :
    i ∈ ((cfg13.win 2).blk t).view.set ↔ ∀ a : Fin 2, win13_2.index t a * S2000x96.size a ≤ (i a).val
      ∧ (i a).val < win13_2.index t a * S2000x96.size a + S2000x96.size a := by
  show i ∈ ((View.whole main_v151).slice (win13_2.rect t)).set ↔ _
  rw [View.set_slice_whole, Rect.mem_set_unit]
  exact Iff.rfl

/-- Every index of the output array is written back by some grid point: row r lies in row block r / 2000. -/
theorem covered13_2 (i : S50000x96.Idx) :
    ∃ t : Fin cfg13.N, (cfg13.win 2).flush t = true ∧ i ∈ ((cfg13.win 2).blk t).view.set := by
  have hi0 : (i 0).val < 50000 := (i 0).isLt
  have hi1 : (i 1).val < 96 := (i 1).isLt
  obtain ⟨t, ht⟩ := blockIndex13_onto ⟨(i 0).val / 2000, by omega⟩
  have q0 : win13_2.index t (0 : Fin 2) = (i 0).val / 2000 := congrFun ht 0
  have q1 : win13_2.index t (1 : Fin 2) = 0 := congrFun ht 1
  refine ⟨t, flush13_2 t, ?_⟩
  rw [mem_block13_2]
  intro a
  match a with
  | ⟨0, _⟩ => show win13_2.index t (0 : Fin 2) * 2000 ≤ (i 0).val ∧ (i 0).val < win13_2.index t (0 : Fin 2) * 2000 + 2000; omega
  | ⟨1, _⟩ => show win13_2.index t (1 : Fin 2) * 96 ≤ (i 1).val ∧ (i 1).val < win13_2.index t (1 : Fin 2) * 96 + 96; omega

/-- The output array of region 13 after the call: the sum of the aggregated messages and the self-loop term, index by
    index. -/
theorem arr13_2 (c : Dev nD) : (dat13 (F := Ideal) V c).arrAt 2 cfg13.N = Cert.Spec.epiNone (V c main_v150) (V c main_v137_0) :=
  (dat13 (F := Ideal) V c).arrAt_eq_of_cover 2 (Cert.Spec.epiNone (V c main_v150) (V c main_v137_0))
    (fun t _ => flushed13_2_eq V c t) covered13_2

end Cert.KernelIdeal.RegVal
end
-- ==== Proof.Match7.lean ====
/-
  Layer 7 (96 -> 96 columns, no activation), as pure functions of the argument arrays: the kernel's two calls and
  the reference's operations compute one array.
  The reference's layer is (agg + hw * sc) + b with hw = h · W, sc the self-loop coefficient broadcast along rows and
  b the bias broadcast along columns; the kernel's is agg + (hw * sc + b) with sc read from an n x 1 column and b from
  a 1 x c row. The two agree entry by entry by associativity of addition on the extended reals (no finiteness is
  needed: only + is regrouped).
-/
import proofs.«420299_j43722767073851_4_alg».proof.Proof.Gen.ReferenceIdeal.Read
import proofs.«420299_j43722767073851_4_alg».proof.Proof.Spec
import proofs.«420299_j43722767073851_4_alg».proof.Proof.LibColumn
import Idealize.ShloMosaic.Lib.ValueLayout
import Idealize.ShloMosaic.Lib.ValueIdx
import Idealize.ShloMosaic.PureOps.Ideal

noncomputable section

namespace Cert.Match

open Idealize.ShloMosaic Idealize.ShloMosaic.ValueIdx Cert.ReferenceIdeal Cert.ReferenceIdeal.Read

/-- The matrix product of the layer's input with its weights is the reference's dot_general. -/
theorem mm_L7
    (x0 : (⟨S50000x96, .f32⟩ : BufTy).Contents (Elt Ideal))
    (x1 : (⟨S2x800000, .i32⟩ : BufTy).Contents (Elt Ideal))
    (x14 : (⟨S96x96, .f32⟩ : BufTy).Contents (Elt Ideal))
    (x15 : (⟨S96, .f32⟩ : BufTy).Contents (Elt Ideal))
    (x16 : (⟨S96x96, .f32⟩ : BufTy).Contents (Elt Ideal)) :
    Cert.Spec.mm (n := 50000) (a := 96) (b := 96) (val_main_v162 (F := Ideal) x0 x1 x14 x15) x16 = val_main_v163 (F := Ideal) x0 x1 x14 x15 x16 := by
  funext i
  rw [val_main_v163_apply]
  unfold Cert.Spec.mm
  refine Finset.sum_congr rfl fun k _ => ?_
  have el : Cert.Spec.lix (a := 96) i k = lidx_main_v163 i k := funext fun d => by
    match d with
    | ⟨0, _⟩ => rfl
    | ⟨1, _⟩ => rfl
  have er : Cert.Spec.rix (n := 50000) (a := 96) i k = ridx_main_v163 i k := funext fun d => by
    match d with
    | ⟨0, _⟩ => rfl
    | ⟨1, _⟩ => rfl
  rw [el, er]

/-- The layer's output: the epilogue of the aggregated messages and the dense call's self-loop term is the
    reference's (agg + hw * sc) + b. -/
theorem out_L7
    (x0 : (⟨S50000x96, .f32⟩ : BufTy).Contents (Elt Ideal))
    (x1 : (⟨S2x800000, .i32⟩ : BufTy).Contents (Elt Ideal))
    (x14 : (⟨S96x96, .f32⟩ : BufTy).Contents (Elt Ideal))
    (x15 : (⟨S96, .f32⟩ : BufTy).Contents (Elt Ideal))
    (x16 : (⟨S96x96, .f32⟩ : BufTy).Contents (Elt Ideal))
    (x17 : (⟨S96, .f32⟩ : BufTy).Contents (Elt Ideal))
    (hb : (⟨1, ![96]⟩ : Shape).ShapeCasts ⟨2, ![1, 96]⟩) (hs : (⟨1, ![50000]⟩ : Shape).ShapeCasts ⟨2, ![50000, 1]⟩) :
    Cert.Spec.epiNone (n := 50000) (b := 96) (val_main_v176 (F := Ideal) x0 x1 x14 x15 x16)
      (Cert.Spec.dense (n := 50000) (a := 96) (b := 96) (val_main_v162 (F := Ideal) x0 x1 x14 x15) x16 (shapeCast ⟨2, ![1, 96]⟩ x17 hb)
        (shapeCast ⟨2, ![50000, 1]⟩ (val_main_v27 (F := Ideal) x1) hs))
    = val_main_v182 (F := Ideal) x0 x1 x14 x15 x16 x17 := by
  funext i
  rw [val_main_v182_apply, val_main_v179_apply, val_main_v178_apply, val_main_v177_apply, val_main_v28_apply,
    val_main_v181_apply, val_main_v180_apply, ← mm_L7]
  have ec : Cert.Spec.colIx (n := 50000) (b := 96) i = ix2 (⟨(i 0).val, (i 0).isLt⟩ : Fin 50000) (⟨0, Nat.one_pos⟩ : Fin 1) :=
    funext fun d => by
      match d with
      | ⟨0, _⟩ => rfl
      | ⟨1, _⟩ => rfl
  have er : Cert.Spec.rowIx (n := 50000) (b := 96) i = ix2 (⟨0, Nat.one_pos⟩ : Fin 1) (⟨(i 1).val, (i 1).isLt⟩ : Fin 96) :=
    funext fun d => by
      match d with
      | ⟨0, _⟩ => rfl
      | ⟨1, _⟩ => rfl
  have e1 : idx_main_v28 (idx_main_v177 i) = ix1 (⟨(i 0).val, (i 0).isLt⟩ : Fin 50000) := funext fun d => by
    match d with
    | ⟨0, _⟩ => rfl
  have e2 : idx_main_v180 (idx_main_v181 i) = ix1 (⟨(i 1).val, (i 1).isLt⟩ : Fin 96) := funext fun d => by
    match d with
    | ⟨0, _⟩ => rfl
  unfold Cert.Spec.epiNone Cert.Spec.dense
  rw [ec, er, Cert.LibColumn.shapeCast_a_a1_apply, shapeCast_a_1a_apply, e1, e2]
  simp only [Ideal.addf_def, Ideal.mulf_def]
  rw [add_assoc]

end Cert.Match

end
-- ==== Proof.Layer7.lean ====
/-
  Layer 7 (node branch, second convolution) of the kernel's program, segment by segment.
  The layer reads the previous layer's output h, its weight matrix and bias (arguments nothing has written), and
  the values the whole program shares (the edges' source and target nodes, the edge and self-loop coefficients).
  The first host stretch lays the bias out as a 1 x 96 row and the self-loop coefficients as a 50000 x 1 column;
  the dense call leaves h · W and (h · W) * sc + b; the second host stretch gathers the product's rows along the
  edges, scales them and scatter-adds them into the target nodes; the epilogue call adds the self-loop term and
  applies no activation. The result is the reference's layer.
-/
import proofs.«420299_j43722767073851_4_alg».proof.Proof.Layer6
import proofs.«420299_j43722767073851_4_alg».proof.Proof.KeepGlobals
import proofs.«420299_j43722767073851_4_alg».proof.Proof.KeepArgsB
import proofs.«420299_j43722767073851_4_alg».proof.Proof.RegD12
import proofs.«420299_j43722767073851_4_alg».proof.Proof.RegE13
import proofs.«420299_j43722767073851_4_alg».proof.Proof.Match7

set_option maxRecDepth 16384

noncomputable section

namespace Cert.KernelIdeal.Chain

open Cert.KernelIdeal Cert.KernelIdeal.Gen Cert.KernelIdeal.Keep
open Idealize.ShloMosaic Idealize.ShloMosaic.TcCoe Idealize.SL.Sem
open Cert.ReferenceIdeal.Read

variable (m : (ℓ : Loc nD τ sig) → Buf (Elt Ideal) ℓ) (ρ : Dev nD → PrngReg)

/-! ## The dense call's inputs at its entry -/

/-- The layer's input: the previous layer's output. -/
theorem in12_h (c : Dev nD) : V25 m ρ c main_v134 = val_main_v162 (F := Ideal) (m ((c : Thread nD τ).loc main_arg0)) (m ((c : Thread nD τ).loc main_arg1)) (m ((c : Thread nD τ).loc main_arg14)) (m ((c : Thread nD τ).loc main_arg15)) :=
  (show W25 m ρ c (Proc.devRef .tc main_v134) = W24 m ρ c (Proc.devRef .tc main_v134) from by host_keep hostOps12).trans (out_L6 m ρ c)

theorem in12_W (c : Dev nD) : V25 m ρ c main_arg16 = (m ((c : Thread nD τ).loc main_arg16)) :=
  (show W25 m ρ c (Proc.devRef .tc main_arg16) = W24 m ρ c (Proc.devRef .tc main_arg16) from by host_keep hostOps12).trans (keep_arg16_24 m ρ c)

/-- The bias as a 1 x 96 row. -/
theorem in12_b (c : Dev nD) : V25 m ρ c main_v135 = shapeCast S1x96 (m ((c : Thread nD τ).loc main_arg17)) shapeCasts_S96_S1x96 := by
  show StableHlo.after hostOps12 (W24 m ρ c) (Proc.devRef .tc main_v135) = _
  after_results
  rw [keep_arg17_24 m ρ c]
  rfl

/-- The self-loop coefficients as a 50000 x 1 column. -/
theorem in12_sc (c : Dev nD) : V25 m ρ c main_v136 = shapeCast S50000x1 (val_main_v27 (F := Ideal) (m ((c : Thread nD τ).loc main_arg1))) shapeCasts_S50000_S50000x1 := by
  show StableHlo.after hostOps12 (W24 m ρ c) (Proc.devRef .tc main_v136) = _
  after_results
  rw [at24_v27 m ρ c]
  rfl

/-! ## The dense call's outputs -/

/-- h · W, the reference's dot_general. -/
theorem hw_L7 (c : Dev nD) : W26 m ρ c (Proc.devRef .tc main_v137_1) = val_main_v163 (F := Ideal) (m ((c : Thread nD τ).loc main_arg0)) (m ((c : Thread nD τ).loc main_arg1)) (m ((c : Thread nD τ).loc main_arg14)) (m ((c : Thread nD τ).loc main_arg15)) (m ((c : Thread nD τ).loc main_arg16)) := by
  refine (W26_arr m ρ c 5).trans ?_
  rw [Cert.KernelIdeal.RegVal.arr12_5 (V25 m ρ) c, in12_h m ρ c, in12_W m ρ c]
  exact Cert.Match.mm_L7 _ _ _ _ _

/-- The self-loop term (h · W) * sc + b. -/
theorem oi_L7 (c : Dev nD) : W26 m ρ c (Proc.devRef .tc main_v137_0)
    = Cert.Spec.dense (val_main_v162 (F := Ideal) (m ((c : Thread nD τ).loc main_arg0)) (m ((c : Thread nD τ).loc main_arg1)) (m ((c : Thread nD τ).loc main_arg14)) (m ((c : Thread nD τ).loc main_arg15))) (m ((c : Thread nD τ).loc main_arg16)) (shapeCast S1x96 (m ((c : Thread nD τ).loc main_arg17)) shapeCasts_S96_S1x96)
        (shapeCast S50000x1 (val_main_v27 (F := Ideal) (m ((c : Thread nD τ).loc main_arg1))) shapeCasts_S50000_S50000x1) := by
  refine (W26_arr m ρ c 4).trans ?_
  rw [Cert.KernelIdeal.RegVal.arr12_4 (V25 m ρ) c, in12_h m ρ c, in12_W m ρ c, in12_b m ρ c, in12_sc m ρ c]

/-! ## The shared values after the dense call -/

theorem g26_v1 (c : Dev nD) : W26 m ρ c (Proc.devRef .tc main_v1) = val_main_v1 (F := Ideal) (m ((c : Thread nD τ).loc main_arg1)) :=
  (W26_of_ne m ρ c main_v1 (by decide)).trans <| (show W25 m ρ c (Proc.devRef .tc main_v1) = W24 m ρ c (Proc.devRef .tc main_v1) from by host_keep hostOps12).trans (at24_v1 m ρ c)
theorem g26_v3 (c : Dev nD) : W26 m ρ c (Proc.devRef .tc main_v3) = val_main_v3 (F := Ideal) (m ((c : Thread nD τ).loc main_arg1)) :=
  (W26_of_ne m ρ c main_v3 (by decide)).trans <| (show W25 m ρ c (Proc.devRef .tc main_v3) = W24 m ρ c (Proc.devRef .tc main_v3) from by host_keep hostOps12).trans (at24_v3 m ρ c)
theorem g26_v26 (c : Dev nD) : W26 m ρ c (Proc.devRef .tc main_v26) = val_main_v26 (F := Ideal) (m ((c : Thread nD τ).loc main_arg1)) :=
  (W26_of_ne m ρ c main_v26 (by decide)).trans <| (show W25 m ρ c (Proc.devRef .tc main_v26) = W24 m ρ c (Proc.devRef .tc main_v26) from by host_keep hostOps12).trans (at24_v26 m ρ c)

/-! ## The aggregated messages, and the epilogue -/

set_option maxHeartbeats 1600000 in
/-- Rows of h · W gathered along the edges, scaled by the edge coefficients, scatter-added into the target nodes. -/
theorem agg_L7 (c : Dev nD) : V27 m ρ c main_v150 = val_main_v176 (F := Ideal) (m ((c : Thread nD τ).loc main_arg0)) (m ((c : Thread nD τ).loc main_arg1)) (m ((c : Thread nD τ).loc main_arg14)) (m ((c : Thread nD τ).loc main_arg15)) (m ((c : Thread nD τ).loc main_arg16)) := by
  show StableHlo.after hostOps13 (W26 m ρ c) (Proc.devRef .tc main_v150) = _
  after_results
  rw [g26_v1 m ρ c, g26_v3 m ρ c, g26_v26 m ρ c, hw_L7 m ρ c]
  rfl

theorem oi3_L7 (c : Dev nD) : V27 m ρ c main_v137_0
    = Cert.Spec.dense (val_main_v162 (F := Ideal) (m ((c : Thread nD τ).loc main_arg0)) (m ((c : Thread nD τ).loc main_arg1)) (m ((c : Thread nD τ).loc main_arg14)) (m ((c : Thread nD τ).loc main_arg15))) (m ((c : Thread nD τ).loc main_arg16)) (shapeCast S1x96 (m ((c : Thread nD τ).loc main_arg17)) shapeCasts_S96_S1x96)
        (shapeCast S50000x1 (val_main_v27 (F := Ideal) (m ((c : Thread nD τ).loc main_arg1))) shapeCasts_S50000_S50000x1) :=
  (show W27 m ρ c (Proc.devRef .tc main_v137_0) = W26 m ρ c (Proc.devRef .tc main_v137_0) from by host_keep hostOps13).trans (oi_L7 m ρ c)

/-- The layer's output is the reference's. -/
theorem out_L7 (c : Dev nD) : W28 m ρ c (Proc.devRef .tc main_v151) = val_main_v182 (F := Ideal) (m ((c : Thread nD τ).loc main_arg0)) (m ((c : Thread nD τ).loc main_arg1)) (m ((c : Thread nD τ).loc main_arg14)) (m ((c : Thread nD τ).loc main_arg15)) (m ((c : Thread nD τ).loc main_arg16)) (m ((c : Thread nD τ).loc main_arg17)) := by
  refine (W28_arr m ρ c 2).trans ?_
  rw [Cert.KernelIdeal.RegVal.arr13_2 (V27 m ρ) c, agg_L7 m ρ c, oi3_L7 m ρ c]
  exact Cert.Match.out_L7 _ _ _ _ _ _ _ _

/-! ## The shared values at the layer's exit -/

theorem at28_v1 (c : Dev nD) : W28 m ρ c (Proc.devRef .tc main_v1) = val_main_v1 (F := Ideal) (m ((c : Thread nD τ).loc main_arg1)) :=
  (keepL7_v1 m ρ c).trans (at24_v1 m ρ c)
theorem at28_v3 (c : Dev nD) : W28 m ρ c (Proc.devRef .tc main_v3) = val_main_v3 (F := Ideal) (m ((c : Thread nD τ).loc main_arg1)) :=
  (keepL7_v3 m ρ c).trans (at24_v3 m ρ c)
theorem at28_v26 (c : Dev nD) : W28 m ρ c (Proc.devRef .tc main_v26) = val_main_v26 (F := Ideal) (m ((c : Thread nD τ).loc main_arg1)) :=
  (keepL7_v26 m ρ c).trans (at24_v26 m ρ c)
theorem at28_v27 (c : Dev nD) : W28 m ρ c (Proc.devRef .tc main_v27) = val_main_v27 (F := Ideal) (m ((c : Thread nD τ).loc main_arg1)) :=
  (keepL7_v27 m ρ c).trans (at24_v27 m ρ c)

end Cert.KernelIdeal.Chain

end
-- ==== Proof.KeepArgsC.lean ====
/-
  Buffers that a layer leaves alone. Layer l of the program is four segments: a stretch of host operations, the
  dense pallas_call, a second stretch of host operations, the epilogue pallas_call. A buffer that none of the four
  writes holds at the layer's exit boundary what it held at the entry boundary; chained over consecutive layers,
  a value computed once (the edge lists, the normalisation coefficients, a weight argument, an earlier layer's
  output) is still there when a later layer reads it.
-/
import proofs.«420299_j43722767073851_4_alg».proof.Proof.Gen.KernelIdeal.Frame
import proofs.«420299_j43722767073851_4_alg».proof.Proof.KeepMacro

set_option maxRecDepth 16384

noncomputable section

namespace Cert.KernelIdeal.Keep

open Cert.KernelIdeal Cert.KernelIdeal.Gen
open Idealize.ShloMosaic Idealize.ShloMosaic.TcCoe Idealize.SL.Sem

variable {F : FTy → Type} [FloatOps F]

variable (m : (ℓ : Loc nD τ sig) → Buf (Elt F) ℓ) (ρ : Dev nD → PrngReg)

/-! ### main_arg18: boundary 0 to boundary 28 -/
theorem keepL1_arg18 (c : Dev nD) : W4 m ρ c (Proc.devRef .tc main_arg18) = W0 m ρ c (Proc.devRef .tc main_arg18) :=
  (W4_of_ne m ρ c main_arg18 (by decide)).trans <| (show W3 m ρ c (Proc.devRef .tc main_arg18) = W2 m ρ c (Proc.devRef .tc main_arg18) from by host_keep hostOps1).trans <|
  (W2_of_ne m ρ c main_arg18 (by decide)).trans (show W1 m ρ c (Proc.devRef .tc main_arg18) = W0 m ρ c (Proc.devRef .tc main_arg18) from by host_keep hostOps0)
theorem keep_arg18_4 (c : Dev nD) : W4 m ρ c (Proc.devRef .tc main_arg18) = W0 m ρ c (Proc.devRef .tc main_arg18) :=
  keepL1_arg18 m ρ c
theorem keepL2_arg18 (c : Dev nD) : W8 m ρ c (Proc.devRef .tc main_arg18) = W4 m ρ c (Proc.devRef .tc main_arg18) :=
  (W8_of_ne m ρ c main_arg18 (by decide)).trans <| (show W7 m ρ c (Proc.devRef .tc main_arg18) = W6 m ρ c (Proc.devRef .tc main_arg18) from by host_keep hostOps3).trans <|
  (W6_of_ne m ρ c main_arg18 (by decide)).trans (show W5 m ρ c (Proc.devRef .tc main_arg18) = W4 m ρ c (Proc.devRef .tc main_arg18) from by host_keep hostOps2)
theorem keep_arg18_8 (c : Dev nD) : W8 m ρ c (Proc.devRef .tc main_arg18) = W0 m ρ c (Proc.devRef .tc main_arg18) :=
  (keepL2_arg18 m ρ c).trans (keep_arg18_4 m ρ c)
theorem keepL3_arg18 (c : Dev nD) : W12 m ρ c (Proc.devRef .tc main_arg18) = W8 m ρ c (Proc.devRef .tc main_arg18) :=
  (W12_of_ne m ρ c main_arg18 (by decide)).trans <| (show W11 m ρ c (Proc.devRef .tc main_arg18) = W10 m ρ c (Proc.devRef .tc main_arg18) from by host_keep hostOps5).trans <|
  (W10_of_ne m ρ c main_arg18 (by decide)).trans (show W9 m ρ c (Proc.devRef .tc main_arg18) = W8 m ρ c (Proc.devRef .tc main_arg18) from by host_keep hostOps4)
theorem keep_arg18_12 (c : Dev nD) : W12 m ρ c (Proc.devRef .tc main_arg18) = W0 m ρ c (Proc.devRef .tc main_arg18) :=
  (keepL3_arg18 m ρ c).trans (keep_arg18_8 m ρ c)
theorem keepL4_arg18 (c : Dev nD) : W16 m ρ c (Proc.devRef .tc main_arg18) = W12 m ρ c (Proc.devRef .tc main_arg18) :=
  (W16_of_ne m ρ c main_arg18 (by decide)).trans <| (show W15 m ρ c (Proc.devRef .tc main_arg18) = W14 m ρ c (Proc.devRef .tc main_arg18) from by host_keep hostOps7).trans <|
  (W14_of_ne m ρ c main_arg18 (by decide)).trans (show W13 m ρ c (Proc.devRef .tc main_arg18) = W12 m ρ c (Proc.devRef .tc main_arg18) from by host_keep hostOps6)
theorem keep_arg18_16 (c : Dev nD) : W16 m ρ c (Proc.devRef .tc main_arg18) = W0 m ρ c (Proc.devRef .tc main_arg18) :=
  (keepL4_arg18 m ρ c).trans (keep_arg18_12 m ρ c)
theorem keepL5_arg18 (c : Dev nD) : W20 m ρ c (Proc.devRef .tc main_arg18) = W16 m ρ c (Proc.devRef .tc main_arg18) :=
  (W20_of_ne m ρ c main_arg18 (by decide)).trans <| (show W19 m ρ c (Proc.devRef .tc main_arg18) = W18 m ρ c (Proc.devRef .tc main_arg18) from by host_keep hostOps9).trans <|
  (W18_of_ne m ρ c main_arg18 (by decide)).trans (show W17 m ρ c (Proc.devRef .tc main_arg18) = W16 m ρ c (Proc.devRef .tc main_arg18) from by host_keep hostOps8)
theorem keep_arg18_20 (c : Dev nD) : W20 m ρ c (Proc.devRef .tc main_arg18) = W0 m ρ c (Proc.devRef .tc main_arg18) :=
  (keepL5_arg18 m ρ c).trans (keep_arg18_16 m ρ c)
theorem keepL6_arg18 (c : Dev nD) : W24 m ρ c (Proc.devRef .tc main_arg18) = W20 m ρ c (Proc.devRef .tc main_arg18) :=
  (W24_of_ne m ρ c main_arg18 (by decide)).trans <| (show W23 m ρ c (Proc.devRef .tc main_arg18) = W22 m ρ c (Proc.devRef .tc main_arg18) from by host_keep hostOps11).trans <|
  (W22_of_ne m ρ c main_arg18 (by decide)).trans (show W21 m ρ c (Proc.devRef .tc main_arg18) = W20 m ρ c (Proc.devRef .tc main_arg18) from by host_keep hostOps10)
theorem keep_arg18_24 (c : Dev nD) : W24 m ρ c (Proc.devRef .tc main_arg18) = W0 m ρ c (Proc.devRef .tc main_arg18) :=
  (keepL6_arg18 m ρ c).trans (keep_arg18_20 m ρ c)
theorem keepL7_arg18 (c : Dev nD) : W28 m ρ c (Proc.devRef .tc main_arg18) = W24 m ρ c (Proc.devRef .tc main_arg18) :=
  (W28_of_ne m ρ c main_arg18 (by decide)).trans <| (show W27 m ρ c (Proc.devRef .tc main_arg18) = W26 m ρ c (Proc.devRef .tc main_arg18) from by host_keep hostOps13).trans <|
  (W26_of_ne m ρ c main_arg18 (by decide)).trans (show W25 m ρ c (Proc.devRef .tc main_arg18) = W24 m ρ c (Proc.devRef .tc main_arg18) from by host_keep hostOps12)
theorem keep_arg18_28 (c : Dev nD) : W28 m ρ c (Proc.devRef .tc main_arg18) = W0 m ρ c (Proc.devRef .tc main_arg18) :=
  (keepL7_arg18 m ρ c).trans (keep_arg18_24 m ρ c)

/-! ### main_arg19: boundary 0 to boundary 28 -/
theorem keepL1_arg19 (c : Dev nD) : W4 m ρ c (Proc.devRef .tc main_arg19) = W0 m ρ c (Proc.devRef .tc main_arg19) :=
  (W4_of_ne m ρ c main_arg19 (by decide)).trans <| (show W3 m ρ c (Proc.devRef .tc main_arg19) = W2 m ρ c (Proc.devRef .tc main_arg19) from by host_keep hostOps1).trans <|
  (W2_of_ne m ρ c main_arg19 (by decide)).trans (show W1 m ρ c (Proc.devRef .tc main_arg19) = W0 m ρ c (Proc.devRef .tc main_arg19) from by host_keep hostOps0)
theorem keep_arg19_4 (c : Dev nD) : W4 m ρ c (Proc.devRef .tc main_arg19) = W0 m ρ c (Proc.devRef .tc main_arg19) :=
  keepL1_arg19 m ρ c
theorem keepL2_arg19 (c : Dev nD) : W8 m ρ c (Proc.devRef .tc main_arg19) = W4 m ρ c (Proc.devRef .tc main_arg19) :=
  (W8_of_ne m ρ c main_arg19 (by decide)).trans <| (show W7 m ρ c (Proc.devRef .tc main_arg19) = W6 m ρ c (Proc.devRef .tc main_arg19) from by host_keep hostOps3).trans <|
  (W6_of_ne m ρ c main_arg19 (by decide)).trans (show W5 m ρ c (Proc.devRef .tc main_arg19) = W4 m ρ c (Proc.devRef .tc main_arg19) from by host_keep hostOps2)
theorem keep_arg19_8 (c : Dev nD) : W8 m ρ c (Proc.devRef .tc main_arg19) = W0 m ρ c (Proc.devRef .tc main_arg19) :=
  (keepL2_arg19 m ρ c).trans (keep_arg19_4 m ρ c)
theorem keepL3_arg19 (c : Dev nD) : W12 m ρ c (Proc.devRef .tc main_arg19) = W8 m ρ c (Proc.devRef .tc main_arg19) :=
  (W12_of_ne m ρ c main_arg19 (by decide)).trans <| (show W11 m ρ c (Proc.devRef .tc main_arg19) = W10 m ρ c (Proc.devRef .tc main_arg19) from by host_keep hostOps5).trans <|
  (W10_of_ne m ρ c main_arg19 (by decide)).trans (show W9 m ρ c (Proc.devRef .tc main_arg19) = W8 m ρ c (Proc.devRef .tc main_arg19) from by host_keep hostOps4)
theorem keep_arg19_12 (c : Dev nD) : W12 m ρ c (Proc.devRef .tc main_arg19) = W0 m ρ c (Proc.devRef .tc main_arg19) :=
  (keepL3_arg19 m ρ c).trans (keep_arg19_8 m ρ c)
theorem keepL4_arg19 (c : Dev nD) : W16 m ρ c (Proc.devRef .tc main_arg19) = W12 m ρ c (Proc.devRef .tc main_arg19) :=
  (W16_of_ne m ρ c main_arg19 (by decide)).trans <| (show W15 m ρ c (Proc.devRef .tc main_arg19) = W14 m ρ c (Proc.devRef .tc main_arg19) from by host_keep hostOps7).trans <|
  (W14_of_ne m ρ c main_arg19 (by decide)).trans (show W13 m ρ c (Proc.devRef .tc main_arg19) = W12 m ρ c (Proc.devRef .tc main_arg19) from by host_keep hostOps6)
theorem keep_arg19_16 (c : Dev nD) : W16 m ρ c (Proc.devRef .tc main_arg19) = W0 m ρ c (Proc.devRef .tc main_arg19) :=
  (keepL4_arg19 m ρ c).trans (keep_arg19_12 m ρ c)
theorem keepL5_arg19 (c : Dev nD) : W20 m ρ c (Proc.devRef .tc main_arg19) = W16 m ρ c (Proc.devRef .tc main_arg19) :=
  (W20_of_ne m ρ c main_arg19 (by decide)).trans <| (show W19 m ρ c (Proc.devRef .tc main_arg19) = W18 m ρ c (Proc.devRef .tc main_arg19) from by host_keep hostOps9).trans <|
  (W18_of_ne m ρ c main_arg19 (by decide)).trans (show W17 m ρ c (Proc.devRef .tc main_arg19) = W16 m ρ c (Proc.devRef .tc main_arg19) from by host_keep hostOps8)
theorem keep_arg19_20 (c : Dev nD) : W20 m ρ c (Proc.devRef .tc main_arg19) = W0 m ρ c (Proc.devRef .tc main_arg19) :=
  (keepL5_arg19 m ρ c).trans (keep_arg19_16 m ρ c)
theorem keepL6_arg19 (c : Dev nD) : W24 m ρ c (Proc.devRef .tc main_arg19) = W20 m ρ c (Proc.devRef .tc main_arg19) :=
  (W24_of_ne m ρ c main_arg19 (by decide)).trans <| (show W23 m ρ c (Proc.devRef .tc main_arg19) = W22 m ρ c (Proc.devRef .tc main_arg19) from by host_keep hostOps11).trans <|
  (W22_of_ne m ρ c main_arg19 (by decide)).trans (show W21 m ρ c (Proc.devRef .tc main_arg19) = W20 m ρ c (Proc.devRef .tc main_arg19) from by host_keep hostOps10)
theorem keep_arg19_24 (c : Dev nD) : W24 m ρ c (Proc.devRef .tc main_arg19) = W0 m ρ c (Proc.devRef .tc main_arg19) :=
  (keepL6_arg19 m ρ c).trans (keep_arg19_20 m ρ c)
theorem keepL7_arg19 (c : Dev nD) : W28 m ρ c (Proc.devRef .tc main_arg19) = W24 m ρ c (Proc.devRef .tc main_arg19) :=
  (W28_of_ne m ρ c main_arg19 (by decide)).trans <| (show W27 m ρ c (Proc.devRef .tc main_arg19) = W26 m ρ c (Proc.devRef .tc main_arg19) from by host_keep hostOps13).trans <|
  (W26_of_ne m ρ c main_arg19 (by decide)).trans (show W25 m ρ c (Proc.devRef .tc main_arg19) = W24 m ρ c (Proc.devRef .tc main_arg19) from by host_keep hostOps12)
theorem keep_arg19_28 (c : Dev nD) : W28 m ρ c (Proc.devRef .tc main_arg19) = W0 m ρ c (Proc.devRef .tc main_arg19) :=
  (keepL7_arg19 m ρ c).trans (keep_arg19_24 m ρ c)

/-! ### main_arg20: boundary 0 to boundary 32 -/
theorem keepL1_arg20 (c : Dev nD) : W4 m ρ c (Proc.devRef .tc main_arg20) = W0 m ρ c (Proc.devRef .tc main_arg20) :=
  (W4_of_ne m ρ c main_arg20 (by decide)).trans <| (show W3 m ρ c (Proc.devRef .tc main_arg20) = W2 m ρ c (Proc.devRef .tc main_arg20) from by host_keep hostOps1).trans <|
  (W2_of_ne m ρ c main_arg20 (by decide)).trans (show W1 m ρ c (Proc.devRef .tc main_arg20) = W0 m ρ c (Proc.devRef .tc main_arg20) from by host_keep hostOps0)
theorem keep_arg20_4 (c : Dev nD) : W4 m ρ c (Proc.devRef .tc main_arg20) = W0 m ρ c (Proc.devRef .tc main_arg20) :=
  keepL1_arg20 m ρ c
theorem keepL2_arg20 (c : Dev nD) : W8 m ρ c (Proc.devRef .tc main_arg20) = W4 m ρ c (Proc.devRef .tc main_arg20) :=
  (W8_of_ne m ρ c main_arg20 (by decide)).trans <| (show W7 m ρ c (Proc.devRef .tc main_arg20) = W6 m ρ c (Proc.devRef .tc main_arg20) from by host_keep hostOps3).trans <|
  (W6_of_ne m ρ c main_arg20 (by decide)).trans (show W5 m ρ c (Proc.devRef .tc main_arg20) = W4 m ρ c (Proc.devRef .tc main_arg20) from by host_keep hostOps2)
theorem keep_arg20_8 (c : Dev nD) : W8 m ρ c (Proc.devRef .tc main_arg20) = W0 m ρ c (Proc.devRef .tc main_arg20) :=
  (keepL2_arg20 m ρ c).trans (keep_arg20_4 m ρ c)
theorem keepL3_arg20 (c : Dev nD) : W12 m ρ c (Proc.devRef .tc main_arg20) = W8 m ρ c (Proc.devRef .tc main_arg20) :=
  (W12_of_ne m ρ c main_arg20 (by decide)).trans <| (show W11 m ρ c (Proc.devRef .tc main_arg20) = W10 m ρ c (Proc.devRef .tc main_arg20) from by host_keep hostOps5).trans <|
  (W10_of_ne m ρ c main_arg20 (by decide)).trans (show W9 m ρ c (Proc.devRef .tc main_arg20) = W8 m ρ c (Proc.devRef .tc main_arg20) from by host_keep hostOps4)
theorem keep_arg20_12 (c : Dev nD) : W12 m ρ c (Proc.devRef .tc main_arg20) = W0 m ρ c (Proc.devRef .tc main_arg20) :=
  (keepL3_arg20 m ρ c).trans (keep_arg20_8 m ρ c)
theorem keepL4_arg20 (c : Dev nD) : W16 m ρ c (Proc.devRef .tc main_arg20) = W12 m ρ c (Proc.devRef .tc main_arg20) :=
  (W16_of_ne m ρ c main_arg20 (by decide)).trans <| (show W15 m ρ c (Proc.devRef .tc main_arg20) = W14 m ρ c (Proc.devRef .tc main_arg20) from by host_keep hostOps7).trans <|
  (W14_of_ne m ρ c main_arg20 (by decide)).trans (show W13 m ρ c (Proc.devRef .tc main_arg20) = W12 m ρ c (Proc.devRef .tc main_arg20) from by host_keep hostOps6)
theorem keep_arg20_16 (c : Dev nD) : W16 m ρ c (Proc.devRef .tc main_arg20) = W0 m ρ c (Proc.devRef .tc main_arg20) :=
  (keepL4_arg20 m ρ c).trans (keep_arg20_12 m ρ c)
theorem keepL5_arg20 (c : Dev nD) : W20 m ρ c (Proc.devRef .tc main_arg20) = W16 m ρ c (Proc.devRef .tc main_arg20) :=
  (W20_of_ne m ρ c main_arg20 (by decide)).trans <| (show W19 m ρ c (Proc.devRef .tc main_arg20) = W18 m ρ c (Proc.devRef .tc main_arg20) from by host_keep hostOps9).trans <|
  (W18_of_ne m ρ c main_arg20 (by decide)).trans (show W17 m ρ c (Proc.devRef .tc main_arg20) = W16 m ρ c (Proc.devRef .tc main_arg20) from by host_keep hostOps8)
theorem keep_arg20_20 (c : Dev nD) : W20 m ρ c (Proc.devRef .tc main_arg20) = W0 m ρ c (Proc.devRef .tc main_arg20) :=
  (keepL5_arg20 m ρ c).trans (keep_arg20_16 m ρ c)
theorem keepL6_arg20 (c : Dev nD) : W24 m ρ c (Proc.devRef .tc main_arg20) = W20 m ρ c (Proc.devRef .tc main_arg20) :=
  (W24_of_ne m ρ c main_arg20 (by decide)).trans <| (show W23 m ρ c (Proc.devRef .tc main_arg20) = W22 m ρ c (Proc.devRef .tc main_arg20) from by host_keep hostOps11).trans <|
  (W22_of_ne m ρ c main_arg20 (by decide)).trans (show W21 m ρ c (Proc.devRef .tc main_arg20) = W20 m ρ c (Proc.devRef .tc main_arg20) from by host_keep hostOps10)
theorem keep_arg20_24 (c : Dev nD) : W24 m ρ c (Proc.devRef .tc main_arg20) = W0 m ρ c (Proc.devRef .tc main_arg20) :=
  (keepL6_arg20 m ρ c).trans (keep_arg20_20 m ρ c)
theorem keepL7_arg20 (c : Dev nD) : W28 m ρ c (Proc.devRef .tc main_arg20) = W24 m ρ c (Proc.devRef .tc main_arg20) :=
  (W28_of_ne m ρ c main_arg20 (by decide)).trans <| (show W27 m ρ c (Proc.devRef .tc main_arg20) = W26 m ρ c (Proc.devRef .tc main_arg20) from by host_keep hostOps13).trans <|
  (W26_of_ne m ρ c main_arg20 (by decide)).trans (show W25 m ρ c (Proc.devRef .tc main_arg20) = W24 m ρ c (Proc.devRef .tc main_arg20) from by host_keep hostOps12)
theorem keep_arg20_28 (c : Dev nD) : W28 m ρ c (Proc.devRef .tc main_arg20) = W0 m ρ c (Proc.devRef .tc main_arg20) :=
  (keepL7_arg20 m ρ c).trans (keep_arg20_24 m ρ c)
theorem keepL8_arg20 (c : Dev nD) : W32 m ρ c (Proc.devRef .tc main_arg20) = W28 m ρ c (Proc.devRef .tc main_arg20) :=
  (W32_of_ne m ρ c main_arg20 (by decide)).trans <| (show W31 m ρ c (Proc.devRef .tc main_arg20) = W30 m ρ c (Proc.devRef .tc main_arg20) from by host_keep hostOps15).trans <|
  (W30_of_ne m ρ c main_arg20 (by decide)).trans (show W29 m ρ c (Proc.devRef .tc main_arg20) = W28 m ρ c (Proc.devRef .tc main_arg20) from by host_keep hostOps14)
theorem keep_arg20_32 (c : Dev nD) : W32 m ρ c (Proc.devRef .tc main_arg20) = W0 m ρ c (Proc.devRef .tc main_arg20) :=
  (keepL8_arg20 m ρ c).trans (keep_arg20_28 m ρ c)

/-! ### main_arg21: boundary 0 to boundary 32 -/
theorem keepL1_arg21 (c : Dev nD) : W4 m ρ c (Proc.devRef .tc main_arg21) = W0 m ρ c (Proc.devRef .tc main_arg21) :=
  (W4_of_ne m ρ c main_arg21 (by decide)).trans <| (show W3 m ρ c (Proc.devRef .tc main_arg21) = W2 m ρ c (Proc.devRef .tc main_arg21) from by host_keep hostOps1).trans <|
  (W2_of_ne m ρ c main_arg21 (by decide)).trans (show W1 m ρ c (Proc.devRef .tc main_arg21) = W0 m ρ c (Proc.devRef .tc main_arg21) from by host_keep hostOps0)
theorem keep_arg21_4 (c : Dev nD) : W4 m ρ c (Proc.devRef .tc main_arg21) = W0 m ρ c (Proc.devRef .tc main_arg21) :=
  keepL1_arg21 m ρ c
theorem keepL2_arg21 (c : Dev nD) : W8 m ρ c (Proc.devRef .tc main_arg21) = W4 m ρ c (Proc.devRef .tc main_arg21) :=
  (W8_of_ne m ρ c main_arg21 (by decide)).trans <| (show W7 m ρ c (Proc.devRef .tc main_arg21) = W6 m ρ c (Proc.devRef .tc main_arg21) from by host_keep hostOps3).trans <|
  (W6_of_ne m ρ c main_arg21 (by decide)).trans (show W5 m ρ c (Proc.devRef .tc main_arg21) = W4 m ρ c (Proc.devRef .tc main_arg21) from by host_keep hostOps2)
theorem keep_arg21_8 (c : Dev nD) : W8 m ρ c (Proc.devRef .tc main_arg21) = W0 m ρ c (Proc.devRef .tc main_arg21) :=
  (keepL2_arg21 m ρ c).trans (keep_arg21_4 m ρ c)
theorem keepL3_arg21 (c : Dev nD) : W12 m ρ c (Proc.devRef .tc main_arg21) = W8 m ρ c (Proc.devRef .tc main_arg21) :=
  (W12_of_ne m ρ c main_arg21 (by decide)).trans <| (show W11 m ρ c (Proc.devRef .tc main_arg21) = W10 m ρ c (Proc.devRef .tc main_arg21) from by host_keep hostOps5).trans <|
  (W10_of_ne m ρ c main_arg21 (by decide)).trans (show W9 m ρ c (Proc.devRef .tc main_arg21) = W8 m ρ c (Proc.devRef .tc main_arg21) from by host_keep hostOps4)
theorem keep_arg21_12 (c : Dev nD) : W12 m ρ c (Proc.devRef .tc main_arg21) = W0 m ρ c (Proc.devRef .tc main_arg21) :=
  (keepL3_arg21 m ρ c).trans (keep_arg21_8 m ρ c)
theorem keepL4_arg21 (c : Dev nD) : W16 m ρ c (Proc.devRef .tc main_arg21) = W12 m ρ c (Proc.devRef .tc main_arg21) :=
  (W16_of_ne m ρ c main_arg21 (by decide)).trans <| (show W15 m ρ c (Proc.devRef .tc main_arg21) = W14 m ρ c (Proc.devRef .tc main_arg21) from by host_keep hostOps7).trans <|
  (W14_of_ne m ρ c main_arg21 (by decide)).trans (show W13 m ρ c (Proc.devRef .tc main_arg21) = W12 m ρ c (Proc.devRef .tc main_arg21) from by host_keep hostOps6)
theorem keep_arg21_16 (c : Dev nD) : W16 m ρ c (Proc.devRef .tc main_arg21) = W0 m ρ c (Proc.devRef .tc main_arg21) :=
  (keepL4_arg21 m ρ c).trans (keep_arg21_12 m ρ c)
theorem keepL5_arg21 (c : Dev nD) : W20 m ρ c (Proc.devRef .tc main_arg21) = W16 m ρ c (Proc.devRef .tc main_arg21) :=
  (W20_of_ne m ρ c main_arg21 (by decide)).trans <| (show W19 m ρ c (Proc.devRef .tc main_arg21) = W18 m ρ c (Proc.devRef .tc main_arg21) from by host_keep hostOps9).trans <|
  (W18_of_ne m ρ c main_arg21 (by decide)).trans (show W17 m ρ c (Proc.devRef .tc main_arg21) = W16 m ρ c (Proc.devRef .tc main_arg21) from by host_keep hostOps8)
theorem keep_arg21_20 (c : Dev nD) : W20 m ρ c (Proc.devRef .tc main_arg21) = W0 m ρ c (Proc.devRef .tc main_arg21) :=
  (keepL5_arg21 m ρ c).trans (keep_arg21_16 m ρ c)
theorem keepL6_arg21 (c : Dev nD) : W24 m ρ c (Proc.devRef .tc main_arg21) = W20 m ρ c (Proc.devRef .tc main_arg21) :=
  (W24_of_ne m ρ c main_arg21 (by decide)).trans <| (show W23 m ρ c (Proc.devRef .tc main_arg21) = W22 m ρ c (Proc.devRef .tc main_arg21) from by host_keep hostOps11).trans <|
  (W22_of_ne m ρ c main_arg21 (by decide)).trans (show W21 m ρ c (Proc.devRef .tc main_arg21) = W20 m ρ c (Proc.devRef .tc main_arg21) from by host_keep hostOps10)
theorem keep_arg21_24 (c : Dev nD) : W24 m ρ c (Proc.devRef .tc main_arg21) = W0 m ρ c (Proc.devRef .tc main_arg21) :=
  (keepL6_arg21 m ρ c).trans (keep_arg21_20 m ρ c)
theorem keepL7_arg21 (c : Dev nD) : W28 m ρ c (Proc.devRef .tc main_arg21) = W24 m ρ c (Proc.devRef .tc main_arg21) :=
  (W28_of_ne m ρ c main_arg21 (by decide)).trans <| (show W27 m ρ c (Proc.devRef .tc main_arg21) = W26 m ρ c (Proc.devRef .tc main_arg21) from by host_keep hostOps13).trans <|
  (W26_of_ne m ρ c main_arg21 (by decide)).trans (show W25 m ρ c (Proc.devRef .tc main_arg21) = W24 m ρ c (Proc.devRef .tc main_arg21) from by host_keep hostOps12)
theorem keep_arg21_28 (c : Dev nD) : W28 m ρ c (Proc.devRef .tc main_arg21) = W0 m ρ c (Proc.devRef .tc main_arg21) :=
  (keepL7_arg21 m ρ c).trans (keep_arg21_24 m ρ c)
theorem keepL8_arg21 (c : Dev nD) : W32 m ρ c (Proc.devRef .tc main_arg21) = W28 m ρ c (Proc.devRef .tc main_arg21) :=
  (W32_of_ne m ρ c main_arg21 (by decide)).trans <| (show W31 m ρ c (Proc.devRef .tc main_arg21) = W30 m ρ c (Proc.devRef .tc main_arg21) from by host_keep hostOps15).trans <|
  (W30_of_ne m ρ c main_arg21 (by decide)).trans (show W29 m ρ c (Proc.devRef .tc main_arg21) = W28 m ρ c (Proc.devRef .tc main_arg21) from by host_keep hostOps14)
theorem keep_arg21_32 (c : Dev nD) : W32 m ρ c (Proc.devRef .tc main_arg21) = W0 m ρ c (Proc.devRef .tc main_arg21) :=
  (keepL8_arg21 m ρ c).trans (keep_arg21_28 m ρ c)

/-! ### main_arg3: boundary 0 to boundary 32 -/
theorem keepL1_arg3 (c : Dev nD) : W4 m ρ c (Proc.devRef .tc main_arg3) = W0 m ρ c (Proc.devRef .tc main_arg3) :=
  (W4_of_ne m ρ c main_arg3 (by decide)).trans <| (show W3 m ρ c (Proc.devRef .tc main_arg3) = W2 m ρ c (Proc.devRef .tc main_arg3) from by host_keep hostOps1).trans <|
  (W2_of_ne m ρ c main_arg3 (by decide)).trans (show W1 m ρ c (Proc.devRef .tc main_arg3) = W0 m ρ c (Proc.devRef .tc main_arg3) from by host_keep hostOps0)
theorem keep_arg3_4 (c : Dev nD) : W4 m ρ c (Proc.devRef .tc main_arg3) = W0 m ρ c (Proc.devRef .tc main_arg3) :=
  keepL1_arg3 m ρ c
theorem keepL2_arg3 (c : Dev nD) : W8 m ρ c (Proc.devRef .tc main_arg3) = W4 m ρ c (Proc.devRef .tc main_arg3) :=
  (W8_of_ne m ρ c main_arg3 (by decide)).trans <| (show W7 m ρ c (Proc.devRef .tc main_arg3) = W6 m ρ c (Proc.devRef .tc main_arg3) from by host_keep hostOps3).trans <|
  (W6_of_ne m ρ c main_arg3 (by decide)).trans (show W5 m ρ c (Proc.devRef .tc main_arg3) = W4 m ρ c (Proc.devRef .tc main_arg3) from by host_keep hostOps2)
theorem keep_arg3_8 (c : Dev nD) : W8 m ρ c (Proc.devRef .tc main_arg3) = W0 m ρ c (Proc.devRef .tc main_arg3) :=
  (keepL2_arg3 m ρ c).trans (keep_arg3_4 m ρ c)
theorem keepL3_arg3 (c : Dev nD) : W12 m ρ c (Proc.devRef .tc main_arg3) = W8 m ρ c (Proc.devRef .tc main_arg3) :=
  (W12_of_ne m ρ c main_arg3 (by decide)).trans <| (show W11 m ρ c (Proc.devRef .tc main_arg3) = W10 m ρ c (Proc.devRef .tc main_arg3) from by host_keep hostOps5).trans <|
  (W10_of_ne m ρ c main_arg3 (by decide)).trans (show W9 m ρ c (Proc.devRef .tc main_arg3) = W8 m ρ c (Proc.devRef .tc main_arg3) from by host_keep hostOps4)
theorem keep_arg3_12 (c : Dev nD) : W12 m ρ c (Proc.devRef .tc main_arg3) = W0 m ρ c (Proc.devRef .tc main_arg3) :=
  (keepL3_arg3 m ρ c).trans (keep_arg3_8 m ρ c)
theorem keepL4_arg3 (c : Dev nD) : W16 m ρ c (Proc.devRef .tc main_arg3) = W12 m ρ c (Proc.devRef .tc main_arg3) :=
  (W16_of_ne m ρ c main_arg3 (by decide)).trans <| (show W15 m ρ c (Proc.devRef .tc main_arg3) = W14 m ρ c (Proc.devRef .tc main_arg3) from by host_keep hostOps7).trans <|
  (W14_of_ne m ρ c main_arg3 (by decide)).trans (show W13 m ρ c (Proc.devRef .tc main_arg3) = W12 m ρ c (Proc.devRef .tc main_arg3) from by host_keep hostOps6)
theorem keep_arg3_16 (c : Dev nD) : W16 m ρ c (Proc.devRef .tc main_arg3) = W0 m ρ c (Proc.devRef .tc main_arg3) :=
  (keepL4_arg3 m ρ c).trans (keep_arg3_12 m ρ c)
theorem keepL5_arg3 (c : Dev nD) : W20 m ρ c (Proc.devRef .tc main_arg3) = W16 m ρ c (Proc.devRef .tc main_arg3) :=
  (W20_of_ne m ρ c main_arg3 (by decide)).trans <| (show W19 m ρ c (Proc.devRef .tc main_arg3) = W18 m ρ c (Proc.devRef .tc main_arg3) from by host_keep hostOps9).trans <|
  (W18_of_ne m ρ c main_arg3 (by decide)).trans (show W17 m ρ c (Proc.devRef .tc main_arg3) = W16 m ρ c (Proc.devRef .tc main_arg3) from by host_keep hostOps8)
theorem keep_arg3_20 (c : Dev nD) : W20 m ρ c (Proc.devRef .tc main_arg3) = W0 m ρ c (Proc.devRef .tc main_arg3) :=
  (keepL5_arg3 m ρ c).trans (keep_arg3_16 m ρ c)
theorem keepL6_arg3 (c : Dev nD) : W24 m ρ c (Proc.devRef .tc main_arg3) = W20 m ρ c (Proc.devRef .tc main_arg3) :=
  (W24_of_ne m ρ c main_arg3 (by decide)).trans <| (show W23 m ρ c (Proc.devRef .tc main_arg3) = W22 m ρ c (Proc.devRef .tc main_arg3) from by host_keep hostOps11).trans <|
  (W22_of_ne m ρ c main_arg3 (by decide)).trans (show W21 m ρ c (Proc.devRef .tc main_arg3) = W20 m ρ c (Proc.devRef .tc main_arg3) from by host_keep hostOps10)
theorem keep_arg3_24 (c : Dev nD) : W24 m ρ c (Proc.devRef .tc main_arg3) = W0 m ρ c (Proc.devRef .tc main_arg3) :=
  (keepL6_arg3 m ρ c).trans (keep_arg3_20 m ρ c)
theorem keepL7_arg3 (c : Dev nD) : W28 m ρ c (Proc.devRef .tc main_arg3) = W24 m ρ c (Proc.devRef .tc main_arg3) :=
  (W28_of_ne m ρ c main_arg3 (by decide)).trans <| (show W27 m ρ c (Proc.devRef .tc main_arg3) = W26 m ρ c (Proc.devRef .tc main_arg3) from by host_keep hostOps13).trans <|
  (W26_of_ne m ρ c main_arg3 (by decide)).trans (show W25 m ρ c (Proc.devRef .tc main_arg3) = W24 m ρ c (Proc.devRef .tc main_arg3) from by host_keep hostOps12)
theorem keep_arg3_28 (c : Dev nD) : W28 m ρ c (Proc.devRef .tc main_arg3) = W0 m ρ c (Proc.devRef .tc main_arg3) :=
  (keepL7_arg3 m ρ c).trans (keep_arg3_24 m ρ c)
theorem keepL8_arg3 (c : Dev nD) : W32 m ρ c (Proc.devRef .tc main_arg3) = W28 m ρ c (Proc.devRef .tc main_arg3) :=
  (W32_of_ne m ρ c main_arg3 (by decide)).trans <| (show W31 m ρ c (Proc.devRef .tc main_arg3) = W30 m ρ c (Proc.devRef .tc main_arg3) from by host_keep hostOps15).trans <|
  (W30_of_ne m ρ c main_arg3 (by decide)).trans (show W29 m ρ c (Proc.devRef .tc main_arg3) = W28 m ρ c (Proc.devRef .tc main_arg3) from by host_keep hostOps14)
theorem keep_arg3_32 (c : Dev nD) : W32 m ρ c (Proc.devRef .tc main_arg3) = W0 m ρ c (Proc.devRef .tc main_arg3) :=
  (keepL8_arg3 m ρ c).trans (keep_arg3_28 m ρ c)

end Cert.KernelIdeal.Keep

end
-- ==== Proof.RegD14.lean ====
/-
  The eighth dense call of the kernel (node features 50000 x 96, weights 96 x 96), read as whole arrays on the
  extended reals. Its grid has 25 points; point t holds rows 2000 t .. 2000 t + 1999 of the node features, of the
  self-loop column and of both outputs, and the whole of the weights and of the bias row. One block of the product
  is a sum over the contracted axis (the left operand first passes through a cast to its own shape); one block of
  the self-loop term is that product scaled row by row by the column plus the bias row. The blocks of the 25 points
  tile each output array, so each array ends holding the whole product h · W, respectively (h · W) scaled by the
  column plus the bias row.
-/
import proofs.«420299_j43722767073851_4_alg».proof.Proof.Gen.KernelIdeal.Frame
import proofs.«420299_j43722767073851_4_alg».proof.Proof.Spec
import proofs.«420299_j43722767073851_4_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384
noncomputable section
namespace Cert.KernelIdeal.RegVal
open Idealize.ShloMosaic Idealize.ShloMosaic.TcCoe Idealize.SL.Sem Cert.KernelIdeal Cert.KernelIdeal.Gen
open Idealize.ShloMosaic.Pipeline (Dat Cfg Window)
open Idealize.ShloMosaic.ValueIdx

/-! ## The product h · W of one block, entry by entry -/

/-- Row axis of the left operand: the output index's row. -/
theorem lhs_mm14_0 (i : S2000x96.Idx) (q : dot_S2000x96_S96x96_S2000x96_1_0_0_1_n_n.contr.Idx) :
    (dot_S2000x96_S96x96_S2000x96_1_0_0_1_n_n.lhsIdx i q 0).val = (i 0).val := by
  unfold DotDims.lhsIdx
  rw [dif_neg (show ¬(0 : Fin S2000x96.rank) ∈ dot_S2000x96_S96x96_S2000x96_1_0_0_1_n_n.lhsBatch by decide), dif_pos (show (0 : Fin S2000x96.rank) ∈ dot_S2000x96_S96x96_S2000x96_1_0_0_1_n_n.lhsNonContracting by decide)]
  rfl
/-- Column axis of the left operand: the contracted position. -/
theorem lhs_mm14_1 (i : S2000x96.Idx) (q : dot_S2000x96_S96x96_S2000x96_1_0_0_1_n_n.contr.Idx) :
    (dot_S2000x96_S96x96_S2000x96_1_0_0_1_n_n.lhsIdx i q 1).val = (q ⟨0, by decide⟩).val :=
  dot_S2000x96_S96x96_S2000x96_1_0_0_1_n_n.lhsIdx_val_of_single rfl i q
/-- Row axis of the right operand: the contracted position. -/
theorem rhs_mm14_0 (i : S2000x96.Idx) (q : dot_S2000x96_S96x96_S2000x96_1_0_0_1_n_n.contr.Idx) :
    (dot_S2000x96_S96x96_S2000x96_1_0_0_1_n_n.rhsIdx i q 0).val = (q ⟨0, by decide⟩).val :=
  dot_S2000x96_S96x96_S2000x96_1_0_0_1_n_n.rhsIdx_val_of_single rfl i q
/-- Column axis of the right operand: the output index's column. -/
theorem rhs_mm14_1 (i : S2000x96.Idx) (q : dot_S2000x96_S96x96_S2000x96_1_0_0_1_n_n.contr.Idx) :
    (dot_S2000x96_S96x96_S2000x96_1_0_0_1_n_n.rhsIdx i q 1).val = (i 1).val := by
  unfold DotDims.rhsIdx
  rw [dif_neg (show ¬(1 : Fin S96x96.rank) ∈ dot_S2000x96_S96x96_S2000x96_1_0_0_1_n_n.rhsBatch by decide), dif_pos (show (1 : Fin S96x96.rank) ∈ dot_S2000x96_S96x96_S2000x96_1_0_0_1_n_n.rhsNonContracting by decide)]
  rfl

/-- The block product at an index: the left operand enters through a cast to its own shape, which changes nothing;
    the product is the sum over the 96 contracted positions of the left operand's entry in the index's row times the
    right operand's entry in the index's column. -/
theorem blockProd14_apply (x0 : Vec Ideal S2000x96 .f32) (x1 : Vec Ideal S96x96 .f32) (j : S2000x96.Idx) :
    k14_pay1 (F := Ideal) x0 x1 j = ∑ k : Fin 96, x0 (Cert.Spec.lix j k) * x1 (Cert.Spec.rix j k) := by
  unfold k14_pay1
  refine (Ideal.matmul_constant_zero_apply dot_S2000x96_S96x96_S2000x96_1_0_0_1_n_n none
    (shapeCast S2000x96 x0 shapeCasts_S2000x96_S2000x96) x1 j).trans ?_
  rw [shapeCast_self]
  rw [← Equiv.sum_comp (ValueIdx.contrEquiv1 dot_S2000x96_S96x96_S2000x96_1_0_0_1_n_n 96 rfl rfl).symm]
  refine Finset.sum_congr rfl fun k _ => ?_
  have hk := ValueIdx.contrEquiv1_symm_val dot_S2000x96_S96x96_S2000x96_1_0_0_1_n_n 96 rfl rfl k
  have el : dot_S2000x96_S96x96_S2000x96_1_0_0_1_n_n.lhsIdx j ((ValueIdx.contrEquiv1 dot_S2000x96_S96x96_S2000x96_1_0_0_1_n_n 96 rfl rfl).symm k) = Cert.Spec.lix j k := funext fun a => Fin.ext (by
    match a with
    | ⟨0, _⟩ => exact lhs_mm14_0 _ _
    | ⟨1, _⟩ => exact (lhs_mm14_1 _ _).trans hk)
  have er : dot_S2000x96_S96x96_S2000x96_1_0_0_1_n_n.rhsIdx j ((ValueIdx.contrEquiv1 dot_S2000x96_S96x96_S2000x96_1_0_0_1_n_n 96 rfl rfl).symm k) = Cert.Spec.rix j k := funext fun a => Fin.ext (by
    match a with
    | ⟨0, _⟩ => exact (rhs_mm14_0 _ _).trans hk
    | ⟨1, _⟩ => exact rhs_mm14_1 _ _)
  rw [el, er]

/-! ## The scaled product plus the bias row, of one block, entry by entry -/

/-- The block's self-loop term at an index: the block product there, times the column's entry in the index's row,
    plus the bias row's entry in the index's column. -/
theorem blockDense14_apply (x0 : Vec Ideal S2000x96 .f32) (x1 : Vec Ideal S96x96 .f32) (x3 : Vec Ideal S2000x1 .f32)
    (x7 : Vec Ideal S1x96 .f32) (j : S2000x96.Idx) :
    k14_pay2 (F := Ideal) x0 x1 x3 x7 j
      = k14_pay1 (F := Ideal) x0 x1 j * x3 (Cert.Spec.colIx j) + x7 (Cert.Spec.rowIx j) := by
  obtain ⟨p, q, rfl⟩ : ∃ (p : Fin 2000) (q : Fin 96), j = ix2 p q := ⟨j 0, j 1, eq_ix2 j⟩
  have ec : Cert.Spec.colIx (ix2 p q) = ix2 p (0 : Fin 1) := funext fun a => by
    match a with
    | ⟨0, _⟩ => rfl
    | ⟨1, _⟩ => rfl
  have er : Cert.Spec.rowIx (ix2 p q) = ix2 (0 : Fin 1) q := funext fun a => by
    match a with
    | ⟨0, _⟩ => rfl
    | ⟨1, _⟩ => rfl
  unfold k14_pay2
  show k14_pay1 (F := Ideal) x0 x1 (ix2 p q)
        * broadcastTo S2000x96 (shapeCast S2000x1 x3 shapeCasts_S2000x1_S2000x1) broadcasts_S2000x1_S2000x96 (ix2 p q)
      + broadcastTo S2000x96 (shapeCast S1x96 x7 shapeCasts_S1x96_S1x96) broadcasts_S1x96_S2000x96 (ix2 p q) = _
  rw [shapeCast_self, shapeCast_self, Cert.LibColumn.broadcastTo_a1_ab_apply, broadcastTo_1b_ab_apply, ec, er]

variable (V : (c : Dev nD) → (b : Ref sig .tc) → Buf (Elt Ideal) ((c : Thread nD τ).loc b))

/-! ## From blocks to the arrays -/

theorem zeroOff14 : (![0, 0] : Fin 2 → Nat) = fun _ => 0 := funext fun a => by
  match a with
  | ⟨0, _⟩ => rfl
  | ⟨1, _⟩ => rfl

/-- The printed index maps over the grid: the windows cut in row blocks (node features, column, both outputs) sit at
    block row t, block column 0; the weights and the bias row are their one block. -/
theorem blockIdx14 : ∀ t : Fin cfg14.N,
    win14_0.index t (0 : Fin 2) = t.val ∧ win14_0.index t (1 : Fin 2) = 0
    ∧ win14_1.index t (0 : Fin 2) = 0 ∧ win14_1.index t (1 : Fin 2) = 0
    ∧ win14_2.index t (0 : Fin 2) = 0 ∧ win14_2.index t (1 : Fin 2) = 0
    ∧ win14_3.index t (0 : Fin 2) = t.val ∧ win14_3.index t (1 : Fin 2) = 0
    ∧ win14_4.index t (0 : Fin 2) = t.val ∧ win14_4.index t (1 : Fin 2) = 0
    ∧ win14_5.index t (0 : Fin 2) = t.val ∧ win14_5.index t (1 : Fin 2) = 0 :=
  (by decide +kernel : ∀ t : Fin grid14.N, _)

/-- The block product of point t at a block index is the whole product h · W at the array index whose row is
    2000 t plus the block index's row and whose column is the block index's column. -/
theorem blockProd14_at (c : Dev nD) (t : Fin cfg14.N) (j : S2000x96.Idx) (i : S50000x96.Idx)
    (hr : (i 0).val = t.val * 2000 + (j 0).val) (hc : (i 1).val = (j 1).val) :
    k14_pay1 (F := Ideal) (iblk14 V c 0 t) (iblk14 V c 1 t) j = Cert.Spec.mm (V c main_v134) (V c main_arg18) i := by
  obtain ⟨e00, e01, e10, e11, -⟩ := blockIdx14 t
  rw [blockProd14_apply]
  unfold Cert.Spec.mm
  refine Finset.sum_congr rfl fun k _ => ?_
  have a0 : iblk14 V c 0 t (Cert.Spec.lix j k) = V c main_v134 (Cert.Spec.lix i k) := by
    show V c main_v134 (((cfg14.win 0).blk t).view.emb (Cert.Spec.lix j k)) = _
    refine congrArg (V c main_v134) ?_
    funext a; apply Fin.ext
    match a with
    | ⟨0, _⟩ => show win14_0.index t (0 : Fin 2) * 2000 + 1 * (j 0).val = (i 0).val; omega
    | ⟨1, _⟩ => show win14_0.index t (1 : Fin 2) * 96 + 1 * k.val = k.val; omega
  have a1 : iblk14 V c 1 t (Cert.Spec.rix j k) = V c main_arg18 (Cert.Spec.rix i k) := by
    show V c main_arg18 (((cfg14.win 1).blk t).view.emb (Cert.Spec.rix j k)) = _
    refine congrArg (V c main_arg18) ?_
    funext a; apply Fin.ext
    match a with
    | ⟨0, _⟩ => show win14_1.index t (0 : Fin 2) * 96 + 1 * k.val = k.val; omega
    | ⟨1, _⟩ => show win14_1.index t (1 : Fin 2) * 96 + 1 * (j 1).val = (i 1).val; omega
  rw [a0, a1]

/-! ### The product's array (output window 5) -/

/-- What point t writes back to the product's array is block t of h · W of the arrays as the region finds them. -/
theorem flushed14_5 (c : Dev nD) (t : Fin cfg14.N) :
    (dat14 (F := Ideal) V c).flushed 5 t
      = ((cfg14.win 5).blk t).view.read (Elt Ideal) (Cert.Spec.mm (V c main_v134) (V c main_arg18)) := by
  show (cfg14.win 5).cut (grid14.coords t) ((dat14 (F := Ideal) V c).after 5 t) = _
  rw [after14_5]
  unfold out14_5
  rw [View.canon_unit_zero zeroOff14]
  simp only [View.ld_unit_zero (S := S2000x96) zeroOff14, View.ld_unit_zero (S := S96x96) zeroOff14]
  obtain ⟨-, -, -, -, -, -, -, -, -, -, e50, e51⟩ := blockIdx14 t
  refine funext fun (j : S2000x96.Idx) => ?_
  show k14_pay1 (F := Ideal) (iblk14 V c 0 t) (iblk14 V c 1 t) j
      = Cert.Spec.mm (V c main_v134) (V c main_arg18) (((cfg14.win 5).blk t).view.emb j : S50000x96.Idx)
  refine blockProd14_at V c t j _ ?_ ?_
  · show win14_5.index t (0 : Fin 2) * 2000 + 1 * (j 0).val = t.val * 2000 + (j 0).val; omega
  · show win14_5.index t (1 : Fin 2) * 96 + 1 * (j 1).val = (j 1).val; omega

/-- An index of the product's array is in point t's block iff each coordinate is in the block's range on its axis. -/
theorem mem_blk14_5 (t : Fin cfg14.N) (i : S50000x96.Idx) :
    i ∈ ((cfg14.win 5).blk t).view.set ↔ ∀ a : Fin 2, win14_5.index t a * S2000x96.size a ≤ (i a).val
      ∧ (i a).val < win14_5.index t a * S2000x96.size a + S2000x96.size a := by
  show i ∈ ((View.whole main_v154_1).slice (win14_5.rect t)).set ↔ _
  rw [View.set_slice_whole, Rect.mem_set_unit]
  exact Iff.rfl

/-- Every index of the product's array is in the block of the point its row divided by 2000 names, and every point
    writes its block back. -/
theorem covered14_5 (i : S50000x96.Idx) :
    ∃ t : Fin cfg14.N, (cfg14.win 5).flush t = true ∧ i ∈ ((cfg14.win 5).blk t).view.set := by
  have hi0 : (i 0).val < 50000 := (i 0).isLt
  have hi1 : (i 1).val < 96 := (i 1).isLt
  have ht : (i 0).val / 2000 < cfg14.N := by show (i 0).val / 2000 < 25; omega
  obtain ⟨-, -, -, -, -, -, -, -, -, -, e50, e51⟩ := blockIdx14 ⟨(i 0).val / 2000, ht⟩
  have e50' : win14_5.index ⟨(i 0).val / 2000, ht⟩ (0 : Fin 2) = (i 0).val / 2000 := e50
  refine ⟨⟨(i 0).val / 2000, ht⟩, flush14_5 _, ?_⟩
  rw [mem_blk14_5]
  intro a
  match a with
  | ⟨0, _⟩ =>
    show win14_5.index ⟨(i 0).val / 2000, ht⟩ (0 : Fin 2) * 2000 ≤ (i 0).val
      ∧ (i 0).val < win14_5.index ⟨(i 0).val / 2000, ht⟩ (0 : Fin 2) * 2000 + 2000
    omega
  | ⟨1, _⟩ =>
    show win14_5.index ⟨(i 0).val / 2000, ht⟩ (1 : Fin 2) * 96 ≤ (i 1).val
      ∧ (i 1).val < win14_5.index ⟨(i 0).val / 2000, ht⟩ (1 : Fin 2) * 96 + 96
    omega

/-- The product's array after the region: h · W of the node features and the weights as the region finds them. -/
theorem arr14_5 (c : Dev nD) :
    (dat14 (F := Ideal) V c).arrAt 5 cfg14.N = Cert.Spec.mm (V c main_v134) (V c main_arg18) :=
  (dat14 (F := Ideal) V c).arrAt_eq_of_cover 5 (Cert.Spec.mm (V c main_v134) (V c main_arg18))
    (fun t _ => flushed14_5 V c t) covered14_5

/-! ### The self-loop term's array (output window 4) -/

/-- What point t writes back to the self-loop term's array is block t of (h · W) scaled row by row by the column,
    plus the bias row, of the arrays as the region finds them. -/
theorem flushed14_4 (c : Dev nD) (t : Fin cfg14.N) :
    (dat14 (F := Ideal) V c).flushed 4 t
      = ((cfg14.win 4).blk t).view.read (Elt Ideal)
          (Cert.Spec.dense (V c main_v134) (V c main_arg18) (V c main_v152) (V c main_v153)) := by
  show (cfg14.win 4).cut (grid14.coords t) ((dat14 (F := Ideal) V c).after 4 t) = _
  rw [after14_4]
  unfold out14_4
  rw [View.canon_unit_zero zeroOff14]
  simp only [View.ld_unit_zero (S := S2000x96) zeroOff14, View.ld_unit_zero (S := S96x96) zeroOff14,
    View.ld_unit_zero (S := S2000x1) zeroOff14, View.ld_unit_zero (S := S1x96) zeroOff14]
  obtain ⟨-, -, -, -, e20, e21, e30, e31, e40, e41, -, -⟩ := blockIdx14 t
  refine funext fun (j : S2000x96.Idx) => ?_
  show k14_pay2 (F := Ideal) (iblk14 V c 0 t) (iblk14 V c 1 t) (iblk14 V c 3 t) (iblk14 V c 2 t) j
      = Cert.Spec.dense (V c main_v134) (V c main_arg18) (V c main_v152) (V c main_v153)
          (((cfg14.win 4).blk t).view.emb j : S50000x96.Idx)
  have hp : k14_pay1 (F := Ideal) (iblk14 V c 0 t) (iblk14 V c 1 t) j
      = Cert.Spec.mm (V c main_v134) (V c main_arg18) (((cfg14.win 4).blk t).view.emb j : S50000x96.Idx) := by
    refine blockProd14_at V c t j _ ?_ ?_
    · show win14_4.index t (0 : Fin 2) * 2000 + 1 * (j 0).val = t.val * 2000 + (j 0).val; omega
    · show win14_4.index t (1 : Fin 2) * 96 + 1 * (j 1).val = (j 1).val; omega
  have hcol : iblk14 V c 3 t (Cert.Spec.colIx j)
      = V c main_v153 (Cert.Spec.colIx (((cfg14.win 4).blk t).view.emb j : S50000x96.Idx)) := by
    show V c main_v153 (((cfg14.win 3).blk t).view.emb (Cert.Spec.colIx j)) = _
    refine congrArg (V c main_v153) ?_
    funext a; apply Fin.ext
    match a with
    | ⟨0, _⟩ => show win14_3.index t (0 : Fin 2) * 2000 + 1 * (j 0).val = win14_4.index t (0 : Fin 2) * 2000 + 1 * (j 0).val; omega
    | ⟨1, _⟩ => show win14_3.index t (1 : Fin 2) * 1 + 1 * 0 = 0; omega
  have hrow : iblk14 V c 2 t (Cert.Spec.rowIx j)
      = V c main_v152 (Cert.Spec.rowIx (((cfg14.win 4).blk t).view.emb j : S50000x96.Idx)) := by
    show V c main_v152 (((cfg14.win 2).blk t).view.emb (Cert.Spec.rowIx j)) = _
    refine congrArg (V c main_v152) ?_
    funext a; apply Fin.ext
    match a with
    | ⟨0, _⟩ => show win14_2.index t (0 : Fin 2) * 1 + 1 * 0 = 0; omega
    | ⟨1, _⟩ => show win14_2.index t (1 : Fin 2) * 96 + 1 * (j 1).val = win14_4.index t (1 : Fin 2) * 96 + 1 * (j 1).val; omega
  rw [blockDense14_apply, hp, hcol, hrow]
  rfl

/-- An index of the self-loop term's array is in point t's block iff each coordinate is in the block's range on its
    axis. -/
theorem mem_blk14_4 (t : Fin cfg14.N) (i : S50000x96.Idx) :
    i ∈ ((cfg14.win 4).blk t).view.set ↔ ∀ a : Fin 2, win14_4.index t a * S2000x96.size a ≤ (i a).val
      ∧ (i a).val < win14_4.index t a * S2000x96.size a + S2000x96.size a := by
  show i ∈ ((View.whole main_v154_0).slice (win14_4.rect t)).set ↔ _
  rw [View.set_slice_whole, Rect.mem_set_unit]
  exact Iff.rfl

/-- Every index of the self-loop term's array is in the block of the point its row divided by 2000 names, and every
    point writes its block back. -/
theorem covered14_4 (i : S50000x96.Idx) :
    ∃ t : Fin cfg14.N, (cfg14.win 4).flush t = true ∧ i ∈ ((cfg14.win 4).blk t).view.set := by
  have hi0 : (i 0).val < 50000 := (i 0).isLt
  have hi1 : (i 1).val < 96 := (i 1).isLt
  have ht : (i 0).val / 2000 < cfg14.N := by show (i 0).val / 2000 < 25; omega
  obtain ⟨-, -, -, -, -, -, -, -, e40, e41, -, -⟩ := blockIdx14 ⟨(i 0).val / 2000, ht⟩
  have e40' : win14_4.index ⟨(i 0).val / 2000, ht⟩ (0 : Fin 2) = (i 0).val / 2000 := e40
  refine ⟨⟨(i 0).val / 2000, ht⟩, flush14_4 _, ?_⟩
  rw [mem_blk14_4]
  intro a
  match a with
  | ⟨0, _⟩ =>
    show win14_4.index ⟨(i 0).val / 2000, ht⟩ (0 : Fin 2) * 2000 ≤ (i 0).val
      ∧ (i 0).val < win14_4.index ⟨(i 0).val / 2000, ht⟩ (0 : Fin 2) * 2000 + 2000
    omega
  | ⟨1, _⟩ =>
    show win14_4.index ⟨(i 0).val / 2000, ht⟩ (1 : Fin 2) * 96 ≤ (i 1).val
      ∧ (i 1).val < win14_4.index ⟨(i 0).val / 2000, ht⟩ (1 : Fin 2) * 96 + 96
    omega

/-- The self-loop term's array after the region: (h · W) scaled row by row by the column, plus the bias row, of the
    node features, weights, bias row and column as the region finds them. -/
theorem arr14_4 (c : Dev nD) :
    (dat14 (F := Ideal) V c).arrAt 4 cfg14.N
      = Cert.Spec.dense (V c main_v134) (V c main_arg18) (V c main_v152) (V c main_v153) :=
  (dat14 (F := Ideal) V c).arrAt_eq_of_cover 4
    (Cert.Spec.dense (V c main_v134) (V c main_arg18) (V c main_v152) (V c main_v153))
    (fun t _ => flushed14_4 V c t) covered14_4

end Cert.KernelIdeal.RegVal
end
-- ==== Proof.RegE15.lean ====
/-
  Region 15, an epilogue call on 96 columns with no activation. Its two inputs are the aggregated messages and the
  self-loop term, both 50000 x 96; its output, also 50000 x 96, holds at every index the sum of the two inputs there.

  The call works on 25 blocks of 2000 whole rows. At grid point t every window stands on rows 2000 t .. 2000 t + 1999,
  so an entry of the output block depends on the two input entries of the same row and column only. The 25 row
  blocks fill the 50000 rows, hence the whole output array is that pointwise function of the two input arrays.
-/
import proofs.«420299_j43722767073851_4_alg».proof.Proof.Gen.KernelIdeal.Frame
import proofs.«420299_j43722767073851_4_alg».proof.Proof.Spec
import Idealize.ShloMosaic.Lib.Pipeline.Value
import Idealize.ShloMosaic.Lib.ValueIdx
import Idealize.ShloMosaic.PureOps.Ideal

set_option maxRecDepth 16384

noncomputable section
namespace Cert.KernelIdeal.RegVal
open Idealize.ShloMosaic Idealize.ShloMosaic.TcCoe Idealize.SL.Sem Cert.KernelIdeal Cert.KernelIdeal.Gen
open Idealize.ShloMosaic.Pipeline (Dat Cfg Window)
open Idealize.ShloMosaic.ValueIdx

variable (V : (c : Dev nD) → (b : Ref sig .tc) → Buf (Elt Ideal) ((c : Thread nD τ).loc b))

/-- The body reads and writes each of its blocks from the block's first row and first column. -/
theorem origin15 : (![0, 0] : Fin 2 → Nat) = fun _ => 0 := funext fun a => by fin_cases a <;> rfl

/-- The body's value at an index of its block: the two loaded blocks added there. -/
theorem epi15_apply (x0 x1 : FVec Ideal S2000x96 .f32) (j : S2000x96.Idx) :
    k15_pay1 (F := Ideal) x0 x1 j = x0 j + x1 j := by
  unfold k15_pay1
  simp only [shapeCast_self]
  rfl

/-- The same value, when the two block entries are the entries of two whole arrays at one index: the pointwise
    function of the two arrays at that index. -/
theorem epi15_apply_of_entries (A B : FVec Ideal S50000x96 .f32) (x0 x1 : FVec Ideal S2000x96 .f32)
    (j : S2000x96.Idx) (i : S50000x96.Idx) (h0 : x0 j = A i) (h1 : x1 j = B i) :
    k15_pay1 (F := Ideal) x0 x1 j = Cert.Spec.epiNone A B i := by
  rw [epi15_apply, h0, h1]
  rfl

/-- At grid point t each of the three windows stands on row block t and on the one column block. -/
theorem blockIndex15 : ∀ t : Fin cfg15.N, win15_0.index t (0 : Fin 2) = win15_2.index t (0 : Fin 2)
    ∧ win15_0.index t (1 : Fin 2) = win15_2.index t (1 : Fin 2)
    ∧ win15_1.index t (0 : Fin 2) = win15_2.index t (0 : Fin 2)
    ∧ win15_1.index t (1 : Fin 2) = win15_2.index t (1 : Fin 2)
    ∧ win15_2.index t (0 : Fin 2) ≤ 24
    ∧ win15_2.index t (1 : Fin 2) = 0 :=
  (by decide +kernel : ∀ t : Fin grid15.N, _)

/-- Every one of the 25 row blocks is the output's block at some grid point. -/
theorem blockIndex15_onto : ∀ q : Fin 25, ∃ t : Fin cfg15.N, win15_2.index t = ![q.val, 0] :=
  (by decide +kernel : ∀ q : Fin 25, ∃ t : Fin grid15.N, win15_2.index t = ![q.val, 0])

/-- What grid point t writes back to the output array is block t of the pointwise function of the two input arrays:
    an entry of the output block and the entries of the two input blocks it is computed from sit at the same row and
    column of their arrays (block index times block size plus the coordinate inside the block, on each axis). -/
theorem flushed15_2_eq (c : Dev nD) (t : Fin cfg15.N) :
    (dat15 (F := Ideal) V c).flushed 2 t
      = ((cfg15.win 2).blk t).view.read (Elt Ideal) (Cert.Spec.epiNone (V c main_v167) (V c main_v154_0)) := by
  show (cfg15.win 2).cut (grid15.coords t) ((dat15 (F := Ideal) V c).after 2 t) = _
  rw [after15_2]
  unfold out15_2
  rw [View.canon_unit_zero origin15]
  simp only [View.ld_unit_zero (S := S2000x96) origin15]
  obtain ⟨e0, e1, e2, e3, e4, e5⟩ := blockIndex15 t
  funext j
  have h0 : ((cfg15.win 0).blk t).view.emb j = ((cfg15.win 2).blk t).view.emb j := by
    funext a; apply Fin.ext
    match a with
    | ⟨0, _⟩ => show win15_0.index t (0 : Fin 2) * 2000 + 1 * (j 0).val = win15_2.index t (0 : Fin 2) * 2000 + 1 * (j 0).val; omega
    | ⟨1, _⟩ => show win15_0.index t (1 : Fin 2) * 96 + 1 * (j 1).val = win15_2.index t (1 : Fin 2) * 96 + 1 * (j 1).val; omega
  have h1 : ((cfg15.win 1).blk t).view.emb j = ((cfg15.win 2).blk t).view.emb j := by
    funext a; apply Fin.ext
    match a with
    | ⟨0, _⟩ => show win15_1.index t (0 : Fin 2) * 2000 + 1 * (j 0).val = win15_2.index t (0 : Fin 2) * 2000 + 1 * (j 0).val; omega
    | ⟨1, _⟩ => show win15_1.index t (1 : Fin 2) * 96 + 1 * (j 1).val = win15_2.index t (1 : Fin 2) * 96 + 1 * (j 1).val; omega
  exact epi15_apply_of_entries (V c main_v167) (V c main_v154_0) (iblk15 V c 0 t) (iblk15 V c 1 t) j
    (((cfg15.win 2).blk t).view.emb j) (congrArg (V c main_v167) h0) (congrArg (V c main_v154_0) h1)

/-- An index of the output array lies in grid point t's block exactly when, on each axis, its coordinate lies in the
    block's range there. -/
theorem mem_block15_2 (t : Fin cfg15.N) (i : S50000x96.Idx) :
    i ∈ ((cfg15.win 2).blk t).view.set ↔ ∀ a : Fin 2, win15_2.index t a * S2000x96.size a ≤ (i a).val
      ∧ (i a).val < win15_2.index t a * S2000x96.size a + S2000x96.size a := by
  show i ∈ ((View.whole main_v168).slice (win15_2.rect t)).set ↔ _
  rw [View.set_slice_whole, Rect.mem_set_unit]
  exact Iff.rfl

/-- Every index of the output array is written back by some grid point: row r lies in row block r / 2000. -/
theorem covered15_2 (i : S50000x96.Idx) :
    ∃ t : Fin cfg15.N, (cfg15.win 2).flush t = true ∧ i ∈ ((cfg15.win 2).blk t).view.set := by
  have hi0 : (i 0).val < 50000 := (i 0).isLt
  have hi1 : (i 1).val < 96 := (i 1).isLt
  obtain ⟨t, ht⟩ := blockIndex15_onto ⟨(i 0).val / 2000, by omega⟩
  have q0 : win15_2.index t (0 : Fin 2) = (i 0).val / 2000 := congrFun ht 0
  have q1 : win15_2.index t (1 : Fin 2) = 0 := congrFun ht 1
  refine ⟨t, flush15_2 t, ?_⟩
  rw [mem_block15_2]
  intro a
  match a with
  | ⟨0, _⟩ => show win15_2.index t (0 : Fin 2) * 2000 ≤ (i 0).val ∧ (i 0).val < win15_2.index t (0 : Fin 2) * 2000 + 2000; omega
  | ⟨1, _⟩ => show win15_2.index t (1 : Fin 2) * 96 ≤ (i 1).val ∧ (i 1).val < win15_2.index t (1 : Fin 2) * 96 + 96; omega

/-- The output array of region 15 after the call: the sum of the aggregated messages and the self-loop term, index by
    index. -/
theorem arr15_2 (c : Dev nD) : (dat15 (F := Ideal) V c).arrAt 2 cfg15.N = Cert.Spec.epiNone (V c main_v167) (V c main_v154_0) :=
  (dat15 (F := Ideal) V c).arrAt_eq_of_cover 2 (Cert.Spec.epiNone (V c main_v167) (V c main_v154_0))
    (fun t _ => flushed15_2_eq V c t) covered15_2

end Cert.KernelIdeal.RegVal
end
-- ==== Proof.Match8.lean ====
/-
  Layer 8 (96 -> 96 columns, no activation), as pure functions of the argument arrays: the kernel's two calls and
  the reference's operations compute one array.
  The reference's layer is (agg + hw * sc) + b with hw = h · W, sc the self-loop coefficient broadcast along rows and
  b the bias broadcast along columns; the kernel's is agg + (hw * sc + b) with sc read from an n x 1 column and b from
  a 1 x c row. The two agree entry by entry by associativity of addition on the extended reals (no finiteness is
  needed: only + is regrouped).
-/
import proofs.«420299_j43722767073851_4_alg».proof.Proof.Gen.ReferenceIdeal.Read
import proofs.«420299_j43722767073851_4_alg».proof.Proof.Spec
import proofs.«420299_j43722767073851_4_alg».proof.Proof.LibColumn
import Idealize.ShloMosaic.Lib.ValueLayout
import Idealize.ShloMosaic.Lib.ValueIdx
import Idealize.ShloMosaic.PureOps.Ideal

noncomputable section

namespace Cert.Match

open Idealize.ShloMosaic Idealize.ShloMosaic.ValueIdx Cert.ReferenceIdeal Cert.ReferenceIdeal.Read

/-- The matrix product of the layer's input with its weights is the reference's dot_general. -/
theorem mm_L8
    (x0 : (⟨S50000x96, .f32⟩ : BufTy).Contents (Elt Ideal))
    (x1 : (⟨S2x800000, .i32⟩ : BufTy).Contents (Elt Ideal))
    (x14 : (⟨S96x96, .f32⟩ : BufTy).Contents (Elt Ideal))
    (x15 : (⟨S96, .f32⟩ : BufTy).Contents (Elt Ideal))
    (x18 : (⟨S96x96, .f32⟩ : BufTy).Contents (Elt Ideal)) :
    Cert.Spec.mm (n := 50000) (a := 96) (b := 96) (val_main_v162 (F := Ideal) x0 x1 x14 x15) x18 = val_main_v183 (F := Ideal) x0 x1 x14 x15 x18 := by
  funext i
  rw [val_main_v183_apply]
  unfold Cert.Spec.mm
  refine Finset.sum_congr rfl fun k _ => ?_
  have el : Cert.Spec.lix (a := 96) i k = lidx_main_v183 i k := funext fun d => by
    match d with
    | ⟨0, _⟩ => rfl
    | ⟨1, _⟩ => rfl
  have er : Cert.Spec.rix (n := 50000) (a := 96) i k = ridx_main_v183 i k := funext fun d => by
    match d with
    | ⟨0, _⟩ => rfl
    | ⟨1, _⟩ => rfl
  rw [el, er]

/-- The layer's output: the epilogue of the aggregated messages and the dense call's self-loop term is the
    reference's (agg + hw * sc) + b. -/
theorem out_L8
    (x0 : (⟨S50000x96, .f32⟩ : BufTy).Contents (Elt Ideal))
    (x1 : (⟨S2x800000, .i32⟩ : BufTy).Contents (Elt Ideal))
    (x14 : (⟨S96x96, .f32⟩ : BufTy).Contents (Elt Ideal))
    (x15 : (⟨S96, .f32⟩ : BufTy).Contents (Elt Ideal))
    (x18 : (⟨S96x96, .f32⟩ : BufTy).Contents (Elt Ideal))
    (x19 : (⟨S96, .f32⟩ : BufTy).Contents (Elt Ideal))
    (hb : (⟨1, ![96]⟩ : Shape).ShapeCasts ⟨2, ![1, 96]⟩) (hs : (⟨1, ![50000]⟩ : Shape).ShapeCasts ⟨2, ![50000, 1]⟩) :
    Cert.Spec.epiNone (n := 50000) (b := 96) (val_main_v196 (F := Ideal) x0 x1 x14 x15 x18)
      (Cert.Spec.dense (n := 50000) (a := 96) (b := 96) (val_main_v162 (F := Ideal) x0 x1 x14 x15) x18 (shapeCast ⟨2, ![1, 96]⟩ x19 hb)
        (shapeCast ⟨2, ![50000, 1]⟩ (val_main_v27 (F := Ideal) x1) hs))
    = val_main_v202 (F := Ideal) x0 x1 x14 x15 x18 x19 := by
  funext i
  rw [val_main_v202_apply, val_main_v199_apply, val_main_v198_apply, val_main_v197_apply, val_main_v28_apply,
    val_main_v201_apply, val_main_v200_apply, ← mm_L8]
  have ec : Cert.Spec.colIx (n := 50000) (b := 96) i = ix2 (⟨(i 0).val, (i 0).isLt⟩ : Fin 50000) (⟨0, Nat.one_pos⟩ : Fin 1) :=
    funext fun d => by
      match d with
      | ⟨0, _⟩ => rfl
      | ⟨1, _⟩ => rfl
  have er : Cert.Spec.rowIx (n := 50000) (b := 96) i = ix2 (⟨0, Nat.one_pos⟩ : Fin 1) (⟨(i 1).val, (i 1).isLt⟩ : Fin 96) :=
    funext fun d => by
      match d with
      | ⟨0, _⟩ => rfl
      | ⟨1, _⟩ => rfl
  have e1 : idx_main_v28 (idx_main_v197 i) = ix1 (⟨(i 0).val, (i 0).isLt⟩ : Fin 50000) := funext fun d => by
    match d with
    | ⟨0, _⟩ => rfl
  have e2 : idx_main_v200 (idx_main_v201 i) = ix1 (⟨(i 1).val, (i 1).isLt⟩ : Fin 96) := funext fun d => by
    match d with
    | ⟨0, _⟩ => rfl
  unfold Cert.Spec.epiNone Cert.Spec.dense
  rw [ec, er, Cert.LibColumn.shapeCast_a_a1_apply, shapeCast_a_1a_apply, e1, e2]
  simp only [Ideal.addf_def, Ideal.mulf_def]
  rw [add_assoc]

end Cert.Match

end
-- ==== Proof.Layer8.lean ====
/-
  Layer 8 (node branch, third convolution) of the kernel's program, segment by segment.
  The layer reads the previous layer's output h, its weight matrix and bias (arguments nothing has written), and
  the values the whole program shares (the edges' source and target nodes, the edge and self-loop coefficients).
  The first host stretch lays the bias out as a 1 x 96 row and the self-loop coefficients as a 50000 x 1 column;
  the dense call leaves h · W and (h · W) * sc + b; the second host stretch gathers the product's rows along the
  edges, scales them and scatter-adds them into the target nodes; the epilogue call adds the self-loop term and
  applies no activation. The result is the reference's layer.
-/
import proofs.«420299_j43722767073851_4_alg».proof.Proof.Layer7
import proofs.«420299_j43722767073851_4_alg».proof.Proof.KeepGlobals
import proofs.«420299_j43722767073851_4_alg».proof.Proof.KeepArgsC
import proofs.«420299_j43722767073851_4_alg».proof.Proof.KeepCarried
import proofs.«420299_j43722767073851_4_alg».proof.Proof.RegD14
import proofs.«420299_j43722767073851_4_alg».proof.Proof.RegE15
import proofs.«420299_j43722767073851_4_alg».proof.Proof.Match8

set_option maxRecDepth 16384

noncomputable section

namespace Cert.KernelIdeal.Chain

open Cert.KernelIdeal Cert.KernelIdeal.Gen Cert.KernelIdeal.Keep
open Idealize.ShloMosaic Idealize.ShloMosaic.TcCoe Idealize.SL.Sem
open Cert.ReferenceIdeal.Read

variable (m : (ℓ : Loc nD τ sig) → Buf (Elt Ideal) ℓ) (ρ : Dev nD → PrngReg)

/-! ## The dense call's inputs at its entry -/

/-- The layer's input: the previous layer's output. -/
theorem in14_h (c : Dev nD) : V29 m ρ c main_v134 = val_main_v162 (F := Ideal) (m ((c : Thread nD τ).loc main_arg0)) (m ((c : Thread nD τ).loc main_arg1)) (m ((c : Thread nD τ).loc main_arg14)) (m ((c : Thread nD τ).loc main_arg15)) :=
  (show W29 m ρ c (Proc.devRef .tc main_v134) = W28 m ρ c (Proc.devRef .tc main_v134) from by host_keep hostOps14).trans ((keep_v134_28 m ρ c).trans (out_L6 m ρ c))

theorem in14_W (c : Dev nD) : V29 m ρ c main_arg18 = (m ((c : Thread nD τ).loc main_arg18)) :=
  (show W29 m ρ c (Proc.devRef .tc main_arg18) = W28 m ρ c (Proc.devRef .tc main_arg18) from by host_keep hostOps14).trans (keep_arg18_28 m ρ c)

/-- The bias as a 1 x 96 row. -/
theorem in14_b (c : Dev nD) : V29 m ρ c main_v152 = shapeCast S1x96 (m ((c : Thread nD τ).loc main_arg19)) shapeCasts_S96_S1x96 := by
  show StableHlo.after hostOps14 (W28 m ρ c) (Proc.devRef .tc main_v152) = _
  after_results
  rw [keep_arg19_28 m ρ c]
  rfl

/-- The self-loop coefficients as a 50000 x 1 column. -/
theorem in14_sc (c : Dev nD) : V29 m ρ c main_v153 = shapeCast S50000x1 (val_main_v27 (F := Ideal) (m ((c : Thread nD τ).loc main_arg1))) shapeCasts_S50000_S50000x1 := by
  show StableHlo.after hostOps14 (W28 m ρ c) (Proc.devRef .tc main_v153) = _
  after_results
  rw [at28_v27 m ρ c]
  rfl

/-! ## The dense call's outputs -/

/-- h · W, the reference's dot_general. -/
theorem hw_L8 (c : Dev nD) : W30 m ρ c (Proc.devRef .tc main_v154_1) = val_main_v183 (F := Ideal) (m ((c : Thread nD τ).loc main_arg0)) (m ((c : Thread nD τ).loc main_arg1)) (m ((c : Thread nD τ).loc main_arg14)) (m ((c : Thread nD τ).loc main_arg15)) (m ((c : Thread nD τ).loc main_arg18)) := by
  refine (W30_arr m ρ c 5).trans ?_
  rw [Cert.KernelIdeal.RegVal.arr14_5 (V29 m ρ) c, in14_h m ρ c, in14_W m ρ c]
  exact Cert.Match.mm_L8 _ _ _ _ _

/-- The self-loop term (h · W) * sc + b. -/
theorem oi_L8 (c : Dev nD) : W30 m ρ c (Proc.devRef .tc main_v154_0)
    = Cert.Spec.dense (val_main_v162 (F := Ideal) (m ((c : Thread nD τ).loc main_arg0)) (m ((c : Thread nD τ).loc main_arg1)) (m ((c : Thread nD τ).loc main_arg14)) (m ((c : Thread nD τ).loc main_arg15))) (m ((c : Thread nD τ).loc main_arg18)) (shapeCast S1x96 (m ((c : Thread nD τ).loc main_arg19)) shapeCasts_S96_S1x96)
        (shapeCast S50000x1 (val_main_v27 (F := Ideal) (m ((c : Thread nD τ).loc main_arg1))) shapeCasts_S50000_S50000x1) := by
  refine (W30_arr m ρ c 4).trans ?_
  rw [Cert.KernelIdeal.RegVal.arr14_4 (V29 m ρ) c, in14_h m ρ c, in14_W m ρ c, in14_b m ρ c, in14_sc m ρ c]

/-! ## The shared values after the dense call -/

theorem g30_v1 (c : Dev nD) : W30 m ρ c (Proc.devRef .tc main_v1) = val_main_v1 (F := Ideal) (m ((c : Thread nD τ).loc main_arg1)) :=
  (W30_of_ne m ρ c main_v1 (by decide)).trans <| (show W29 m ρ c (Proc.devRef .tc main_v1) = W28 m ρ c (Proc.devRef .tc main_v1) from by host_keep hostOps14).trans (at28_v1 m ρ c)
theorem g30_v3 (c : Dev nD) : W30 m ρ c (Proc.devRef .tc main_v3) = val_main_v3 (F := Ideal) (m ((c : Thread nD τ).loc main_arg1)) :=
  (W30_of_ne m ρ c main_v3 (by decide)).trans <| (show W29 m ρ c (Proc.devRef .tc main_v3) = W28 m ρ c (Proc.devRef .tc main_v3) from by host_keep hostOps14).trans (at28_v3 m ρ c)
theorem g30_v26 (c : Dev nD) : W30 m ρ c (Proc.devRef .tc main_v26) = val_main_v26 (F := Ideal) (m ((c : Thread nD τ).loc main_arg1)) :=
  (W30_of_ne m ρ c main_v26 (by decide)).trans <| (show W29 m ρ c (Proc.devRef .tc main_v26) = W28 m ρ c (Proc.devRef .tc main_v26) from by host_keep hostOps14).trans (at28_v26 m ρ c)

/-! ## The aggregated messages, and the epilogue -/

set_option maxHeartbeats 1600000 in
/-- Rows of h · W gathered along the edges, scaled by the edge coefficients, scatter-added into the target nodes. -/
theorem agg_L8 (c : Dev nD) : V31 m ρ c main_v167 = val_main_v196 (F := Ideal) (m ((c : Thread nD τ).loc main_arg0)) (m ((c : Thread nD τ).loc main_arg1)) (m ((c : Thread nD τ).loc main_arg14)) (m ((c : Thread nD τ).loc main_arg15)) (m ((c : Thread nD τ).loc main_arg18)) := by
  show StableHlo.after hostOps15 (W30 m ρ c) (Proc.devRef .tc main_v167) = _
  after_results
  rw [g30_v1 m ρ c, g30_v3 m ρ c, g30_v26 m ρ c, hw_L8 m ρ c]
  rfl

theorem oi3_L8 (c : Dev nD) : V31 m ρ c main_v154_0
    = Cert.Spec.dense (val_main_v162 (F := Ideal) (m ((c : Thread nD τ).loc main_arg0)) (m ((c : Thread nD τ).loc main_arg1)) (m ((c : Thread nD τ).loc main_arg14)) (m ((c : Thread nD τ).loc main_arg15))) (m ((c : Thread nD τ).loc main_arg18)) (shapeCast S1x96 (m ((c : Thread nD τ).loc main_arg19)) shapeCasts_S96_S1x96)
        (shapeCast S50000x1 (val_main_v27 (F := Ideal) (m ((c : Thread nD τ).loc main_arg1))) shapeCasts_S50000_S50000x1) :=
  (show W31 m ρ c (Proc.devRef .tc main_v154_0) = W30 m ρ c (Proc.devRef .tc main_v154_0) from by host_keep hostOps15).trans (oi_L8 m ρ c)

/-- The layer's output is the reference's. -/
theorem out_L8 (c : Dev nD) : W32 m ρ c (Proc.devRef .tc main_v168) = val_main_v202 (F := Ideal) (m ((c : Thread nD τ).loc main_arg0)) (m ((c : Thread nD τ).loc main_arg1)) (m ((c : Thread nD τ).loc main_arg14)) (m ((c : Thread nD τ).loc main_arg15)) (m ((c : Thread nD τ).loc main_arg18)) (m ((c : Thread nD τ).loc main_arg19)) := by
  refine (W32_arr m ρ c 2).trans ?_
  rw [Cert.KernelIdeal.RegVal.arr15_2 (V31 m ρ) c, agg_L8 m ρ c, oi3_L8 m ρ c]
  exact Cert.Match.out_L8 _ _ _ _ _ _ _ _

/-! ## The shared values at the layer's exit -/

theorem at32_v1 (c : Dev nD) : W32 m ρ c (Proc.devRef .tc main_v1) = val_main_v1 (F := Ideal) (m ((c : Thread nD τ).loc main_arg1)) :=
  (keepL8_v1 m ρ c).trans (at28_v1 m ρ c)
theorem at32_v3 (c : Dev nD) : W32 m ρ c (Proc.devRef .tc main_v3) = val_main_v3 (F := Ideal) (m ((c : Thread nD τ).loc main_arg1)) :=
  (keepL8_v3 m ρ c).trans (at28_v3 m ρ c)
theorem at32_v26 (c : Dev nD) : W32 m ρ c (Proc.devRef .tc main_v26) = val_main_v26 (F := Ideal) (m ((c : Thread nD τ).loc main_arg1)) :=
  (keepL8_v26 m ρ c).trans (at28_v26 m ρ c)
theorem at32_v27 (c : Dev nD) : W32 m ρ c (Proc.devRef .tc main_v27) = val_main_v27 (F := Ideal) (m ((c : Thread nD τ).loc main_arg1)) :=
  (keepL8_v27 m ρ c).trans (at28_v27 m ρ c)

end Cert.KernelIdeal.Chain

end
-- ==== Proof.RegD16.lean ====
/-
  The ninth dense call of the kernel (node features 50000 x 96, weights 96 x 96), read as whole arrays on the
  extended reals. Its grid has 25 points; point t holds rows 2000 t .. 2000 t + 1999 of the node features, of the
  self-loop column and of both outputs, and the whole of the weights and of the bias row. One block of the product
  is a sum over the contracted axis (the left operand first passes through a cast to its own shape); one block of
  the self-loop term is that product scaled row by row by the column plus the bias row. The blocks of the 25 points
  tile each output array, so each array ends holding the whole product h · W, respectively (h · W) scaled by the
  column plus the bias row.
-/
import proofs.«420299_j43722767073851_4_alg».proof.Proof.Gen.KernelIdeal.Frame
import proofs.«420299_j43722767073851_4_alg».proof.Proof.Spec
import proofs.«420299_j43722767073851_4_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384
noncomputable section
namespace Cert.KernelIdeal.RegVal
open Idealize.ShloMosaic Idealize.ShloMosaic.TcCoe Idealize.SL.Sem Cert.KernelIdeal Cert.KernelIdeal.Gen
open Idealize.ShloMosaic.Pipeline (Dat Cfg Window)
open Idealize.ShloMosaic.ValueIdx

/-! ## The product h · W of one block, entry by entry -/

/-- Row axis of the left operand: the output index's row. -/
theorem lhs_mm16_0 (i : S2000x96.Idx) (q : dot_S2000x96_S96x96_S2000x96_1_0_0_1_n_n.contr.Idx) :
    (dot_S2000x96_S96x96_S2000x96_1_0_0_1_n_n.lhsIdx i q 0).val = (i 0).val := by
  unfold DotDims.lhsIdx
  rw [dif_neg (show ¬(0 : Fin S2000x96.rank) ∈ dot_S2000x96_S96x96_S2000x96_1_0_0_1_n_n.lhsBatch by decide), dif_pos (show (0 : Fin S2000x96.rank) ∈ dot_S2000x96_S96x96_S2000x96_1_0_0_1_n_n.lhsNonContracting by decide)]
  rfl
/-- Column axis of the left operand: the contracted position. -/
theorem lhs_mm16_1 (i : S2000x96.Idx) (q : dot_S2000x96_S96x96_S2000x96_1_0_0_1_n_n.contr.Idx) :
    (dot_S2000x96_S96x96_S2000x96_1_0_0_1_n_n.lhsIdx i q 1).val = (q ⟨0, by decide⟩).val :=
  dot_S2000x96_S96x96_S2000x96_1_0_0_1_n_n.lhsIdx_val_of_single rfl i q
/-- Row axis of the right operand: the contracted position. -/
theorem rhs_mm16_0 (i : S2000x96.Idx) (q : dot_S2000x96_S96x96_S2000x96_1_0_0_1_n_n.contr.Idx) :
    (dot_S2000x96_S96x96_S2000x96_1_0_0_1_n_n.rhsIdx i q 0).val = (q ⟨0, by decide⟩).val :=
  dot_S2000x96_S96x96_S2000x96_1_0_0_1_n_n.rhsIdx_val_of_single rfl i q
/-- Column axis of the right operand: the output index's column. -/
theorem rhs_mm16_1 (i : S2000x96.Idx) (q : dot_S2000x96_S96x96_S2000x96_1_0_0_1_n_n.contr.Idx) :
    (dot_S2000x96_S96x96_S2000x96_1_0_0_1_n_n.rhsIdx i q 1).val = (i 1).val := by
  unfold DotDims.rhsIdx
  rw [dif_neg (show ¬(1 : Fin S96x96.rank) ∈ dot_S2000x96_S96x96_S2000x96_1_0_0_1_n_n.rhsBatch by decide), dif_pos (show (1 : Fin S96x96.rank) ∈ dot_S2000x96_S96x96_S2000x96_1_0_0_1_n_n.rhsNonContracting by decide)]
  rfl

/-- The block product at an index: the left operand enters through a cast to its own shape, which changes nothing;
    the product is the sum over the 96 contracted positions of the left operand's entry in the index's row times the
    right operand's entry in the index's column. -/
theorem blockProd16_apply (x0 : Vec Ideal S2000x96 .f32) (x1 : Vec Ideal S96x96 .f32) (j : S2000x96.Idx) :
    k16_pay1 (F := Ideal) x0 x1 j = ∑ k : Fin 96, x0 (Cert.Spec.lix j k) * x1 (Cert.Spec.rix j k) := by
  unfold k16_pay1
  refine (Ideal.matmul_constant_zero_apply dot_S2000x96_S96x96_S2000x96_1_0_0_1_n_n none
    (shapeCast S2000x96 x0 shapeCasts_S2000x96_S2000x96) x1 j).trans ?_
  rw [shapeCast_self]
  rw [← Equiv.sum_comp (ValueIdx.contrEquiv1 dot_S2000x96_S96x96_S2000x96_1_0_0_1_n_n 96 rfl rfl).symm]
  refine Finset.sum_congr rfl fun k _ => ?_
  have hk := ValueIdx.contrEquiv1_symm_val dot_S2000x96_S96x96_S2000x96_1_0_0_1_n_n 96 rfl rfl k
  have el : dot_S2000x96_S96x96_S2000x96_1_0_0_1_n_n.lhsIdx j ((ValueIdx.contrEquiv1 dot_S2000x96_S96x96_S2000x96_1_0_0_1_n_n 96 rfl rfl).symm k) = Cert.Spec.lix j k := funext fun a => Fin.ext (by
    match a with
    | ⟨0, _⟩ => exact lhs_mm16_0 _ _
    | ⟨1, _⟩ => exact (lhs_mm16_1 _ _).trans hk)
  have er : dot_S2000x96_S96x96_S2000x96_1_0_0_1_n_n.rhsIdx j ((ValueIdx.contrEquiv1 dot_S2000x96_S96x96_S2000x96_1_0_0_1_n_n 96 rfl rfl).symm k) = Cert.Spec.rix j k := funext fun a => Fin.ext (by
    match a with
    | ⟨0, _⟩ => exact (rhs_mm16_0 _ _).trans hk
    | ⟨1, _⟩ => exact rhs_mm16_1 _ _)
  rw [el, er]

/-! ## The scaled product plus the bias row, of one block, entry by entry -/

/-- The block's self-loop term at an index: the block product there, times the column's entry in the index's row,
    plus the bias row's entry in the index's column. -/
theorem blockDense16_apply (x0 : Vec Ideal S2000x96 .f32) (x1 : Vec Ideal S96x96 .f32) (x3 : Vec Ideal S2000x1 .f32)
    (x7 : Vec Ideal S1x96 .f32) (j : S2000x96.Idx) :
    k16_pay2 (F := Ideal) x0 x1 x3 x7 j
      = k16_pay1 (F := Ideal) x0 x1 j * x3 (Cert.Spec.colIx j) + x7 (Cert.Spec.rowIx j) := by
  obtain ⟨p, q, rfl⟩ : ∃ (p : Fin 2000) (q : Fin 96), j = ix2 p q := ⟨j 0, j 1, eq_ix2 j⟩
  have ec : Cert.Spec.colIx (ix2 p q) = ix2 p (0 : Fin 1) := funext fun a => by
    match a with
    | ⟨0, _⟩ => rfl
    | ⟨1, _⟩ => rfl
  have er : Cert.Spec.rowIx (ix2 p q) = ix2 (0 : Fin 1) q := funext fun a => by
    match a with
    | ⟨0, _⟩ => rfl
    | ⟨1, _⟩ => rfl
  unfold k16_pay2
  show k16_pay1 (F := Ideal) x0 x1 (ix2 p q)
        * broadcastTo S2000x96 (shapeCast S2000x1 x3 shapeCasts_S2000x1_S2000x1) broadcasts_S2000x1_S2000x96 (ix2 p q)
      + broadcastTo S2000x96 (shapeCast S1x96 x7 shapeCasts_S1x96_S1x96) broadcasts_S1x96_S2000x96 (ix2 p q) = _
  rw [shapeCast_self, shapeCast_self, Cert.LibColumn.broadcastTo_a1_ab_apply, broadcastTo_1b_ab_apply, ec, er]

variable (V : (c : Dev nD) → (b : Ref sig .tc) → Buf (Elt Ideal) ((c : Thread nD τ).loc b))

/-! ## From blocks to the arrays -/

theorem zeroOff16 : (![0, 0] : Fin 2 → Nat) = fun _ => 0 := funext fun a => by
  match a with
  | ⟨0, _⟩ => rfl
  | ⟨1, _⟩ => rfl

/-- The printed index maps over the grid: the windows cut in row blocks (node features, column, both outputs) sit at
    block row t, block column 0; the weights and the bias row are their one block. -/
theorem blockIdx16 : ∀ t : Fin cfg16.N,
    win16_0.index t (0 : Fin 2) = t.val ∧ win16_0.index t (1 : Fin 2) = 0
    ∧ win16_1.index t (0 : Fin 2) = 0 ∧ win16_1.index t (1 : Fin 2) = 0
    ∧ win16_2.index t (0 : Fin 2) = 0 ∧ win16_2.index t (1 : Fin 2) = 0
    ∧ win16_3.index t (0 : Fin 2) = t.val ∧ win16_3.index t (1 : Fin 2) = 0
    ∧ win16_4.index t (0 : Fin 2) = t.val ∧ win16_4.index t (1 : Fin 2) = 0
    ∧ win16_5.index t (0 : Fin 2) = t.val ∧ win16_5.index t (1 : Fin 2) = 0 :=
  (by decide +kernel : ∀ t : Fin grid16.N, _)

/-- The block product of point t at a block index is the whole product h · W at the array index whose row is
    2000 t plus the block index's row and whose column is the block index's column. -/
theorem blockProd16_at (c : Dev nD) (t : Fin cfg16.N) (j : S2000x96.Idx) (i : S50000x96.Idx)
    (hr : (i 0).val = t.val * 2000 + (j 0).val) (hc : (i 1).val = (j 1).val) :
    k16_pay1 (F := Ideal) (iblk16 V c 0 t) (iblk16 V c 1 t) j = Cert.Spec.mm (V c main_v173) (V c main_arg20) i := by
  obtain ⟨e00, e01, e10, e11, -⟩ := blockIdx16 t
  rw [blockProd16_apply]
  unfold Cert.Spec.mm
  refine Finset.sum_congr rfl fun k _ => ?_
  have a0 : iblk16 V c 0 t (Cert.Spec.lix j k) = V c main_v173 (Cert.Spec.lix i k) := by
    show V c main_v173 (((cfg16.win 0).blk t).view.emb (Cert.Spec.lix j k)) = _
    refine congrArg (V c main_v173) ?_
    funext a; apply Fin.ext
    match a with
    | ⟨0, _⟩ => show win16_0.index t (0 : Fin 2) * 2000 + 1 * (j 0).val = (i 0).val; omega
    | ⟨1, _⟩ => show win16_0.index t (1 : Fin 2) * 96 + 1 * k.val = k.val; omega
  have a1 : iblk16 V c 1 t (Cert.Spec.rix j k) = V c main_arg20 (Cert.Spec.rix i k) := by
    show V c main_arg20 (((cfg16.win 1).blk t).view.emb (Cert.Spec.rix j k)) = _
    refine congrArg (V c main_arg20) ?_
    funext a; apply Fin.ext
    match a with
    | ⟨0, _⟩ => show win16_1.index t (0 : Fin 2) * 96 + 1 * k.val = k.val; omega
    | ⟨1, _⟩ => show win16_1.index t (1 : Fin 2) * 96 + 1 * (j 1).val = (i 1).val; omega
  rw [a0, a1]

/-! ### The product's array (output window 5) -/

/-- What point t writes back to the product's array is block t of h · W of the arrays as the region finds them. -/
theorem flushed16_5 (c : Dev nD) (t : Fin cfg16.N) :
    (dat16 (F := Ideal) V c).flushed 5 t
      = ((cfg16.win 5).blk t).view.read (Elt Ideal) (Cert.Spec.mm (V c main_v173) (V c main_arg20)) := by
  show (cfg16.win 5).cut (grid16.coords t) ((dat16 (F := Ideal) V c).after 5 t) = _
  rw [after16_5]
  unfold out16_5
  rw [View.canon_unit_zero zeroOff16]
  simp only [View.ld_unit_zero (S := S2000x96) zeroOff16, View.ld_unit_zero (S := S96x96) zeroOff16]
  obtain ⟨-, -, -, -, -, -, -, -, -, -, e50, e51⟩ := blockIdx16 t
  refine funext fun (j : S2000x96.Idx) => ?_
  show k16_pay1 (F := Ideal) (iblk16 V c 0 t) (iblk16 V c 1 t) j
      = Cert.Spec.mm (V c main_v173) (V c main_arg20) (((cfg16.win 5).blk t).view.emb j : S50000x96.Idx)
  refine blockProd16_at V c t j _ ?_ ?_
  · show win16_5.index t (0 : Fin 2) * 2000 + 1 * (j 0).val = t.val * 2000 + (j 0).val; omega
  · show win16_5.index t (1 : Fin 2) * 96 + 1 * (j 1).val = (j 1).val; omega

/-- An index of the product's array is in point t's block iff each coordinate is in the block's range on its axis. -/
theorem mem_blk16_5 (t : Fin cfg16.N) (i : S50000x96.Idx) :
    i ∈ ((cfg16.win 5).blk t).view.set ↔ ∀ a : Fin 2, win16_5.index t a * S2000x96.size a ≤ (i a).val
      ∧ (i a).val < win16_5.index t a * S2000x96.size a + S2000x96.size a := by
  show i ∈ ((View.whole main_v176_1).slice (win16_5.rect t)).set ↔ _
  rw [View.set_slice_whole, Rect.mem_set_unit]
  exact Iff.rfl

/-- Every index of the product's array is in the block of the point its row divided by 2000 names, and every point
    writes its block back. -/
theorem covered16_5 (i : S50000x96.Idx) :
    ∃ t : Fin cfg16.N, (cfg16.win 5).flush t = true ∧ i ∈ ((cfg16.win 5).blk t).view.set := by
  have hi0 : (i 0).val < 50000 := (i 0).isLt
  have hi1 : (i 1).val < 96 := (i 1).isLt
  have ht : (i 0).val / 2000 < cfg16.N := by show (i 0).val / 2000 < 25; omega
  obtain ⟨-, -, -, -, -, -, -, -, -, -, e50, e51⟩ := blockIdx16 ⟨(i 0).val / 2000, ht⟩
  have e50' : win16_5.index ⟨(i 0).val / 2000, ht⟩ (0 : Fin 2) = (i 0).val / 2000 := e50
  refine ⟨⟨(i 0).val / 2000, ht⟩, flush16_5 _, ?_⟩
  rw [mem_blk16_5]
  intro a
  match a with
  | ⟨0, _⟩ =>
    show win16_5.index ⟨(i 0).val / 2000, ht⟩ (0 : Fin 2) * 2000 ≤ (i 0).val
      ∧ (i 0).val < win16_5.index ⟨(i 0).val / 2000, ht⟩ (0 : Fin 2) * 2000 + 2000
    omega
  | ⟨1, _⟩ =>
    show win16_5.index ⟨(i 0).val / 2000, ht⟩ (1 : Fin 2) * 96 ≤ (i 1).val
      ∧ (i 1).val < win16_5.index ⟨(i 0).val / 2000, ht⟩ (1 : Fin 2) * 96 + 96
    omega

/-- The product's array after the region: h · W of the node features and the weights as the region finds them. -/
theorem arr16_5 (c : Dev nD) :
    (dat16 (F := Ideal) V c).arrAt 5 cfg16.N = Cert.Spec.mm (V c main_v173) (V c main_arg20) :=
  (dat16 (F := Ideal) V c).arrAt_eq_of_cover 5 (Cert.Spec.mm (V c main_v173) (V c main_arg20))
    (fun t _ => flushed16_5 V c t) covered16_5

/-! ### The self-loop term's array (output window 4) -/

/-- What point t writes back to the self-loop term's array is block t of (h · W) scaled row by row by the column,
    plus the bias row, of the arrays as the region finds them. -/
theorem flushed16_4 (c : Dev nD) (t : Fin cfg16.N) :
    (dat16 (F := Ideal) V c).flushed 4 t
      = ((cfg16.win 4).blk t).view.read (Elt Ideal)
          (Cert.Spec.dense (V c main_v173) (V c main_arg20) (V c main_v174) (V c main_v175)) := by
  show (cfg16.win 4).cut (grid16.coords t) ((dat16 (F := Ideal) V c).after 4 t) = _
  rw [after16_4]
  unfold out16_4
  rw [View.canon_unit_zero zeroOff16]
  simp only [View.ld_unit_zero (S := S2000x96) zeroOff16, View.ld_unit_zero (S := S96x96) zeroOff16,
    View.ld_unit_zero (S := S2000x1) zeroOff16, View.ld_unit_zero (S := S1x96) zeroOff16]
  obtain ⟨-, -, -, -, e20, e21, e30, e31, e40, e41, -, -⟩ := blockIdx16 t
  refine funext fun (j : S2000x96.Idx) => ?_
  show k16_pay2 (F := Ideal) (iblk16 V c 0 t) (iblk16 V c 1 t) (iblk16 V c 3 t) (iblk16 V c 2 t) j
      = Cert.Spec.dense (V c main_v173) (V c main_arg20) (V c main_v174) (V c main_v175)
          (((cfg16.win 4).blk t).view.emb j : S50000x96.Idx)
  have hp : k16_pay1 (F := Ideal) (iblk16 V c 0 t) (iblk16 V c 1 t) j
      = Cert.Spec.mm (V c main_v173) (V c main_arg20) (((cfg16.win 4).blk t).view.emb j : S50000x96.Idx) := by
    refine blockProd16_at V c t j _ ?_ ?_
    · show win16_4.index t (0 : Fin 2) * 2000 + 1 * (j 0).val = t.val * 2000 + (j 0).val; omega
    · show win16_4.index t (1 : Fin 2) * 96 + 1 * (j 1).val = (j 1).val; omega
  have hcol : iblk16 V c 3 t (Cert.Spec.colIx j)
      = V c main_v175 (Cert.Spec.colIx (((cfg16.win 4).blk t).view.emb j : S50000x96.Idx)) := by
    show V c main_v175 (((cfg16.win 3).blk t).view.emb (Cert.Spec.colIx j)) = _
    refine congrArg (V c main_v175) ?_
    funext a; apply Fin.ext
    match a with
    | ⟨0, _⟩ => show win16_3.index t (0 : Fin 2) * 2000 + 1 * (j 0).val = win16_4.index t (0 : Fin 2) * 2000 + 1 * (j 0).val; omega
    | ⟨1, _⟩ => show win16_3.index t (1 : Fin 2) * 1 + 1 * 0 = 0; omega
  have hrow : iblk16 V c 2 t (Cert.Spec.rowIx j)
      = V c main_v174 (Cert.Spec.rowIx (((cfg16.win 4).blk t).view.emb j : S50000x96.Idx)) := by
    show V c main_v174 (((cfg16.win 2).blk t).view.emb (Cert.Spec.rowIx j)) = _
    refine congrArg (V c main_v174) ?_
    funext a; apply Fin.ext
    match a with
    | ⟨0, _⟩ => show win16_2.index t (0 : Fin 2) * 1 + 1 * 0 = 0; omega
    | ⟨1, _⟩ => show win16_2.index t (1 : Fin 2) * 96 + 1 * (j 1).val = win16_4.index t (1 : Fin 2) * 96 + 1 * (j 1).val; omega
  rw [blockDense16_apply, hp, hcol, hrow]
  rfl

/-- An index of the self-loop term's array is in point t's block iff each coordinate is in the block's range on its
    axis. -/
theorem mem_blk16_4 (t : Fin cfg16.N) (i : S50000x96.Idx) :
    i ∈ ((cfg16.win 4).blk t).view.set ↔ ∀ a : Fin 2, win16_4.index t a * S2000x96.size a ≤ (i a).val
      ∧ (i a).val < win16_4.index t a * S2000x96.size a + S2000x96.size a := by
  show i ∈ ((View.whole main_v176_0).slice (win16_4.rect t)).set ↔ _
  rw [View.set_slice_whole, Rect.mem_set_unit]
  exact Iff.rfl

/-- Every index of the self-loop term's array is in the block of the point its row divided by 2000 names, and every
    point writes its block back. -/
theorem covered16_4 (i : S50000x96.Idx) :
    ∃ t : Fin cfg16.N, (cfg16.win 4).flush t = true ∧ i ∈ ((cfg16.win 4).blk t).view.set := by
  have hi0 : (i 0).val < 50000 := (i 0).isLt
  have hi1 : (i 1).val < 96 := (i 1).isLt
  have ht : (i 0).val / 2000 < cfg16.N := by show (i 0).val / 2000 < 25; omega
  obtain ⟨-, -, -, -, -, -, -, -, e40, e41, -, -⟩ := blockIdx16 ⟨(i 0).val / 2000, ht⟩
  have e40' : win16_4.index ⟨(i 0).val / 2000, ht⟩ (0 : Fin 2) = (i 0).val / 2000 := e40
  refine ⟨⟨(i 0).val / 2000, ht⟩, flush16_4 _, ?_⟩
  rw [mem_blk16_4]
  intro a
  match a with
  | ⟨0, _⟩ =>
    show win16_4.index ⟨(i 0).val / 2000, ht⟩ (0 : Fin 2) * 2000 ≤ (i 0).val
      ∧ (i 0).val < win16_4.index ⟨(i 0).val / 2000, ht⟩ (0 : Fin 2) * 2000 + 2000
    omega
  | ⟨1, _⟩ =>
    show win16_4.index ⟨(i 0).val / 2000, ht⟩ (1 : Fin 2) * 96 ≤ (i 1).val
      ∧ (i 1).val < win16_4.index ⟨(i 0).val / 2000, ht⟩ (1 : Fin 2) * 96 + 96
    omega

/-- The self-loop term's array after the region: (h · W) scaled row by row by the column, plus the bias row, of the
    node features, weights, bias row and column as the region finds them. -/
theorem arr16_4 (c : Dev nD) :
    (dat16 (F := Ideal) V c).arrAt 4 cfg16.N
      = Cert.Spec.dense (V c main_v173) (V c main_arg20) (V c main_v174) (V c main_v175) :=
  (dat16 (F := Ideal) V c).arrAt_eq_of_cover 4
    (Cert.Spec.dense (V c main_v173) (V c main_arg20) (V c main_v174) (V c main_v175))
    (fun t _ => flushed16_4 V c t) covered16_4

end Cert.KernelIdeal.RegVal
end
-- ==== Proof.RegE17.lean ====
/-
  Region 17, an epilogue call on 96 columns. Its two inputs are the aggregated messages and the self-loop term, both
  50000 x 96; its output, also 50000 x 96, holds at every index the sum of the two inputs there, replaced by zero
  where the sum is negative.

  The call works on 25 blocks of 2000 whole rows. At grid point t every window stands on rows 2000 t .. 2000 t + 1999,
  so an entry of the output block depends on the two input entries of the same row and column only. The 25 row
  blocks fill the 50000 rows, hence the whole output array is that pointwise function of the two input arrays.
-/
import proofs.«420299_j43722767073851_4_alg».proof.Proof.Gen.KernelIdeal.Frame
import proofs.«420299_j43722767073851_4_alg».proof.Proof.Spec
import Idealize.ShloMosaic.Lib.Pipeline.Value
import Idealize.ShloMosaic.Lib.ValueIdx
import Idealize.ShloMosaic.PureOps.Ideal
import Idealize.ShloMosaic.PureOps.Ideal.Laws

set_option maxRecDepth 16384

noncomputable section
namespace Cert.KernelIdeal.RegVal
open Idealize.ShloMosaic Idealize.ShloMosaic.TcCoe Idealize.SL.Sem Cert.KernelIdeal Cert.KernelIdeal.Gen
open Idealize.ShloMosaic.Pipeline (Dat Cfg Window)
open Idealize.ShloMosaic.ValueIdx

variable (V : (c : Dev nD) → (b : Ref sig .tc) → Buf (Elt Ideal) ((c : Thread nD τ).loc b))

/-- The body reads and writes each of its blocks from the block's first row and first column. -/
theorem origin17 : (![0, 0] : Fin 2 → Nat) = fun _ => 0 := funext fun a => by fin_cases a <;> rfl

/-- The body's value at an index of its block: the two loaded blocks added there, then the larger of that sum and
    zero (the zero word of the 32-bit format is the real number 0). -/
theorem epi17_apply (x0 x1 : FVec Ideal S2000x96 .f32) (j : S2000x96.Idx) :
    k17_pay1 (F := Ideal) x0 x1 j = max (x0 j + x1 j) 0 := by
  unfold k17_pay1
  simp only [shapeCast_self]
  show max (x0 j + x1 j) (Ideal.ofBits .f32 0x00000000#32) = _
  rw [Ideal.ofBits_zero_f32]

/-- The same value, when the two block entries are the entries of two whole arrays at one index: the pointwise
    function of the two arrays at that index. -/
theorem epi17_apply_of_entries (A B : FVec Ideal S50000x96 .f32) (x0 x1 : FVec Ideal S2000x96 .f32)
    (j : S2000x96.Idx) (i : S50000x96.Idx) (h0 : x0 j = A i) (h1 : x1 j = B i) :
    k17_pay1 (F := Ideal) x0 x1 j = Cert.Spec.epiRelu A B i := by
  rw [epi17_apply, h0, h1]
  rfl

/-- At grid point t each of the three windows stands on row block t and on the one column block. -/
theorem blockIndex17 : ∀ t : Fin cfg17.N, win17_0.index t (0 : Fin 2) = win17_2.index t (0 : Fin 2)
    ∧ win17_0.index t (1 : Fin 2) = win17_2.index t (1 : Fin 2)
    ∧ win17_1.index t (0 : Fin 2) = win17_2.index t (0 : Fin 2)
    ∧ win17_1.index t (1 : Fin 2) = win17_2.index t (1 : Fin 2)
    ∧ win17_2.index t (0 : Fin 2) ≤ 24
    ∧ win17_2.index t (1 : Fin 2) = 0 :=
  (by decide +kernel : ∀ t : Fin grid17.N, _)

/-- Every one of the 25 row blocks is the output's block at some grid point. -/
theorem blockIndex17_onto : ∀ q : Fin 25, ∃ t : Fin cfg17.N, win17_2.index t = ![q.val, 0] :=
  (by decide +kernel : ∀ q : Fin 25, ∃ t : Fin grid17.N, win17_2.index t = ![q.val, 0])

/-- What grid point t writes back to the output array is block t of the pointwise function of the two input arrays:
    an entry of the output block and the entries of the two input blocks it is computed from sit at the same row and
    column of their arrays (block index times block size plus the coordinate inside the block, on each axis). -/
theorem flushed17_2_eq (c : Dev nD) (t : Fin cfg17.N) :
    (dat17 (F := Ideal) V c).flushed 2 t
      = ((cfg17.win 2).blk t).view.read (Elt Ideal) (Cert.Spec.epiRelu (V c main_v189) (V c main_v176_0)) := by
  show (cfg17.win 2).cut (grid17.coords t) ((dat17 (F := Ideal) V c).after 2 t) = _
  rw [after17_2]
  unfold out17_2
  rw [View.canon_unit_zero origin17]
  simp only [View.ld_unit_zero (S := S2000x96) origin17]
  obtain ⟨e0, e1, e2, e3, e4, e5⟩ := blockIndex17 t
  funext j
  have h0 : ((cfg17.win 0).blk t).view.emb j = ((cfg17.win 2).blk t).view.emb j := by
    funext a; apply Fin.ext
    match a with
    | ⟨0, _⟩ => show win17_0.index t (0 : Fin 2) * 2000 + 1 * (j 0).val = win17_2.index t (0 : Fin 2) * 2000 + 1 * (j 0).val; omega
    | ⟨1, _⟩ => show win17_0.index t (1 : Fin 2) * 96 + 1 * (j 1).val = win17_2.index t (1 : Fin 2) * 96 + 1 * (j 1).val; omega
  have h1 : ((cfg17.win 1).blk t).view.emb j = ((cfg17.win 2).blk t).view.emb j := by
    funext a; apply Fin.ext
    match a with
    | ⟨0, _⟩ => show win17_1.index t (0 : Fin 2) * 2000 + 1 * (j 0).val = win17_2.index t (0 : Fin 2) * 2000 + 1 * (j 0).val; omega
    | ⟨1, _⟩ => show win17_1.index t (1 : Fin 2) * 96 + 1 * (j 1).val = win17_2.index t (1 : Fin 2) * 96 + 1 * (j 1).val; omega
  exact epi17_apply_of_entries (V c main_v189) (V c main_v176_0) (iblk17 V c 0 t) (iblk17 V c 1 t) j
    (((cfg17.win 2).blk t).view.emb j) (congrArg (V c main_v189) h0) (congrArg (V c main_v176_0) h1)

/-- An index of the output array lies in grid point t's block exactly when, on each axis, its coordinate lies in the
    block's range there. -/
theorem mem_block17_2 (t : Fin cfg17.N) (i : S50000x96.Idx) :
    i ∈ ((cfg17.win 2).blk t).view.set ↔ ∀ a : Fin 2, win17_2.index t a * S2000x96.size a ≤ (i a).val
      ∧ (i a).val < win17_2.index t a * S2000x96.size a + S2000x96.size a := by
  show i ∈ ((View.whole main_v190).slice (win17_2.rect t)).set ↔ _
  rw [View.set_slice_whole, Rect.mem_set_unit]
  exact Iff.rfl

/-- Every index of the output array is written back by some grid point: row r lies in row block r / 2000. -/
theorem covered17_2 (i : S50000x96.Idx) :
    ∃ t : Fin cfg17.N, (cfg17.win 2).flush t = true ∧ i ∈ ((cfg17.win 2).blk t).view.set := by
  have hi0 : (i 0).val < 50000 := (i 0).isLt
  have hi1 : (i 1).val < 96 := (i 1).isLt
  obtain ⟨t, ht⟩ := blockIndex17_onto ⟨(i 0).val / 2000, by omega⟩
  have q0 : win17_2.index t (0 : Fin 2) = (i 0).val / 2000 := congrFun ht 0
  have q1 : win17_2.index t (1 : Fin 2) = 0 := congrFun ht 1
  refine ⟨t, flush17_2 t, ?_⟩
  rw [mem_block17_2]
  intro a
  match a with
  | ⟨0, _⟩ => show win17_2.index t (0 : Fin 2) * 2000 ≤ (i 0).val ∧ (i 0).val < win17_2.index t (0 : Fin 2) * 2000 + 2000; omega
  | ⟨1, _⟩ => show win17_2.index t (1 : Fin 2) * 96 ≤ (i 1).val ∧ (i 1).val < win17_2.index t (1 : Fin 2) * 96 + 96; omega

/-- The output array of region 17 after the call: the sum of the aggregated messages and the self-loop term, then the
    maximum with zero, index by index. -/
theorem arr17_2 (c : Dev nD) : (dat17 (F := Ideal) V c).arrAt 2 cfg17.N = Cert.Spec.epiRelu (V c main_v189) (V c main_v176_0) :=
  (dat17 (F := Ideal) V c).arrAt_eq_of_cover 2 (Cert.Spec.epiRelu (V c main_v189) (V c main_v176_0))
    (fun t _ => flushed17_2_eq V c t) covered17_2

end Cert.KernelIdeal.RegVal
end
-- ==== Proof.Match9.lean ====
/-
  Layer 9 (96 -> 96 columns, relu), as pure functions of the argument arrays: the kernel's two calls and the
  reference's operations compute one array.
  The reference's layer is relu((agg + hw * sc) + b) with hw = h · W, sc the self-loop coefficient broadcast along
  rows and b the bias broadcast along columns; the kernel's is relu(agg + (hw * sc + b)) with sc read from an
  n x 1 column and b from a 1 x c row. The two agree entry by entry by associativity of addition on the extended
  reals (no finiteness is needed: only + is regrouped).
-/
import proofs.«420299_j43722767073851_4_alg».proof.Proof.Gen.ReferenceIdeal.Read
import proofs.«420299_j43722767073851_4_alg».proof.Proof.Spec
import proofs.«420299_j43722767073851_4_alg».proof.Proof.LibColumn
import Idealize.ShloMosaic.Lib.ValueLayout
import Idealize.ShloMosaic.Lib.ValueIdx
import Idealize.ShloMosaic.PureOps.Ideal.Laws
import Idealize.ShloMosaic.PureOps.Ideal

noncomputable section

namespace Cert.Match

open Idealize.ShloMosaic Idealize.ShloMosaic.ValueIdx Cert.ReferenceIdeal Cert.ReferenceIdeal.Read

/-- The matrix product of the layer's input with its weights is the reference's dot_general. -/
theorem mm_L9
    (x0 : (⟨S50000x96, .f32⟩ : BufTy).Contents (Elt Ideal))
    (x1 : (⟨S2x800000, .i32⟩ : BufTy).Contents (Elt Ideal))
    (x3 : (⟨S50000x96, .f32⟩ : BufTy).Contents (Elt Ideal))
    (x14 : (⟨S96x96, .f32⟩ : BufTy).Contents (Elt Ideal))
    (x15 : (⟨S96, .f32⟩ : BufTy).Contents (Elt Ideal))
    (x16 : (⟨S96x96, .f32⟩ : BufTy).Contents (Elt Ideal))
    (x17 : (⟨S96, .f32⟩ : BufTy).Contents (Elt Ideal))
    (x18 : (⟨S96x96, .f32⟩ : BufTy).Contents (Elt Ideal))
    (x19 : (⟨S96, .f32⟩ : BufTy).Contents (Elt Ideal))
    (x20 : (⟨S96x96, .f32⟩ : BufTy).Contents (Elt Ideal)) :
    Cert.Spec.mm (n := 50000) (a := 96) (b := 96) (val_main_v207 (F := Ideal) x0 x1 x3 x14 x15 x16 x17 x18 x19) x20 = val_main_v208 (F := Ideal) x0 x1 x3 x14 x15 x16 x17 x18 x19 x20 := by
  funext i
  rw [val_main_v208_apply]
  unfold Cert.Spec.mm
  refine Finset.sum_congr rfl fun k _ => ?_
  have el : Cert.Spec.lix (a := 96) i k = lidx_main_v208 i k := funext fun d => by
    match d with
    | ⟨0, _⟩ => rfl
    | ⟨1, _⟩ => rfl
  have er : Cert.Spec.rix (n := 50000) (a := 96) i k = ridx_main_v208 i k := funext fun d => by
    match d with
    | ⟨0, _⟩ => rfl
    | ⟨1, _⟩ => rfl
  rw [el, er]

/-- The layer's output: the epilogue of the aggregated messages and the dense call's self-loop term is the
    reference's relu of ((agg + hw * sc) + b). -/
theorem out_L9
    (x0 : (⟨S50000x96, .f32⟩ : BufTy).Contents (Elt Ideal))
    (x1 : (⟨S2x800000, .i32⟩ : BufTy).Contents (Elt Ideal))
    (x3 : (⟨S50000x96, .f32⟩ : BufTy).Contents (Elt Ideal))
    (x14 : (⟨S96x96, .f32⟩ : BufTy).Contents (Elt Ideal))
    (x15 : (⟨S96, .f32⟩ : BufTy).Contents (Elt Ideal))
    (x16 : (⟨S96x96, .f32⟩ : BufTy).Contents (Elt Ideal))
    (x17 : (⟨S96, .f32⟩ : BufTy).Contents (Elt Ideal))
    (x18 : (⟨S96x96, .f32⟩ : BufTy).Contents (Elt Ideal))
    (x19 : (⟨S96, .f32⟩ : BufTy).Contents (Elt Ideal))
    (x20 : (⟨S96x96, .f32⟩ : BufTy).Contents (Elt Ideal))
    (x21 : (⟨S96, .f32⟩ : BufTy).Contents (Elt Ideal))
    (hb : (⟨1, ![96]⟩ : Shape).ShapeCasts ⟨2, ![1, 96]⟩) (hs : (⟨1, ![50000]⟩ : Shape).ShapeCasts ⟨2, ![50000, 1]⟩) :
    Cert.Spec.epiRelu (n := 50000) (b := 96) (val_main_v221 (F := Ideal) x0 x1 x3 x14 x15 x16 x17 x18 x19 x20)
      (Cert.Spec.dense (n := 50000) (a := 96) (b := 96) (val_main_v207 (F := Ideal) x0 x1 x3 x14 x15 x16 x17 x18 x19) x20 (shapeCast ⟨2, ![1, 96]⟩ x21 hb)
        (shapeCast ⟨2, ![50000, 1]⟩ (val_main_v27 (F := Ideal) x1) hs))
    = val_main_v228 (F := Ideal) x0 x1 x3 x14 x15 x16 x17 x18 x19 x20 x21 := by
  funext i
  rw [val_main_v228_apply, val_main_v227_apply, val_main_v224_apply, val_main_v223_apply, val_main_v222_apply, val_main_v28_apply,
    val_main_v226_apply, val_main_v225_apply, val_main_call3_v0_apply, val_main_call3_cst_apply, ← mm_L9]
  have ec : Cert.Spec.colIx (n := 50000) (b := 96) i = ix2 (⟨(i 0).val, (i 0).isLt⟩ : Fin 50000) (⟨0, Nat.one_pos⟩ : Fin 1) :=
    funext fun d => by
      match d with
      | ⟨0, _⟩ => rfl
      | ⟨1, _⟩ => rfl
  have er : Cert.Spec.rowIx (n := 50000) (b := 96) i = ix2 (⟨0, Nat.one_pos⟩ : Fin 1) (⟨(i 1).val, (i 1).isLt⟩ : Fin 96) :=
    funext fun d => by
      match d with
      | ⟨0, _⟩ => rfl
      | ⟨1, _⟩ => rfl
  have e1 : idx_main_v28 (idx_main_v222 i) = ix1 (⟨(i 0).val, (i 0).isLt⟩ : Fin 50000) := funext fun d => by
    match d with
    | ⟨0, _⟩ => rfl
  have e2 : idx_main_v225 (idx_main_v226 i) = ix1 (⟨(i 1).val, (i 1).isLt⟩ : Fin 96) := funext fun d => by
    match d with
    | ⟨0, _⟩ => rfl
  unfold Cert.Spec.epiRelu Cert.Spec.dense
  rw [ec, er, Cert.LibColumn.shapeCast_a_a1_apply, shapeCast_a_1a_apply, e1, e2]
  simp only [Ideal.maximumf_def, Ideal.addf_def, Ideal.mulf_def, Ideal.ofBits_def, Ideal.ofBits_zero_f32]
  rw [add_assoc]

end Cert.Match

end
-- ==== Proof.Layer9.lean ====
/-
  Layer 9 (node branch, fourth convolution) of the kernel's program, segment by segment.
  The layer's input h is the reparametrised sample mean + noise * exp(log-deviation) / 10, which the first host
  stretch computes from the two previous layers' outputs and the noise argument; the layer also reads its weight matrix and bias (arguments nothing has written), and
  the values the whole program shares (the edges' source and target nodes, the edge and self-loop coefficients).
  The first host stretch lays the bias out as a 1 x 96 row and the self-loop coefficients as a 50000 x 1 column;
  the dense call leaves h · W and (h · W) * sc + b; the second host stretch gathers the product's rows along the
  edges, scales them and scatter-adds them into the target nodes; the epilogue call adds the self-loop term and
  applies relu. The result is the reference's layer.
-/
import proofs.«420299_j43722767073851_4_alg».proof.Proof.Layer8
import proofs.«420299_j43722767073851_4_alg».proof.Proof.KeepGlobals
import proofs.«420299_j43722767073851_4_alg».proof.Proof.KeepArgsC
import proofs.«420299_j43722767073851_4_alg».proof.Proof.KeepCarried
import proofs.«420299_j43722767073851_4_alg».proof.Proof.RegD16
import proofs.«420299_j43722767073851_4_alg».proof.Proof.RegE17
import proofs.«420299_j43722767073851_4_alg».proof.Proof.Match9

set_option maxRecDepth 16384

noncomputable section

namespace Cert.KernelIdeal.Chain

open Cert.KernelIdeal Cert.KernelIdeal.Gen Cert.KernelIdeal.Keep
open Idealize.ShloMosaic Idealize.ShloMosaic.TcCoe Idealize.SL.Sem
open Cert.ReferenceIdeal.Read

variable (m : (ℓ : Loc nD τ sig) → Buf (Elt Ideal) ℓ) (ρ : Dev nD → PrngReg)

/-! ## The dense call's inputs at its entry -/

set_option maxHeartbeats 1600000 in
/-- The layer's input is computed by the first host stretch itself: the mean layer's output plus the noise argument
    times the exponential of the log-deviation layer's output, divided by ten: the reference's own operations on
    the two earlier layers' outputs, which are the reference's. -/
theorem in16_h (c : Dev nD) : V33 m ρ c main_v173 = val_main_v207 (F := Ideal) (m ((c : Thread nD τ).loc main_arg0)) (m ((c : Thread nD τ).loc main_arg1)) (m ((c : Thread nD τ).loc main_arg3)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) := by
  show StableHlo.after hostOps16 (W32 m ρ c) (Proc.devRef .tc main_v173) = _
  after_results
  rw [show W32 m ρ c (Proc.devRef .tc main_v151) = val_main_v182 (F := Ideal) (m ((c : Thread nD τ).loc main_arg0)) (m ((c : Thread nD τ).loc main_arg1)) (m ((c : Thread nD τ).loc main_arg14)) (m ((c : Thread nD τ).loc main_arg15)) (m ((c : Thread nD τ).loc main_arg16)) (m ((c : Thread nD τ).loc main_arg17)) from (keep_v151_32 m ρ c).trans (out_L7 m ρ c),
    show W32 m ρ c (Proc.devRef .tc main_v168) = val_main_v202 (F := Ideal) (m ((c : Thread nD τ).loc main_arg0)) (m ((c : Thread nD τ).loc main_arg1)) (m ((c : Thread nD τ).loc main_arg14)) (m ((c : Thread nD τ).loc main_arg15)) (m ((c : Thread nD τ).loc main_arg18)) (m ((c : Thread nD τ).loc main_arg19)) from out_L8 m ρ c,
    keep_arg3_32 m ρ c]
  rfl

theorem in16_W (c : Dev nD) : V33 m ρ c main_arg20 = (m ((c : Thread nD τ).loc main_arg20)) :=
  (show W33 m ρ c (Proc.devRef .tc main_arg20) = W32 m ρ c (Proc.devRef .tc main_arg20) from by host_keep hostOps16).trans (keep_arg20_32 m ρ c)

/-- The bias as a 1 x 96 row. -/
theorem in16_b (c : Dev nD) : V33 m ρ c main_v174 = shapeCast S1x96 (m ((c : Thread nD τ).loc main_arg21)) shapeCasts_S96_S1x96 := by
  show StableHlo.after hostOps16 (W32 m ρ c) (Proc.devRef .tc main_v174) = _
  after_results
  rw [keep_arg21_32 m ρ c]
  rfl

/-- The self-loop coefficients as a 50000 x 1 column. -/
theorem in16_sc (c : Dev nD) : V33 m ρ c main_v175 = shapeCast S50000x1 (val_main_v27 (F := Ideal) (m ((c : Thread nD τ).loc main_arg1))) shapeCasts_S50000_S50000x1 := by
  show StableHlo.after hostOps16 (W32 m ρ c) (Proc.devRef .tc main_v175) = _
  after_results
  rw [at32_v27 m ρ c]
  rfl

/-! ## The dense call's outputs -/

/-- h · W, the reference's dot_general. -/
theorem hw_L9 (c : Dev nD) : W34 m ρ c (Proc.devRef .tc main_v176_1) = val_main_v208 (F := Ideal) (m ((c : Thread nD τ).loc main_arg0)) (m ((c : Thread nD τ).loc main_arg1)) (m ((c : Thread nD τ).loc main_arg3)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) := by
  refine (W34_arr m ρ c 5).trans ?_
  rw [Cert.KernelIdeal.RegVal.arr16_5 (V33 m ρ) c, in16_h m ρ c, in16_W m ρ c]
  exact Cert.Match.mm_L9 _ _ _ _ _ _ _ _ _ _

/-- The self-loop term (h · W) * sc + b. -/
theorem oi_L9 (c : Dev nD) : W34 m ρ c (Proc.devRef .tc main_v176_0)
    = Cert.Spec.dense (val_main_v207 (F := Ideal) (m ((c : Thread nD τ).loc main_arg0)) (m ((c : Thread nD τ).loc main_arg1)) (m ((c : Thread nD τ).loc main_arg3)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))) (m ((c : Thread nD τ).loc main_arg20)) (shapeCast S1x96 (m ((c : Thread nD τ).loc main_arg21)) shapeCasts_S96_S1x96)
        (shapeCast S50000x1 (val_main_v27 (F := Ideal) (m ((c : Thread nD τ).loc main_arg1))) shapeCasts_S50000_S50000x1) := by
  refine (W34_arr m ρ c 4).trans ?_
  rw [Cert.KernelIdeal.RegVal.arr16_4 (V33 m ρ) c, in16_h m ρ c, in16_W m ρ c, in16_b m ρ c, in16_sc m ρ c]

/-! ## The shared values after the dense call -/

theorem g34_v1 (c : Dev nD) : W34 m ρ c (Proc.devRef .tc main_v1) = val_main_v1 (F := Ideal) (m ((c : Thread nD τ).loc main_arg1)) :=
  (W34_of_ne m ρ c main_v1 (by decide)).trans <| (show W33 m ρ c (Proc.devRef .tc main_v1) = W32 m ρ c (Proc.devRef .tc main_v1) from by host_keep hostOps16).trans (at32_v1 m ρ c)
theorem g34_v3 (c : Dev nD) : W34 m ρ c (Proc.devRef .tc main_v3) = val_main_v3 (F := Ideal) (m ((c : Thread nD τ).loc main_arg1)) :=
  (W34_of_ne m ρ c main_v3 (by decide)).trans <| (show W33 m ρ c (Proc.devRef .tc main_v3) = W32 m ρ c (Proc.devRef .tc main_v3) from by host_keep hostOps16).trans (at32_v3 m ρ c)
theorem g34_v26 (c : Dev nD) : W34 m ρ c (Proc.devRef .tc main_v26) = val_main_v26 (F := Ideal) (m ((c : Thread nD τ).loc main_arg1)) :=
  (W34_of_ne m ρ c main_v26 (by decide)).trans <| (show W33 m ρ c (Proc.devRef .tc main_v26) = W32 m ρ c (Proc.devRef .tc main_v26) from by host_keep hostOps16).trans (at32_v26 m ρ c)

/-! ## The aggregated messages, and the epilogue -/

set_option maxHeartbeats 1600000 in
/-- Rows of h · W gathered along the edges, scaled by the edge coefficients, scatter-added into the target nodes. -/
theorem agg_L9 (c : Dev nD) : V35 m ρ c main_v189 = val_main_v221 (F := Ideal) (m ((c : Thread nD τ).loc main_arg0)) (m ((c : Thread nD τ).loc main_arg1)) (m ((c : Thread nD τ).loc main_arg3)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) := by
  show StableHlo.after hostOps17 (W34 m ρ c) (Proc.devRef .tc main_v189) = _
  after_results
  rw [g34_v1 m ρ c, g34_v3 m ρ c, g34_v26 m ρ c, hw_L9 m ρ c]
  rfl

theorem oi3_L9 (c : Dev nD) : V35 m ρ c main_v176_0
    = Cert.Spec.dense (val_main_v207 (F := Ideal) (m ((c : Thread nD τ).loc main_arg0)) (m ((c : Thread nD τ).loc main_arg1)) (m ((c : Thread nD τ).loc main_arg3)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))) (m ((c : Thread nD τ).loc main_arg20)) (shapeCast S1x96 (m ((c : Thread nD τ).loc main_arg21)) shapeCasts_S96_S1x96)
        (shapeCast S50000x1 (val_main_v27 (F := Ideal) (m ((c : Thread nD τ).loc main_arg1))) shapeCasts_S50000_S50000x1) :=
  (show W35 m ρ c (Proc.devRef .tc main_v176_0) = W34 m ρ c (Proc.devRef .tc main_v176_0) from by host_keep hostOps17).trans (oi_L9 m ρ c)

/-- The layer's output is the reference's. -/
theorem out_L9 (c : Dev nD) : W36 m ρ c (Proc.devRef .tc main_v190) = val_main_v228 (F := Ideal) (m ((c : Thread nD τ).loc main_arg0)) (m ((c : Thread nD τ).loc main_arg1)) (m ((c : Thread nD τ).loc main_arg3)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) := by
  refine (W36_arr m ρ c 2).trans ?_
  rw [Cert.KernelIdeal.RegVal.arr17_2 (V35 m ρ) c, agg_L9 m ρ c, oi3_L9 m ρ c]
  exact Cert.Match.out_L9 _ _ _ _ _ _ _ _ _ _ _ _ _

end Cert.KernelIdeal.Chain

end
-- ==== Proof.lean ====
/-
  The certificate of the stacked graph-convolution encoder: nine convolution layers in two branches, each layer a
  dense pallas_call (h · W, and (h · W) * sc + b) and an epilogue pallas_call (aggregated messages plus the
  self-loop term, then the activation), with the gather along the edges and the scatter-add into the target nodes
  left to host operations, against the plain reference that computes act((agg + (h · W) * sc) + b) per layer.
  The three frames are the generated ones (the reference's is its generated run with the results dropped);
  nothing was rewritten by the idealisation, so it preserves trivially; and at the ideal instance the two programs
  end with equal results: layer by layer each buffer the kernel's program leaves is the reference's stage of the
  same arguments (the host operations are the same functions on both sides, the matrix products are the same sums,
  and the two groupings of the three-term sum agree because addition on the extended reals is associative).
-/
import proofs.«420299_j43722767073851_4_alg».proof.Defs
import proofs.«420299_j43722767073851_4_alg».proof.Proof.Gen.Kernel
import proofs.«420299_j43722767073851_4_alg».proof.Proof.Gen.Kernel.Skeleton
import proofs.«420299_j43722767073851_4_alg».proof.Proof.Gen.Kernel.Launch
import proofs.«420299_j43722767073851_4_alg».proof.Proof.Gen.Kernel.Points
import proofs.«420299_j43722767073851_4_alg».proof.Proof.Gen.Kernel.Frame
import proofs.«420299_j43722767073851_4_alg».proof.Proof.Gen.KernelIdeal
import proofs.«420299_j43722767073851_4_alg».proof.Proof.Gen.KernelIdeal.Skeleton
import proofs.«420299_j43722767073851_4_alg».proof.Proof.Gen.KernelIdeal.Launch
import proofs.«420299_j43722767073851_4_alg».proof.Proof.Gen.KernelIdeal.Points
import proofs.«420299_j43722767073851_4_alg».proof.Proof.Gen.KernelIdeal.Frame
import proofs.«420299_j43722767073851_4_alg».proof.Proof.Gen.ReferenceIdeal
import proofs.«420299_j43722767073851_4_alg».proof.Proof.Gen.ReferenceIdeal.Run
import proofs.«420299_j43722767073851_4_alg».proof.Proof.Gen.ReferenceIdeal.Read
import proofs.«420299_j43722767073851_4_alg».proof.Proof.Gen.Pre_finite_inputs
import proofs.«420299_j43722767073851_4_alg».proof.Proof.KRun
import proofs.«420299_j43722767073851_4_alg».proof.Proof.KeepCarried
import proofs.«420299_j43722767073851_4_alg».proof.Proof.Layer9
import Idealize.ShloMosaic.Adequacy
import Idealize.ShloMosaic.Init

noncomputable section

namespace Cert.Proof

open Idealize.ShloMosaic Idealize.SL.Sem

attribute [local instance] Cert.Kernel.Gen.facts Cert.KernelIdeal.Gen.facts Cert.ReferenceIdeal.Gen.facts Cert.Pre_finite_inputs.Gen.facts

/-- At the ideal instance the kernel's two result arrays end at what the last segment boundary holds for them (the
    run with its results named), which layer 5 (edges) and layer 9 (nodes) identify with the reference's stages;
    the reference's run ends at those same stages of arguments that agree. -/
theorem algebraic : Cert.algebraic_KernelIdeal_ReferenceIdeal := by
  intro m ρ m' ρ' _ hagree
  refine ⟨fun c => Cert.KernelIdeal.Gen.W36 m ρ c (Proc.devRef .tc Cert.KernelIdeal.main_v117),
    fun c => Cert.KernelIdeal.Gen.W36 m ρ c (Proc.devRef .tc Cert.KernelIdeal.main_v190),
    Cert.KernelIdeal.RunAll.run_all (F := Ideal) m ρ, ?_⟩
  refine (θ_run Cert.ReferenceIdeal.defs _ _).mono (fun r h c => ?_) (Cert.ReferenceIdeal.Value.run (F := Ideal) m' ρ')
  obtain ⟨h0, h1, hrest⟩ := h c
  obtain ⟨e0, e1, e2, e3, e4, e5, e6, e7, e8, e9, e10, e11, e12, e13, e14, e15, e16, e17, e18, e19, e20, e21⟩ := hagree c
  refine ⟨h0.trans ?_, h1.trans ?_, hrest⟩
  · rw [Cert.ReferenceIdeal.Read.val_main_v141_eq, e0, e1, e2, e4, e5, e6, e7, e8, e9, e10, e11, e12, e13]
    exact ((Cert.KernelIdeal.Keep.keep_v117_36 m ρ c).trans (Cert.KernelIdeal.Chain.out_L5 m ρ c)).symm
  · rw [Cert.ReferenceIdeal.Read.val_main_v228_eq, e0, e1, e3, e14, e15, e16, e17, e18, e19, e20, e21]
    exact (Cert.KernelIdeal.Chain.out_L9 m ρ c).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2.2) (Cert.ReferenceIdeal.Value.run (F := Ideal) m ρ),
  trivial,
  algebraic⟩

end Cert.Proof

end
